-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S128 .f32) (main_arg7 : FVec F S128x1 .f32) (main_arg8 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x1 : Shape := ⟨2, ![100000, 1]⟩
abbrev S2x128x128 : Shape := ⟨3, ![2, 128, 128]⟩
abbrev S2x128x1 : Shape := ⟨3, ![2, 128, 1]⟩
abbrev S10000x1 : Shape := ⟨2, ![10000, 1]⟩
abbrev S1x128x128 : Shape := ⟨3, ![1, 128, 128]⟩
abbrev S1x128x1 : Shape := ⟨3, ![1, 128, 1]⟩
abbrev S10000 : Shape := ⟨1, ![10000]⟩
abbrev S1x1 : Shape := ⟨2, ![1, 1]⟩

abbrev nBuf : Space → Nat
  | .hbm => 106
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S100000x128, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S1700000x1, .f32⟩
  | .hbm, ⟨56, _⟩ => ⟨S1700000x128, .f32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x128, .f32⟩
  | .hbm, ⟨74, _⟩ => ⟨S1700000x1, .f32⟩
  | .hbm, ⟨75, _⟩ => ⟨S1700000x128, .f32⟩
  | .hbm, ⟨76, _⟩ => ⟨S1700000x128, .f32⟩
  | .hbm, ⟨77, _⟩ => ⟨S_, .f32⟩
  | .hbm, ⟨78, _⟩ => ⟨S100000x128, .f32⟩
  | .hbm, ⟨79, _⟩ => ⟨S1700000x1, .i32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x1, .i32⟩
  | .hbm, ⟨84, _⟩ => ⟨S2x128x128, .f32⟩
  | .hbm, ⟨85, _⟩ => ⟨S2x128x1, .f32⟩
  | .hbm, ⟨86, _⟩ => ⟨S1x128x128, .f32⟩
  | .hbm, ⟨87, _⟩ => ⟨S128x128, .f32⟩
  | .hbm, ⟨88, _⟩ => ⟨S1x128x128, .f32⟩
  | .hbm, ⟨89, _⟩ => ⟨S128x128, .f32⟩
  | .hbm, ⟨90, _⟩ => ⟨S128x128, .f32⟩
  | .hbm, ⟨91, _⟩ => ⟨S1x128x1, .f32⟩
  | .hbm, ⟨92, _⟩ => ⟨S128x1, .f32⟩
  | .hbm, ⟨93, _⟩ => ⟨S1x128x1, .f32⟩
  | .hbm, ⟨94, _⟩ => ⟨S128x1, .f32⟩
  | .hbm, ⟨95, _⟩ => ⟨S128x1, .f32⟩
  | .hbm, ⟨96, _⟩ => ⟨S_, .f32⟩
  | .hbm, ⟨97, _⟩ => ⟨S128x1, .f32⟩
  | .hbm, ⟨98, _⟩ => ⟨S128x1, .f32⟩
  | .hbm, ⟨99, _⟩ => ⟨S128x128, .f32⟩
  | .hbm, ⟨100, _⟩ => ⟨S128x128, .f32⟩
  | .hbm, ⟨101, _⟩ => ⟨S128x1, .f32⟩
  | .hbm, ⟨102, _⟩ => ⟨S1x1, .f32⟩
  | .hbm, ⟨103, _⟩ => ⟨S128x1, .f32⟩
  | .hbm, ⟨104, _⟩ => ⟨S128x1, .f32⟩
  | .hbm, ⟨105, _⟩ => ⟨S128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x1, .i32⟩
  | .local _ .vmem, ⟨23, _⟩ => ⟨S10000x1, .i32⟩
  | .local _ .vmem, ⟨24, _⟩ => ⟨S1x128x128, .f32⟩
  | .local _ .vmem, ⟨25, _⟩ => ⟨S1x128x128, .f32⟩
  | .local _ .vmem, ⟨26, _⟩ => ⟨S1x128x1, .f32⟩
  | .local _ .vmem, ⟨27, _⟩ => ⟨S1x128x1, .f32⟩
  | .local _ .vmem, ⟨28, _⟩ => ⟨S128x128, .f32⟩
  | .local _ .vmem, ⟨29, _⟩ => ⟨S128x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_8 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_10 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62_0 : Ref sig .tc := ⟨.hbm, 84, rfl⟩
abbrev main_v62_1 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_11 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg2_1 : Ref sig .tc := ⟨.vmem, 25, rfl⟩
abbrev cc4_stg3_0 : Ref sig .tc := ⟨.vmem, 26, rfl⟩
abbrev cc4_stg3_1 : Ref sig .tc := ⟨.vmem, 27, rfl⟩
abbrev cc4_scratch0 : Ref sig .tc := ⟨.vmem, 28, rfl⟩
abbrev cc4_scratch1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem2_1 : DmaSem sig := 25
abbrev cc4_sem3_0 : DmaSem sig := 26
abbrev cc4_sem3_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![2, 5], ![false, false]⟩

def k4_cond2 (i : grid4.Coords) : BitVec 1 :=
  let arg1 : BitVec 32 := BitVec.ofNat 32 (i 1).val
  let c4_i32 : BitVec 32 := 4#32
  let v27 : BitVec 1 := Scalar.cmpi .eq arg1 c4_i32
  let v28 : BitVec 32 := Scalar.extui v27
  let c0_i32_13 : BitVec 32 := 0#32
  let v29 : BitVec 1 := Scalar.cmpi .ne v28 c0_i32_13
  v29

def cc4_transform_0 (i : grid4.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc4_transform_1 (i : grid4.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S10000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x128x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1x128x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S100000_S100000x1 : S100000.ShapeCasts S100000x1
  shapeCasts_S128x128_S128x128 : S128x128.ShapeCasts S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  shapeCasts_S10000x1_S10000 : S10000x1.ShapeCasts S10000
  shapeCasts_S10000_S10000x1 : S10000.ShapeCasts S10000x1
  iota_S10000x128_d1_w32 : S10000x128.Iotas .tc 32 [1]
  broadcasts_S10000x1_S10000x128 : S10000x1.Broadcasts S10000x128
  natLt_1_32 : 1 < 32
  reduces_S10000x128_S128 : S10000x128.Reduces [0] S128
  shapeCasts_S128_S128x1 : S128.ShapeCasts S128x1
  shapeCasts_S128x128_S1x128x128 : S128x128.ShapeCasts S1x128x128
  inb_S1x128x128_S1x128x128_0_0_0 : ∀ a, (![0, 0, 0] : Fin 3 → Nat) a + S1x128x128.size a ≤ S1x128x128.size a
  h_S1x128x128 : 0 < S1x128x128.numel
  shapeCasts_S128x1_S1x128x1 : S128x1.ShapeCasts S1x128x1
  inb_S1x128x1_S1x128x1_0_0_0 : ∀ a, (![0, 0, 0] : Fin 3 → Nat) a + S1x128x1.size a ≤ S1x128x1.size a
  h_S1x128x1 : 0 < S1x128x1.numel
  slices_S2x128x128_S1x128x128_0_0_0 : S2x128x128.Slices ![0, 0, 0] S1x128x128
  shapeCasts_S1x128x128_S128x128 : S1x128x128.ShapeCasts S128x128
  slices_S2x128x128_S1x128x128_1_0_0 : S2x128x128.Slices ![1, 0, 0] S1x128x128
  slices_S2x128x1_S1x128x1_0_0_0 : S2x128x1.Slices ![0, 0, 0] S1x128x1
  shapeCasts_S1x128x1_S128x1 : S1x128x1.ShapeCasts S128x1
  slices_S2x128x1_S1x128x1_1_0_0 : S2x128x1.Slices ![1, 0, 0] S1x128x1
  bcast_S_S128x1 : S_.BroadcastsInDim S128x1 (![] : Fin 0 → Fin S128x1.rank)
  bcast_S128x1_S128x128_0_1 : S128x1.BroadcastsInDim S128x128 (![0, 1] : Fin 2 → Fin S128x128.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  shapeCasts_S128x1_S128 : S128x1.ShapeCasts S128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S10000x128_S128x128_0_0_1_1_n_n_wf : DotDims.WF S10000x128 S10000x128 S128x128 [0] [0] [1] [1] [] []
  dot_S128x128_S128x1_S128x1_1_0_0_1_n_n_wf : DotDims.WF S128x128 S128x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S100000x1.size a
  hwx4_1 : ∀ i : grid4.Coords, EltTy.bits .i32 = 32 ∨ (Rect.block (s := S100000x1) S10000x1.size (cc4_transform_1 i) (hinb4_1 i)).WholeWords (EltTy.packing .i32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x128x128.size a ≤ S2x128x128.size a
  hwx4_2 : ∀ i : grid4.Coords, EltTy.bits .f32 = 32 ∨ (Rect.block (s := S2x128x128) S1x128x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x128x1.size a ≤ S2x128x1.size a
  hwx4_3 : ∀ i : grid4.Coords, EltTy.bits .f32 = 32 ∨ (Rect.block (s := S2x128x1) S1x128x1.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S10000x128_S128x128_0_0_1_1_n_n : DotDims S10000x128 S10000x128 S128x128 where
  lhsContracting := [0]
  rhsContracting := [0]
  lhsNonContracting := [1]
  rhsNonContracting := [1]
  lhsBatch := []
  rhsBatch := []
  wf := dot_S10000x128_S10000x128_S128x128_0_0_1_1_n_n_wf
def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v62_0) S1x128x128.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v62_1) S1x128x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun i => !(k4_cond2 i == 1#1) | 3 => fun i => !(k4_cond2 i == 1#1) | ⟨_ + 4, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 141
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x1, .f32⟩
  | 8 => ⟨S1, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S100000x128, .f32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000x128, .f32⟩
  | 55 => ⟨S1700000x1, .f32⟩
  | 56 => ⟨S1700000x128, .f32⟩
  | 57 => ⟨S1700000x128, .f32⟩
  | 58 => ⟨S_, .f32⟩
  | 59 => ⟨S100000x128, .f32⟩
  | 60 => ⟨S1700000x1, .i32⟩
  | 61 => ⟨S100000x128, .f32⟩
  | 62 => ⟨S1x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S100000x128, .f32⟩
  | 69 => ⟨S_, .f32⟩
  | 70 => ⟨S1700000, .f32⟩
  | 71 => ⟨S_, .f32⟩
  | 72 => ⟨S100000, .f32⟩
  | 73 => ⟨S1700000x1, .i32⟩
  | 74 => ⟨S100000, .f32⟩
  | 75 => ⟨S_, .f32⟩
  | 76 => ⟨S100000, .f32⟩
  | 77 => ⟨S100000, .f32⟩
  | 78 => ⟨S100000, .f32⟩
  | 79 => ⟨S_, .i32⟩
  | 80 => ⟨S1700000, .i32⟩
  | 81 => ⟨S1700000, .i1⟩
  | 82 => ⟨S_, .i32⟩
  | 83 => ⟨S1700000, .i32⟩
  | 84 => ⟨S1700000, .i32⟩
  | 85 => ⟨S1700000, .i32⟩
  | 86 => ⟨S1700000x1, .i32⟩
  | 87 => ⟨S1700000, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000, .f32⟩
  | 97 => ⟨S1700000, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000x128, .f32⟩
  | 107 => ⟨S1700000x1, .f32⟩
  | 108 => ⟨S1700000x128, .f32⟩
  | 109 => ⟨S1700000x128, .f32⟩
  | 110 => ⟨S_, .f32⟩
  | 111 => ⟨S100000x128, .f32⟩
  | 112 => ⟨S1700000x1, .i32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S_, .f32⟩
  | 121 => ⟨S128x128, .f32⟩
  | 122 => ⟨S100000x1, .i32⟩
  | 123 => ⟨S128x128, .f32⟩
  | 124 => ⟨S_, .f32⟩
  | 125 => ⟨S100000, .f32⟩
  | 126 => ⟨S_, .f32⟩
  | 127 => ⟨S128, .f32⟩
  | _ => ⟨S100000x128, .f32⟩

abbrev hbmTy0_1 (i : Nat) : BufTy := match i % 128 with
  | 0 => ⟨S100000x1, .i32⟩
  | 1 => ⟨S128, .f32⟩
  | 2 => ⟨S_, .f32⟩
  | 3 => ⟨S128, .f32⟩
  | 4 => ⟨S128, .f32⟩
  | 5 => ⟨S128x1, .f32⟩
  | 6 => ⟨S128x128, .f32⟩
  | 7 => ⟨S128x128, .f32⟩
  | 8 => ⟨S128x1, .f32⟩
  | 9 => ⟨S1x1, .f32⟩
  | 10 => ⟨S128x1, .f32⟩
  | 11 => ⟨S128x1, .f32⟩
  | 12 => ⟨S128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call0_cst : Ref sig .tc := ⟨.hbm, 65, rfl⟩
abbrev main_call0_v0 : Ref sig .tc := ⟨.hbm, 66, rfl⟩
abbrev main_v46 : Ref sig .tc := ⟨.hbm, 67, rfl⟩
abbrev main_v47 : Ref sig .tc := ⟨.hbm, 68, rfl⟩
abbrev main_cst_8 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_11 : Ref sig .tc := ⟨.hbm, 79, rfl⟩
abbrev main_v55 : Ref sig .tc := ⟨.hbm, 80, rfl⟩
abbrev main_v56 : Ref sig .tc := ⟨.hbm, 81, rfl⟩
abbrev main_c_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_13 : Ref sig .tc := ⟨.hbm, 88, rfl⟩
abbrev main_v62 : Ref sig .tc := ⟨.hbm, 89, rfl⟩
abbrev main_v63 : Ref sig .tc := ⟨.hbm, 90, rfl⟩
abbrev main_c_14 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_c_15 : Ref sig .tc := ⟨.hbm, 98, rfl⟩
abbrev main_v70 : Ref sig .tc := ⟨.hbm, 99, rfl⟩
abbrev main_v71 : Ref sig .tc := ⟨.hbm, 100, rfl⟩
abbrev main_c_16 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_call1_cst : Ref sig .tc := ⟨.hbm, 117, rfl⟩
abbrev main_call1_v0 : Ref sig .tc := ⟨.hbm, 118, rfl⟩
abbrev main_v86 : Ref sig .tc := ⟨.hbm, 119, rfl⟩
abbrev main_cst_18 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_19 : Ref sig .tc := ⟨.hbm, 124, rfl⟩
abbrev main_v90 : Ref sig .tc := ⟨.hbm, 125, rfl⟩
abbrev main_cst_20 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_21 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128x128 : S_.BroadcastsInDim S128x128 (![] : Fin 0 → Fin S128x128.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  shapeCasts_S128x1_S128 : S128x1.ShapeCasts S128
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S128x128_S100000x1_S100000x128_1_0_0_1_wf : ScatterDims.WF S128x128 S100000x1 S100000x128 [1] [0] [0] 1
  scatter_S128_S100000x1_S100000_n_0_0_1_wf : ScatterDims.WF S128 S100000x1 S100000 [] [0] [0] 1
  dot_S128x128_S128x1_S128x1_1_0_0_1_n_n_wf : DotDims.WF S128x128 S128x1 S128x1 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf

class Facts : Prop extends Facts₀ where

variable [Facts]
-- ==== Proof.Entry.lean ====
/-
  The contents of every TensorCore buffer on every core at the moment a kernel region is entered.
  Each region's data is stated over such contents as a parameter; the run instantiates it region by region.
-/
import proofs.«408992_j29411936043071_4_alg».proof.Proof.Gen.KernelIdeal.Launch

noncomputable section

namespace Cert.KernelIdeal.Own

open Idealize.ShloMosaic Idealize.ShloMosaic.TcCoe Idealize.SL.Sem
open Cert.KernelIdeal

/-- One buffer contents per core and per TensorCore reference. -/
abbrev Entry (F : FTy → Type) [FloatOps F] : Type :=
  (c : Dev nD) → (b : Ref sig .tc) → Buf (Elt F) ((c : Thread nD τ).loc b)

end Cert.KernelIdeal.Own

end
-- ==== Proof.ProjectA.lean ====
import proofs.«408992_j29411936043071_4_alg».proof.Proof.Gen.KernelIdeal.Launch
import proofs.«408992_j29411936043071_4_alg».proof.Proof.Gen.KernelIdeal.Skeleton
import proofs.«408992_j29411936043071_4_alg».proof.Proof.Gen.KernelIdeal.Points
import Idealize.ShloMosaic.Lib.Pipeline.Frame
import Idealize.ShloMosaic.Lib.Pipeline.FrameBody
import Idealize.ShloMosaic.Lib.Tactic
import proofs.«408992_j29411936043071_4_alg».proof.Proof.Entry
set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F]

/-! # The first projection (pallas_call 0): ten row blocks of x, each multiplied by the whole of W1 -/

/-- Rows 10000·t … 10000·t + 9999 of the array being projected, as the region finds it. -/
def rowsA (V : Entry F) (c : Dev nD) (t : Fin cfg0.N) : Vec F S10000x128 .f32 :=
  ((cfg0.win 0).blk t).view.read (Elt F) (V c (Pipeline.arrRef spec0 0))

/-- The weight matrix: its one block is the whole array, at every point. -/
def weightsA (V : Entry F) (c : Dev nD) (t : Fin cfg0.N) : Vec F S128x128 .f32 :=
  ((cfg0.win 1).blk t).view.read (Elt F) (V c (Pipeline.arrRef spec0 1))

/-- The pipeline's data: arrays as found; after the body the two inputs' buffers unchanged and the output's at the
    product of the row block with the weights; the class invariant; nothing owed; full shares. -/
def projA (V : Entry F) (c : Dev nD) : Dat τ (Elt F) Unit ℕ (UR sig nD τ) ℕ cfg0 c where
  A w := V c (Pipeline.arrRef spec0 w)
  after w t := match w with
    | ⟨0, _⟩ => rowsA V c t
    | ⟨1, _⟩ => weightsA V c t
    | ⟨2, _⟩ => k0_pay1 (rowsA V c t) (weightsA V c t)
  Φ _ := Pipeline.ΦA spec0 c
  q _ := fullShare
  owed _ := 0

theorem projA_A (V : Entry F) (c : Dev nD) (w : Fin cfg0.W) : (projA V c).A w = V c (Pipeline.arrRef spec0 w) := by
  dsimp only [projA]

end Cert.KernelIdeal.Own

end
-- ==== Proof.ProjectB.lean ====
import proofs.«408992_j29411936043071_4_alg».proof.Proof.Gen.KernelIdeal.Launch
import proofs.«408992_j29411936043071_4_alg».proof.Proof.Gen.KernelIdeal.Skeleton
import proofs.«408992_j29411936043071_4_alg».proof.Proof.Gen.KernelIdeal.Points
import Idealize.ShloMosaic.Lib.Pipeline.Frame
import Idealize.ShloMosaic.Lib.Pipeline.FrameBody
import Idealize.ShloMosaic.Lib.Tactic
import proofs.«408992_j29411936043071_4_alg».proof.Proof.Entry
set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F]

/-! # The second projection (pallas_call 2): ten row blocks of the first layer's activations, each multiplied by the whole of W2 -/

/-- Rows 10000·t … 10000·t + 9999 of the array being projected, as the region finds it. -/
def rowsB (V : Entry F) (c : Dev nD) (t : Fin cfg2.N) : Vec F S10000x128 .f32 :=
  ((cfg2.win 0).blk t).view.read (Elt F) (V c (Pipeline.arrRef spec2 0))

/-- The weight matrix: its one block is the whole array, at every point. -/
def weightsB (V : Entry F) (c : Dev nD) (t : Fin cfg2.N) : Vec F S128x128 .f32 :=
  ((cfg2.win 1).blk t).view.read (Elt F) (V c (Pipeline.arrRef spec2 1))

/-- The pipeline's data: arrays as found; after the body the two inputs' buffers unchanged and the output's at the
    product of the row block with the weights; the class invariant; nothing owed; full shares. -/
def projB (V : Entry F) (c : Dev nD) : Dat τ (Elt F) Unit ℕ (UR sig nD τ) ℕ cfg2 c where
  A w := V c (Pipeline.arrRef spec2 w)
  after w t := match w with
    | ⟨0, _⟩ => rowsB V c t
    | ⟨1, _⟩ => weightsB V c t
    | ⟨2, _⟩ => k2_pay1 (rowsB V c t) (weightsB V c t)
  Φ _ := Pipeline.ΦA spec2 c
  q _ := fullShare
  owed _ := 0

theorem projB_A (V : Entry F) (c : Dev nD) (w : Fin cfg2.W) : (projB V c).A w = V c (Pipeline.arrRef spec2 w) := by
  dsimp only [projB]

end Cert.KernelIdeal.Own

end
-- ==== Proof.ActivateA.lean ====
import proofs.«408992_j29411936043071_4_alg».proof.Proof.Gen.KernelIdeal.Launch
import proofs.«408992_j29411936043071_4_alg».proof.Proof.Gen.KernelIdeal.Skeleton
import proofs.«408992_j29411936043071_4_alg».proof.Proof.Gen.KernelIdeal.Points
import Idealize.ShloMosaic.Lib.Pipeline.Frame
import Idealize.ShloMosaic.Lib.Pipeline.FrameBody
import Idealize.ShloMosaic.Lib.Tactic
import proofs.«408992_j29411936043071_4_alg».proof.Proof.Entry
set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F]

/-! # Bias and rectifier of the first layer (pallas_call 1): ten row blocks, each plus the bias row, clamped below at 0 -/

/-- Rows 10000·t … 10000·t + 9999 of the aggregated array, as the region finds it. -/
def aggRowsA (V : Entry F) (c : Dev nD) (t : Fin cfg1.N) : Vec F S10000x128 .f32 :=
  ((cfg1.win 0).blk t).view.read (Elt F) (V c (Pipeline.arrRef spec1 0))

/-- The bias row: its one block is the whole 1×128 array, at every point. -/
def biasRowA (V : Entry F) (c : Dev nD) (t : Fin cfg1.N) : Vec F S1x128 .f32 :=
  ((cfg1.win 1).blk t).view.read (Elt F) (V c (Pipeline.arrRef spec1 1))

/-- The pipeline's data: arrays as found; after the body the two inputs' buffers unchanged and the output's at
    max(rows + bias, 0); the class invariant; nothing owed; full shares. -/
def actA (V : Entry F) (c : Dev nD) : Dat τ (Elt F) Unit ℕ (UR sig nD τ) ℕ cfg1 c where
  A w := V c (Pipeline.arrRef spec1 w)
  after w t := match w with
    | ⟨0, _⟩ => aggRowsA V c t
    | ⟨1, _⟩ => biasRowA V c t
    | ⟨2, _⟩ => k1_pay1 (aggRowsA V c t) (biasRowA V c t)
  Φ _ := Pipeline.ΦA spec1 c
  q _ := fullShare
  owed _ := 0

theorem actA_A (V : Entry F) (c : Dev nD) (w : Fin cfg1.W) : (actA V c).A w = V c (Pipeline.arrRef spec1 w) := by
  dsimp only [actA]

end Cert.KernelIdeal.Own

end
-- ==== Proof.ActivateB.lean ====
import proofs.«408992_j29411936043071_4_alg».proof.Proof.Gen.KernelIdeal.Launch
import proofs.«408992_j29411936043071_4_alg».proof.Proof.Gen.KernelIdeal.Skeleton
import proofs.«408992_j29411936043071_4_alg».proof.Proof.Gen.KernelIdeal.Points
import Idealize.ShloMosaic.Lib.Pipeline.Frame
import Idealize.ShloMosaic.Lib.Pipeline.FrameBody
import Idealize.ShloMosaic.Lib.Tactic
import proofs.«408992_j29411936043071_4_alg».proof.Proof.Entry
set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F]

/-! # Bias and rectifier of the second layer (pallas_call 3): ten row blocks, each plus the bias row, clamped below at 0 -/

/-- Rows 10000·t … 10000·t + 9999 of the aggregated array, as the region finds it. -/
def aggRowsB (V : Entry F) (c : Dev nD) (t : Fin cfg3.N) : Vec F S10000x128 .f32 :=
  ((cfg3.win 0).blk t).view.read (Elt F) (V c (Pipeline.arrRef spec3 0))

/-- The bias row: its one block is the whole 1×128 array, at every point. -/
def biasRowB (V : Entry F) (c : Dev nD) (t : Fin cfg3.N) : Vec F S1x128 .f32 :=
  ((cfg3.win 1).blk t).view.read (Elt F) (V c (Pipeline.arrRef spec3 1))

/-- The pipeline's data: arrays as found; after the body the two inputs' buffers unchanged and the output's at
    max(rows + bias, 0); the class invariant; nothing owed; full shares. -/
def actB (V : Entry F) (c : Dev nD) : Dat τ (Elt F) Unit ℕ (UR sig nD τ) ℕ cfg3 c where
  A w := V c (Pipeline.arrRef spec3 w)
  after w t := match w with
    | ⟨0, _⟩ => aggRowsB V c t
    | ⟨1, _⟩ => biasRowB V c t
    | ⟨2, _⟩ => k3_pay1 (aggRowsB V c t) (biasRowB V c t)
  Φ _ := Pipeline.ΦA spec3 c
  q _ := fullShare
  owed _ := 0

theorem actB_A (V : Entry F) (c : Dev nD) (w : Fin cfg3.W) : (actB V c).A w = V c (Pipeline.arrRef spec3 w) := by
  dsimp only [actB]

end Cert.KernelIdeal.Own

end
-- ==== Proof.PoolData.lean ====
import proofs.«408992_j29411936043071_4_alg».proof.Proof.Gen.KernelIdeal.Launch
import proofs.«408992_j29411936043071_4_alg».proof.Proof.Gen.KernelIdeal.Skeleton
import proofs.«408992_j29411936043071_4_alg».proof.Proof.Gen.KernelIdeal.Points
import Idealize.ShloMosaic.Lib.Pipeline.Frame
import Idealize.ShloMosaic.Lib.Pipeline.FrameBody
import Idealize.ShloMosaic.Lib.Tactic
import proofs.«408992_j29411936043071_4_alg».proof.Proof.Entry
set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F]

/-! # The pooling kernel (pallas_call 4): a 2 × 5 grid; half `h` of the node rows is swept in five blocks, the per-graph
    sums and counts accumulated in two scratch buffers that are cleared at the first block of a half and written out
    at its last -/

local notation "𝕄" => MT nD τ sig Unit (Elt F) ℕ (UR sig nD τ) ℕ

/-- Rows 10000·t … 10000·t + 9999 of the node features (the block index is 5·half + step = t). -/
def featRows (V : Entry F) (c : Dev nD) (t : Fin cfg4.N) : Vec F S10000x128 .f32 :=
  ((cfg4.win 0).blk t).view.read (Elt F) (V c (Pipeline.arrRef spec4 0))

/-- The same rows of the graph-id column. -/
def graphIds (V : Entry F) (c : Dev nD) (t : Fin cfg4.N) : Vec F S10000x1 .i32 :=
  ((cfg4.win 1).blk t).view.read (Elt F) (V c (Pipeline.arrRef spec4 1))

/-- What the two scratch buffers hold after point `n`: the per-graph sums and counts of the blocks of the current
    half seen so far — restarted from zero at the first block of a half (`n % 5 = 0`), carried on otherwise. -/
def running (V : Entry F) (c : Dev nD) : (n : ℕ) → n < cfg4.N → Vec F S128x128 .f32 × Vec F S128x1 .f32
  | 0, h => (k4_pay4 (graphIds V c ⟨0, h⟩) (k4_pay1 (F := F)) (featRows V c ⟨0, h⟩), k4_pay5 (graphIds V c ⟨0, h⟩) (k4_pay2 (F := F)))
  | n + 1, h =>
    if (n + 1) % 5 = 0 then
      (k4_pay4 (graphIds V c ⟨n + 1, h⟩) (k4_pay1 (F := F)) (featRows V c ⟨n + 1, h⟩), k4_pay5 (graphIds V c ⟨n + 1, h⟩) (k4_pay2 (F := F)))
    else
      (k4_pay4 (graphIds V c ⟨n + 1, h⟩) (running V c n (Nat.lt_of_succ_lt h)).1 (featRows V c ⟨n + 1, h⟩),
        k4_pay5 (graphIds V c ⟨n + 1, h⟩) (running V c n (Nat.lt_of_succ_lt h)).2)

/-- The pipeline's data over any choice of the invariant `Φ`: arrays as found; after the body the two inputs' buffers
    unchanged and each output's at the running value re-laid with a leading unit axis (consulted only at the last block
    of a half, where the window is written back); nothing owed; full shares. -/
def poolWith (Φ : Fin (cfg4.N + 1) → sProp 𝕄) (V : Entry F) (c : Dev nD) : Dat τ (Elt F) Unit ℕ (UR sig nD τ) ℕ cfg4 c where
  A w := V c (Pipeline.arrRef spec4 w)
  after w t := match w with
    | ⟨0, _⟩ => featRows V c t
    | ⟨1, _⟩ => graphIds V c t
    | ⟨2, _⟩ => k4_pay6 (running V c t.val t.isLt).1
    | ⟨3, _⟩ => k4_pay7 (running V c t.val t.isLt).2
  Φ := Φ
  q _ := fullShare
  owed _ := 0

theorem poolWith_A (Φ : Fin (cfg4.N + 1) → sProp 𝕄) (V : Entry F) (c : Dev nD) (w : Fin cfg4.W) :
    (poolWith Φ V c).A w = V c (Pipeline.arrRef spec4 w) := by
  dsimp only [poolWith]

/-- The sums' scratch buffer and the counts' scratch buffer, whole. -/
abbrev sumsScratch : Memref sig .tc .vmem S128x128 .f32 := Memref.whole cc4_scratch0
abbrev countsScratch : Memref sig .tc .vmem S128x1 .f32 := Memref.whole cc4_scratch1

/-- The core's scoped buffers this kernel neither stages nor touches — the staging buffers of the four other
    pallas_calls —, each whole at some contents. -/
def bystanders (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg2_1), ((c : Thread nD τ).loc cc2_stg2_1) ↦{fullShare} f)
      ∗ (∃ f : Buf (Elt F) ((c : Thread nD τ).loc cc3_stg0_0), ((c : Thread nD τ).loc cc3_stg0_0) ↦{fullShare} f)
      ∗ (∃ f : Buf (Elt F) ((c : Thread nD τ).loc cc3_stg0_1), ((c : Thread nD τ).loc cc3_stg0_1) ↦{fullShare} f)
      ∗ (∃ f : Buf (Elt F) ((c : Thread nD τ).loc cc3_stg1_0), ((c : Thread nD τ).loc cc3_stg1_0) ↦{fullShare} f)
      ∗ (∃ f : Buf (Elt F) ((c : Thread nD τ).loc cc3_stg2_0), ((c : Thread nD τ).loc cc3_stg2_0) ↦{fullShare} f)
      ∗ (∃ f : Buf (Elt F) ((c : Thread nD τ).loc cc3_stg2_1), ((c : Thread nD τ).loc cc3_stg2_1) ↦{fullShare} f))

/-- The region invariant before point `n`: before the first point what the launch hands over (every scoped buffer that
    is no staging buffer of this call at some contents, the generator register at some state); from then on the same,
    except that the two scratch buffers hold the running sums and counts the point before left. -/
def carried (V : Entry F) (c : Dev nD) : (n : ℕ) → n ≤ cfg4.N → sProp 𝕄
  | 0, _ => Pipeline.ΦA spec4 c
  | n + 1, h => iprop(owns (c : Thread nD τ) sumsScratch fullShare (running V c n h).1
      ∗ owns (c : Thread nD τ) countsScratch fullShare (running V c n h).2
      ∗ bystanders (F := F) c ∗ ∃ r, prngReg c r)

/-- The pooling pipeline's data, with the carried invariant. -/
def pool (V : Entry F) (c : Dev nD) : Dat τ (Elt F) Unit ℕ (UR sig nD τ) ℕ cfg4 c :=
  poolWith (fun t => carried V c t.val (Nat.le_of_lt_succ t.isLt)) V c

theorem pool_A (V : Entry F) (c : Dev nD) (w : Fin cfg4.W) : (pool V c).A w = V c (Pipeline.arrRef spec4 w) := by
  dsimp only [pool, poolWith]

end Cert.KernelIdeal.Own

end
-- ==== Proof.Boundaries.lean ====
/-
  What every TensorCore buffer holds at each boundary between two items of @main (a stretch of host operations, or a
  kernel region): a fold from the launch memory. A host stretch applies its operations; a region replaces each of its
  result arrays by what the pipeline's write-backs leave (`Dat.arrAt … N`) and touches nothing else.
-/
import proofs.«408992_j29411936043071_4_alg».proof.Proof.ProjectA
import proofs.«408992_j29411936043071_4_alg».proof.Proof.ProjectB
import proofs.«408992_j29411936043071_4_alg».proof.Proof.ActivateA
import proofs.«408992_j29411936043071_4_alg».proof.Proof.ActivateB
import proofs.«408992_j29411936043071_4_alg».proof.Proof.PoolData
import Idealize.ShloMosaic.Lib.StableHlo.Run

set_option maxRecDepth 16384

noncomputable section

namespace Cert.KernelIdeal.Own

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- A valuation read at the TensorCore's references: the form the regions' data take. -/
abbrev asEntry (B : Dev nD → Valuation τ sig (Elt F)) : Entry F := fun c b => B c b

/-- At launch. -/
abbrev at0 (c : Dev nD) : Valuation τ sig (Elt F) := fun b => m (c, b)
/-- After the first host stretch (edge lists with self loops, degrees, normalisation): the first projection's entry. -/
abbrev at1 (c : Dev nD) : Valuation τ sig (Elt F) := StableHlo.after hostOps0 (at0 m c)
/-- After the first projection: `main_v29` at the projected features. -/
abbrev at2 (c : Dev nD) : Valuation τ sig (Elt F) :=
  Function.update (at1 m c) main_v29 ((projA (asEntry (at1 m)) c).arrAt 2 cfg0.N)
/-- After the first aggregation on the host. -/
abbrev at3 (c : Dev nD) : Valuation τ sig (Elt F) := StableHlo.after hostOps1 (at2 m c)
/-- After the first bias-and-rectifier: `main_v44`. -/
abbrev at4 (c : Dev nD) : Valuation τ sig (Elt F) :=
  Function.update (at3 m c) main_v44 ((actA (asEntry (at3 m)) c).arrAt 2 cfg1.N)
/-- After the second projection: `main_v45`. -/
abbrev at5 (c : Dev nD) : Valuation τ sig (Elt F) :=
  Function.update (at4 m c) main_v45 ((projB (asEntry (at4 m)) c).arrAt 2 cfg2.N)
/-- After the second aggregation on the host. -/
abbrev at6 (c : Dev nD) : Valuation τ sig (Elt F) := StableHlo.after hostOps3 (at5 m c)
/-- After the second bias-and-rectifier: `main_v60`. -/
abbrev at7 (c : Dev nD) : Valuation τ sig (Elt F) :=
  Function.update (at6 m c) main_v60 ((actB (asEntry (at6 m)) c).arrAt 2 cfg3.N)
/-- After the graph-id column is re-laid. -/
abbrev at8 (c : Dev nD) : Valuation τ sig (Elt F) := StableHlo.after hostOps4 (at7 m c)
/-- After the pooling kernel: the two halves' sums in `main_v62_0`, their counts in `main_v62_1`. -/
abbrev at9 (c : Dev nD) : Valuation τ sig (Elt F) :=
  Function.update (Function.update (at8 m c) main_v62_0 ((pool (asEntry (at8 m)) c).arrAt 2 cfg4.N))
    main_v62_1 ((pool (asEntry (at8 m)) c).arrAt 3 cfg4.N)
/-- At the return: the halves added, the means, the final linear layer. -/
abbrev at10 (c : Dev nD) : Valuation τ sig (Elt F) := StableHlo.after hostOps5 (at9 m c)

end Cert.KernelIdeal.Own

end
-- ==== Proof.ProjectAObl.lean ====
import proofs.«408992_j29411936043071_4_alg».proof.Proof.Gen.KernelIdeal.Launch
import proofs.«408992_j29411936043071_4_alg».proof.Proof.Gen.KernelIdeal.Skeleton
import proofs.«408992_j29411936043071_4_alg».proof.Proof.Gen.KernelIdeal.Points
import Idealize.ShloMosaic.Lib.Pipeline.Frame
import Idealize.ShloMosaic.Lib.Pipeline.FrameBody
import Idealize.ShloMosaic.Lib.Pipeline.Value
import Idealize.ShloMosaic.Lib.Tactic
import proofs.«408992_j29411936043071_4_alg».proof.Proof.ProjectA
set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

/-! # The first projection's body at a grid point

The body reads the whole of the rows' buffer and the whole of the weights' buffer, multiplies them into a zero
accumulator and stores the product over the whole of the output's buffer. So it leaves the two inputs' buffers as it
found them and the output's buffer reading the product, whatever that buffer held. -/

/-! ## Reading and writing a whole buffer through the rectangle at offset zero -/

/-- Both offsets of the rectangle the body loads and stores through are zero. -/
private theorem zero_offsets₂ : (![0, 0] : Fin 2 → Nat) = fun _ => 0 :=
  funext fun a => match a with | ⟨0, _⟩ => rfl | ⟨1, _⟩ => rfl

/-- A load through the rectangle that spans the whole shape from offset zero reads what the view reads. -/
private theorem readAt_full {sig' : RefSig} {κ : Kind} {sp : Space} {S : Shape} {e : EltTy} {Val : EltTy → Type}
    (v : View sig' κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f (Rect.unit off S.size inb)).trans (View.ld_unit_zero h inb _)

/-- One store through that rectangle, over any contents, reads back as the stored value. -/
private theorem read_full_store {sig' : RefSig} {κ : Kind} {sp : Space} {S : Shape} {e : EltTy} {Val : EltTy → Type}
    [∀ e, Nonempty (Val e)] (v : View sig' κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w :=
  (View.read_writes_eq_canon v f _ fun y => ⟨_, List.mem_singleton_self _, View.mem_set_unit_zero h inb y⟩).trans
    (View.canon_unit_zero h inb w)

/-! ## The body on any three buffers -/

/-- With the first two buffers reading `x0` and `x1`, the body leaves them as they were and leaves the third reading
    the product `k0_pay1 x0 x1`, whatever the third held. -/
theorem matmulA_run (c : Dev nD) (i : grid0.Coords)
    (a1 : Memref sig .tc .vmem S10000x128 .f32) (h1 : a1.IsWhole)
    (a2 : Memref sig .tc .vmem S128x128 .f32) (h2 : a2.IsWhole)
    (a3 : Memref sig .tc .vmem S10000x128 .f32) (h3 : a3.IsWhole)
    (x0 : Vec F S10000x128 .f32) (x1 : Vec F S128x128 .f32) (x2 : Vec F S10000x128 .f32)
    (Q : PUnit → sProp 𝕄) :
    iprop(owns (c : Thread nD τ) a1 fullShare x0 ∗ owns (c : Thread nD τ) a2 fullShare x1 ∗ owns (c : Thread nD τ) a3 fullShare x2
        ∗ (iprop(owns (c : Thread nD τ) a1 fullShare x0 ∗ owns (c : Thread nD τ) a2 fullShare x1
              ∗ owns (c : Thread nD τ) a3 fullShare (k0_pay1 x0 x1)) -∗ Q ⟨⟩))
      ⊢ wp frame (wpE (defs₀ (F := F)) Variants.none (c : Thread nD τ) none) Set.univ
          (cc0__matmul_kernel (F := F) i a1 h1 a2 h2 a3 h3) Q := by
  unfold owns
  iintro ⟨⟨%f1, %e1, H1⟩, ⟨%f2, %e2, H2⟩, ⟨%f3, %e3, H3⟩, Hk⟩
  simp only [cc0__matmul_kernel_eq_skeleton]
  unfold cc0__matmul_kernel_skel
  sl_exec
  sl_step
  iapply Hk
  isplitl [H1]
  · iexists f1; isplitr
    · ipureintro; exact e1
    · iexact H1
  isplitl [H2]
  · iexists f2; isplitr
    · ipureintro; exact e2
    · iexact H2
  iexists _; isplitr
  rotate_left
  · iexact H3
  · ipureintro
    refine (read_full_store a3.view f3 zero_offsets₂ _ _).trans ?_
    rw [readAt_full a1.view f1 zero_offsets₂, readAt_full a2.view f2 zero_offsets₂, e1, e2]

/-! ## What the body finds and leaves at a grid point -/

/-- The rows' buffer holds the point's row block when the body runs, whatever it held before the block arrived. -/
theorem rowsA_found (V : Entry F) (c : Dev nD) (t : Fin cfg0.N) (d : (cfg0.win 0).block.Idx → Elt F (cfg0.win 0).elt) :
    (projA V c).before 0 t d = rowsA V c t := by
  rw [Pipeline.Dat.before_in_eq_fetched (projA V c) 0 rfl (fun _ => rfl) (fun _ _ _ => rfl) (fun _ => rfl) t d]
  unfold Pipeline.Dat.fetched Pipeline.Dat.blockOf
  dsimp only [projA]
  rfl

/-- The weights' buffer holds the weight matrix at every point, the first and the later ones alike: its block index
    never moves, so the block that arrived at the first point is every point's block. -/
theorem weightsA_found (V : Entry F) (c : Dev nD) (t : Fin cfg0.N) (d : (cfg0.win 1).block.Idx → Elt F (cfg0.win 1).elt) :
    (projA V c).before 1 t d = weightsA V c t := by
  rw [Pipeline.Dat.before_in_eq_fetched (projA V c) 1 rfl (fun _ => rfl) (fun _ _ _ => rfl) (fun _ => rfl) t d]
  unfold Pipeline.Dat.fetched Pipeline.Dat.blockOf
  dsimp only [projA]
  rfl

/-- What the body is handed at point `t`: the invariant, what the core owes, and the three current buffers — the
    output's at contents nobody names. -/
def handedA (V : Entry F) (c : Dev nD) (t : Fin cfg0.N) : sProp 𝕄 :=
  iprop((projA V c).Φ t.castSucc ∗ (projA V c).owesAt () t.castSucc
    ∗ (∃ d, owns (c : Thread nD τ) (st0_0 t) fullShare ((projA V c).before 0 t d))
    ∗ (∃ d, owns (c : Thread nD τ) (st0_1 t) fullShare ((projA V c).before 1 t d))
    ∗ (∃ d, owns (c : Thread nD τ) (st0_2 t) fullShare ((projA V c).before 2 t d)))

/-- What it hands back: the same invariant and debts, the inputs' buffers as found, the product in the output's. -/
def returnedA (V : Entry F) (c : Dev nD) (t : Fin cfg0.N) : sProp 𝕄 :=
  iprop((projA V c).Φ t.succ ∗ (projA V c).owesAt () t.succ
    ∗ owns (c : Thread nD τ) (st0_0 t) fullShare ((projA V c).after 0 t)
    ∗ owns (c : Thread nD τ) (st0_1 t) fullShare ((projA V c).after 1 t)
    ∗ owns (c : Thread nD τ) (st0_2 t) fullShare ((projA V c).after 2 t))

/-- The body at point `t`, from what it is handed to what it hands back: `matmulA_run` at the point's buffers, the
    row block and the weights; the invariant and the debts are the same before and after a point. -/
theorem projA_point (V : Entry F) (c : Dev nD) (t : Fin cfg0.N) :
    handedA V c t ⊢ wp frame (wpE (defs₀ (F := F)) Variants.none (c : Thread nD τ) none) Set.univ (bodyAt0 (F := F) t)
      (fun _ => returnedA V c t) := by
  unfold handedA returnedA
  iintro ⟨HΦ, HO, ⟨%d0, H0⟩, ⟨%d1, H1⟩, ⟨%d2, H2⟩⟩
  rewrite [rowsA_found V c t d0, weightsA_found V c t d1]
  iapply (matmulA_run c (grid0.coords t) (st0_0 t) _ (st0_1 t) _ (st0_2 t) _ (rowsA V c t) (weightsA V c t)
    ((projA V c).before 2 t d2) _)
  isplitl [H0]; · iexact H0
  isplitl [H1]; · iexact H1
  isplitl [H2]; · iexact H2
  iintro ⟨H0, H1, H2⟩
  rewrite [show (projA V c).Φ t.succ = (projA V c).Φ t.castSucc from rfl,
    show (projA V c).owesAt () t.succ = (projA V c).owesAt () t.castSucc from rfl]
  isplitl [HΦ]; · iexact HΦ
  isplitl [HO]; · iexact HO
  dsimp only [projA]
  isplitl [H0]; · iexact H0
  isplitl [H1]; · iexact H1
  iexact H2

/-- At every grid point the kernel body, run on the current staging buffers holding the row block and the weights,
    leaves them unchanged and leaves the product in the output's buffer. -/
theorem projA_obl (V : Entry F) (c : Dev nD) :
    BodyObligation (projA V c) (defs₀ (F := F)) Variants.none () Set.univ := fun t => by
  rw [bigSep_W0, bigSep_W0]
  exact projA_point V c t

end Cert.KernelIdeal.Own

end
-- ==== Proof.ProjectBObl.lean ====
import proofs.«408992_j29411936043071_4_alg».proof.Proof.Gen.KernelIdeal.Launch
import proofs.«408992_j29411936043071_4_alg».proof.Proof.Gen.KernelIdeal.Skeleton
import proofs.«408992_j29411936043071_4_alg».proof.Proof.Gen.KernelIdeal.Points
import Idealize.ShloMosaic.Lib.Pipeline.Frame
import Idealize.ShloMosaic.Lib.Pipeline.FrameBody
import Idealize.ShloMosaic.Lib.Pipeline.Value
import Idealize.ShloMosaic.Lib.Tactic
import proofs.«408992_j29411936043071_4_alg».proof.Proof.ProjectB
set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

/-! # The second projection's body at a grid point

The body reads the whole of the rows' buffer (recast to the shape it already has) and the whole of the weights'
buffer, multiplies them into a zero accumulator and stores the product over the whole of the output's buffer. So it leaves the two inputs' buffers as it
found them and the output's buffer reading the product, whatever that buffer held. -/

/-! ## Reading and writing a whole buffer through the rectangle at offset zero -/

/-- Both offsets of the rectangle the body loads and stores through are zero. -/
private theorem zero_offsets₂ : (![0, 0] : Fin 2 → Nat) = fun _ => 0 :=
  funext fun a => match a with | ⟨0, _⟩ => rfl | ⟨1, _⟩ => rfl

/-- A load through the rectangle that spans the whole shape from offset zero reads what the view reads. -/
private theorem readAt_full {sig' : RefSig} {κ : Kind} {sp : Space} {S : Shape} {e : EltTy} {Val : EltTy → Type}
    (v : View sig' κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f (Rect.unit off S.size inb)).trans (View.ld_unit_zero h inb _)

/-- One store through that rectangle, over any contents, reads back as the stored value. -/
private theorem read_full_store {sig' : RefSig} {κ : Kind} {sp : Space} {S : Shape} {e : EltTy} {Val : EltTy → Type}
    [∀ e, Nonempty (Val e)] (v : View sig' κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w :=
  (View.read_writes_eq_canon v f _ fun y => ⟨_, List.mem_singleton_self _, View.mem_set_unit_zero h inb y⟩).trans
    (View.canon_unit_zero h inb w)

/-! ## The body on any three buffers -/

/-- With the first two buffers reading `x0` and `x1`, the body leaves them as they were and leaves the third reading
    the product `k2_pay1 x0 x1`, whatever the third held. -/
theorem matmulB_run (c : Dev nD) (i : grid2.Coords)
    (a1 : Memref sig .tc .vmem S10000x128 .f32) (h1 : a1.IsWhole)
    (a2 : Memref sig .tc .vmem S128x128 .f32) (h2 : a2.IsWhole)
    (a3 : Memref sig .tc .vmem S10000x128 .f32) (h3 : a3.IsWhole)
    (x0 : Vec F S10000x128 .f32) (x1 : Vec F S128x128 .f32) (x2 : Vec F S10000x128 .f32)
    (Q : PUnit → sProp 𝕄) :
    iprop(owns (c : Thread nD τ) a1 fullShare x0 ∗ owns (c : Thread nD τ) a2 fullShare x1 ∗ owns (c : Thread nD τ) a3 fullShare x2
        ∗ (iprop(owns (c : Thread nD τ) a1 fullShare x0 ∗ owns (c : Thread nD τ) a2 fullShare x1
              ∗ owns (c : Thread nD τ) a3 fullShare (k2_pay1 x0 x1)) -∗ Q ⟨⟩))
      ⊢ wp frame (wpE (defs₀ (F := F)) Variants.none (c : Thread nD τ) none) Set.univ
          (cc2__matmul_kernel (F := F) i a1 h1 a2 h2 a3 h3) Q := by
  unfold owns
  iintro ⟨⟨%f1, %e1, H1⟩, ⟨%f2, %e2, H2⟩, ⟨%f3, %e3, H3⟩, Hk⟩
  simp only [cc2__matmul_kernel_eq_skeleton]
  unfold cc2__matmul_kernel_skel
  sl_exec
  sl_step
  iapply Hk
  isplitl [H1]
  · iexists f1; isplitr
    · ipureintro; exact e1
    · iexact H1
  isplitl [H2]
  · iexists f2; isplitr
    · ipureintro; exact e2
    · iexact H2
  iexists _; isplitr
  rotate_left
  · iexact H3
  · ipureintro
    refine (read_full_store a3.view f3 zero_offsets₂ _ _).trans ?_
    rw [readAt_full a1.view f1 zero_offsets₂, readAt_full a2.view f2 zero_offsets₂, e1, e2]

/-! ## What the body finds and leaves at a grid point -/

/-- The rows' buffer holds the point's row block when the body runs, whatever it held before the block arrived. -/
theorem rowsB_found (V : Entry F) (c : Dev nD) (t : Fin cfg2.N) (d : (cfg2.win 0).block.Idx → Elt F (cfg2.win 0).elt) :
    (projB V c).before 0 t d = rowsB V c t := by
  rw [Pipeline.Dat.before_in_eq_fetched (projB V c) 0 rfl (fun _ => rfl) (fun _ _ _ => rfl) (fun _ => rfl) t d]
  unfold Pipeline.Dat.fetched Pipeline.Dat.blockOf
  dsimp only [projB]
  rfl

/-- The weights' buffer holds the weight matrix at every point, the first and the later ones alike: its block index
    never moves, so the block that arrived at the first point is every point's block. -/
theorem weightsB_found (V : Entry F) (c : Dev nD) (t : Fin cfg2.N) (d : (cfg2.win 1).block.Idx → Elt F (cfg2.win 1).elt) :
    (projB V c).before 1 t d = weightsB V c t := by
  rw [Pipeline.Dat.before_in_eq_fetched (projB V c) 1 rfl (fun _ => rfl) (fun _ _ _ => rfl) (fun _ => rfl) t d]
  unfold Pipeline.Dat.fetched Pipeline.Dat.blockOf
  dsimp only [projB]
  rfl

/-- What the body is handed at point `t`: the invariant, what the core owes, and the three current buffers — the
    output's at contents nobody names. -/
def handedB (V : Entry F) (c : Dev nD) (t : Fin cfg2.N) : sProp 𝕄 :=
  iprop((projB V c).Φ t.castSucc ∗ (projB V c).owesAt () t.castSucc
    ∗ (∃ d, owns (c : Thread nD τ) (st2_0 t) fullShare ((projB V c).before 0 t d))
    ∗ (∃ d, owns (c : Thread nD τ) (st2_1 t) fullShare ((projB V c).before 1 t d))
    ∗ (∃ d, owns (c : Thread nD τ) (st2_2 t) fullShare ((projB V c).before 2 t d)))

/-- What it hands back: the same invariant and debts, the inputs' buffers as found, the product in the output's. -/
def returnedB (V : Entry F) (c : Dev nD) (t : Fin cfg2.N) : sProp 𝕄 :=
  iprop((projB V c).Φ t.succ ∗ (projB V c).owesAt () t.succ
    ∗ owns (c : Thread nD τ) (st2_0 t) fullShare ((projB V c).after 0 t)
    ∗ owns (c : Thread nD τ) (st2_1 t) fullShare ((projB V c).after 1 t)
    ∗ owns (c : Thread nD τ) (st2_2 t) fullShare ((projB V c).after 2 t))

/-- The body at point `t`, from what it is handed to what it hands back: `matmulB_run` at the point's buffers, the
    row block and the weights; the invariant and the debts are the same before and after a point. -/
theorem projB_point (V : Entry F) (c : Dev nD) (t : Fin cfg2.N) :
    handedB V c t ⊢ wp frame (wpE (defs₀ (F := F)) Variants.none (c : Thread nD τ) none) Set.univ (bodyAt2 (F := F) t)
      (fun _ => returnedB V c t) := by
  unfold handedB returnedB
  iintro ⟨HΦ, HO, ⟨%d0, H0⟩, ⟨%d1, H1⟩, ⟨%d2, H2⟩⟩
  rewrite [rowsB_found V c t d0, weightsB_found V c t d1]
  iapply (matmulB_run c (grid2.coords t) (st2_0 t) _ (st2_1 t) _ (st2_2 t) _ (rowsB V c t) (weightsB V c t)
    ((projB V c).before 2 t d2) _)
  isplitl [H0]; · iexact H0
  isplitl [H1]; · iexact H1
  isplitl [H2]; · iexact H2
  iintro ⟨H0, H1, H2⟩
  rewrite [show (projB V c).Φ t.succ = (projB V c).Φ t.castSucc from rfl,
    show (projB V c).owesAt () t.succ = (projB V c).owesAt () t.castSucc from rfl]
  isplitl [HΦ]; · iexact HΦ
  isplitl [HO]; · iexact HO
  dsimp only [projB]
  isplitl [H0]; · iexact H0
  isplitl [H1]; · iexact H1
  iexact H2

/-- At every grid point the kernel body, run on the current staging buffers holding the row block and the weights,
    leaves them unchanged and leaves the product in the output's buffer. -/
theorem projB_obl (V : Entry F) (c : Dev nD) :
    BodyObligation (projB V c) (defs₀ (F := F)) Variants.none () Set.univ := fun t => by
  rw [bigSep_W2, bigSep_W2]
  exact projB_point V c t

end Cert.KernelIdeal.Own

end
-- ==== Proof.ActivateAObl.lean ====
import proofs.«408992_j29411936043071_4_alg».proof.Proof.Gen.KernelIdeal.Launch
import proofs.«408992_j29411936043071_4_alg».proof.Proof.Gen.KernelIdeal.Skeleton
import proofs.«408992_j29411936043071_4_alg».proof.Proof.Gen.KernelIdeal.Points
import Idealize.ShloMosaic.Lib.Pipeline.Frame
import Idealize.ShloMosaic.Lib.Pipeline.FrameBody
import Idealize.ShloMosaic.Lib.Pipeline.Value
import Idealize.ShloMosaic.Lib.Tactic
import proofs.«408992_j29411936043071_4_alg».proof.Proof.ActivateA
set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

/-! # The bias-and-rectifier body at a grid point, first layer

The body reads its two input buffers whole, adds the bias row to every row, clamps below at 0 and stores the
result over the whole output buffer. Its triple is stated once over arbitrary whole buffers and contents; at a
grid point the inputs' buffers hold the aggregated rows' block and the bias row, fetched there or not. -/

/-- The two offsets of a whole-buffer access are zero. -/
theorem zeroOffs_actA : (![0, 0] : Fin 2 → Nat) = fun _ => 0 := by
  funext a; fin_cases a <;> rfl

/-- A load through the whole-shape rectangle reads the buffer's contents. -/
theorem readAt_wholeRect_actA {S : Shape} (v : View sig .tc .vmem S .f32) {off : Fin S.rank → Nat} (hz : off = fun _ => 0)
    (inb : ∀ a, off a + S.size a ≤ S.size a) (f : v.ty.Contents (Elt F)) :
    v.readAt (Elt F) (Rect.unit off S.size inb).toLoadRect f = v.read (Elt F) f :=
  (View.readAt_eq_ld v f _).trans (View.ld_unit_zero hz inb _)

/-- One store through the whole-shape rectangle leaves its payload, whatever the buffer held. -/
theorem read_wholeStore_actA {S : Shape} (v : View sig .tc .vmem S .f32) {off : Fin S.rank → Nat} (hz : off = fun _ => 0)
    (inb : ∀ a, off a + S.size a ≤ S.size a) (f : v.ty.Contents (Elt F)) (w : Vec F S .f32) :
    v.read (Elt F) (v.writes (Elt F) f [⟨Rect.unit off S.size inb, w⟩]) = w :=
  (View.read_writes_eq_canon v f _ fun y => ⟨_, List.mem_singleton_self _, View.mem_set_unit_zero hz inb y⟩).trans
    (View.canon_unit_zero hz inb w)

/-- The body's triple: from the rows `x0` in the first buffer, the bias row `x1` in the second and anything in the
    third, it leaves the first two as they were and max(x0 + x1, 0) in the third; whatever else is held (`R₁`, `R₂`)
    is untouched. -/
theorem biasRectify_run_actA (c : Dev nD) (i : grid1.Coords)
    (a1 : Memref sig .tc .vmem S10000x128 .f32) (h1 : a1.IsWhole)
    (a2 : Memref sig .tc .vmem S1x128 .f32) (h2 : a2.IsWhole)
    (a3 : Memref sig .tc .vmem S10000x128 .f32) (h3 : a3.IsWhole)
    (x0 : Vec F S10000x128 .f32) (x1 : Vec F S1x128 .f32) (d : Vec F S10000x128 .f32) (R₁ R₂ : sProp 𝕄) :
    (iprop(R₁ ∗ R₂ ∗ owns c a1 fullShare x0 ∗ owns c a2 fullShare x1 ∗ owns c a3 fullShare d) : sProp 𝕄)
      ⊢ wp frame (wpE (defs₀ (F := F)) Variants.none c none) Set.univ (cc1__bias_relu_kernel i a1 h1 a2 h2 a3 h3)
          fun _ => iprop(R₁ ∗ R₂ ∗ owns c a1 fullShare x0 ∗ owns c a2 fullShare x1 ∗ owns c a3 fullShare (k1_pay1 x0 x1)) := by
  unfold owns
  iintro ⟨HR₁, HR₂, ⟨%f1, %e1, H1⟩, ⟨%f2, %e2, H2⟩, ⟨%f3, %e3, H3⟩⟩
  sl_unfold [cc1__bias_relu_kernel]
  sl_exec
  sl_step
  -- what the two loads read
  have l1 : a1.view.readAt (Elt F) (Rect.unit ![0, 0] S10000x128.size inb_S10000x128_S10000x128_0_0).toLoadRect f1 = x0 :=
    (readAt_wholeRect_actA a1.view zeroOffs_actA inb_S10000x128_S10000x128_0_0 f1).trans e1
  have l2 : a2.view.readAt (Elt F) (Rect.unit ![0, 0] S1x128.size inb_S1x128_S1x128_0_0).toLoadRect f2 = x1 :=
    (readAt_wholeRect_actA a2.view zeroOffs_actA inb_S1x128_S1x128_0_0 f2).trans e2
  rw [l1, l2]
  isplitl [HR₁]; · iexact HR₁
  isplitl [HR₂]; · iexact HR₂
  isplitl [H1]
  · iexists f1; isplitr
    · ipureintro; exact e1
    · iexact H1
  isplitl [H2]
  · iexists f2; isplitr
    · ipureintro; exact e2
    · iexact H2
  iexists _; isplitr
  rotate_left
  · iexact H3
  · ipureintro; exact read_wholeStore_actA a3.view zeroOffs_actA inb_S10000x128_S10000x128_0_0 f3 _

/-- The rows' buffer holds the rows' block at every point. -/
theorem actA_finds_rows (V : Entry F) (c : Dev nD) (t : Fin cfg1.N) (d : (cfg1.win 0).block.Idx → Elt F (cfg1.win 0).elt) :
    (actA V c).before 0 t d = aggRowsA V c t :=
  Dat.before_in_eq_fetched (actA V c) 0 rfl (fun _ => rfl) (fun _ _ _ => rfl) (fun _ => rfl) t d

/-- The bias buffer holds the bias row at every point, though it is fetched at the first only. -/
theorem actA_finds_bias (V : Entry F) (c : Dev nD) (t : Fin cfg1.N) (d : (cfg1.win 1).block.Idx → Elt F (cfg1.win 1).elt) :
    (actA V c).before 1 t d = biasRowA V c t :=
  Dat.before_in_eq_fetched (actA V c) 1 rfl (fun _ => rfl) (fun _ _ _ => rfl) (fun _ => rfl) t d

/-- The body at point `t`, on the current staging buffers. -/
theorem actA_point (V : Entry F) (c : Dev nD) (t : Fin cfg1.N) :
    (iprop((actA V c).Φ t.castSucc ∗ (actA V c).owesAt () t.castSucc
        ∗ (∃ d, owns c (st1_0 t) fullShare ((actA V c).before 0 t d))
        ∗ (∃ d, owns c (st1_1 t) fullShare ((actA V c).before 1 t d))
        ∗ (∃ d, owns c (st1_2 t) fullShare ((actA V c).before 2 t d))) : sProp 𝕄)
      ⊢ wp frame (wpE (defs₀ (F := F)) Variants.none c none) Set.univ (bodyAt1 t) fun _ =>
          iprop((actA V c).Φ t.succ ∗ (actA V c).owesAt () t.succ
            ∗ owns c (st1_0 t) fullShare ((actA V c).after 0 t)
            ∗ owns c (st1_1 t) fullShare ((actA V c).after 1 t)
            ∗ owns c (st1_2 t) fullShare ((actA V c).after 2 t)) := by
  iintro ⟨HΦ, HO, ⟨%d0, H0⟩, ⟨%d1, H1⟩, ⟨%d2, H2⟩⟩
  rw [actA_finds_rows V c t d0, actA_finds_bias V c t d1]
  iapply (biasRectify_run_actA c (grid1.coords t)
    (st1_0 t) (hstage1_0 ((cfg1.slots t 0).cast nbuf1_0)) (st1_1 t) (hstage1_1 ((cfg1.slots t 1).cast nbuf1_1))
    (st1_2 t) (hstage1_2 ((cfg1.slots t 2).cast nbuf1_2))
    (aggRowsA V c t) (biasRowA V c t) ((actA V c).before 2 t d2) ((actA V c).Φ t.castSucc) ((actA V c).owesAt () t.castSucc))
  isplitl [HΦ]; · iexact HΦ
  isplitl [HO]; · iexact HO
  isplitl [H0]; · iexact H0
  isplitl [H1]; · iexact H1
  iexact H2

/-- At every grid point the kernel body leaves its two inputs' buffers unchanged and max(rows + bias, 0) in the output's. -/
theorem actA_obl (V : Entry F) (c : Dev nD) :
    BodyObligation (actA V c) (defs₀ (F := F)) Variants.none () Set.univ := fun t => by
  rw [bigSep_W1, bigSep_W1]
  exact actA_point V c t

end Cert.KernelIdeal.Own

end
-- ==== Proof.ActivateBObl.lean ====
import proofs.«408992_j29411936043071_4_alg».proof.Proof.Gen.KernelIdeal.Launch
import proofs.«408992_j29411936043071_4_alg».proof.Proof.Gen.KernelIdeal.Skeleton
import proofs.«408992_j29411936043071_4_alg».proof.Proof.Gen.KernelIdeal.Points
import Idealize.ShloMosaic.Lib.Pipeline.Frame
import Idealize.ShloMosaic.Lib.Pipeline.FrameBody
import Idealize.ShloMosaic.Lib.Pipeline.Value
import Idealize.ShloMosaic.Lib.Tactic
import proofs.«408992_j29411936043071_4_alg».proof.Proof.ActivateB
set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

/-! # The bias-and-rectifier body at a grid point, second layer

The body reads its two input buffers whole, adds the bias row to every row, clamps below at 0 and stores the
result over the whole output buffer. Its triple is stated once over arbitrary whole buffers and contents; at a
grid point the inputs' buffers hold the aggregated rows' block and the bias row, fetched there or not. -/

/-- The two offsets of a whole-buffer access are zero. -/
theorem zeroOffs_actB : (![0, 0] : Fin 2 → Nat) = fun _ => 0 := by
  funext a; fin_cases a <;> rfl

/-- A load through the whole-shape rectangle reads the buffer's contents. -/
theorem readAt_wholeRect_actB {S : Shape} (v : View sig .tc .vmem S .f32) {off : Fin S.rank → Nat} (hz : off = fun _ => 0)
    (inb : ∀ a, off a + S.size a ≤ S.size a) (f : v.ty.Contents (Elt F)) :
    v.readAt (Elt F) (Rect.unit off S.size inb).toLoadRect f = v.read (Elt F) f :=
  (View.readAt_eq_ld v f _).trans (View.ld_unit_zero hz inb _)

/-- One store through the whole-shape rectangle leaves its payload, whatever the buffer held. -/
theorem read_wholeStore_actB {S : Shape} (v : View sig .tc .vmem S .f32) {off : Fin S.rank → Nat} (hz : off = fun _ => 0)
    (inb : ∀ a, off a + S.size a ≤ S.size a) (f : v.ty.Contents (Elt F)) (w : Vec F S .f32) :
    v.read (Elt F) (v.writes (Elt F) f [⟨Rect.unit off S.size inb, w⟩]) = w :=
  (View.read_writes_eq_canon v f _ fun y => ⟨_, List.mem_singleton_self _, View.mem_set_unit_zero hz inb y⟩).trans
    (View.canon_unit_zero hz inb w)

/-- The body's triple: from the rows `x0` in the first buffer, the bias row `x1` in the second and anything in the
    third, it leaves the first two as they were and max(x0 + x1, 0) in the third; whatever else is held (`R₁`, `R₂`)
    is untouched. -/
theorem biasRectify_run_actB (c : Dev nD) (i : grid3.Coords)
    (a1 : Memref sig .tc .vmem S10000x128 .f32) (h1 : a1.IsWhole)
    (a2 : Memref sig .tc .vmem S1x128 .f32) (h2 : a2.IsWhole)
    (a3 : Memref sig .tc .vmem S10000x128 .f32) (h3 : a3.IsWhole)
    (x0 : Vec F S10000x128 .f32) (x1 : Vec F S1x128 .f32) (d : Vec F S10000x128 .f32) (R₁ R₂ : sProp 𝕄) :
    (iprop(R₁ ∗ R₂ ∗ owns c a1 fullShare x0 ∗ owns c a2 fullShare x1 ∗ owns c a3 fullShare d) : sProp 𝕄)
      ⊢ wp frame (wpE (defs₀ (F := F)) Variants.none c none) Set.univ (cc3__bias_relu_kernel i a1 h1 a2 h2 a3 h3)
          fun _ => iprop(R₁ ∗ R₂ ∗ owns c a1 fullShare x0 ∗ owns c a2 fullShare x1 ∗ owns c a3 fullShare (k3_pay1 x0 x1)) := by
  unfold owns
  iintro ⟨HR₁, HR₂, ⟨%f1, %e1, H1⟩, ⟨%f2, %e2, H2⟩, ⟨%f3, %e3, H3⟩⟩
  sl_unfold [cc3__bias_relu_kernel]
  sl_exec
  sl_step
  -- what the two loads read
  have l1 : a1.view.readAt (Elt F) (Rect.unit ![0, 0] S10000x128.size inb_S10000x128_S10000x128_0_0).toLoadRect f1 = x0 :=
    (readAt_wholeRect_actB a1.view zeroOffs_actB inb_S10000x128_S10000x128_0_0 f1).trans e1
  have l2 : a2.view.readAt (Elt F) (Rect.unit ![0, 0] S1x128.size inb_S1x128_S1x128_0_0).toLoadRect f2 = x1 :=
    (readAt_wholeRect_actB a2.view zeroOffs_actB inb_S1x128_S1x128_0_0 f2).trans e2
  rw [l1, l2]
  isplitl [HR₁]; · iexact HR₁
  isplitl [HR₂]; · iexact HR₂
  isplitl [H1]
  · iexists f1; isplitr
    · ipureintro; exact e1
    · iexact H1
  isplitl [H2]
  · iexists f2; isplitr
    · ipureintro; exact e2
    · iexact H2
  iexists _; isplitr
  rotate_left
  · iexact H3
  · ipureintro; exact read_wholeStore_actB a3.view zeroOffs_actB inb_S10000x128_S10000x128_0_0 f3 _

/-- The rows' buffer holds the rows' block at every point. -/
theorem actB_finds_rows (V : Entry F) (c : Dev nD) (t : Fin cfg3.N) (d : (cfg3.win 0).block.Idx → Elt F (cfg3.win 0).elt) :
    (actB V c).before 0 t d = aggRowsB V c t :=
  Dat.before_in_eq_fetched (actB V c) 0 rfl (fun _ => rfl) (fun _ _ _ => rfl) (fun _ => rfl) t d

/-- The bias buffer holds the bias row at every point, though it is fetched at the first only. -/
theorem actB_finds_bias (V : Entry F) (c : Dev nD) (t : Fin cfg3.N) (d : (cfg3.win 1).block.Idx → Elt F (cfg3.win 1).elt) :
    (actB V c).before 1 t d = biasRowB V c t :=
  Dat.before_in_eq_fetched (actB V c) 1 rfl (fun _ => rfl) (fun _ _ _ => rfl) (fun _ => rfl) t d

/-- The body at point `t`, on the current staging buffers. -/
theorem actB_point (V : Entry F) (c : Dev nD) (t : Fin cfg3.N) :
    (iprop((actB V c).Φ t.castSucc ∗ (actB V c).owesAt () t.castSucc
        ∗ (∃ d, owns c (st3_0 t) fullShare ((actB V c).before 0 t d))
        ∗ (∃ d, owns c (st3_1 t) fullShare ((actB V c).before 1 t d))
        ∗ (∃ d, owns c (st3_2 t) fullShare ((actB V c).before 2 t d))) : sProp 𝕄)
      ⊢ wp frame (wpE (defs₀ (F := F)) Variants.none c none) Set.univ (bodyAt3 t) fun _ =>
          iprop((actB V c).Φ t.succ ∗ (actB V c).owesAt () t.succ
            ∗ owns c (st3_0 t) fullShare ((actB V c).after 0 t)
            ∗ owns c (st3_1 t) fullShare ((actB V c).after 1 t)
            ∗ owns c (st3_2 t) fullShare ((actB V c).after 2 t)) := by
  iintro ⟨HΦ, HO, ⟨%d0, H0⟩, ⟨%d1, H1⟩, ⟨%d2, H2⟩⟩
  rw [actB_finds_rows V c t d0, actB_finds_bias V c t d1]
  iapply (biasRectify_run_actB c (grid3.coords t)
    (st3_0 t) (hstage3_0 ((cfg3.slots t 0).cast nbuf3_0)) (st3_1 t) (hstage3_1 ((cfg3.slots t 1).cast nbuf3_1))
    (st3_2 t) (hstage3_2 ((cfg3.slots t 2).cast nbuf3_2))
    (aggRowsB V c t) (biasRowB V c t) ((actB V c).before 2 t d2) ((actB V c).Φ t.castSucc) ((actB V c).owesAt () t.castSucc))
  isplitl [HΦ]; · iexact HΦ
  isplitl [HO]; · iexact HO
  isplitl [H0]; · iexact H0
  isplitl [H1]; · iexact H1
  iexact H2

/-- At every grid point the kernel body leaves its two inputs' buffers unchanged and max(rows + bias, 0) in the output's. -/
theorem actB_obl (V : Entry F) (c : Dev nD) :
    BodyObligation (actB V c) (defs₀ (F := F)) Variants.none () Set.univ := fun t => by
  rw [bigSep_W3, bigSep_W3]
  exact actB_point V c t

end Cert.KernelIdeal.Own

end
-- ==== Proof.PoolObl.lean ====
import proofs.«408992_j29411936043071_4_alg».proof.Proof.Gen.KernelIdeal.Launch
import proofs.«408992_j29411936043071_4_alg».proof.Proof.Gen.KernelIdeal.Skeleton
import proofs.«408992_j29411936043071_4_alg».proof.Proof.Gen.KernelIdeal.Points
import Idealize.ShloMosaic.Lib.Pipeline.Frame
import Idealize.ShloMosaic.Lib.Pipeline.FrameBody
import Idealize.ShloMosaic.Lib.Pipeline.Value
import Idealize.ShloMosaic.Lib.Tactic
import proofs.«408992_j29411936043071_4_alg».proof.Proof.PoolData
set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

/-! # The pooling region's invariant: what the launch hands over, with the two scratch buffers singled out -/

/-- The launch's hand-over lists the bystanders and then the two scratch buffers; here the scratch buffers come first. -/
theorem pool_classInv_eq (c : Dev nD) :
    (Pipeline.ΦA spec4 c : sProp 𝕄) ⊣⊢
      iprop((∃ f : Buf (Elt F) ((c : Thread nD τ).loc cc4_scratch0), ((c : Thread nD τ).loc cc4_scratch0) ↦{fullShare} f)
        ∗ (∃ f : Buf (Elt F) ((c : Thread nD τ).loc cc4_scratch1), ((c : Thread nD τ).loc cc4_scratch1) ↦{fullShare} f)
        ∗ bystanders (F := F) c ∗ ∃ r, prngReg c r) := by
  unfold Pipeline.ΦA bystanders
  rw [scopedRest4_eq]
  constructor
  · iintro ⟨⟨H1, H2, H3, H4, H5, H6, H7, H8, H9, H10, H11, H12, H13, H14, H15, H16, H17, H18, H19, H20, S0, S1⟩, HR⟩
    isplitl [S0]; · iexact S0
    isplitl [S1]; · iexact S1
    isplitr [HR]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      iexact H20
    · iexact HR
  · iintro ⟨S0, S1, ⟨H1, H2, H3, H4, H5, H6, H7, H8, H9, H10, H11, H12, H13, H14, H15, H16, H17, H18, H19, H20⟩, HR⟩
    isplitr [HR]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [S0]; · iexact S0
      iexact S1
    · iexact HR

/-- Before the first point the invariant is the launch's hand-over. -/
theorem carried_zero (V : Entry F) (c : Dev nD) (h : 0 ≤ cfg4.N) : carried V c 0 h = Pipeline.ΦA spec4 c := rfl

/-- After point `k` the scratch buffers hold that point's running sums and counts. -/
theorem carried_pos (V : Entry F) (c : Dev nD) (n k : ℕ) (h : n ≤ cfg4.N) (hk : n = k + 1) :
    carried V c n h = iprop(owns (c : Thread nD τ) sumsScratch fullShare (running V c k (by omega)).1
      ∗ owns (c : Thread nD τ) countsScratch fullShare (running V c k (by omega)).2
      ∗ bystanders (F := F) c ∗ ∃ r, prngReg c r) := by
  subst hk; rfl

/-- At every point the invariant holds the two scratch buffers at some contents, the bystanders and the register. -/
theorem carried_some (V : Entry F) (c : Dev nD) (n : ℕ) (h : n ≤ cfg4.N) :
    carried V c n h ⊢ iprop(∃ (s1 : Vec F S128x128 .f32) (s2 : Vec F S128x1 .f32),
      owns (c : Thread nD τ) sumsScratch fullShare s1 ∗ owns (c : Thread nD τ) countsScratch fullShare s2
        ∗ bystanders (F := F) c ∗ ∃ r, prngReg c r) := by
  cases n with
  | zero =>
    rw [carried_zero]
    refine (pool_classInv_eq c).1.trans ?_
    iintro ⟨⟨%f0, S0⟩, ⟨%f1, S1⟩, HB, HR⟩
    iexists f0, f1
    rw [owns_whole, owns_whole]
    isplitl [S0]; · iexact S0
    isplitl [S1]; · iexact S1
    isplitl [HB]; · iexact HB
    iexact HR
  | succ k =>
    rw [carried_pos V c (k + 1) k h rfl]
    iintro ⟨S0, S1, HB, HR⟩
    iexists _, _
    isplitl [S0]; · iexact S0
    isplitl [S1]; · iexact S1
    isplitl [HB]; · iexact HB
    iexact HR

/-- The two scratch buffers at any contents, the bystanders and the register are what the launch handed over. -/
theorem pool_scratch_forget (c : Dev nD) (s1 : Vec F S128x128 .f32) (s2 : Vec F S128x1 .f32) :
    iprop(owns (c : Thread nD τ) sumsScratch fullShare s1 ∗ owns (c : Thread nD τ) countsScratch fullShare s2
        ∗ bystanders (F := F) c ∗ ∃ r, prngReg c r) ⊢ (Pipeline.ΦA spec4 c : sProp 𝕄) := by
  rw [owns_whole, owns_whole]
  refine BIBase.Entails.trans ?_ (pool_classInv_eq c).2
  iintro ⟨S0, S1, HB, HR⟩
  isplitl [S0]; · iexists s1; iexact S0
  isplitl [S1]; · iexists s2; iexact S1
  isplitl [HB]; · iexact HB
  iexact HR

/-- Whatever the scratch buffers hold, they are part of what the launch handed over. -/
theorem carried_forget (V : Entry F) (c : Dev nD) (n : ℕ) (h : n ≤ cfg4.N) : carried V c n h ⊢ Pipeline.ΦA spec4 c := by
  refine (carried_some V c n h).trans ?_
  iintro ⟨%s1, %s2, H⟩
  iapply (pool_scratch_forget c s1 s2)
  iexact H

/-! ## The running sums and counts, by the block's place in its half -/

/-- A first block of a half restarts from zero. -/
theorem running_first (V : Entry F) (c : Dev nD) (t : Fin cfg4.N) (h0 : t.val % 5 = 0) :
    running V c t.val t.isLt
      = (k4_pay4 (graphIds V c t) (k4_pay1 (F := F)) (featRows V c t), k4_pay5 (graphIds V c t) (k4_pay2 (F := F))) := by
  obtain ⟨n, hn⟩ := t
  cases n with
  | zero => rfl
  | succ n => rw [running, if_pos h0]

/-- A later block adds to what the block before left. -/
theorem running_step (V : Entry F) (c : Dev nD) (t : Fin cfg4.N) (k : ℕ) (hk : t.val = k + 1) (h0 : t.val % 5 ≠ 0) :
    running V c t.val t.isLt
      = (k4_pay4 (graphIds V c t) (running V c k (by omega)).1 (featRows V c t),
          k4_pay5 (graphIds V c t) (running V c k (by omega)).2) := by
  obtain ⟨n, hn⟩ := t
  dsimp only at hk h0 ⊢
  subst hk
  rw [running, if_neg h0]

/-! # The pooling kernel's body, case by case

The second grid coordinate decides the body's two conditionals: at 0 both scratch buffers are cleared first, at 4 they
are copied, re-laid, over the two outputs' buffers last; in between the block's one-hot matrix of graph ids is
multiplied into the sums and its column sums added to the counts. Each case is run once over variable memrefs and
contents; what remains of the caller's resources is carried as a wand to an arbitrary postcondition. -/

/-- The word the first conditional tests: set exactly when the second grid coordinate is 0. -/
def poolFirstWord (i : grid4.Coords) : BitVec 1 :=
  Scalar.cmpi .ne (Scalar.extui (Scalar.cmpi .eq (BitVec.ofNat 32 (i 1).val) 0#32) : BitVec 32) 0#32

theorem pool_zeros2 : (![0, 0] : Fin 2 → ℕ) = fun _ => 0 := by funext a; fin_cases a <;> rfl
theorem pool_zeros3 : (![0, 0, 0] : Fin 3 → ℕ) = fun _ => 0 := by funext a; fin_cases a <;> rfl

section Reads

variable {sg : RefSig} {κ : Kind} {sp : Space} {S : Shape} {e : EltTy}

/-- A load through the whole-shape rectangle reads what the view reads. -/
theorem pool_readAt_all (v : View sg κ sp S e) (f : v.ty.Contents (Elt F)) {off : Fin S.rank → ℕ} (h : off = fun _ => 0)
    (inb : ∀ a, off a + S.size a ≤ S.size a) :
    v.readAt (Elt F) (Rect.unit off S.size inb).toLoadRect f = v.read (Elt F) f :=
  View.ld_unit_zero h inb (v.read (Elt F) f)

/-- After a store through the whole-shape rectangle, whatever was stored before, the view reads the payload. -/
theorem pool_read_after_store_all (v : View sg κ sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb]

end Reads

/-- A block between the first and the last of a half: sums and counts taken on from what the scratch buffers held. -/
theorem pool_sweep_mid (c : Dev nD) (i : grid4.Coords)
    (arg2 : Memref sig .tc .vmem S10000x128 .f32) (harg2 : arg2.IsWhole) (arg3 : Memref sig .tc .vmem S10000x1 .i32) (harg3 : arg3.IsWhole)
    (arg4 : Memref sig .tc .vmem S1x128x128 .f32) (harg4 : arg4.IsWhole) (arg5 : Memref sig .tc .vmem S1x128x1 .f32) (harg5 : arg5.IsWhole)
    (arg6 : Memref sig .tc .vmem S128x128 .f32) (harg6 : arg6.IsWhole) (arg7 : Memref sig .tc .vmem S128x1 .f32) (harg7 : arg7.IsWhole)
    (h1 : ¬ poolFirstWord i = 1#1) (h2 : ¬ k4_cond2 i = 1#1)
    (feats : Vec F S10000x128 .f32) (ids : Vec F S10000x1 .i32) (s1 : Vec F S128x128 .f32) (s2 : Vec F S128x1 .f32)
    (Q : sProp 𝕄) :
    iprop(owns (c : Thread nD τ) arg2 fullShare feats ∗ owns (c : Thread nD τ) arg3 fullShare ids
        ∗ owns (c : Thread nD τ) arg6 fullShare s1 ∗ owns (c : Thread nD τ) arg7 fullShare s2
        ∗ (owns (c : Thread nD τ) arg2 fullShare feats -∗ owns (c : Thread nD τ) arg3 fullShare ids
            -∗ owns (c : Thread nD τ) arg6 fullShare (k4_pay4 ids s1 feats) -∗ owns (c : Thread nD τ) arg7 fullShare (k4_pay5 ids s2) -∗ Q))
      ⊢ wp frame (wpE (defs₀ (F := F)) Variants.none (c : Thread nD τ) none) Set.univ
          (cc4__pool_partial_kernel (F := F) i arg2 harg2 arg3 harg3 arg4 harg4 arg5 harg5 arg6 harg6 arg7 harg7)
          (fun _ => Q) := by
  unfold owns
  iintro ⟨⟨%f2, %e2, H2⟩, ⟨%f3, %e3, H3⟩, ⟨%f6, %e6, H6⟩, ⟨%f7, %e7, H7⟩, HQ⟩
  simp only [cc4__pool_partial_kernel_eq_skeleton]; unfold cc4__pool_partial_kernel_skel
  unfold poolFirstWord at h1
  sl_exec
  sl_step
  iapply HQ $$ [H2] [H3] [H6] [H7]
  · iexists f2; isplitr; · ipureintro; exact e2
    iexact H2
  · iexists f3; isplitr; · ipureintro; exact e3
    iexact H3
  · iexists _; isplitr
    rotate_left
    · iexact H6
    · ipureintro
      rw [pool_read_after_store_all _ _ pool_zeros2, pool_readAt_all _ _ pool_zeros2, pool_readAt_all _ _ pool_zeros2, pool_readAt_all _ _ pool_zeros2, e2, e3, e6]
  · iexists _; isplitr
    rotate_left
    · iexact H7
    · ipureintro
      rw [pool_read_after_store_all _ _ pool_zeros2, pool_readAt_all _ _ pool_zeros2, pool_readAt_all _ _ pool_zeros2, e3, e7]

/-- The first block of a half: both scratch buffers are cleared, whatever they held, and the block's sums and counts
    taken on from zero. -/
theorem pool_sweep_first (c : Dev nD) (i : grid4.Coords)
    (arg2 : Memref sig .tc .vmem S10000x128 .f32) (harg2 : arg2.IsWhole) (arg3 : Memref sig .tc .vmem S10000x1 .i32) (harg3 : arg3.IsWhole)
    (arg4 : Memref sig .tc .vmem S1x128x128 .f32) (harg4 : arg4.IsWhole) (arg5 : Memref sig .tc .vmem S1x128x1 .f32) (harg5 : arg5.IsWhole)
    (arg6 : Memref sig .tc .vmem S128x128 .f32) (harg6 : arg6.IsWhole) (arg7 : Memref sig .tc .vmem S128x1 .f32) (harg7 : arg7.IsWhole)
    (h1 : poolFirstWord i = 1#1) (h2 : ¬ k4_cond2 i = 1#1)
    (feats : Vec F S10000x128 .f32) (ids : Vec F S10000x1 .i32) (s1 : Vec F S128x128 .f32) (s2 : Vec F S128x1 .f32)
    (Q : sProp 𝕄) :
    iprop(owns (c : Thread nD τ) arg2 fullShare feats ∗ owns (c : Thread nD τ) arg3 fullShare ids
        ∗ owns (c : Thread nD τ) arg6 fullShare s1 ∗ owns (c : Thread nD τ) arg7 fullShare s2
        ∗ (owns (c : Thread nD τ) arg2 fullShare feats -∗ owns (c : Thread nD τ) arg3 fullShare ids
            -∗ owns (c : Thread nD τ) arg6 fullShare (k4_pay4 ids (k4_pay1 (F := F)) feats)
            -∗ owns (c : Thread nD τ) arg7 fullShare (k4_pay5 ids (k4_pay2 (F := F))) -∗ Q))
      ⊢ wp frame (wpE (defs₀ (F := F)) Variants.none (c : Thread nD τ) none) Set.univ
          (cc4__pool_partial_kernel (F := F) i arg2 harg2 arg3 harg3 arg4 harg4 arg5 harg5 arg6 harg6 arg7 harg7)
          (fun _ => Q) := by
  unfold owns
  iintro ⟨⟨%f2, %e2, H2⟩, ⟨%f3, %e3, H3⟩, ⟨%f6, %e6, H6⟩, ⟨%f7, %e7, H7⟩, HQ⟩
  simp only [cc4__pool_partial_kernel_eq_skeleton]; unfold cc4__pool_partial_kernel_skel
  unfold poolFirstWord at h1
  sl_exec
  sl_step
  sl_unfold_run_names
  iapply HQ $$ [H2] [H3] [H6] [H7]
  · iexists f2; isplitr; · ipureintro; exact e2
    iexact H2
  · iexists f3; isplitr; · ipureintro; exact e3
    iexact H3
  · iexists _; isplitr
    rotate_left
    · iexact H6
    · ipureintro
      rw [pool_read_after_store_all _ _ pool_zeros2, pool_readAt_all _ _ pool_zeros2, pool_readAt_all _ _ pool_zeros2, View.readCov_unit_zero _ pool_zeros2, e2, e3]
  · iexists _; isplitr
    rotate_left
    · iexact H7
    · ipureintro
      rw [pool_read_after_store_all _ _ pool_zeros2, pool_readAt_all _ _ pool_zeros2, View.readCov_unit_zero _ pool_zeros2, e3]

/-- The last block of a half: sums and counts taken on as at any later block, then copied, with a leading unit axis,
    over the whole of the two outputs' buffers, whatever those held. -/
theorem pool_sweep_last (c : Dev nD) (i : grid4.Coords)
    (arg2 : Memref sig .tc .vmem S10000x128 .f32) (harg2 : arg2.IsWhole) (arg3 : Memref sig .tc .vmem S10000x1 .i32) (harg3 : arg3.IsWhole)
    (arg4 : Memref sig .tc .vmem S1x128x128 .f32) (harg4 : arg4.IsWhole) (arg5 : Memref sig .tc .vmem S1x128x1 .f32) (harg5 : arg5.IsWhole)
    (arg6 : Memref sig .tc .vmem S128x128 .f32) (harg6 : arg6.IsWhole) (arg7 : Memref sig .tc .vmem S128x1 .f32) (harg7 : arg7.IsWhole)
    (h1 : ¬ poolFirstWord i = 1#1) (h2 : k4_cond2 i = 1#1)
    (feats : Vec F S10000x128 .f32) (ids : Vec F S10000x1 .i32) (s1 : Vec F S128x128 .f32) (s2 : Vec F S128x1 .f32)
    (o1 : Vec F S1x128x128 .f32) (o2 : Vec F S1x128x1 .f32)
    (Q : sProp 𝕄) :
    iprop(owns (c : Thread nD τ) arg2 fullShare feats ∗ owns (c : Thread nD τ) arg3 fullShare ids
        ∗ owns (c : Thread nD τ) arg6 fullShare s1 ∗ owns (c : Thread nD τ) arg7 fullShare s2
        ∗ owns (c : Thread nD τ) arg4 fullShare o1 ∗ owns (c : Thread nD τ) arg5 fullShare o2
        ∗ (owns (c : Thread nD τ) arg2 fullShare feats -∗ owns (c : Thread nD τ) arg3 fullShare ids
            -∗ owns (c : Thread nD τ) arg6 fullShare (k4_pay4 ids s1 feats) -∗ owns (c : Thread nD τ) arg7 fullShare (k4_pay5 ids s2)
            -∗ owns (c : Thread nD τ) arg4 fullShare (k4_pay6 (k4_pay4 ids s1 feats))
            -∗ owns (c : Thread nD τ) arg5 fullShare (k4_pay7 (k4_pay5 ids s2)) -∗ Q))
      ⊢ wp frame (wpE (defs₀ (F := F)) Variants.none (c : Thread nD τ) none) Set.univ
          (cc4__pool_partial_kernel (F := F) i arg2 harg2 arg3 harg3 arg4 harg4 arg5 harg5 arg6 harg6 arg7 harg7)
          (fun _ => Q) := by
  unfold owns
  iintro ⟨⟨%f2, %e2, H2⟩, ⟨%f3, %e3, H3⟩, ⟨%f6, %e6, H6⟩, ⟨%f7, %e7, H7⟩, ⟨%f4, %e4, H4⟩, ⟨%f5, %e5, H5⟩, HQ⟩
  simp only [cc4__pool_partial_kernel_eq_skeleton]; unfold cc4__pool_partial_kernel_skel
  unfold poolFirstWord at h1
  sl_exec
  sl_step
  sl_unfold_run_names
  iapply HQ $$ [H2] [H3] [H6] [H7] [H4] [H5]
  · iexists f2; isplitr; · ipureintro; exact e2
    iexact H2
  · iexists f3; isplitr; · ipureintro; exact e3
    iexact H3
  · iexists _; isplitr
    rotate_left
    · iexact H6
    · ipureintro
      rw [pool_read_after_store_all _ _ pool_zeros2, pool_readAt_all _ _ pool_zeros2, pool_readAt_all _ _ pool_zeros2, pool_readAt_all _ _ pool_zeros2, e2, e3, e6]
  · iexists _; isplitr
    rotate_left
    · iexact H7
    · ipureintro
      rw [pool_read_after_store_all _ _ pool_zeros2, pool_readAt_all _ _ pool_zeros2, pool_readAt_all _ _ pool_zeros2, e3, e7]
  · iexists _; isplitr
    rotate_left
    · iexact H4
    · ipureintro
      rw [pool_read_after_store_all _ _ pool_zeros3, View.readCov_unit_zero _ pool_zeros2, pool_readAt_all _ _ pool_zeros2, pool_readAt_all _ _ pool_zeros2,
        pool_readAt_all _ _ pool_zeros2, e2, e3, e6]
  · iexists _; isplitr
    rotate_left
    · iexact H5
    · ipureintro
      rw [pool_read_after_store_all _ _ pool_zeros3, View.readCov_unit_zero _ pool_zeros2, pool_readAt_all _ _ pool_zeros2, pool_readAt_all _ _ pool_zeros2, e3, e7]

/-! # The pooling kernel's body obligation

At point `t` the body finds the two inputs' blocks in their staging buffers, the running sums and counts of the point
before in the scratch buffers (anything at all at the first point), and leaves this point's; the two outputs' buffers it
touches only at the last block of a half, where it fills them, and hands back as found elsewhere. -/

/-! ## The two conditions and the outputs' idle points, over the grid's ten points -/

theorem pool_first_on : ∀ t : Fin cfg4.N, t.val % 5 = 0 → poolFirstWord (grid4.coords t) = 1#1 :=
  (by decide +kernel : ∀ t : Fin grid4.N, t.val % 5 = 0 → poolFirstWord (grid4.coords t) = 1#1)
theorem pool_first_off : ∀ t : Fin cfg4.N, t.val % 5 ≠ 0 → ¬ poolFirstWord (grid4.coords t) = 1#1 :=
  (by decide +kernel : ∀ t : Fin grid4.N, t.val % 5 ≠ 0 → ¬ poolFirstWord (grid4.coords t) = 1#1)
theorem pool_last_on : ∀ t : Fin cfg4.N, t.val % 5 = 4 → k4_cond2 (grid4.coords t) = 1#1 :=
  (by decide +kernel : ∀ t : Fin grid4.N, t.val % 5 = 4 → k4_cond2 (grid4.coords t) = 1#1)
theorem pool_last_off : ∀ t : Fin cfg4.N, t.val % 5 ≠ 4 → ¬ k4_cond2 (grid4.coords t) = 1#1 :=
  (by decide +kernel : ∀ t : Fin grid4.N, t.val % 5 ≠ 4 → ¬ k4_cond2 (grid4.coords t) = 1#1)
/-- Away from the last block of a half both outputs' windows are idle, -/
theorem pool_outs_idle : ∀ t : Fin cfg4.N, t.val % 5 ≠ 4 →
    cfg4.idle 2 (cfg4.grid.coords t) = true ∧ cfg4.idle 3 (cfg4.grid.coords t) = true :=
  (by decide +kernel : ∀ t : Fin grid4.N, t.val % 5 ≠ 4 → idle4 2 (grid4.coords t) = true ∧ idle4 3 (grid4.coords t) = true)
/-- and at it both are live. -/
theorem pool_outs_live : ∀ t : Fin cfg4.N, t.val % 5 = 4 →
    cfg4.idle 2 (cfg4.grid.coords t) = false ∧ cfg4.idle 3 (cfg4.grid.coords t) = false :=
  (by decide +kernel : ∀ t : Fin grid4.N, t.val % 5 = 4 → idle4 2 (grid4.coords t) = false ∧ idle4 3 (grid4.coords t) = false)

/-! ## What the windows' buffers hold before and after the body -/

/-- Both inputs are fetched at every point: the body finds the point's blocks. -/
theorem pool_before_feats (V : Entry F) (c : Dev nD) (t : Fin cfg4.N) (d : (cfg4.win 0).block.Idx → Elt F (cfg4.win 0).elt) :
    (pool V c).before 0 t d = featRows V c t := by
  rw [Dat.before_fetched (pool V c) 0 t (fetch4_0 t)]; rfl
theorem pool_before_ids (V : Entry F) (c : Dev nD) (t : Fin cfg4.N) (d : (cfg4.win 1).block.Idx → Elt F (cfg4.win 1).elt) :
    (pool V c).before 1 t d = graphIds V c t := by
  rw [Dat.before_fetched (pool V c) 1 t (fetch4_1 t)]; rfl

/-- The invariant before and after point `t`. -/
theorem pool_inv_before (V : Entry F) (c : Dev nD) (t : Fin cfg4.N) :
    (pool V c).Φ t.castSucc = carried V c t.val (Nat.le_of_lt t.isLt) := rfl
theorem pool_inv_after (V : Entry F) (c : Dev nD) (t : Fin cfg4.N) :
    (pool V c).Φ t.succ = iprop(owns (c : Thread nD τ) sumsScratch fullShare (running V c t.val t.isLt).1
      ∗ owns (c : Thread nD τ) countsScratch fullShare (running V c t.val t.isLt).2
      ∗ bystanders (F := F) c ∗ ∃ r, prngReg c r) := rfl
/-- Nothing is owed at any point. -/
theorem pool_owes (V : Entry F) (c : Dev nD) (t : Fin cfg4.N) :
    (pool V c).owesAt () t.succ = (pool V c).owesAt () t.castSucc := rfl

/-- What the obligation asks of each window's buffer after the body. -/
theorem pool_leaves_feats (V : Entry F) (c : Dev nD) (t : Fin cfg4.N) :
    (pool V c).leavesExact 0 t = owns (c : Thread nD τ) (win4_0.stage (cfg4.slots t 0)) fullShare (featRows V c t) := rfl
theorem pool_leaves_ids (V : Entry F) (c : Dev nD) (t : Fin cfg4.N) :
    (pool V c).leavesExact 1 t = owns (c : Thread nD τ) (win4_1.stage (cfg4.slots t 1)) fullShare (graphIds V c t) := rfl
theorem pool_leaves_sums_idle (V : Entry F) (c : Dev nD) (t : Fin cfg4.N) (h4 : t.val % 5 ≠ 4) :
    (pool V c).leavesExact 2 t
      = iprop(∃ d, owns (c : Thread nD τ) (win4_2.stage (cfg4.slots t 2)) fullShare ((pool V c).before 2 t d)) := by
  rw [Dat.leavesExact_idle (pool V c) 2 t (pool_outs_idle t h4).1 (Bool.eq_false_iff.mpr (mt (flush4_2 t).mp h4))]
theorem pool_leaves_counts_idle (V : Entry F) (c : Dev nD) (t : Fin cfg4.N) (h4 : t.val % 5 ≠ 4) :
    (pool V c).leavesExact 3 t
      = iprop(∃ d, owns (c : Thread nD τ) (win4_3.stage (cfg4.slots t 3)) fullShare ((pool V c).before 3 t d)) := by
  rw [Dat.leavesExact_idle (pool V c) 3 t (pool_outs_idle t h4).2 (Bool.eq_false_iff.mpr (mt (flush4_3 t).mp h4))]
theorem pool_leaves_sums_live (V : Entry F) (c : Dev nD) (t : Fin cfg4.N) (h4 : t.val % 5 = 4) :
    (pool V c).leavesExact 2 t
      = owns (c : Thread nD τ) (win4_2.stage (cfg4.slots t 2)) fullShare (k4_pay6 (running V c t.val t.isLt).1) := by
  unfold Dat.leavesExact; rw [(pool_outs_live t h4).1]; rfl
theorem pool_leaves_counts_live (V : Entry F) (c : Dev nD) (t : Fin cfg4.N) (h4 : t.val % 5 = 4) :
    (pool V c).leavesExact 3 t
      = owns (c : Thread nD τ) (win4_3.stage (cfg4.slots t 3)) fullShare (k4_pay7 (running V c t.val t.isLt).2) := by
  unfold Dat.leavesExact; rw [(pool_outs_live t h4).2]; rfl

/-- What the body is handed at point `t`: the invariant, nothing owed, each window's current staging buffer. -/
def poolPre (V : Entry F) (c : Dev nD) (t : Fin cfg4.N) : sProp 𝕄 :=
  iprop((pool V c).Φ t.castSucc ∗ (pool V c).owesAt () t.castSucc
    ∗ (∃ d, owns (c : Thread nD τ) (win4_0.stage (cfg4.slots t 0)) fullShare ((pool V c).before 0 t d))
    ∗ (∃ d, owns (c : Thread nD τ) (win4_1.stage (cfg4.slots t 1)) fullShare ((pool V c).before 1 t d))
    ∗ (∃ d, owns (c : Thread nD τ) (win4_2.stage (cfg4.slots t 2)) fullShare ((pool V c).before 2 t d))
    ∗ (∃ d, owns (c : Thread nD τ) (win4_3.stage (cfg4.slots t 3)) fullShare ((pool V c).before 3 t d)))

/-- What it must hand back. -/
def poolPost (V : Entry F) (c : Dev nD) (t : Fin cfg4.N) : sProp 𝕄 :=
  iprop((pool V c).Φ t.succ ∗ (pool V c).owesAt () t.succ
    ∗ (pool V c).leavesExact 0 t ∗ (pool V c).leavesExact 1 t ∗ (pool V c).leavesExact 2 t ∗ (pool V c).leavesExact 3 t)

/-! ## The three kinds of point -/

/-- A first block of a half (`t % 5 = 0`): the scratch buffers may hold anything; the outputs are left as found. -/
theorem pool_sound_first (V : Entry F) (c : Dev nD) (t : Fin cfg4.N) (h0 : t.val % 5 = 0) :
    poolPre V c t ⊢ wp frame (wpE (defs₀ (F := F)) Variants.none (c : Thread nD τ) none) Set.univ (bodyAt4 (F := F) t)
      (fun _ => poolPost V c t) := by
  have h4 : t.val % 5 ≠ 4 := by omega
  unfold poolPre
  rw [pool_inv_before]
  simp only [pool_before_feats, pool_before_ids]
  iintro ⟨HΦ, HO, ⟨%d0, H0⟩, ⟨%d1, H1⟩, H2, H3⟩
  icases (carried_some V c t.val (Nat.le_of_lt t.isLt)) $$ HΦ with ⟨%s1, %s2, S0, S1, HB, HR⟩
  iapply (pool_sweep_first c (grid4.coords t) (win4_0.stage (cfg4.slots t 0)) (hstage4_0 ((cfg4.slots t 0).cast nbuf4_0)) (win4_1.stage (cfg4.slots t 1)) (hstage4_1 ((cfg4.slots t 1).cast nbuf4_1))
      (win4_2.stage (cfg4.slots t 2)) (hstage4_2 ((cfg4.slots t 2).cast nbuf4_2)) (win4_3.stage (cfg4.slots t 3)) (hstage4_3 ((cfg4.slots t 3).cast nbuf4_3))
      (Memref.whole cc4_scratch0) (Memref.isWhole_whole _) (Memref.whole cc4_scratch1) (Memref.isWhole_whole _)
      (pool_first_on t h0) (pool_last_off t h4) (featRows V c t) (graphIds V c t) s1 s2 (poolPost V c t))
  isplitl [H0]; · iexact H0
  isplitl [H1]; · iexact H1
  isplitl [S0]; · iexact S0
  isplitl [S1]; · iexact S1
  iintro H0 H1 S0 S1
  unfold poolPost
  rw [pool_inv_after, running_first V c t h0, pool_owes, pool_leaves_feats, pool_leaves_ids, pool_leaves_sums_idle V c t h4,
    pool_leaves_counts_idle V c t h4]
  isplitl [S0 S1 HB HR]
  · isplitl [S0]; · iexact S0
    isplitl [S1]; · iexact S1
    isplitl [HB]; · iexact HB
    iexact HR
  isplitl [HO]; · iexact HO
  isplitl [H0]; · iexact H0
  isplitl [H1]; · iexact H1
  isplitl [H2]; · iexact H2
  iexact H3

/-- A block strictly inside a half (`t % 5` one of 1, 2, 3): the scratch buffers hold the point before's sums and
    counts; the outputs are left as found. -/
theorem pool_sound_mid (V : Entry F) (c : Dev nD) (t : Fin cfg4.N) (h0 : t.val % 5 ≠ 0) (h4 : t.val % 5 ≠ 4) :
    poolPre V c t ⊢ wp frame (wpE (defs₀ (F := F)) Variants.none (c : Thread nD τ) none) Set.univ (bodyAt4 (F := F) t)
      (fun _ => poolPost V c t) := by
  obtain ⟨k, hk⟩ : ∃ k, t.val = k + 1 := ⟨t.val - 1, by omega⟩
  have hlt : k < cfg4.N := by have := t.isLt; omega
  unfold poolPre
  rw [pool_inv_before, carried_pos V c t.val k (Nat.le_of_lt t.isLt) hk]
  simp only [pool_before_feats, pool_before_ids]
  iintro ⟨⟨S0, S1, HB, HR⟩, HO, ⟨%d0, H0⟩, ⟨%d1, H1⟩, H2, H3⟩
  iapply (pool_sweep_mid c (grid4.coords t) (win4_0.stage (cfg4.slots t 0)) (hstage4_0 ((cfg4.slots t 0).cast nbuf4_0)) (win4_1.stage (cfg4.slots t 1)) (hstage4_1 ((cfg4.slots t 1).cast nbuf4_1))
      (win4_2.stage (cfg4.slots t 2)) (hstage4_2 ((cfg4.slots t 2).cast nbuf4_2)) (win4_3.stage (cfg4.slots t 3)) (hstage4_3 ((cfg4.slots t 3).cast nbuf4_3))
      (Memref.whole cc4_scratch0) (Memref.isWhole_whole _) (Memref.whole cc4_scratch1) (Memref.isWhole_whole _)
      (pool_first_off t h0) (pool_last_off t h4) (featRows V c t) (graphIds V c t) (running V c k hlt).1 (running V c k hlt).2
      (poolPost V c t))
  isplitl [H0]; · iexact H0
  isplitl [H1]; · iexact H1
  isplitl [S0]; · iexact S0
  isplitl [S1]; · iexact S1
  iintro H0 H1 S0 S1
  unfold poolPost
  rw [pool_inv_after, running_step V c t k hk h0, pool_owes, pool_leaves_feats, pool_leaves_ids, pool_leaves_sums_idle V c t h4,
    pool_leaves_counts_idle V c t h4]
  isplitl [S0 S1 HB HR]
  · isplitl [S0]; · iexact S0
    isplitl [S1]; · iexact S1
    isplitl [HB]; · iexact HB
    iexact HR
  isplitl [HO]; · iexact HO
  isplitl [H0]; · iexact H0
  isplitl [H1]; · iexact H1
  isplitl [H2]; · iexact H2
  iexact H3

/-- A last block of a half (`t % 5 = 4`): as inside a half, and the outputs' buffers, whatever they held, end at this
    point's sums and counts re-laid. -/
theorem pool_sound_last (V : Entry F) (c : Dev nD) (t : Fin cfg4.N) (h4 : t.val % 5 = 4) :
    poolPre V c t ⊢ wp frame (wpE (defs₀ (F := F)) Variants.none (c : Thread nD τ) none) Set.univ (bodyAt4 (F := F) t)
      (fun _ => poolPost V c t) := by
  have h0 : t.val % 5 ≠ 0 := by omega
  obtain ⟨k, hk⟩ : ∃ k, t.val = k + 1 := ⟨t.val - 1, by omega⟩
  have hlt : k < cfg4.N := by have := t.isLt; omega
  unfold poolPre
  rw [pool_inv_before, carried_pos V c t.val k (Nat.le_of_lt t.isLt) hk]
  simp only [pool_before_feats, pool_before_ids]
  iintro ⟨⟨S0, S1, HB, HR⟩, HO, ⟨%d0, H0⟩, ⟨%d1, H1⟩, ⟨%d2, H2⟩, ⟨%d3, H3⟩⟩
  iapply (pool_sweep_last c (grid4.coords t) (win4_0.stage (cfg4.slots t 0)) (hstage4_0 ((cfg4.slots t 0).cast nbuf4_0)) (win4_1.stage (cfg4.slots t 1)) (hstage4_1 ((cfg4.slots t 1).cast nbuf4_1))
      (win4_2.stage (cfg4.slots t 2)) (hstage4_2 ((cfg4.slots t 2).cast nbuf4_2)) (win4_3.stage (cfg4.slots t 3)) (hstage4_3 ((cfg4.slots t 3).cast nbuf4_3))
      (Memref.whole cc4_scratch0) (Memref.isWhole_whole _) (Memref.whole cc4_scratch1) (Memref.isWhole_whole _)
      (pool_first_off t h0) (pool_last_on t h4) (featRows V c t) (graphIds V c t) (running V c k hlt).1 (running V c k hlt).2
      ((pool V c).before 2 t d2) ((pool V c).before 3 t d3) (poolPost V c t))
  isplitl [H0]; · iexact H0
  isplitl [H1]; · iexact H1
  isplitl [S0]; · iexact S0
  isplitl [S1]; · iexact S1
  isplitl [H2]; · iexact H2
  isplitl [H3]; · iexact H3
  iintro H0 H1 S0 S1 H2 H3
  unfold poolPost
  rw [pool_inv_after, running_step V c t k hk h0, pool_owes, pool_leaves_feats, pool_leaves_ids, pool_leaves_sums_live V c t h4,
    pool_leaves_counts_live V c t h4, running_step V c t k hk h0]
  isplitl [S0 S1 HB HR]
  · isplitl [S0]; · iexact S0
    isplitl [S1]; · iexact S1
    isplitl [HB]; · iexact HB
    iexact HR
  isplitl [HO]; · iexact HO
  isplitl [H0]; · iexact H0
  isplitl [H1]; · iexact H1
  isplitl [H2]; · iexact H2
  iexact H3

/-- Every point is of one of the three kinds. -/
theorem pool_sound (V : Entry F) (c : Dev nD) (t : Fin cfg4.N) :
    poolPre V c t ⊢ wp frame (wpE (defs₀ (F := F)) Variants.none (c : Thread nD τ) none) Set.univ (bodyAt4 (F := F) t)
      (fun _ => poolPost V c t) := by
  by_cases h0 : t.val % 5 = 0
  · exact pool_sound_first V c t h0
  · by_cases h4 : t.val % 5 = 4
    · exact pool_sound_last V c t h4
    · exact pool_sound_mid V c t h0 h4

/-- At every grid point the kernel body takes the scratch buffers from what the point before left (anything, at the
    first point) to this point's running sums and counts, and at the last block of a half leaves them, re-laid, in the
    two outputs' buffers. -/
theorem pool_obl (V : Entry F) (c : Dev nD) :
    BodyObligation (pool V c) (defs₀ (F := F)) Variants.none () Set.univ := fun t => by
  rw [bigSep_W4, bigSep_W4]; exact pool_sound V c t

/-- What the launch hands the region is the invariant before the first point. -/
theorem pool_hin (V : Entry F) (c : Dev nD) : Pipeline.ΦA spec4 c ⊢ (pool V c).Φ 0 := .rfl

/-- After the last point the invariant gives back what the launch handed over: the scratch contents are forgotten. -/
theorem pool_hout (V : Entry F) (c : Dev nD) : (pool V c).Φ (Fin.last cfg4.N) ⊢ Pipeline.ΦA spec4 c :=
  carried_forget V c (Fin.last cfg4.N).val (Nat.le_of_lt_succ (Fin.last cfg4.N).isLt)

end Cert.KernelIdeal.Own

end
-- ==== Proof.Chain.lean ====
/-
  The whole run of @main: five kernel regions among six stretches of host operations, composed in order. Every weakly
  fair execution terminates without a fault, and at the end every unscoped TensorCore buffer holds what the fold of
  Boundaries.lean computes (`at10`); no item writes an argument array.
-/
import proofs.«408992_j29411936043071_4_alg».proof.Proof.Boundaries
import proofs.«408992_j29411936043071_4_alg».proof.Proof.ProjectAObl
import proofs.«408992_j29411936043071_4_alg».proof.Proof.ProjectBObl
import proofs.«408992_j29411936043071_4_alg».proof.Proof.ActivateAObl
import proofs.«408992_j29411936043071_4_alg».proof.Proof.ActivateBObl
import proofs.«408992_j29411936043071_4_alg».proof.Proof.PoolObl
import proofs.«408992_j29411936043071_4_alg».proof.Proof.Gen.KernelIdeal.Regions
import Idealize.ShloMosaic.Lib.Pipeline.Regions
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

/-! ## Owing nothing, inside a pipeline and outside it -/

/-- A core that owes nothing, whatever pairs it has recorded, owes nothing within a point's bound when the data record
    every pair there. -/
theorem owesAt_of_owes_zero {cfg : Cfg sig Λ₀} {c : Dev nD} (dat : Dat τ (Elt F) Unit ℕ (UR sig nD τ) ℕ cfg c)
    (t : Fin (cfg.N + 1)) (h0 : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [h0, hr]
  iintro ⟨%W, HO⟩
  iexists W
  isplitr
  · ipureintro; exact fun _ _ => Or.inl trivial
  · iexact HO

/-- Conversely the bound is forgotten. -/
theorem owes_zero_of_owesAt {cfg : Cfg sig Λ₀} {c : Dev nD} (dat : Dat τ (Elt F) Unit ℕ (UR sig nD τ) ℕ cfg c)
    (t : Fin (cfg.N + 1)) (h0 : dat.owed t = 0) :
    (dat.owesAt () t : sProp 𝕄) ⊢ iprop(∃ W, owes (c : Thread nD τ) (0 : CellTallies nD τ sig Unit) W) := by
  unfold Pipeline.Dat.owesAt Pipeline.owesWithin
  rw [h0]
  iintro ⟨%W, -, HO⟩
  iexists W
  iexact HO

/-- No pair of a cell and an index is given a level: no core of this program waits on another. -/
abbrev noPairs : GSem nD τ sig → Finset Unit := fun _ => ∅
abbrev noLevel : GSem nD τ sig → Unit → ℕ := fun _ _ => 0

/-- What a core holds between two items besides its unscoped buffers: the generator register at some state, and that it
    owes nothing. -/
abbrev beside (c : Dev nD) : sProp 𝕄 :=
  iprop((∃ r, prngReg c r) ∗ ∃ W, owes (c : Thread nD τ) (0 : CellTallies nD τ sig Unit) W)

/-- A pipeline with no prefetched table holds none. -/
theorem prefHeld_none (c : Dev nD) (q : Fin (Pipeline.Prefetch.none (sig := sig)).K → PosShare TreeShare)
    (V : (Pipeline.Prefetch.none (sig := sig)).Contents (Elt F)) :
    (Pipeline.prefHeld (Ix := Unit) (Name := ℕ) (U := UR sig nD τ) (Lvl := ℕ) Pipeline.Prefetch.none c q V : sProp 𝕄) = BI.emp := by
  unfold Pipeline.prefHeld
  rw [Finset.univ_eq_empty, BI.bigSep_empty]

/-! ## A region over buffers held at a valuation -/

section Region

variable (pdats : (p : Fin 5) → (c : Dev nD) → Dat τ (Elt F) Unit ℕ (UR sig nD τ) ℕ (Pipeline.pin (pcfgs (F := F)) adm p) c)

set_option backward.isDefEq.respectTransparency.types false in
/-- Pipeline `p` as an item of @main, for data of the plain kind (full shares, nothing owed, every pair recorded, an
    invariant that starts from and ends at the class invariant): entered with every unscoped buffer held at `Vin`, it
    leaves them held at `Vout`, provided `Vout` has each of the pipeline's arrays at what the write-backs leave and
    agrees with `Vin` elsewhere. The generator register and the empty debt ride beside the buffers. -/
def regionOf (p : Fin 5) (lay : Pipeline.LaunchFacts (nD := nD) (τ := τ) cfgs p)
    (Vin Vout : Dev nD → Valuation τ sig (Elt F))
    (hbody : ∀ c, BodyObligation (pdats p c) (defs₀ (F := F)) Variants.none () Set.univ)
    (hA : ∀ c w, (pdats p c).A w = Vin c (Pipeline.arrRef (Pipeline.pin (pcfgs (F := F)) adm p).spec w))
    (hq : ∀ c w, (pdats p c).share w = fullShare)
    (howed : ∀ c t, (pdats p c).owed t = 0)
    (hrec : ∀ c t, (pdats p c).recorded t = Set.univ)
    (hΦin : ∀ c, Pipeline.ΦA (Pipeline.pin (pcfgs (F := F)) adm p).spec c ⊢ (pdats p c).Φ 0)
    (hΦout : ∀ c, (pdats p c).Φ (Fin.last (Pipeline.pin (pcfgs (F := F)) adm p).N) ⊢ Pipeline.ΦA (Pipeline.pin (pcfgs (F := F)) adm p).spec c)
    (hF : ∀ c w, (pdats p c).arrAt w (Pipeline.pin (pcfgs (F := F)) adm p).N = Vout c (Pipeline.arrRef (Pipeline.pin (pcfgs (F := F)) adm p).spec w))
    (hrest : ∀ c (b : Ref sig .tc), b ∉ Finset.univ.image (Pipeline.arrRef (Pipeline.pin (pcfgs (F := F)) adm p).spec) → Vout c b = Vin c b) :
    Pipeline.RegionSeg (pcfgs (F := F)) adm pdats () defs₀ Variants.none noPairs noLevel p where
  win := lay.win.to₀
  block_pos := lay.block_pos
  stage_whole := lay.stage_whole
  K := PEmpty
  osem k := k.elim
  ho := Pipeline.OwnSemFacts.none _
  hbody c := (hbody c).loose
  hwaits := Pipeline.hwaits_of_owed_zero _ _ _ _ noPairs noLevel p howed
  pre c := iprop(StableHlo.held (c : Thread nD τ) (Pipeline.ucRefs τ sig) (Vin c) ∗ beside c)
  post c := iprop(StableHlo.held (c : Thread nD τ) (Pipeline.ucRefs τ sig) (Vout c) ∗ beside c)
  X c := iprop(∃ r, prngReg c r)
  Y c := iprop(∃ r, prngReg c r)
  Z c := Pipeline.unscopedRest (Pipeline.pin (pcfgs (F := F)) adm p).spec c (fun b => Vin c b)
  hentry c := by
    have hsplit := Pipeline.arrays_of_unscopedBufs (pcfgs (F := F)) adm pdats lay.win lay.arr_whole c (hq c) (fun b => Vin c b) (hA c)
    rw [Pipeline.unscopedBufs_held c (Vin c)] at hsplit
    have hnone : (BI.emp : sProp 𝕄) ⊢ Pipeline.prefHeld (pcfgs (F := F) p).pre c (fun _ => fullShare) (adm p).1 :=
      Entails.of_eq (prefHeld_none c _ _).symm
    iintro ⟨⟨Hh, Hr, HO⟩, -, -⟩
    imodintro
    ihave H := hsplit $$ Hh
    icases H with ⟨Ha, Hz⟩
    isplitl [Ha]; · iexact Ha
    isplitr
    · iapply hnone; iempintro
    isplitl [HO]
    · iapply (owesAt_of_owes_zero (pdats p c) 0 (howed c 0) (hrec c 0)); iexact HO
    isplitl [Hr]; · iexact Hr
    iexact Hz
  hin c := by
    refine BIBase.Entails.trans ?_ (hΦin c)
    unfold Pipeline.ΦA
    iintro ⟨HX, -, Hs⟩
    isplitl [Hs]; · iexact Hs
    iexact HX
  hout c := by
    refine (hΦout c).trans ?_
    unfold Pipeline.ΦA
    rw [Pipeline.ownSems0_none]
    iintro ⟨Hs, HX⟩
    isplitl [HX]; · iexact HX
    isplitr; · iempintro
    iexact Hs
  hexit c := by
    have hjoin := Pipeline.unscopedBufs_of_arrays (pcfgs (F := F)) adm lay.win lay.arr_whole c pdats (hq c)
      (fun b => Vin c b) (fun b => Vout c b) (fun w => (pdats p c).arrAt w (Pipeline.pin (pcfgs (F := F)) adm p).N) (hF c) (hrest c)
    rw [Pipeline.unscopedBufs_held c (Vout c)] at hjoin
    iintro ⟨Ha, HO, HY, HZ⟩
    imodintro
    isplitl [Ha HZ]
    · iapply hjoin
      isplitl [Ha]; · iexact Ha
      iexact HZ
    isplitl [HY]; · iexact HY
    iapply (owes_zero_of_owesAt (pdats p c) _ (howed c _)); iexact HO

end Region

/-! ## What the write-backs leave, read off an updated valuation -/

section Leaves

variable {cfg : Cfg sig Λ₀} {c : Dev nD} (dat : Dat τ (Elt F) Unit ℕ (UR sig nD τ) ℕ cfg c)

/-- Data whose inputs are held whole hold every array whole. -/
theorem share_full (h : ∀ w, dat.q w = fullShare) (w : Fin cfg.W) : dat.share w = fullShare := by
  unfold Pipeline.Dat.share
  rw [h w]
  exact ite_self _

/-- A buffer that is none of the pipeline's arrays is not the array of window `o`. -/
theorem ne_arr_of_not_mem (o : Fin cfg.W) (b : Ref sig .tc) (hb : b ∉ Finset.univ.image (Pipeline.arrRef cfg.spec)) :
    (Proc.devRef .tc b : DevRef τ sig) ≠ Proc.devRef .tc (Pipeline.arrRef cfg.spec o) :=
  StableHlo.devRef_ne_of_ne fun e => hb (by rw [e]; exact Finset.mem_image_of_mem _ (Finset.mem_univ o))

/-- One result array `o`, every other window an input: the valuation `V` the region is entered at, updated at `o`'s
    buffer with what the write-backs leave there, holds every array of the pipeline at what the write-backs leave. -/
theorem leaves_one (V : Valuation τ sig (Elt F)) (hA : ∀ w, dat.A w = V (Pipeline.arrRef cfg.spec w))
    (hinj : Function.Injective (Pipeline.arrRef cfg.spec)) (o : Fin cfg.W)
    (hin : ∀ w, w ≠ o → (cfg.win w).isOut = false) (w : Fin cfg.W) :
    dat.arrAt w cfg.N
      = Function.update V (Proc.devRef .tc (Pipeline.arrRef cfg.spec o)) (dat.arrAt o cfg.N) (Proc.devRef .tc (Pipeline.arrRef cfg.spec w)) := by
  by_cases h : w = o
  · subst h; rw [Function.update_self]
  · have hne : (Proc.devRef .tc (Pipeline.arrRef cfg.spec w) : DevRef τ sig) ≠ Proc.devRef .tc (Pipeline.arrRef cfg.spec o) :=
      StableHlo.devRef_ne_of_ne fun e => h (hinj e)
    rw [Function.update_of_ne hne, dat.arrAt_in w (hin w h), hA w]

/-- and agrees with `V` off the pipeline's arrays. -/
theorem rest_one (V : Valuation τ sig (Elt F)) (o : Fin cfg.W) (X : Buf (Elt F) ((c : Thread nD τ).loc (Pipeline.arrRef cfg.spec o)))
    (b : Ref sig .tc) (hb : b ∉ Finset.univ.image (Pipeline.arrRef cfg.spec)) :
    Function.update V (Proc.devRef .tc (Pipeline.arrRef cfg.spec o)) X (Proc.devRef .tc b) = V (Proc.devRef .tc b) := by
  rw [Function.update_of_ne (ne_arr_of_not_mem o b hb)]

/-- Two result arrays `o₁ ≠ o₂`, every other window an input: likewise, the valuation updated at both. -/
theorem leaves_two (V : Valuation τ sig (Elt F)) (hA : ∀ w, dat.A w = V (Pipeline.arrRef cfg.spec w))
    (hinj : Function.Injective (Pipeline.arrRef cfg.spec)) (o₁ o₂ : Fin cfg.W)
    (hin : ∀ w, w ≠ o₁ → w ≠ o₂ → (cfg.win w).isOut = false) (w : Fin cfg.W) :
    dat.arrAt w cfg.N
      = Function.update (Function.update V (Proc.devRef .tc (Pipeline.arrRef cfg.spec o₁)) (dat.arrAt o₁ cfg.N))
          (Proc.devRef .tc (Pipeline.arrRef cfg.spec o₂)) (dat.arrAt o₂ cfg.N) (Proc.devRef .tc (Pipeline.arrRef cfg.spec w)) := by
  by_cases h₂ : w = o₂
  · subst h₂; rw [Function.update_self]
  · have hne₂ : (Proc.devRef .tc (Pipeline.arrRef cfg.spec w) : DevRef τ sig) ≠ Proc.devRef .tc (Pipeline.arrRef cfg.spec o₂) :=
      StableHlo.devRef_ne_of_ne fun e => h₂ (hinj e)
    rw [Function.update_of_ne hne₂]
    by_cases h₁ : w = o₁
    · subst h₁; rw [Function.update_self]
    · have hne₁ : (Proc.devRef .tc (Pipeline.arrRef cfg.spec w) : DevRef τ sig) ≠ Proc.devRef .tc (Pipeline.arrRef cfg.spec o₁) :=
        StableHlo.devRef_ne_of_ne fun e => h₁ (hinj e)
      rw [Function.update_of_ne hne₁, dat.arrAt_in w (hin w h₁ h₂), hA w]

theorem rest_two (V : Valuation τ sig (Elt F)) (o₁ o₂ : Fin cfg.W)
    (X₁ : Buf (Elt F) ((c : Thread nD τ).loc (Pipeline.arrRef cfg.spec o₁))) (X₂ : Buf (Elt F) ((c : Thread nD τ).loc (Pipeline.arrRef cfg.spec o₂)))
    (b : Ref sig .tc) (hb : b ∉ Finset.univ.image (Pipeline.arrRef cfg.spec)) :
    Function.update (Function.update V (Proc.devRef .tc (Pipeline.arrRef cfg.spec o₁)) X₁) (Proc.devRef .tc (Pipeline.arrRef cfg.spec o₂)) X₂ (Proc.devRef .tc b)
      = V (Proc.devRef .tc b) := by
  rw [Function.update_of_ne (ne_arr_of_not_mem o₂ b hb), Function.update_of_ne (ne_arr_of_not_mem o₁ b hb)]

end Leaves

/-! ## This program's five pipelines and six host stretches as items -/

variable (m : (ℓ : Loc nD τ sig) → Buf (Elt F) ℓ) (ρ : Dev nD → PrngReg)

/-- The five pipelines' data, each over the buffers its region is entered with. -/
def pdats : (p : Fin 5) → (c : Dev nD) → Dat τ (Elt F) Unit ℕ (UR sig nD τ) ℕ (Pipeline.pin (pcfgs (F := F)) adm p) c
  | ⟨0, _⟩ => fun c => projA (asEntry (at1 m)) c
  | ⟨1, _⟩ => fun c => actA (asEntry (at3 m)) c
  | ⟨2, _⟩ => fun c => projB (asEntry (at4 m)) c
  | ⟨3, _⟩ => fun c => actB (asEntry (at6 m)) c
  | ⟨4, _⟩ => fun c => pool (asEntry (at8 m)) c

set_option backward.isDefEq.respectTransparency.types false in
/-- The first projection: entered at `at1`, left at `at2`. -/
def region0 : Pipeline.RegionSeg (pcfgs (F := F)) adm (pdats m) () defs₀ Variants.none noPairs noLevel 0 :=
  regionOf (pdats m) 0 launch0 (at1 m) (at2 m)
    (fun c => projA_obl (asEntry (at1 m)) c)
    (fun c w => projA_A (asEntry (at1 m)) c w)
    (fun c => share_full _ fun _ => rfl)
    (fun _ _ => rfl) (fun _ _ => rfl)
    (fun _ => .rfl) (fun _ => .rfl)
    (fun c w => leaves_one (projA (asEntry (at1 m)) c) (at1 m c) (projA_A (asEntry (at1 m)) c) winFacts0.arr_inj 2 (by decide) w)
    (fun c b hb => rest_one (cfg := cfg0) (c := c) (at1 m c) 2 _ b hb)

set_option backward.isDefEq.respectTransparency.types false in
/-- The first bias-and-rectifier: entered at `at3`, left at `at4`. -/
def region1 : Pipeline.RegionSeg (pcfgs (F := F)) adm (pdats m) () defs₀ Variants.none noPairs noLevel 1 :=
  regionOf (pdats m) 1 launch1 (at3 m) (at4 m)
    (fun c => actA_obl (asEntry (at3 m)) c)
    (fun c w => actA_A (asEntry (at3 m)) c w)
    (fun c => share_full _ fun _ => rfl)
    (fun _ _ => rfl) (fun _ _ => rfl)
    (fun _ => .rfl) (fun _ => .rfl)
    (fun c w => leaves_one (actA (asEntry (at3 m)) c) (at3 m c) (actA_A (asEntry (at3 m)) c) winFacts1.arr_inj 2 (by decide) w)
    (fun c b hb => rest_one (cfg := cfg1) (c := c) (at3 m c) 2 _ b hb)

set_option backward.isDefEq.respectTransparency.types false in
/-- The second projection: entered at `at4`, left at `at5`. -/
def region2 : Pipeline.RegionSeg (pcfgs (F := F)) adm (pdats m) () defs₀ Variants.none noPairs noLevel 2 :=
  regionOf (pdats m) 2 launch2 (at4 m) (at5 m)
    (fun c => projB_obl (asEntry (at4 m)) c)
    (fun c w => projB_A (asEntry (at4 m)) c w)
    (fun c => share_full _ fun _ => rfl)
    (fun _ _ => rfl) (fun _ _ => rfl)
    (fun _ => .rfl) (fun _ => .rfl)
    (fun c w => leaves_one (projB (asEntry (at4 m)) c) (at4 m c) (projB_A (asEntry (at4 m)) c) winFacts2.arr_inj 2 (by decide) w)
    (fun c b hb => rest_one (cfg := cfg2) (c := c) (at4 m c) 2 _ b hb)

set_option backward.isDefEq.respectTransparency.types false in
/-- The second bias-and-rectifier: entered at `at6`, left at `at7`. -/
def region3 : Pipeline.RegionSeg (pcfgs (F := F)) adm (pdats m) () defs₀ Variants.none noPairs noLevel 3 :=
  regionOf (pdats m) 3 launch3 (at6 m) (at7 m)
    (fun c => actB_obl (asEntry (at6 m)) c)
    (fun c w => actB_A (asEntry (at6 m)) c w)
    (fun c => share_full _ fun _ => rfl)
    (fun _ _ => rfl) (fun _ _ => rfl)
    (fun _ => .rfl) (fun _ => .rfl)
    (fun c w => leaves_one (actB (asEntry (at6 m)) c) (at6 m c) (actB_A (asEntry (at6 m)) c) winFacts3.arr_inj 2 (by decide) w)
    (fun c b hb => rest_one (cfg := cfg3) (c := c) (at6 m c) 2 _ b hb)

set_option backward.isDefEq.respectTransparency.types false in
/-- The pooling kernel: entered at `at8`, left at `at9`; its invariant starts from and ends at the class invariant. -/
def region4 : Pipeline.RegionSeg (pcfgs (F := F)) adm (pdats m) () defs₀ Variants.none noPairs noLevel 4 :=
  regionOf (pdats m) 4 launch4 (at8 m) (at9 m)
    (fun c => pool_obl (asEntry (at8 m)) c)
    (fun c w => pool_A (asEntry (at8 m)) c w)
    (fun c => share_full _ fun _ => rfl)
    (fun _ _ => rfl) (fun _ _ => rfl)
    (fun c => pool_hin (asEntry (at8 m)) c) (fun c => pool_hout (asEntry (at8 m)) c)
    (fun c w => leaves_two (pool (asEntry (at8 m)) c) (at8 m c) (pool_A (asEntry (at8 m)) c) winFacts4.arr_inj 2 3 (by decide) w)
    (fun c b hb => rest_two (cfg := cfg4) (c := c) (at8 m c) 2 3 _ _ b hb)

/-- A stretch of host operations over the unscoped buffers held at `V`: it leaves them at `StableHlo.after ops (V c)`. -/
def hostItem (ops : List (HloOp τ sig (Elt F))) (hsub : ops.Forall fun op => op.bufs ⊆ StableHlo.tcRefs τ sig)
    (hfresh : ops.Forall fun op => op.fresh = ∅) (V : Dev nD → Valuation τ sig (Elt F)) :
    Pipeline.HostSeg (Ix := Unit) (Name := ℕ) (U := UR sig nD τ) (Lvl := ℕ) (pcfgs (F := F)) defs₀ Variants.none noPairs noLevel :=
  Pipeline.HostSeg.ofOps _ _ _ _ _ (Pipeline.ucRefs τ sig) ops
    (fun op h => Pipeline.sub_ucRefs op (List.forall_iff_forall_mem.mp hsub op h))
    (fun op h => List.forall_iff_forall_mem.mp hfresh op h) V beside

/-- @main, item by item. -/
def items : List (Pipeline.Seg (pcfgs (F := F)) adm (pdats m) () defs₀ Variants.none noPairs noLevel) :=
  [ .host (hostItem hostOps0 hostOps0_sub hostOps0_fresh (at0 m)),
    .region (region0 m),
    .host (hostItem hostOps1 hostOps1_sub hostOps1_fresh (at2 m)),
    .region (region1 m),
    .region (region2 m),
    .host (hostItem hostOps3 hostOps3_sub hostOps3_fresh (at5 m)),
    .region (region3 m),
    .host (hostItem hostOps4 hostOps4_sub hostOps4_fresh (at7 m)),
    .region (region4 m),
    .host (hostItem hostOps5 hostOps5_sub hostOps5_fresh (at9 m)) ]

/-! ## The run -/

set_option backward.isDefEq.respectTransparency.types false in
/-- Every weakly fair execution of @main from memory `m` with zero counters terminates, nothing faulting, and every
    final memory holds, in each unscoped buffer of each core, the last boundary's contents. -/
theorem run_all : θ_run (defs (F := F)) (onTc (τ := τ) (main (F := F))) ⟨m, fun _ => 0, ρ⟩
    (fun r => ∀ c : Dev nD, ∀ b ∈ Pipeline.ucRefs τ sig, r.2.mem ((c : Thread nD τ).1, b) = at10 m c b) := by
  refine Pipeline.θ_run_regions_kit (pcfgs (F := F)) adm (pdats m) () cellOf_inj emb₁ defs₀ Variants.none noPairs noLevel
    m ρ main (items m) (fun c Q => ?hmain) ?hnd (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj)) (hu₀ := ?hu₀)
    (T₀ := fun c => iprop(StableHlo.held (c : Thread nD τ) (Pipeline.ucRefs τ sig) (at0 m c) ∗ beside c))
    (Tₙ := fun c => StableHlo.held (c : Thread nD τ) (Pipeline.ucRefs τ sig) (at10 m c))
    (hch := ?hch) (hinit := ?hinit)
    (QY := fun c s => ∀ b ∈ Pipeline.ucRefs τ sig, s.mem ((c : Thread nD τ).1, b) = at10 m c b)
    (hfin := fun c s' => ?hfin) (hQ := fun _ h => h)
  case hmain =>
    -- @main is the chain of the items' programs
    rewrite [main_chain c, Pipeline.Seg.run_eq_chain,
      show (items m).map Pipeline.Seg.prog = [
        StableHlo.seq hostOps0,
        Prog.lift (.customCall (Pipeline.entry 0) ()),
        StableHlo.seq hostOps1,
        Prog.lift (.customCall (Pipeline.entry 1) ()),
        Prog.lift (.customCall (Pipeline.entry 2) ()),
        StableHlo.seq hostOps3,
        Prog.lift (.customCall (Pipeline.entry 3) ()),
        StableHlo.seq hostOps4,
        Prog.lift (.customCall (Pipeline.entry 4) ()),
        StableHlo.seq hostOps5 ] from rfl]
    exact .rfl
  case hnd =>
    -- each pipeline is entered once
    simp only [items, Pipeline.Seg.pipes_host, Pipeline.Seg.pipes_region, Pipeline.Seg.pipes_nil]; decide
  case hu₀ =>
    -- the launch element is the rounds algebra's initial element at the staging cells; no other ghost resource is dealt
    rw [ownU_emb₁]
    iintro Hu
    imodintro
    isplitl [Hu]; · iexact Hu
    iapply (show (BI.emp : sProp 𝕄) ⊢ bigSep Finset.univ (fun _ : Dev nD => (BI.emp : sProp 𝕄)) from by
      rw [BI.bigSep_emp_const])
    iempintro
  case hch =>
    -- each item is entered with exactly what the one before it left; at the end the register is let go
    refine ⟨fun _ => .rfl, fun _ => .rfl, fun _ => .rfl, fun _ => .rfl, fun _ => .rfl, fun _ => .rfl, fun _ => .rfl,
      fun _ => .rfl, fun _ => .rfl, fun _ => .rfl, fun c => ?_⟩
    show iprop(StableHlo.held (c : Thread nD τ) (Pipeline.ucRefs τ sig) (at10 m c) ∗ beside c)
      ⊢ iprop(StableHlo.held (c : Thread nD τ) (Pipeline.ucRefs τ sig) (at10 m c) ∗ ∃ W, owes (c : Thread nD τ) (0 : CellTallies nD τ sig Unit) W)
    iintro ⟨Hh, -, HO⟩
    isplitl [Hh]; · iexact Hh
    iexact HO
  case hinit =>
    -- each core's launch holdings are its unscoped buffers at the launch contents, its register, and no debt
    refine Pipeline.initEach noPairs noLevel fun c => ?_
    rw [show unscopedBufs c (fun b => m ((c : Thread nD τ).loc b)) = StableHlo.held (c : Thread nD τ) (Pipeline.ucRefs τ sig) (at0 m c)
      from Pipeline.unscopedBufs_held c (at0 m c)]
    iintro ⟨⟨Hh, -, HO, -, Hp, -⟩, -⟩
    imodintro
    isplitl [Hh]; · iexact Hh
    isplitl [Hp]; · iexists _; iexact Hp
    iexists ∅; iexact HO
  case hfin =>
    -- every held buffer is what the final memory has there
    unfold StableHlo.held
    iintro ⟨Hh, HSI⟩
    ihave Hr := (pointsTo_read_all (Pipeline.ucRefs τ sig) (fun b => ((c : Thread nD τ).1, b)) (at10 m c) s') $$ [Hh HSI]
    · isplitl [Hh] <;> iassumption
    icases Hr with ⟨%h, HSI⟩
    imodintro
    isplitr
    · ipureintro; exact h
    · iexact HSI

/-! ## The arguments are never written -/

/-- An unscoped TensorCore reference is one of those the run reads back. -/
theorem mem_ucRefs (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- A buffer that no host operation writes and that is no region's result holds at the last boundary what it held at launch. -/
theorem at10_of_unwritten (c : Dev nD) (r : Ref sig .tc)
    (h0 : r ∉ hostOps0_W) (h1 : r ∉ hostOps1_W) (h3 : r ∉ hostOps3_W) (h4 : r ∉ hostOps4_W) (h5 : r ∉ hostOps5_W)
    (hr : r ∉ ([main_v29, main_v44, main_v45, main_v60, main_v62_0, main_v62_1] : List (Ref sig .tc))) :
    at10 m c r = m ((c : Thread nD τ).loc r) := by
  have ne : ∀ x ∈ ([main_v29, main_v44, main_v45, main_v60, main_v62_0, main_v62_1] : List (Ref sig .tc)),
      (Proc.devRef .tc r : DevRef τ sig) ≠ Proc.devRef .tc x :=
    fun x hx => StableHlo.devRef_ne_of_ne fun e => hr (e ▸ hx)
  have e10 : at10 m c r = at9 m c r := StableHlo.after_of_writes_sub hostOps5 _ hostOps5_writes h5
  have e9 : at9 m c r = at8 m c r :=
    (Function.update_of_ne (ne main_v62_1 (by simp)) _ _).trans (Function.update_of_ne (ne main_v62_0 (by simp)) _ _)
  have e8 : at8 m c r = at7 m c r := StableHlo.after_of_writes_sub hostOps4 _ hostOps4_writes h4
  have e7 : at7 m c r = at6 m c r := Function.update_of_ne (ne main_v60 (by simp)) _ _
  have e6 : at6 m c r = at5 m c r := StableHlo.after_of_writes_sub hostOps3 _ hostOps3_writes h3
  have e5 : at5 m c r = at4 m c r := Function.update_of_ne (ne main_v45 (by simp)) _ _
  have e4 : at4 m c r = at3 m c r := Function.update_of_ne (ne main_v44 (by simp)) _ _
  have e3 : at3 m c r = at2 m c r := StableHlo.after_of_writes_sub hostOps1 _ hostOps1_writes h1
  have e2 : at2 m c r = at1 m c r := Function.update_of_ne (ne main_v29 (by simp)) _ _
  have e1 : at1 m c r = at0 m c r := StableHlo.after_of_writes_sub hostOps0 _ hostOps0_writes h0
  exact e10.trans (e9.trans (e8.trans (e7.trans (e6.trans (e5.trans (e4.trans (e3.trans (e2.trans e1))))))))

/-- No host operation and no region writes an argument: the last boundary holds each as launched. -/
theorem at10_args (c : Dev nD) :
    at10 m c main_arg0 = m ((c : Thread nD τ).loc main_arg0)
    ∧ at10 m c main_arg1 = m ((c : Thread nD τ).loc main_arg1)
    ∧ at10 m c main_arg2 = m ((c : Thread nD τ).loc main_arg2)
    ∧ at10 m c main_arg3 = m ((c : Thread nD τ).loc main_arg3)
    ∧ at10 m c main_arg4 = m ((c : Thread nD τ).loc main_arg4)
    ∧ at10 m c main_arg5 = m ((c : Thread nD τ).loc main_arg5)
    ∧ at10 m c main_arg6 = m ((c : Thread nD τ).loc main_arg6)
    ∧ at10 m c main_arg7 = m ((c : Thread nD τ).loc main_arg7)
    ∧ at10 m c main_arg8 = m ((c : Thread nD τ).loc main_arg8) :=
  ⟨at10_of_unwritten m c main_arg0 (by decide) (by decide) (by decide) (by decide) (by decide) (by decide),
   at10_of_unwritten m c main_arg1 (by decide) (by decide) (by decide) (by decide) (by decide) (by decide),
   at10_of_unwritten m c main_arg2 (by decide) (by decide) (by decide) (by decide) (by decide) (by decide),
   at10_of_unwritten m c main_arg3 (by decide) (by decide) (by decide) (by decide) (by decide) (by decide),
   at10_of_unwritten m c main_arg4 (by decide) (by decide) (by decide) (by decide) (by decide) (by decide),
   at10_of_unwritten m c main_arg5 (by decide) (by decide) (by decide) (by decide) (by decide) (by decide),
   at10_of_unwritten m c main_arg6 (by decide) (by decide) (by decide) (by decide) (by decide) (by decide),
   at10_of_unwritten m c main_arg7 (by decide) (by decide) (by decide) (by decide) (by decide) (by decide),
   at10_of_unwritten m c main_arg8 (by decide) (by decide) (by decide) (by decide) (by decide) (by decide)⟩

end Cert.KernelIdeal.Own

end
-- ==== Proof.WordLevel.Entry.lean ====
/-
  The contents of every TensorCore buffer on every core at the moment a kernel region is entered.
  Each region's data is stated over such contents as a parameter; the run instantiates it region by region.
-/
import proofs.«408992_j29411936043071_4_alg».proof.Proof.Gen.Kernel.Launch

noncomputable section

namespace Cert.Kernel.Own

open Idealize.ShloMosaic Idealize.ShloMosaic.TcCoe Idealize.SL.Sem
open Cert.Kernel

/-- One buffer contents per core and per TensorCore reference. -/
abbrev Entry (F : FTy → Type) [FloatOps F] : Type :=
  (c : Dev nD) → (b : Ref sig .tc) → Buf (Elt F) ((c : Thread nD τ).loc b)

end Cert.Kernel.Own

end
-- ==== Proof.WordLevel.ProjectA.lean ====
import proofs.«408992_j29411936043071_4_alg».proof.Proof.Gen.Kernel.Launch
import proofs.«408992_j29411936043071_4_alg».proof.Proof.Gen.Kernel.Skeleton
import proofs.«408992_j29411936043071_4_alg».proof.Proof.Gen.Kernel.Points
import Idealize.ShloMosaic.Lib.Pipeline.Frame
import Idealize.ShloMosaic.Lib.Pipeline.FrameBody
import Idealize.ShloMosaic.Lib.Tactic
import proofs.«408992_j29411936043071_4_alg».proof.Proof.WordLevel.Entry
set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel Cert.Kernel.Gen

variable {F : FTy → Type} [FloatOps F]

/-! # The first projection (pallas_call 0): ten row blocks of x, each multiplied by the whole of W1 -/

/-- Rows 10000·t … 10000·t + 9999 of the array being projected, as the region finds it. -/
def rowsA (V : Entry F) (c : Dev nD) (t : Fin cfg0.N) : Vec F S10000x128 .f32 :=
  ((cfg0.win 0).blk t).view.read (Elt F) (V c (Pipeline.arrRef spec0 0))

/-- The weight matrix: its one block is the whole array, at every point. -/
def weightsA (V : Entry F) (c : Dev nD) (t : Fin cfg0.N) : Vec F S128x128 .f32 :=
  ((cfg0.win 1).blk t).view.read (Elt F) (V c (Pipeline.arrRef spec0 1))

/-- The pipeline's data: arrays as found; after the body the two inputs' buffers unchanged and the output's at the
    product of the row block with the weights; the class invariant; nothing owed; full shares. -/
def projA (V : Entry F) (c : Dev nD) : Dat τ (Elt F) Unit ℕ (UR sig nD τ) ℕ cfg0 c where
  A w := V c (Pipeline.arrRef spec0 w)
  after w t := match w with
    | ⟨0, _⟩ => rowsA V c t
    | ⟨1, _⟩ => weightsA V c t
    | ⟨2, _⟩ => k0_pay1 (rowsA V c t) (weightsA V c t)
  Φ _ := Pipeline.ΦA spec0 c
  q _ := fullShare
  owed _ := 0

theorem projA_A (V : Entry F) (c : Dev nD) (w : Fin cfg0.W) : (projA V c).A w = V c (Pipeline.arrRef spec0 w) := by
  dsimp only [projA]

end Cert.Kernel.Own

end
-- ==== Proof.WordLevel.ProjectB.lean ====
import proofs.«408992_j29411936043071_4_alg».proof.Proof.Gen.Kernel.Launch
import proofs.«408992_j29411936043071_4_alg».proof.Proof.Gen.Kernel.Skeleton
import proofs.«408992_j29411936043071_4_alg».proof.Proof.Gen.Kernel.Points
import Idealize.ShloMosaic.Lib.Pipeline.Frame
import Idealize.ShloMosaic.Lib.Pipeline.FrameBody
import Idealize.ShloMosaic.Lib.Tactic
import proofs.«408992_j29411936043071_4_alg».proof.Proof.WordLevel.Entry
set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel Cert.Kernel.Gen

variable {F : FTy → Type} [FloatOps F]

/-! # The second projection (pallas_call 2): ten row blocks of the first layer's activations, each multiplied by the whole of W2 -/

/-- Rows 10000·t … 10000·t + 9999 of the array being projected, as the region finds it. -/
def rowsB (V : Entry F) (c : Dev nD) (t : Fin cfg2.N) : Vec F S10000x128 .f32 :=
  ((cfg2.win 0).blk t).view.read (Elt F) (V c (Pipeline.arrRef spec2 0))

/-- The weight matrix: its one block is the whole array, at every point. -/
def weightsB (V : Entry F) (c : Dev nD) (t : Fin cfg2.N) : Vec F S128x128 .f32 :=
  ((cfg2.win 1).blk t).view.read (Elt F) (V c (Pipeline.arrRef spec2 1))

/-- The pipeline's data: arrays as found; after the body the two inputs' buffers unchanged and the output's at the
    product of the row block with the weights; the class invariant; nothing owed; full shares. -/
def projB (V : Entry F) (c : Dev nD) : Dat τ (Elt F) Unit ℕ (UR sig nD τ) ℕ cfg2 c where
  A w := V c (Pipeline.arrRef spec2 w)
  after w t := match w with
    | ⟨0, _⟩ => rowsB V c t
    | ⟨1, _⟩ => weightsB V c t
    | ⟨2, _⟩ => k2_pay1 (rowsB V c t) (weightsB V c t)
  Φ _ := Pipeline.ΦA spec2 c
  q _ := fullShare
  owed _ := 0

theorem projB_A (V : Entry F) (c : Dev nD) (w : Fin cfg2.W) : (projB V c).A w = V c (Pipeline.arrRef spec2 w) := by
  dsimp only [projB]

end Cert.Kernel.Own

end
-- ==== Proof.WordLevel.ActivateA.lean ====
import proofs.«408992_j29411936043071_4_alg».proof.Proof.Gen.Kernel.Launch
import proofs.«408992_j29411936043071_4_alg».proof.Proof.Gen.Kernel.Skeleton
import proofs.«408992_j29411936043071_4_alg».proof.Proof.Gen.Kernel.Points
import Idealize.ShloMosaic.Lib.Pipeline.Frame
import Idealize.ShloMosaic.Lib.Pipeline.FrameBody
import Idealize.ShloMosaic.Lib.Tactic
import proofs.«408992_j29411936043071_4_alg».proof.Proof.WordLevel.Entry
set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel Cert.Kernel.Gen

variable {F : FTy → Type} [FloatOps F]

/-! # Bias and rectifier of the first layer (pallas_call 1): ten row blocks, each plus the bias row, clamped below at 0 -/

/-- Rows 10000·t … 10000·t + 9999 of the aggregated array, as the region finds it. -/
def aggRowsA (V : Entry F) (c : Dev nD) (t : Fin cfg1.N) : Vec F S10000x128 .f32 :=
  ((cfg1.win 0).blk t).view.read (Elt F) (V c (Pipeline.arrRef spec1 0))

/-- The bias row: its one block is the whole 1×128 array, at every point. -/
def biasRowA (V : Entry F) (c : Dev nD) (t : Fin cfg1.N) : Vec F S1x128 .f32 :=
  ((cfg1.win 1).blk t).view.read (Elt F) (V c (Pipeline.arrRef spec1 1))

/-- The pipeline's data: arrays as found; after the body the two inputs' buffers unchanged and the output's at
    max(rows + bias, 0); the class invariant; nothing owed; full shares. -/
def actA (V : Entry F) (c : Dev nD) : Dat τ (Elt F) Unit ℕ (UR sig nD τ) ℕ cfg1 c where
  A w := V c (Pipeline.arrRef spec1 w)
  after w t := match w with
    | ⟨0, _⟩ => aggRowsA V c t
    | ⟨1, _⟩ => biasRowA V c t
    | ⟨2, _⟩ => k1_pay1 (aggRowsA V c t) (biasRowA V c t)
  Φ _ := Pipeline.ΦA spec1 c
  q _ := fullShare
  owed _ := 0

theorem actA_A (V : Entry F) (c : Dev nD) (w : Fin cfg1.W) : (actA V c).A w = V c (Pipeline.arrRef spec1 w) := by
  dsimp only [actA]

end Cert.Kernel.Own

end
-- ==== Proof.WordLevel.ActivateB.lean ====
import proofs.«408992_j29411936043071_4_alg».proof.Proof.Gen.Kernel.Launch
import proofs.«408992_j29411936043071_4_alg».proof.Proof.Gen.Kernel.Skeleton
import proofs.«408992_j29411936043071_4_alg».proof.Proof.Gen.Kernel.Points
import Idealize.ShloMosaic.Lib.Pipeline.Frame
import Idealize.ShloMosaic.Lib.Pipeline.FrameBody
import Idealize.ShloMosaic.Lib.Tactic
import proofs.«408992_j29411936043071_4_alg».proof.Proof.WordLevel.Entry
set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel Cert.Kernel.Gen

variable {F : FTy → Type} [FloatOps F]

/-! # Bias and rectifier of the second layer (pallas_call 3): ten row blocks, each plus the bias row, clamped below at 0 -/

/-- Rows 10000·t … 10000·t + 9999 of the aggregated array, as the region finds it. -/
def aggRowsB (V : Entry F) (c : Dev nD) (t : Fin cfg3.N) : Vec F S10000x128 .f32 :=
  ((cfg3.win 0).blk t).view.read (Elt F) (V c (Pipeline.arrRef spec3 0))

/-- The bias row: its one block is the whole 1×128 array, at every point. -/
def biasRowB (V : Entry F) (c : Dev nD) (t : Fin cfg3.N) : Vec F S1x128 .f32 :=
  ((cfg3.win 1).blk t).view.read (Elt F) (V c (Pipeline.arrRef spec3 1))

/-- The pipeline's data: arrays as found; after the body the two inputs' buffers unchanged and the output's at
    max(rows + bias, 0); the class invariant; nothing owed; full shares. -/
def actB (V : Entry F) (c : Dev nD) : Dat τ (Elt F) Unit ℕ (UR sig nD τ) ℕ cfg3 c where
  A w := V c (Pipeline.arrRef spec3 w)
  after w t := match w with
    | ⟨0, _⟩ => aggRowsB V c t
    | ⟨1, _⟩ => biasRowB V c t
    | ⟨2, _⟩ => k3_pay1 (aggRowsB V c t) (biasRowB V c t)
  Φ _ := Pipeline.ΦA spec3 c
  q _ := fullShare
  owed _ := 0

theorem actB_A (V : Entry F) (c : Dev nD) (w : Fin cfg3.W) : (actB V c).A w = V c (Pipeline.arrRef spec3 w) := by
  dsimp only [actB]

end Cert.Kernel.Own

end
-- ==== Proof.WordLevel.PoolData.lean ====
import proofs.«408992_j29411936043071_4_alg».proof.Proof.Gen.Kernel.Launch
import proofs.«408992_j29411936043071_4_alg».proof.Proof.Gen.Kernel.Skeleton
import proofs.«408992_j29411936043071_4_alg».proof.Proof.Gen.Kernel.Points
import Idealize.ShloMosaic.Lib.Pipeline.Frame
import Idealize.ShloMosaic.Lib.Pipeline.FrameBody
import Idealize.ShloMosaic.Lib.Tactic
import proofs.«408992_j29411936043071_4_alg».proof.Proof.WordLevel.Entry
set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel Cert.Kernel.Gen

variable {F : FTy → Type} [FloatOps F]

/-! # The pooling kernel (pallas_call 4): a 2 × 5 grid; half `h` of the node rows is swept in five blocks, the per-graph
    sums and counts accumulated in two scratch buffers that are cleared at the first block of a half and written out
    at its last -/

local notation "𝕄" => MT nD τ sig Unit (Elt F) ℕ (UR sig nD τ) ℕ

/-- Rows 10000·t … 10000·t + 9999 of the node features (the block index is 5·half + step = t). -/
def featRows (V : Entry F) (c : Dev nD) (t : Fin cfg4.N) : Vec F S10000x128 .f32 :=
  ((cfg4.win 0).blk t).view.read (Elt F) (V c (Pipeline.arrRef spec4 0))

/-- The same rows of the graph-id column. -/
def graphIds (V : Entry F) (c : Dev nD) (t : Fin cfg4.N) : Vec F S10000x1 .i32 :=
  ((cfg4.win 1).blk t).view.read (Elt F) (V c (Pipeline.arrRef spec4 1))

/-- What the two scratch buffers hold after point `n`: the per-graph sums and counts of the blocks of the current
    half seen so far — restarted from zero at the first block of a half (`n % 5 = 0`), carried on otherwise. -/
def running (V : Entry F) (c : Dev nD) : (n : ℕ) → n < cfg4.N → Vec F S128x128 .f32 × Vec F S128x1 .f32
  | 0, h => (k4_pay4 (graphIds V c ⟨0, h⟩) (k4_pay1 (F := F)) (featRows V c ⟨0, h⟩), k4_pay5 (graphIds V c ⟨0, h⟩) (k4_pay2 (F := F)))
  | n + 1, h =>
    if (n + 1) % 5 = 0 then
      (k4_pay4 (graphIds V c ⟨n + 1, h⟩) (k4_pay1 (F := F)) (featRows V c ⟨n + 1, h⟩), k4_pay5 (graphIds V c ⟨n + 1, h⟩) (k4_pay2 (F := F)))
    else
      (k4_pay4 (graphIds V c ⟨n + 1, h⟩) (running V c n (Nat.lt_of_succ_lt h)).1 (featRows V c ⟨n + 1, h⟩),
        k4_pay5 (graphIds V c ⟨n + 1, h⟩) (running V c n (Nat.lt_of_succ_lt h)).2)

/-- The pipeline's data over any choice of the invariant `Φ`: arrays as found; after the body the two inputs' buffers
    unchanged and each output's at the running value re-laid with a leading unit axis (consulted only at the last block
    of a half, where the window is written back); nothing owed; full shares. -/
def poolWith (Φ : Fin (cfg4.N + 1) → sProp 𝕄) (V : Entry F) (c : Dev nD) : Dat τ (Elt F) Unit ℕ (UR sig nD τ) ℕ cfg4 c where
  A w := V c (Pipeline.arrRef spec4 w)
  after w t := match w with
    | ⟨0, _⟩ => featRows V c t
    | ⟨1, _⟩ => graphIds V c t
    | ⟨2, _⟩ => k4_pay6 (running V c t.val t.isLt).1
    | ⟨3, _⟩ => k4_pay7 (running V c t.val t.isLt).2
  Φ := Φ
  q _ := fullShare
  owed _ := 0

theorem poolWith_A (Φ : Fin (cfg4.N + 1) → sProp 𝕄) (V : Entry F) (c : Dev nD) (w : Fin cfg4.W) :
    (poolWith Φ V c).A w = V c (Pipeline.arrRef spec4 w) := by
  dsimp only [poolWith]

/-- The sums' scratch buffer and the counts' scratch buffer, whole. -/
abbrev sumsScratch : Memref sig .tc .vmem S128x128 .f32 := Memref.whole cc4_scratch0
abbrev countsScratch : Memref sig .tc .vmem S128x1 .f32 := Memref.whole cc4_scratch1

/-- The core's scoped buffers this kernel neither stages nor touches — the staging buffers of the four other
    pallas_calls —, each whole at some contents. -/
def bystanders (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg2_1), ((c : Thread nD τ).loc cc2_stg2_1) ↦{fullShare} f)
      ∗ (∃ f : Buf (Elt F) ((c : Thread nD τ).loc cc3_stg0_0), ((c : Thread nD τ).loc cc3_stg0_0) ↦{fullShare} f)
      ∗ (∃ f : Buf (Elt F) ((c : Thread nD τ).loc cc3_stg0_1), ((c : Thread nD τ).loc cc3_stg0_1) ↦{fullShare} f)
      ∗ (∃ f : Buf (Elt F) ((c : Thread nD τ).loc cc3_stg1_0), ((c : Thread nD τ).loc cc3_stg1_0) ↦{fullShare} f)
      ∗ (∃ f : Buf (Elt F) ((c : Thread nD τ).loc cc3_stg2_0), ((c : Thread nD τ).loc cc3_stg2_0) ↦{fullShare} f)
      ∗ (∃ f : Buf (Elt F) ((c : Thread nD τ).loc cc3_stg2_1), ((c : Thread nD τ).loc cc3_stg2_1) ↦{fullShare} f))

/-- The region invariant before point `n`: before the first point what the launch hands over (every scoped buffer that
    is no staging buffer of this call at some contents, the generator register at some state); from then on the same,
    except that the two scratch buffers hold the running sums and counts the point before left. -/
def carried (V : Entry F) (c : Dev nD) : (n : ℕ) → n ≤ cfg4.N → sProp 𝕄
  | 0, _ => Pipeline.ΦA spec4 c
  | n + 1, h => iprop(owns (c : Thread nD τ) sumsScratch fullShare (running V c n h).1
      ∗ owns (c : Thread nD τ) countsScratch fullShare (running V c n h).2
      ∗ bystanders (F := F) c ∗ ∃ r, prngReg c r)

/-- The pooling pipeline's data, with the carried invariant. -/
def pool (V : Entry F) (c : Dev nD) : Dat τ (Elt F) Unit ℕ (UR sig nD τ) ℕ cfg4 c :=
  poolWith (fun t => carried V c t.val (Nat.le_of_lt_succ t.isLt)) V c

theorem pool_A (V : Entry F) (c : Dev nD) (w : Fin cfg4.W) : (pool V c).A w = V c (Pipeline.arrRef spec4 w) := by
  dsimp only [pool, poolWith]

end Cert.Kernel.Own

end
-- ==== Proof.WordLevel.Boundaries.lean ====
/-
  What every TensorCore buffer holds at each boundary between two items of @main (a stretch of host operations, or a
  kernel region): a fold from the launch memory. A host stretch applies its operations; a region replaces each of its
  result arrays by what the pipeline's write-backs leave (`Dat.arrAt … N`) and touches nothing else.
-/
import proofs.«408992_j29411936043071_4_alg».proof.Proof.WordLevel.ProjectA
import proofs.«408992_j29411936043071_4_alg».proof.Proof.WordLevel.ProjectB
import proofs.«408992_j29411936043071_4_alg».proof.Proof.WordLevel.ActivateA
import proofs.«408992_j29411936043071_4_alg».proof.Proof.WordLevel.ActivateB
import proofs.«408992_j29411936043071_4_alg».proof.Proof.WordLevel.PoolData
import Idealize.ShloMosaic.Lib.StableHlo.Run

set_option maxRecDepth 16384

noncomputable section

namespace Cert.Kernel.Own

open Idealize.ShloMosaic Idealize.ShloMosaic.TcCoe Idealize.SL.Sem
open Cert.Kernel Cert.Kernel.Gen

variable {F : FTy → Type} [FloatOps F]
variable (m : (ℓ : Loc nD τ sig) → Buf (Elt F) ℓ)

/-- A valuation read at the TensorCore's references: the form the regions' data take. -/
abbrev asEntry (B : Dev nD → Valuation τ sig (Elt F)) : Entry F := fun c b => B c b

/-- At launch. -/
abbrev at0 (c : Dev nD) : Valuation τ sig (Elt F) := fun b => m (c, b)
/-- After the first host stretch (edge lists with self loops, degrees, normalisation): the first projection's entry. -/
abbrev at1 (c : Dev nD) : Valuation τ sig (Elt F) := StableHlo.after hostOps0 (at0 m c)
/-- After the first projection: `main_v29` at the projected features. -/
abbrev at2 (c : Dev nD) : Valuation τ sig (Elt F) :=
  Function.update (at1 m c) main_v29 ((projA (asEntry (at1 m)) c).arrAt 2 cfg0.N)
/-- After the first aggregation on the host. -/
abbrev at3 (c : Dev nD) : Valuation τ sig (Elt F) := StableHlo.after hostOps1 (at2 m c)
/-- After the first bias-and-rectifier: `main_v44`. -/
abbrev at4 (c : Dev nD) : Valuation τ sig (Elt F) :=
  Function.update (at3 m c) main_v44 ((actA (asEntry (at3 m)) c).arrAt 2 cfg1.N)
/-- After the second projection: `main_v45`. -/
abbrev at5 (c : Dev nD) : Valuation τ sig (Elt F) :=
  Function.update (at4 m c) main_v45 ((projB (asEntry (at4 m)) c).arrAt 2 cfg2.N)
/-- After the second aggregation on the host. -/
abbrev at6 (c : Dev nD) : Valuation τ sig (Elt F) := StableHlo.after hostOps3 (at5 m c)
/-- After the second bias-and-rectifier: `main_v60`. -/
abbrev at7 (c : Dev nD) : Valuation τ sig (Elt F) :=
  Function.update (at6 m c) main_v60 ((actB (asEntry (at6 m)) c).arrAt 2 cfg3.N)
/-- After the graph-id column is re-laid. -/
abbrev at8 (c : Dev nD) : Valuation τ sig (Elt F) := StableHlo.after hostOps4 (at7 m c)
/-- After the pooling kernel: the two halves' sums in `main_v62_0`, their counts in `main_v62_1`. -/
abbrev at9 (c : Dev nD) : Valuation τ sig (Elt F) :=
  Function.update (Function.update (at8 m c) main_v62_0 ((pool (asEntry (at8 m)) c).arrAt 2 cfg4.N))
    main_v62_1 ((pool (asEntry (at8 m)) c).arrAt 3 cfg4.N)
/-- At the return: the halves added, the means, the final linear layer. -/
abbrev at10 (c : Dev nD) : Valuation τ sig (Elt F) := StableHlo.after hostOps5 (at9 m c)

end Cert.Kernel.Own

end
-- ==== Proof.WordLevel.ProjectAObl.lean ====
import proofs.«408992_j29411936043071_4_alg».proof.Proof.Gen.Kernel.Launch
import proofs.«408992_j29411936043071_4_alg».proof.Proof.Gen.Kernel.Skeleton
import proofs.«408992_j29411936043071_4_alg».proof.Proof.Gen.Kernel.Points
import Idealize.ShloMosaic.Lib.Pipeline.Frame
import Idealize.ShloMosaic.Lib.Pipeline.FrameBody
import Idealize.ShloMosaic.Lib.Pipeline.Value
import Idealize.ShloMosaic.Lib.Tactic
import proofs.«408992_j29411936043071_4_alg».proof.Proof.WordLevel.ProjectA
set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel Cert.Kernel.Gen

variable {F : FTy → Type} [FloatOps F]

local notation "𝕄" => MT nD τ sig Unit (Elt F) ℕ (UR sig nD τ) ℕ

/-! # The first projection's body at a grid point

The body reads the whole of the rows' buffer and the whole of the weights' buffer, multiplies them into a zero
accumulator and stores the product over the whole of the output's buffer. So it leaves the two inputs' buffers as it
found them and the output's buffer reading the product, whatever that buffer held. -/

/-! ## Reading and writing a whole buffer through the rectangle at offset zero -/

/-- Both offsets of the rectangle the body loads and stores through are zero. -/
private theorem zero_offsets₂ : (![0, 0] : Fin 2 → Nat) = fun _ => 0 :=
  funext fun a => match a with | ⟨0, _⟩ => rfl | ⟨1, _⟩ => rfl

/-- A load through the rectangle that spans the whole shape from offset zero reads what the view reads. -/
private theorem readAt_full {sig' : RefSig} {κ : Kind} {sp : Space} {S : Shape} {e : EltTy} {Val : EltTy → Type}
    (v : View sig' κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f (Rect.unit off S.size inb)).trans (View.ld_unit_zero h inb _)

/-- One store through that rectangle, over any contents, reads back as the stored value. -/
private theorem read_full_store {sig' : RefSig} {κ : Kind} {sp : Space} {S : Shape} {e : EltTy} {Val : EltTy → Type}
    [∀ e, Nonempty (Val e)] (v : View sig' κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w :=
  (View.read_writes_eq_canon v f _ fun y => ⟨_, List.mem_singleton_self _, View.mem_set_unit_zero h inb y⟩).trans
    (View.canon_unit_zero h inb w)

/-! ## The body on any three buffers -/

/-- With the first two buffers reading `x0` and `x1`, the body leaves them as they were and leaves the third reading
    the product `k0_pay1 x0 x1`, whatever the third held. -/
theorem matmulA_run (c : Dev nD) (i : grid0.Coords)
    (a1 : Memref sig .tc .vmem S10000x128 .f32) (h1 : a1.IsWhole)
    (a2 : Memref sig .tc .vmem S128x128 .f32) (h2 : a2.IsWhole)
    (a3 : Memref sig .tc .vmem S10000x128 .f32) (h3 : a3.IsWhole)
    (x0 : Vec F S10000x128 .f32) (x1 : Vec F S128x128 .f32) (x2 : Vec F S10000x128 .f32)
    (Q : PUnit → sProp 𝕄) :
    iprop(owns (c : Thread nD τ) a1 fullShare x0 ∗ owns (c : Thread nD τ) a2 fullShare x1 ∗ owns (c : Thread nD τ) a3 fullShare x2
        ∗ (iprop(owns (c : Thread nD τ) a1 fullShare x0 ∗ owns (c : Thread nD τ) a2 fullShare x1
              ∗ owns (c : Thread nD τ) a3 fullShare (k0_pay1 x0 x1)) -∗ Q ⟨⟩))
      ⊢ wp frame (wpE (defs₀ (F := F)) Variants.none (c : Thread nD τ) none) Set.univ
          (cc0__matmul_kernel (F := F) i a1 h1 a2 h2 a3 h3) Q := by
  unfold owns
  iintro ⟨⟨%f1, %e1, H1⟩, ⟨%f2, %e2, H2⟩, ⟨%f3, %e3, H3⟩, Hk⟩
  simp only [cc0__matmul_kernel_eq_skeleton]
  unfold cc0__matmul_kernel_skel
  sl_exec
  sl_step
  iapply Hk
  isplitl [H1]
  · iexists f1; isplitr
    · ipureintro; exact e1
    · iexact H1
  isplitl [H2]
  · iexists f2; isplitr
    · ipureintro; exact e2
    · iexact H2
  iexists _; isplitr
  rotate_left
  · iexact H3
  · ipureintro
    refine (read_full_store a3.view f3 zero_offsets₂ _ _).trans ?_
    rw [readAt_full a1.view f1 zero_offsets₂, readAt_full a2.view f2 zero_offsets₂, e1, e2]

/-! ## What the body finds and leaves at a grid point -/

/-- The rows' buffer holds the point's row block when the body runs, whatever it held before the block arrived. -/
theorem rowsA_found (V : Entry F) (c : Dev nD) (t : Fin cfg0.N) (d : (cfg0.win 0).block.Idx → Elt F (cfg0.win 0).elt) :
    (projA V c).before 0 t d = rowsA V c t := by
  rw [Pipeline.Dat.before_in_eq_fetched (projA V c) 0 rfl (fun _ => rfl) (fun _ _ _ => rfl) (fun _ => rfl) t d]
  unfold Pipeline.Dat.fetched Pipeline.Dat.blockOf
  dsimp only [projA]
  rfl

/-- The weights' buffer holds the weight matrix at every point, the first and the later ones alike: its block index
    never moves, so the block that arrived at the first point is every point's block. -/
theorem weightsA_found (V : Entry F) (c : Dev nD) (t : Fin cfg0.N) (d : (cfg0.win 1).block.Idx → Elt F (cfg0.win 1).elt) :
    (projA V c).before 1 t d = weightsA V c t := by
  rw [Pipeline.Dat.before_in_eq_fetched (projA V c) 1 rfl (fun _ => rfl) (fun _ _ _ => rfl) (fun _ => rfl) t d]
  unfold Pipeline.Dat.fetched Pipeline.Dat.blockOf
  dsimp only [projA]
  rfl

/-- What the body is handed at point `t`: the invariant, what the core owes, and the three current buffers — the
    output's at contents nobody names. -/
def handedA (V : Entry F) (c : Dev nD) (t : Fin cfg0.N) : sProp 𝕄 :=
  iprop((projA V c).Φ t.castSucc ∗ (projA V c).owesAt () t.castSucc
    ∗ (∃ d, owns (c : Thread nD τ) (st0_0 t) fullShare ((projA V c).before 0 t d))
    ∗ (∃ d, owns (c : Thread nD τ) (st0_1 t) fullShare ((projA V c).before 1 t d))
    ∗ (∃ d, owns (c : Thread nD τ) (st0_2 t) fullShare ((projA V c).before 2 t d)))

/-- What it hands back: the same invariant and debts, the inputs' buffers as found, the product in the output's. -/
def returnedA (V : Entry F) (c : Dev nD) (t : Fin cfg0.N) : sProp 𝕄 :=
  iprop((projA V c).Φ t.succ ∗ (projA V c).owesAt () t.succ
    ∗ owns (c : Thread nD τ) (st0_0 t) fullShare ((projA V c).after 0 t)
    ∗ owns (c : Thread nD τ) (st0_1 t) fullShare ((projA V c).after 1 t)
    ∗ owns (c : Thread nD τ) (st0_2 t) fullShare ((projA V c).after 2 t))

/-- The body at point `t`, from what it is handed to what it hands back: `matmulA_run` at the point's buffers, the
    row block and the weights; the invariant and the debts are the same before and after a point. -/
theorem projA_point (V : Entry F) (c : Dev nD) (t : Fin cfg0.N) :
    handedA V c t ⊢ wp frame (wpE (defs₀ (F := F)) Variants.none (c : Thread nD τ) none) Set.univ (bodyAt0 (F := F) t)
      (fun _ => returnedA V c t) := by
  unfold handedA returnedA
  iintro ⟨HΦ, HO, ⟨%d0, H0⟩, ⟨%d1, H1⟩, ⟨%d2, H2⟩⟩
  rewrite [rowsA_found V c t d0, weightsA_found V c t d1]
  iapply (matmulA_run c (grid0.coords t) (st0_0 t) _ (st0_1 t) _ (st0_2 t) _ (rowsA V c t) (weightsA V c t)
    ((projA V c).before 2 t d2) _)
  isplitl [H0]; · iexact H0
  isplitl [H1]; · iexact H1
  isplitl [H2]; · iexact H2
  iintro ⟨H0, H1, H2⟩
  rewrite [show (projA V c).Φ t.succ = (projA V c).Φ t.castSucc from rfl,
    show (projA V c).owesAt () t.succ = (projA V c).owesAt () t.castSucc from rfl]
  isplitl [HΦ]; · iexact HΦ
  isplitl [HO]; · iexact HO
  dsimp only [projA]
  isplitl [H0]; · iexact H0
  isplitl [H1]; · iexact H1
  iexact H2

/-- At every grid point the kernel body, run on the current staging buffers holding the row block and the weights,
    leaves them unchanged and leaves the product in the output's buffer. -/
theorem projA_obl (V : Entry F) (c : Dev nD) :
    BodyObligation (projA V c) (defs₀ (F := F)) Variants.none () Set.univ := fun t => by
  rw [bigSep_W0, bigSep_W0]
  exact projA_point V c t

end Cert.Kernel.Own

end
-- ==== Proof.WordLevel.ProjectBObl.lean ====
import proofs.«408992_j29411936043071_4_alg».proof.Proof.Gen.Kernel.Launch
import proofs.«408992_j29411936043071_4_alg».proof.Proof.Gen.Kernel.Skeleton
import proofs.«408992_j29411936043071_4_alg».proof.Proof.Gen.Kernel.Points
import Idealize.ShloMosaic.Lib.Pipeline.Frame
import Idealize.ShloMosaic.Lib.Pipeline.FrameBody
import Idealize.ShloMosaic.Lib.Pipeline.Value
import Idealize.ShloMosaic.Lib.Tactic
import proofs.«408992_j29411936043071_4_alg».proof.Proof.WordLevel.ProjectB
set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel Cert.Kernel.Gen

variable {F : FTy → Type} [FloatOps F]

local notation "𝕄" => MT nD τ sig Unit (Elt F) ℕ (UR sig nD τ) ℕ

/-! # The second projection's body at a grid point

The body reads the whole of the rows' buffer (recast to the shape it already has) and the whole of the weights'
buffer, multiplies them into a zero accumulator and stores the product over the whole of the output's buffer. So it leaves the two inputs' buffers as it
found them and the output's buffer reading the product, whatever that buffer held. -/

/-! ## Reading and writing a whole buffer through the rectangle at offset zero -/

/-- Both offsets of the rectangle the body loads and stores through are zero. -/
private theorem zero_offsets₂ : (![0, 0] : Fin 2 → Nat) = fun _ => 0 :=
  funext fun a => match a with | ⟨0, _⟩ => rfl | ⟨1, _⟩ => rfl

/-- A load through the rectangle that spans the whole shape from offset zero reads what the view reads. -/
private theorem readAt_full {sig' : RefSig} {κ : Kind} {sp : Space} {S : Shape} {e : EltTy} {Val : EltTy → Type}
    (v : View sig' κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f (Rect.unit off S.size inb)).trans (View.ld_unit_zero h inb _)

/-- One store through that rectangle, over any contents, reads back as the stored value. -/
private theorem read_full_store {sig' : RefSig} {κ : Kind} {sp : Space} {S : Shape} {e : EltTy} {Val : EltTy → Type}
    [∀ e, Nonempty (Val e)] (v : View sig' κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w :=
  (View.read_writes_eq_canon v f _ fun y => ⟨_, List.mem_singleton_self _, View.mem_set_unit_zero h inb y⟩).trans
    (View.canon_unit_zero h inb w)

/-! ## The body on any three buffers -/

/-- With the first two buffers reading `x0` and `x1`, the body leaves them as they were and leaves the third reading
    the product `k2_pay1 x0 x1`, whatever the third held. -/
theorem matmulB_run (c : Dev nD) (i : grid2.Coords)
    (a1 : Memref sig .tc .vmem S10000x128 .f32) (h1 : a1.IsWhole)
    (a2 : Memref sig .tc .vmem S128x128 .f32) (h2 : a2.IsWhole)
    (a3 : Memref sig .tc .vmem S10000x128 .f32) (h3 : a3.IsWhole)
    (x0 : Vec F S10000x128 .f32) (x1 : Vec F S128x128 .f32) (x2 : Vec F S10000x128 .f32)
    (Q : PUnit → sProp 𝕄) :
    iprop(owns (c : Thread nD τ) a1 fullShare x0 ∗ owns (c : Thread nD τ) a2 fullShare x1 ∗ owns (c : Thread nD τ) a3 fullShare x2
        ∗ (iprop(owns (c : Thread nD τ) a1 fullShare x0 ∗ owns (c : Thread nD τ) a2 fullShare x1
              ∗ owns (c : Thread nD τ) a3 fullShare (k2_pay1 x0 x1)) -∗ Q ⟨⟩))
      ⊢ wp frame (wpE (defs₀ (F := F)) Variants.none (c : Thread nD τ) none) Set.univ
          (cc2__matmul_kernel (F := F) i a1 h1 a2 h2 a3 h3) Q := by
  unfold owns
  iintro ⟨⟨%f1, %e1, H1⟩, ⟨%f2, %e2, H2⟩, ⟨%f3, %e3, H3⟩, Hk⟩
  simp only [cc2__matmul_kernel_eq_skeleton]
  unfold cc2__matmul_kernel_skel
  sl_exec
  sl_step
  iapply Hk
  isplitl [H1]
  · iexists f1; isplitr
    · ipureintro; exact e1
    · iexact H1
  isplitl [H2]
  · iexists f2; isplitr
    · ipureintro; exact e2
    · iexact H2
  iexists _; isplitr
  rotate_left
  · iexact H3
  · ipureintro
    refine (read_full_store a3.view f3 zero_offsets₂ _ _).trans ?_
    rw [readAt_full a1.view f1 zero_offsets₂, readAt_full a2.view f2 zero_offsets₂, e1, e2]

/-! ## What the body finds and leaves at a grid point -/

/-- The rows' buffer holds the point's row block when the body runs, whatever it held before the block arrived. -/
theorem rowsB_found (V : Entry F) (c : Dev nD) (t : Fin cfg2.N) (d : (cfg2.win 0).block.Idx → Elt F (cfg2.win 0).elt) :
    (projB V c).before 0 t d = rowsB V c t := by
  rw [Pipeline.Dat.before_in_eq_fetched (projB V c) 0 rfl (fun _ => rfl) (fun _ _ _ => rfl) (fun _ => rfl) t d]
  unfold Pipeline.Dat.fetched Pipeline.Dat.blockOf
  dsimp only [projB]
  rfl

/-- The weights' buffer holds the weight matrix at every point, the first and the later ones alike: its block index
    never moves, so the block that arrived at the first point is every point's block. -/
theorem weightsB_found (V : Entry F) (c : Dev nD) (t : Fin cfg2.N) (d : (cfg2.win 1).block.Idx → Elt F (cfg2.win 1).elt) :
    (projB V c).before 1 t d = weightsB V c t := by
  rw [Pipeline.Dat.before_in_eq_fetched (projB V c) 1 rfl (fun _ => rfl) (fun _ _ _ => rfl) (fun _ => rfl) t d]
  unfold Pipeline.Dat.fetched Pipeline.Dat.blockOf
  dsimp only [projB]
  rfl

/-- What the body is handed at point `t`: the invariant, what the core owes, and the three current buffers — the
    output's at contents nobody names. -/
def handedB (V : Entry F) (c : Dev nD) (t : Fin cfg2.N) : sProp 𝕄 :=
  iprop((projB V c).Φ t.castSucc ∗ (projB V c).owesAt () t.castSucc
    ∗ (∃ d, owns (c : Thread nD τ) (st2_0 t) fullShare ((projB V c).before 0 t d))
    ∗ (∃ d, owns (c : Thread nD τ) (st2_1 t) fullShare ((projB V c).before 1 t d))
    ∗ (∃ d, owns (c : Thread nD τ) (st2_2 t) fullShare ((projB V c).before 2 t d)))

/-- What it hands back: the same invariant and debts, the inputs' buffers as found, the product in the output's. -/
def returnedB (V : Entry F) (c : Dev nD) (t : Fin cfg2.N) : sProp 𝕄 :=
  iprop((projB V c).Φ t.succ ∗ (projB V c).owesAt () t.succ
    ∗ owns (c : Thread nD τ) (st2_0 t) fullShare ((projB V c).after 0 t)
    ∗ owns (c : Thread nD τ) (st2_1 t) fullShare ((projB V c).after 1 t)
    ∗ owns (c : Thread nD τ) (st2_2 t) fullShare ((projB V c).after 2 t))

/-- The body at point `t`, from what it is handed to what it hands back: `matmulB_run` at the point's buffers, the
    row block and the weights; the invariant and the debts are the same before and after a point. -/
theorem projB_point (V : Entry F) (c : Dev nD) (t : Fin cfg2.N) :
    handedB V c t ⊢ wp frame (wpE (defs₀ (F := F)) Variants.none (c : Thread nD τ) none) Set.univ (bodyAt2 (F := F) t)
      (fun _ => returnedB V c t) := by
  unfold handedB returnedB
  iintro ⟨HΦ, HO, ⟨%d0, H0⟩, ⟨%d1, H1⟩, ⟨%d2, H2⟩⟩
  rewrite [rowsB_found V c t d0, weightsB_found V c t d1]
  iapply (matmulB_run c (grid2.coords t) (st2_0 t) _ (st2_1 t) _ (st2_2 t) _ (rowsB V c t) (weightsB V c t)
    ((projB V c).before 2 t d2) _)
  isplitl [H0]; · iexact H0
  isplitl [H1]; · iexact H1
  isplitl [H2]; · iexact H2
  iintro ⟨H0, H1, H2⟩
  rewrite [show (projB V c).Φ t.succ = (projB V c).Φ t.castSucc from rfl,
    show (projB V c).owesAt () t.succ = (projB V c).owesAt () t.castSucc from rfl]
  isplitl [HΦ]; · iexact HΦ
  isplitl [HO]; · iexact HO
  dsimp only [projB]
  isplitl [H0]; · iexact H0
  isplitl [H1]; · iexact H1
  iexact H2

/-- At every grid point the kernel body, run on the current staging buffers holding the row block and the weights,
    leaves them unchanged and leaves the product in the output's buffer. -/
theorem projB_obl (V : Entry F) (c : Dev nD) :
    BodyObligation (projB V c) (defs₀ (F := F)) Variants.none () Set.univ := fun t => by
  rw [bigSep_W2, bigSep_W2]
  exact projB_point V c t

end Cert.Kernel.Own

end
-- ==== Proof.WordLevel.ActivateAObl.lean ====
import proofs.«408992_j29411936043071_4_alg».proof.Proof.Gen.Kernel.Launch
import proofs.«408992_j29411936043071_4_alg».proof.Proof.Gen.Kernel.Skeleton
import proofs.«408992_j29411936043071_4_alg».proof.Proof.Gen.Kernel.Points
import Idealize.ShloMosaic.Lib.Pipeline.Frame
import Idealize.ShloMosaic.Lib.Pipeline.FrameBody
import Idealize.ShloMosaic.Lib.Pipeline.Value
import Idealize.ShloMosaic.Lib.Tactic
import proofs.«408992_j29411936043071_4_alg».proof.Proof.WordLevel.ActivateA
set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel Cert.Kernel.Gen

variable {F : FTy → Type} [FloatOps F]

local notation "𝕄" => MT nD τ sig Unit (Elt F) ℕ (UR sig nD τ) ℕ

/-! # The bias-and-rectifier body at a grid point, first layer

The body reads its two input buffers whole, adds the bias row to every row, clamps below at 0 and stores the
result over the whole output buffer. Its triple is stated once over arbitrary whole buffers and contents; at a
grid point the inputs' buffers hold the aggregated rows' block and the bias row, fetched there or not. -/

/-- The two offsets of a whole-buffer access are zero. -/
theorem zeroOffs_actA : (![0, 0] : Fin 2 → Nat) = fun _ => 0 := by
  funext a; fin_cases a <;> rfl

/-- A load through the whole-shape rectangle reads the buffer's contents. -/
theorem readAt_wholeRect_actA {S : Shape} (v : View sig .tc .vmem S .f32) {off : Fin S.rank → Nat} (hz : off = fun _ => 0)
    (inb : ∀ a, off a + S.size a ≤ S.size a) (f : v.ty.Contents (Elt F)) :
    v.readAt (Elt F) (Rect.unit off S.size inb).toLoadRect f = v.read (Elt F) f :=
  (View.readAt_eq_ld v f _).trans (View.ld_unit_zero hz inb _)

/-- One store through the whole-shape rectangle leaves its payload, whatever the buffer held. -/
theorem read_wholeStore_actA {S : Shape} (v : View sig .tc .vmem S .f32) {off : Fin S.rank → Nat} (hz : off = fun _ => 0)
    (inb : ∀ a, off a + S.size a ≤ S.size a) (f : v.ty.Contents (Elt F)) (w : Vec F S .f32) :
    v.read (Elt F) (v.writes (Elt F) f [⟨Rect.unit off S.size inb, w⟩]) = w :=
  (View.read_writes_eq_canon v f _ fun y => ⟨_, List.mem_singleton_self _, View.mem_set_unit_zero hz inb y⟩).trans
    (View.canon_unit_zero hz inb w)

/-- The body's triple: from the rows `x0` in the first buffer, the bias row `x1` in the second and anything in the
    third, it leaves the first two as they were and max(x0 + x1, 0) in the third; whatever else is held (`R₁`, `R₂`)
    is untouched. -/
theorem biasRectify_run_actA (c : Dev nD) (i : grid1.Coords)
    (a1 : Memref sig .tc .vmem S10000x128 .f32) (h1 : a1.IsWhole)
    (a2 : Memref sig .tc .vmem S1x128 .f32) (h2 : a2.IsWhole)
    (a3 : Memref sig .tc .vmem S10000x128 .f32) (h3 : a3.IsWhole)
    (x0 : Vec F S10000x128 .f32) (x1 : Vec F S1x128 .f32) (d : Vec F S10000x128 .f32) (R₁ R₂ : sProp 𝕄) :
    (iprop(R₁ ∗ R₂ ∗ owns c a1 fullShare x0 ∗ owns c a2 fullShare x1 ∗ owns c a3 fullShare d) : sProp 𝕄)
      ⊢ wp frame (wpE (defs₀ (F := F)) Variants.none c none) Set.univ (cc1__bias_relu_kernel i a1 h1 a2 h2 a3 h3)
          fun _ => iprop(R₁ ∗ R₂ ∗ owns c a1 fullShare x0 ∗ owns c a2 fullShare x1 ∗ owns c a3 fullShare (k1_pay1 x0 x1)) := by
  unfold owns
  iintro ⟨HR₁, HR₂, ⟨%f1, %e1, H1⟩, ⟨%f2, %e2, H2⟩, ⟨%f3, %e3, H3⟩⟩
  sl_unfold [cc1__bias_relu_kernel]
  sl_exec
  sl_step
  -- what the two loads read
  have l1 : a1.view.readAt (Elt F) (Rect.unit ![0, 0] S10000x128.size inb_S10000x128_S10000x128_0_0).toLoadRect f1 = x0 :=
    (readAt_wholeRect_actA a1.view zeroOffs_actA inb_S10000x128_S10000x128_0_0 f1).trans e1
  have l2 : a2.view.readAt (Elt F) (Rect.unit ![0, 0] S1x128.size inb_S1x128_S1x128_0_0).toLoadRect f2 = x1 :=
    (readAt_wholeRect_actA a2.view zeroOffs_actA inb_S1x128_S1x128_0_0 f2).trans e2
  rw [l1, l2]
  isplitl [HR₁]; · iexact HR₁
  isplitl [HR₂]; · iexact HR₂
  isplitl [H1]
  · iexists f1; isplitr
    · ipureintro; exact e1
    · iexact H1
  isplitl [H2]
  · iexists f2; isplitr
    · ipureintro; exact e2
    · iexact H2
  iexists _; isplitr
  rotate_left
  · iexact H3
  · ipureintro; exact read_wholeStore_actA a3.view zeroOffs_actA inb_S10000x128_S10000x128_0_0 f3 _

/-- The rows' buffer holds the rows' block at every point. -/
theorem actA_finds_rows (V : Entry F) (c : Dev nD) (t : Fin cfg1.N) (d : (cfg1.win 0).block.Idx → Elt F (cfg1.win 0).elt) :
    (actA V c).before 0 t d = aggRowsA V c t :=
  Dat.before_in_eq_fetched (actA V c) 0 rfl (fun _ => rfl) (fun _ _ _ => rfl) (fun _ => rfl) t d

/-- The bias buffer holds the bias row at every point, though it is fetched at the first only. -/
theorem actA_finds_bias (V : Entry F) (c : Dev nD) (t : Fin cfg1.N) (d : (cfg1.win 1).block.Idx → Elt F (cfg1.win 1).elt) :
    (actA V c).before 1 t d = biasRowA V c t :=
  Dat.before_in_eq_fetched (actA V c) 1 rfl (fun _ => rfl) (fun _ _ _ => rfl) (fun _ => rfl) t d

/-- The body at point `t`, on the current staging buffers. -/
theorem actA_point (V : Entry F) (c : Dev nD) (t : Fin cfg1.N) :
    (iprop((actA V c).Φ t.castSucc ∗ (actA V c).owesAt () t.castSucc
        ∗ (∃ d, owns c (st1_0 t) fullShare ((actA V c).before 0 t d))
        ∗ (∃ d, owns c (st1_1 t) fullShare ((actA V c).before 1 t d))
        ∗ (∃ d, owns c (st1_2 t) fullShare ((actA V c).before 2 t d))) : sProp 𝕄)
      ⊢ wp frame (wpE (defs₀ (F := F)) Variants.none c none) Set.univ (bodyAt1 t) fun _ =>
          iprop((actA V c).Φ t.succ ∗ (actA V c).owesAt () t.succ
            ∗ owns c (st1_0 t) fullShare ((actA V c).after 0 t)
            ∗ owns c (st1_1 t) fullShare ((actA V c).after 1 t)
            ∗ owns c (st1_2 t) fullShare ((actA V c).after 2 t)) := by
  iintro ⟨HΦ, HO, ⟨%d0, H0⟩, ⟨%d1, H1⟩, ⟨%d2, H2⟩⟩
  rw [actA_finds_rows V c t d0, actA_finds_bias V c t d1]
  iapply (biasRectify_run_actA c (grid1.coords t)
    (st1_0 t) (hstage1_0 ((cfg1.slots t 0).cast nbuf1_0)) (st1_1 t) (hstage1_1 ((cfg1.slots t 1).cast nbuf1_1))
    (st1_2 t) (hstage1_2 ((cfg1.slots t 2).cast nbuf1_2))
    (aggRowsA V c t) (biasRowA V c t) ((actA V c).before 2 t d2) ((actA V c).Φ t.castSucc) ((actA V c).owesAt () t.castSucc))
  isplitl [HΦ]; · iexact HΦ
  isplitl [HO]; · iexact HO
  isplitl [H0]; · iexact H0
  isplitl [H1]; · iexact H1
  iexact H2

/-- At every grid point the kernel body leaves its two inputs' buffers unchanged and max(rows + bias, 0) in the output's. -/
theorem actA_obl (V : Entry F) (c : Dev nD) :
    BodyObligation (actA V c) (defs₀ (F := F)) Variants.none () Set.univ := fun t => by
  rw [bigSep_W1, bigSep_W1]
  exact actA_point V c t

end Cert.Kernel.Own

end
-- ==== Proof.WordLevel.ActivateBObl.lean ====
import proofs.«408992_j29411936043071_4_alg».proof.Proof.Gen.Kernel.Launch
import proofs.«408992_j29411936043071_4_alg».proof.Proof.Gen.Kernel.Skeleton
import proofs.«408992_j29411936043071_4_alg».proof.Proof.Gen.Kernel.Points
import Idealize.ShloMosaic.Lib.Pipeline.Frame
import Idealize.ShloMosaic.Lib.Pipeline.FrameBody
import Idealize.ShloMosaic.Lib.Pipeline.Value
import Idealize.ShloMosaic.Lib.Tactic
import proofs.«408992_j29411936043071_4_alg».proof.Proof.WordLevel.ActivateB
set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel Cert.Kernel.Gen

variable {F : FTy → Type} [FloatOps F]

local notation "𝕄" => MT nD τ sig Unit (Elt F) ℕ (UR sig nD τ) ℕ

/-! # The bias-and-rectifier body at a grid point, second layer

The body reads its two input buffers whole, adds the bias row to every row, clamps below at 0 and stores the
result over the whole output buffer. Its triple is stated once over arbitrary whole buffers and contents; at a
grid point the inputs' buffers hold the aggregated rows' block and the bias row, fetched there or not. -/

/-- The two offsets of a whole-buffer access are zero. -/
theorem zeroOffs_actB : (![0, 0] : Fin 2 → Nat) = fun _ => 0 := by
  funext a; fin_cases a <;> rfl

/-- A load through the whole-shape rectangle reads the buffer's contents. -/
theorem readAt_wholeRect_actB {S : Shape} (v : View sig .tc .vmem S .f32) {off : Fin S.rank → Nat} (hz : off = fun _ => 0)
    (inb : ∀ a, off a + S.size a ≤ S.size a) (f : v.ty.Contents (Elt F)) :
    v.readAt (Elt F) (Rect.unit off S.size inb).toLoadRect f = v.read (Elt F) f :=
  (View.readAt_eq_ld v f _).trans (View.ld_unit_zero hz inb _)

/-- One store through the whole-shape rectangle leaves its payload, whatever the buffer held. -/
theorem read_wholeStore_actB {S : Shape} (v : View sig .tc .vmem S .f32) {off : Fin S.rank → Nat} (hz : off = fun _ => 0)
    (inb : ∀ a, off a + S.size a ≤ S.size a) (f : v.ty.Contents (Elt F)) (w : Vec F S .f32) :
    v.read (Elt F) (v.writes (Elt F) f [⟨Rect.unit off S.size inb, w⟩]) = w :=
  (View.read_writes_eq_canon v f _ fun y => ⟨_, List.mem_singleton_self _, View.mem_set_unit_zero hz inb y⟩).trans
    (View.canon_unit_zero hz inb w)

/-- The body's triple: from the rows `x0` in the first buffer, the bias row `x1` in the second and anything in the
    third, it leaves the first two as they were and max(x0 + x1, 0) in the third; whatever else is held (`R₁`, `R₂`)
    is untouched. -/
theorem biasRectify_run_actB (c : Dev nD) (i : grid3.Coords)
    (a1 : Memref sig .tc .vmem S10000x128 .f32) (h1 : a1.IsWhole)
    (a2 : Memref sig .tc .vmem S1x128 .f32) (h2 : a2.IsWhole)
    (a3 : Memref sig .tc .vmem S10000x128 .f32) (h3 : a3.IsWhole)
    (x0 : Vec F S10000x128 .f32) (x1 : Vec F S1x128 .f32) (d : Vec F S10000x128 .f32) (R₁ R₂ : sProp 𝕄) :
    (iprop(R₁ ∗ R₂ ∗ owns c a1 fullShare x0 ∗ owns c a2 fullShare x1 ∗ owns c a3 fullShare d) : sProp 𝕄)
      ⊢ wp frame (wpE (defs₀ (F := F)) Variants.none c none) Set.univ (cc3__bias_relu_kernel i a1 h1 a2 h2 a3 h3)
          fun _ => iprop(R₁ ∗ R₂ ∗ owns c a1 fullShare x0 ∗ owns c a2 fullShare x1 ∗ owns c a3 fullShare (k3_pay1 x0 x1)) := by
  unfold owns
  iintro ⟨HR₁, HR₂, ⟨%f1, %e1, H1⟩, ⟨%f2, %e2, H2⟩, ⟨%f3, %e3, H3⟩⟩
  sl_unfold [cc3__bias_relu_kernel]
  sl_exec
  sl_step
  -- what the two loads read
  have l1 : a1.view.readAt (Elt F) (Rect.unit ![0, 0] S10000x128.size inb_S10000x128_S10000x128_0_0).toLoadRect f1 = x0 :=
    (readAt_wholeRect_actB a1.view zeroOffs_actB inb_S10000x128_S10000x128_0_0 f1).trans e1
  have l2 : a2.view.readAt (Elt F) (Rect.unit ![0, 0] S1x128.size inb_S1x128_S1x128_0_0).toLoadRect f2 = x1 :=
    (readAt_wholeRect_actB a2.view zeroOffs_actB inb_S1x128_S1x128_0_0 f2).trans e2
  rw [l1, l2]
  isplitl [HR₁]; · iexact HR₁
  isplitl [HR₂]; · iexact HR₂
  isplitl [H1]
  · iexists f1; isplitr
    · ipureintro; exact e1
    · iexact H1
  isplitl [H2]
  · iexists f2; isplitr
    · ipureintro; exact e2
    · iexact H2
  iexists _; isplitr
  rotate_left
  · iexact H3
  · ipureintro; exact read_wholeStore_actB a3.view zeroOffs_actB inb_S10000x128_S10000x128_0_0 f3 _

/-- The rows' buffer holds the rows' block at every point. -/
theorem actB_finds_rows (V : Entry F) (c : Dev nD) (t : Fin cfg3.N) (d : (cfg3.win 0).block.Idx → Elt F (cfg3.win 0).elt) :
    (actB V c).before 0 t d = aggRowsB V c t :=
  Dat.before_in_eq_fetched (actB V c) 0 rfl (fun _ => rfl) (fun _ _ _ => rfl) (fun _ => rfl) t d

/-- The bias buffer holds the bias row at every point, though it is fetched at the first only. -/
theorem actB_finds_bias (V : Entry F) (c : Dev nD) (t : Fin cfg3.N) (d : (cfg3.win 1).block.Idx → Elt F (cfg3.win 1).elt) :
    (actB V c).before 1 t d = biasRowB V c t :=
  Dat.before_in_eq_fetched (actB V c) 1 rfl (fun _ => rfl) (fun _ _ _ => rfl) (fun _ => rfl) t d

/-- The body at point `t`, on the current staging buffers. -/
theorem actB_point (V : Entry F) (c : Dev nD) (t : Fin cfg3.N) :
    (iprop((actB V c).Φ t.castSucc ∗ (actB V c).owesAt () t.castSucc
        ∗ (∃ d, owns c (st3_0 t) fullShare ((actB V c).before 0 t d))
        ∗ (∃ d, owns c (st3_1 t) fullShare ((actB V c).before 1 t d))
        ∗ (∃ d, owns c (st3_2 t) fullShare ((actB V c).before 2 t d))) : sProp 𝕄)
      ⊢ wp frame (wpE (defs₀ (F := F)) Variants.none c none) Set.univ (bodyAt3 t) fun _ =>
          iprop((actB V c).Φ t.succ ∗ (actB V c).owesAt () t.succ
            ∗ owns c (st3_0 t) fullShare ((actB V c).after 0 t)
            ∗ owns c (st3_1 t) fullShare ((actB V c).after 1 t)
            ∗ owns c (st3_2 t) fullShare ((actB V c).after 2 t)) := by
  iintro ⟨HΦ, HO, ⟨%d0, H0⟩, ⟨%d1, H1⟩, ⟨%d2, H2⟩⟩
  rw [actB_finds_rows V c t d0, actB_finds_bias V c t d1]
  iapply (biasRectify_run_actB c (grid3.coords t)
    (st3_0 t) (hstage3_0 ((cfg3.slots t 0).cast nbuf3_0)) (st3_1 t) (hstage3_1 ((cfg3.slots t 1).cast nbuf3_1))
    (st3_2 t) (hstage3_2 ((cfg3.slots t 2).cast nbuf3_2))
    (aggRowsB V c t) (biasRowB V c t) ((actB V c).before 2 t d2) ((actB V c).Φ t.castSucc) ((actB V c).owesAt () t.castSucc))
  isplitl [HΦ]; · iexact HΦ
  isplitl [HO]; · iexact HO
  isplitl [H0]; · iexact H0
  isplitl [H1]; · iexact H1
  iexact H2

/-- At every grid point the kernel body leaves its two inputs' buffers unchanged and max(rows + bias, 0) in the output's. -/
theorem actB_obl (V : Entry F) (c : Dev nD) :
    BodyObligation (actB V c) (defs₀ (F := F)) Variants.none () Set.univ := fun t => by
  rw [bigSep_W3, bigSep_W3]
  exact actB_point V c t

end Cert.Kernel.Own

end
-- ==== Proof.WordLevel.PoolObl.lean ====
import proofs.«408992_j29411936043071_4_alg».proof.Proof.Gen.Kernel.Launch
import proofs.«408992_j29411936043071_4_alg».proof.Proof.Gen.Kernel.Skeleton
import proofs.«408992_j29411936043071_4_alg».proof.Proof.Gen.Kernel.Points
import Idealize.ShloMosaic.Lib.Pipeline.Frame
import Idealize.ShloMosaic.Lib.Pipeline.FrameBody
import Idealize.ShloMosaic.Lib.Pipeline.Value
import Idealize.ShloMosaic.Lib.Tactic
import proofs.«408992_j29411936043071_4_alg».proof.Proof.WordLevel.PoolData
set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel Cert.Kernel.Gen

variable {F : FTy → Type} [FloatOps F]

local notation "𝕄" => MT nD τ sig Unit (Elt F) ℕ (UR sig nD τ) ℕ

/-! # The pooling region's invariant: what the launch hands over, with the two scratch buffers singled out -/

/-- The launch's hand-over lists the bystanders and then the two scratch buffers; here the scratch buffers come first. -/
theorem pool_classInv_eq (c : Dev nD) :
    (Pipeline.ΦA spec4 c : sProp 𝕄) ⊣⊢
      iprop((∃ f : Buf (Elt F) ((c : Thread nD τ).loc cc4_scratch0), ((c : Thread nD τ).loc cc4_scratch0) ↦{fullShare} f)
        ∗ (∃ f : Buf (Elt F) ((c : Thread nD τ).loc cc4_scratch1), ((c : Thread nD τ).loc cc4_scratch1) ↦{fullShare} f)
        ∗ bystanders (F := F) c ∗ ∃ r, prngReg c r) := by
  unfold Pipeline.ΦA bystanders
  rw [scopedRest4_eq]
  constructor
  · iintro ⟨⟨H1, H2, H3, H4, H5, H6, H7, H8, H9, H10, H11, H12, H13, H14, H15, H16, H17, H18, H19, H20, S0, S1⟩, HR⟩
    isplitl [S0]; · iexact S0
    isplitl [S1]; · iexact S1
    isplitr [HR]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      iexact H20
    · iexact HR
  · iintro ⟨S0, S1, ⟨H1, H2, H3, H4, H5, H6, H7, H8, H9, H10, H11, H12, H13, H14, H15, H16, H17, H18, H19, H20⟩, HR⟩
    isplitr [HR]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [S0]; · iexact S0
      iexact S1
    · iexact HR

/-- Before the first point the invariant is the launch's hand-over. -/
theorem carried_zero (V : Entry F) (c : Dev nD) (h : 0 ≤ cfg4.N) : carried V c 0 h = Pipeline.ΦA spec4 c := rfl

/-- After point `k` the scratch buffers hold that point's running sums and counts. -/
theorem carried_pos (V : Entry F) (c : Dev nD) (n k : ℕ) (h : n ≤ cfg4.N) (hk : n = k + 1) :
    carried V c n h = iprop(owns (c : Thread nD τ) sumsScratch fullShare (running V c k (by omega)).1
      ∗ owns (c : Thread nD τ) countsScratch fullShare (running V c k (by omega)).2
      ∗ bystanders (F := F) c ∗ ∃ r, prngReg c r) := by
  subst hk; rfl

/-- At every point the invariant holds the two scratch buffers at some contents, the bystanders and the register. -/
theorem carried_some (V : Entry F) (c : Dev nD) (n : ℕ) (h : n ≤ cfg4.N) :
    carried V c n h ⊢ iprop(∃ (s1 : Vec F S128x128 .f32) (s2 : Vec F S128x1 .f32),
      owns (c : Thread nD τ) sumsScratch fullShare s1 ∗ owns (c : Thread nD τ) countsScratch fullShare s2
        ∗ bystanders (F := F) c ∗ ∃ r, prngReg c r) := by
  cases n with
  | zero =>
    rw [carried_zero]
    refine (pool_classInv_eq c).1.trans ?_
    iintro ⟨⟨%f0, S0⟩, ⟨%f1, S1⟩, HB, HR⟩
    iexists f0, f1
    rw [owns_whole, owns_whole]
    isplitl [S0]; · iexact S0
    isplitl [S1]; · iexact S1
    isplitl [HB]; · iexact HB
    iexact HR
  | succ k =>
    rw [carried_pos V c (k + 1) k h rfl]
    iintro ⟨S0, S1, HB, HR⟩
    iexists _, _
    isplitl [S0]; · iexact S0
    isplitl [S1]; · iexact S1
    isplitl [HB]; · iexact HB
    iexact HR

/-- The two scratch buffers at any contents, the bystanders and the register are what the launch handed over. -/
theorem pool_scratch_forget (c : Dev nD) (s1 : Vec F S128x128 .f32) (s2 : Vec F S128x1 .f32) :
    iprop(owns (c : Thread nD τ) sumsScratch fullShare s1 ∗ owns (c : Thread nD τ) countsScratch fullShare s2
        ∗ bystanders (F := F) c ∗ ∃ r, prngReg c r) ⊢ (Pipeline.ΦA spec4 c : sProp 𝕄) := by
  rw [owns_whole, owns_whole]
  refine BIBase.Entails.trans ?_ (pool_classInv_eq c).2
  iintro ⟨S0, S1, HB, HR⟩
  isplitl [S0]; · iexists s1; iexact S0
  isplitl [S1]; · iexists s2; iexact S1
  isplitl [HB]; · iexact HB
  iexact HR

/-- Whatever the scratch buffers hold, they are part of what the launch handed over. -/
theorem carried_forget (V : Entry F) (c : Dev nD) (n : ℕ) (h : n ≤ cfg4.N) : carried V c n h ⊢ Pipeline.ΦA spec4 c := by
  refine (carried_some V c n h).trans ?_
  iintro ⟨%s1, %s2, H⟩
  iapply (pool_scratch_forget c s1 s2)
  iexact H

/-! ## The running sums and counts, by the block's place in its half -/

/-- A first block of a half restarts from zero. -/
theorem running_first (V : Entry F) (c : Dev nD) (t : Fin cfg4.N) (h0 : t.val % 5 = 0) :
    running V c t.val t.isLt
      = (k4_pay4 (graphIds V c t) (k4_pay1 (F := F)) (featRows V c t), k4_pay5 (graphIds V c t) (k4_pay2 (F := F))) := by
  obtain ⟨n, hn⟩ := t
  cases n with
  | zero => rfl
  | succ n => rw [running, if_pos h0]

/-- A later block adds to what the block before left. -/
theorem running_step (V : Entry F) (c : Dev nD) (t : Fin cfg4.N) (k : ℕ) (hk : t.val = k + 1) (h0 : t.val % 5 ≠ 0) :
    running V c t.val t.isLt
      = (k4_pay4 (graphIds V c t) (running V c k (by omega)).1 (featRows V c t),
          k4_pay5 (graphIds V c t) (running V c k (by omega)).2) := by
  obtain ⟨n, hn⟩ := t
  dsimp only at hk h0 ⊢
  subst hk
  rw [running, if_neg h0]

/-! # The pooling kernel's body, case by case

The second grid coordinate decides the body's two conditionals: at 0 both scratch buffers are cleared first, at 4 they
are copied, re-laid, over the two outputs' buffers last; in between the block's one-hot matrix of graph ids is
multiplied into the sums and its column sums added to the counts. Each case is run once over variable memrefs and
contents; what remains of the caller's resources is carried as a wand to an arbitrary postcondition. -/

/-- The word the first conditional tests: set exactly when the second grid coordinate is 0. -/
def poolFirstWord (i : grid4.Coords) : BitVec 1 :=
  Scalar.cmpi .ne (Scalar.extui (Scalar.cmpi .eq (BitVec.ofNat 32 (i 1).val) 0#32) : BitVec 32) 0#32

theorem pool_zeros2 : (![0, 0] : Fin 2 → ℕ) = fun _ => 0 := by funext a; fin_cases a <;> rfl
theorem pool_zeros3 : (![0, 0, 0] : Fin 3 → ℕ) = fun _ => 0 := by funext a; fin_cases a <;> rfl

section Reads

variable {sg : RefSig} {κ : Kind} {sp : Space} {S : Shape} {e : EltTy}

/-- A load through the whole-shape rectangle reads what the view reads. -/
theorem pool_readAt_all (v : View sg κ sp S e) (f : v.ty.Contents (Elt F)) {off : Fin S.rank → ℕ} (h : off = fun _ => 0)
    (inb : ∀ a, off a + S.size a ≤ S.size a) :
    v.readAt (Elt F) (Rect.unit off S.size inb).toLoadRect f = v.read (Elt F) f :=
  View.ld_unit_zero h inb (v.read (Elt F) f)

/-- After a store through the whole-shape rectangle, whatever was stored before, the view reads the payload. -/
theorem pool_read_after_store_all (v : View sg κ sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb]

end Reads

/-- A block between the first and the last of a half: sums and counts taken on from what the scratch buffers held. -/
theorem pool_sweep_mid (c : Dev nD) (i : grid4.Coords)
    (arg2 : Memref sig .tc .vmem S10000x128 .f32) (harg2 : arg2.IsWhole) (arg3 : Memref sig .tc .vmem S10000x1 .i32) (harg3 : arg3.IsWhole)
    (arg4 : Memref sig .tc .vmem S1x128x128 .f32) (harg4 : arg4.IsWhole) (arg5 : Memref sig .tc .vmem S1x128x1 .f32) (harg5 : arg5.IsWhole)
    (arg6 : Memref sig .tc .vmem S128x128 .f32) (harg6 : arg6.IsWhole) (arg7 : Memref sig .tc .vmem S128x1 .f32) (harg7 : arg7.IsWhole)
    (h1 : ¬ poolFirstWord i = 1#1) (h2 : ¬ k4_cond2 i = 1#1)
    (feats : Vec F S10000x128 .f32) (ids : Vec F S10000x1 .i32) (s1 : Vec F S128x128 .f32) (s2 : Vec F S128x1 .f32)
    (Q : sProp 𝕄) :
    iprop(owns (c : Thread nD τ) arg2 fullShare feats ∗ owns (c : Thread nD τ) arg3 fullShare ids
        ∗ owns (c : Thread nD τ) arg6 fullShare s1 ∗ owns (c : Thread nD τ) arg7 fullShare s2
        ∗ (owns (c : Thread nD τ) arg2 fullShare feats -∗ owns (c : Thread nD τ) arg3 fullShare ids
            -∗ owns (c : Thread nD τ) arg6 fullShare (k4_pay4 ids s1 feats) -∗ owns (c : Thread nD τ) arg7 fullShare (k4_pay5 ids s2) -∗ Q))
      ⊢ wp frame (wpE (defs₀ (F := F)) Variants.none (c : Thread nD τ) none) Set.univ
          (cc4__pool_partial_kernel (F := F) i arg2 harg2 arg3 harg3 arg4 harg4 arg5 harg5 arg6 harg6 arg7 harg7)
          (fun _ => Q) := by
  unfold owns
  iintro ⟨⟨%f2, %e2, H2⟩, ⟨%f3, %e3, H3⟩, ⟨%f6, %e6, H6⟩, ⟨%f7, %e7, H7⟩, HQ⟩
  simp only [cc4__pool_partial_kernel_eq_skeleton]; unfold cc4__pool_partial_kernel_skel
  unfold poolFirstWord at h1
  sl_exec
  sl_step
  iapply HQ $$ [H2] [H3] [H6] [H7]
  · iexists f2; isplitr; · ipureintro; exact e2
    iexact H2
  · iexists f3; isplitr; · ipureintro; exact e3
    iexact H3
  · iexists _; isplitr
    rotate_left
    · iexact H6
    · ipureintro
      rw [pool_read_after_store_all _ _ pool_zeros2, pool_readAt_all _ _ pool_zeros2, pool_readAt_all _ _ pool_zeros2, pool_readAt_all _ _ pool_zeros2, e2, e3, e6]
  · iexists _; isplitr
    rotate_left
    · iexact H7
    · ipureintro
      rw [pool_read_after_store_all _ _ pool_zeros2, pool_readAt_all _ _ pool_zeros2, pool_readAt_all _ _ pool_zeros2, e3, e7]

/-- The first block of a half: both scratch buffers are cleared, whatever they held, and the block's sums and counts
    taken on from zero. -/
theorem pool_sweep_first (c : Dev nD) (i : grid4.Coords)
    (arg2 : Memref sig .tc .vmem S10000x128 .f32) (harg2 : arg2.IsWhole) (arg3 : Memref sig .tc .vmem S10000x1 .i32) (harg3 : arg3.IsWhole)
    (arg4 : Memref sig .tc .vmem S1x128x128 .f32) (harg4 : arg4.IsWhole) (arg5 : Memref sig .tc .vmem S1x128x1 .f32) (harg5 : arg5.IsWhole)
    (arg6 : Memref sig .tc .vmem S128x128 .f32) (harg6 : arg6.IsWhole) (arg7 : Memref sig .tc .vmem S128x1 .f32) (harg7 : arg7.IsWhole)
    (h1 : poolFirstWord i = 1#1) (h2 : ¬ k4_cond2 i = 1#1)
    (feats : Vec F S10000x128 .f32) (ids : Vec F S10000x1 .i32) (s1 : Vec F S128x128 .f32) (s2 : Vec F S128x1 .f32)
    (Q : sProp 𝕄) :
    iprop(owns (c : Thread nD τ) arg2 fullShare feats ∗ owns (c : Thread nD τ) arg3 fullShare ids
        ∗ owns (c : Thread nD τ) arg6 fullShare s1 ∗ owns (c : Thread nD τ) arg7 fullShare s2
        ∗ (owns (c : Thread nD τ) arg2 fullShare feats -∗ owns (c : Thread nD τ) arg3 fullShare ids
            -∗ owns (c : Thread nD τ) arg6 fullShare (k4_pay4 ids (k4_pay1 (F := F)) feats)
            -∗ owns (c : Thread nD τ) arg7 fullShare (k4_pay5 ids (k4_pay2 (F := F))) -∗ Q))
      ⊢ wp frame (wpE (defs₀ (F := F)) Variants.none (c : Thread nD τ) none) Set.univ
          (cc4__pool_partial_kernel (F := F) i arg2 harg2 arg3 harg3 arg4 harg4 arg5 harg5 arg6 harg6 arg7 harg7)
          (fun _ => Q) := by
  unfold owns
  iintro ⟨⟨%f2, %e2, H2⟩, ⟨%f3, %e3, H3⟩, ⟨%f6, %e6, H6⟩, ⟨%f7, %e7, H7⟩, HQ⟩
  simp only [cc4__pool_partial_kernel_eq_skeleton]; unfold cc4__pool_partial_kernel_skel
  unfold poolFirstWord at h1
  sl_exec
  sl_step
  sl_unfold_run_names
  iapply HQ $$ [H2] [H3] [H6] [H7]
  · iexists f2; isplitr; · ipureintro; exact e2
    iexact H2
  · iexists f3; isplitr; · ipureintro; exact e3
    iexact H3
  · iexists _; isplitr
    rotate_left
    · iexact H6
    · ipureintro
      rw [pool_read_after_store_all _ _ pool_zeros2, pool_readAt_all _ _ pool_zeros2, pool_readAt_all _ _ pool_zeros2, View.readCov_unit_zero _ pool_zeros2, e2, e3]
  · iexists _; isplitr
    rotate_left
    · iexact H7
    · ipureintro
      rw [pool_read_after_store_all _ _ pool_zeros2, pool_readAt_all _ _ pool_zeros2, View.readCov_unit_zero _ pool_zeros2, e3]

/-- The last block of a half: sums and counts taken on as at any later block, then copied, with a leading unit axis,
    over the whole of the two outputs' buffers, whatever those held. -/
theorem pool_sweep_last (c : Dev nD) (i : grid4.Coords)
    (arg2 : Memref sig .tc .vmem S10000x128 .f32) (harg2 : arg2.IsWhole) (arg3 : Memref sig .tc .vmem S10000x1 .i32) (harg3 : arg3.IsWhole)
    (arg4 : Memref sig .tc .vmem S1x128x128 .f32) (harg4 : arg4.IsWhole) (arg5 : Memref sig .tc .vmem S1x128x1 .f32) (harg5 : arg5.IsWhole)
    (arg6 : Memref sig .tc .vmem S128x128 .f32) (harg6 : arg6.IsWhole) (arg7 : Memref sig .tc .vmem S128x1 .f32) (harg7 : arg7.IsWhole)
    (h1 : ¬ poolFirstWord i = 1#1) (h2 : k4_cond2 i = 1#1)
    (feats : Vec F S10000x128 .f32) (ids : Vec F S10000x1 .i32) (s1 : Vec F S128x128 .f32) (s2 : Vec F S128x1 .f32)
    (o1 : Vec F S1x128x128 .f32) (o2 : Vec F S1x128x1 .f32)
    (Q : sProp 𝕄) :
    iprop(owns (c : Thread nD τ) arg2 fullShare feats ∗ owns (c : Thread nD τ) arg3 fullShare ids
        ∗ owns (c : Thread nD τ) arg6 fullShare s1 ∗ owns (c : Thread nD τ) arg7 fullShare s2
        ∗ owns (c : Thread nD τ) arg4 fullShare o1 ∗ owns (c : Thread nD τ) arg5 fullShare o2
        ∗ (owns (c : Thread nD τ) arg2 fullShare feats -∗ owns (c : Thread nD τ) arg3 fullShare ids
            -∗ owns (c : Thread nD τ) arg6 fullShare (k4_pay4 ids s1 feats) -∗ owns (c : Thread nD τ) arg7 fullShare (k4_pay5 ids s2)
            -∗ owns (c : Thread nD τ) arg4 fullShare (k4_pay6 (k4_pay4 ids s1 feats))
            -∗ owns (c : Thread nD τ) arg5 fullShare (k4_pay7 (k4_pay5 ids s2)) -∗ Q))
      ⊢ wp frame (wpE (defs₀ (F := F)) Variants.none (c : Thread nD τ) none) Set.univ
          (cc4__pool_partial_kernel (F := F) i arg2 harg2 arg3 harg3 arg4 harg4 arg5 harg5 arg6 harg6 arg7 harg7)
          (fun _ => Q) := by
  unfold owns
  iintro ⟨⟨%f2, %e2, H2⟩, ⟨%f3, %e3, H3⟩, ⟨%f6, %e6, H6⟩, ⟨%f7, %e7, H7⟩, ⟨%f4, %e4, H4⟩, ⟨%f5, %e5, H5⟩, HQ⟩
  simp only [cc4__pool_partial_kernel_eq_skeleton]; unfold cc4__pool_partial_kernel_skel
  unfold poolFirstWord at h1
  sl_exec
  sl_step
  sl_unfold_run_names
  iapply HQ $$ [H2] [H3] [H6] [H7] [H4] [H5]
  · iexists f2; isplitr; · ipureintro; exact e2
    iexact H2
  · iexists f3; isplitr; · ipureintro; exact e3
    iexact H3
  · iexists _; isplitr
    rotate_left
    · iexact H6
    · ipureintro
      rw [pool_read_after_store_all _ _ pool_zeros2, pool_readAt_all _ _ pool_zeros2, pool_readAt_all _ _ pool_zeros2, pool_readAt_all _ _ pool_zeros2, e2, e3, e6]
  · iexists _; isplitr
    rotate_left
    · iexact H7
    · ipureintro
      rw [pool_read_after_store_all _ _ pool_zeros2, pool_readAt_all _ _ pool_zeros2, pool_readAt_all _ _ pool_zeros2, e3, e7]
  · iexists _; isplitr
    rotate_left
    · iexact H4
    · ipureintro
      rw [pool_read_after_store_all _ _ pool_zeros3, View.readCov_unit_zero _ pool_zeros2, pool_readAt_all _ _ pool_zeros2, pool_readAt_all _ _ pool_zeros2,
        pool_readAt_all _ _ pool_zeros2, e2, e3, e6]
  · iexists _; isplitr
    rotate_left
    · iexact H5
    · ipureintro
      rw [pool_read_after_store_all _ _ pool_zeros3, View.readCov_unit_zero _ pool_zeros2, pool_readAt_all _ _ pool_zeros2, pool_readAt_all _ _ pool_zeros2, e3, e7]

/-! # The pooling kernel's body obligation

At point `t` the body finds the two inputs' blocks in their staging buffers, the running sums and counts of the point
before in the scratch buffers (anything at all at the first point), and leaves this point's; the two outputs' buffers it
touches only at the last block of a half, where it fills them, and hands back as found elsewhere. -/

/-! ## The two conditions and the outputs' idle points, over the grid's ten points -/

theorem pool_first_on : ∀ t : Fin cfg4.N, t.val % 5 = 0 → poolFirstWord (grid4.coords t) = 1#1 :=
  (by decide +kernel : ∀ t : Fin grid4.N, t.val % 5 = 0 → poolFirstWord (grid4.coords t) = 1#1)
theorem pool_first_off : ∀ t : Fin cfg4.N, t.val % 5 ≠ 0 → ¬ poolFirstWord (grid4.coords t) = 1#1 :=
  (by decide +kernel : ∀ t : Fin grid4.N, t.val % 5 ≠ 0 → ¬ poolFirstWord (grid4.coords t) = 1#1)
theorem pool_last_on : ∀ t : Fin cfg4.N, t.val % 5 = 4 → k4_cond2 (grid4.coords t) = 1#1 :=
  (by decide +kernel : ∀ t : Fin grid4.N, t.val % 5 = 4 → k4_cond2 (grid4.coords t) = 1#1)
theorem pool_last_off : ∀ t : Fin cfg4.N, t.val % 5 ≠ 4 → ¬ k4_cond2 (grid4.coords t) = 1#1 :=
  (by decide +kernel : ∀ t : Fin grid4.N, t.val % 5 ≠ 4 → ¬ k4_cond2 (grid4.coords t) = 1#1)
/-- Away from the last block of a half both outputs' windows are idle, -/
theorem pool_outs_idle : ∀ t : Fin cfg4.N, t.val % 5 ≠ 4 →
    cfg4.idle 2 (cfg4.grid.coords t) = true ∧ cfg4.idle 3 (cfg4.grid.coords t) = true :=
  (by decide +kernel : ∀ t : Fin grid4.N, t.val % 5 ≠ 4 → idle4 2 (grid4.coords t) = true ∧ idle4 3 (grid4.coords t) = true)
/-- and at it both are live. -/
theorem pool_outs_live : ∀ t : Fin cfg4.N, t.val % 5 = 4 →
    cfg4.idle 2 (cfg4.grid.coords t) = false ∧ cfg4.idle 3 (cfg4.grid.coords t) = false :=
  (by decide +kernel : ∀ t : Fin grid4.N, t.val % 5 = 4 → idle4 2 (grid4.coords t) = false ∧ idle4 3 (grid4.coords t) = false)

/-! ## What the windows' buffers hold before and after the body -/

/-- Both inputs are fetched at every point: the body finds the point's blocks. -/
theorem pool_before_feats (V : Entry F) (c : Dev nD) (t : Fin cfg4.N) (d : (cfg4.win 0).block.Idx → Elt F (cfg4.win 0).elt) :
    (pool V c).before 0 t d = featRows V c t := by
  rw [Dat.before_fetched (pool V c) 0 t (fetch4_0 t)]; rfl
theorem pool_before_ids (V : Entry F) (c : Dev nD) (t : Fin cfg4.N) (d : (cfg4.win 1).block.Idx → Elt F (cfg4.win 1).elt) :
    (pool V c).before 1 t d = graphIds V c t := by
  rw [Dat.before_fetched (pool V c) 1 t (fetch4_1 t)]; rfl

/-- The invariant before and after point `t`. -/
theorem pool_inv_before (V : Entry F) (c : Dev nD) (t : Fin cfg4.N) :
    (pool V c).Φ t.castSucc = carried V c t.val (Nat.le_of_lt t.isLt) := rfl
theorem pool_inv_after (V : Entry F) (c : Dev nD) (t : Fin cfg4.N) :
    (pool V c).Φ t.succ = iprop(owns (c : Thread nD τ) sumsScratch fullShare (running V c t.val t.isLt).1
      ∗ owns (c : Thread nD τ) countsScratch fullShare (running V c t.val t.isLt).2
      ∗ bystanders (F := F) c ∗ ∃ r, prngReg c r) := rfl
/-- Nothing is owed at any point. -/
theorem pool_owes (V : Entry F) (c : Dev nD) (t : Fin cfg4.N) :
    (pool V c).owesAt () t.succ = (pool V c).owesAt () t.castSucc := rfl

/-- What the obligation asks of each window's buffer after the body. -/
theorem pool_leaves_feats (V : Entry F) (c : Dev nD) (t : Fin cfg4.N) :
    (pool V c).leavesExact 0 t = owns (c : Thread nD τ) (win4_0.stage (cfg4.slots t 0)) fullShare (featRows V c t) := rfl
theorem pool_leaves_ids (V : Entry F) (c : Dev nD) (t : Fin cfg4.N) :
    (pool V c).leavesExact 1 t = owns (c : Thread nD τ) (win4_1.stage (cfg4.slots t 1)) fullShare (graphIds V c t) := rfl
theorem pool_leaves_sums_idle (V : Entry F) (c : Dev nD) (t : Fin cfg4.N) (h4 : t.val % 5 ≠ 4) :
    (pool V c).leavesExact 2 t
      = iprop(∃ d, owns (c : Thread nD τ) (win4_2.stage (cfg4.slots t 2)) fullShare ((pool V c).before 2 t d)) := by
  rw [Dat.leavesExact_idle (pool V c) 2 t (pool_outs_idle t h4).1 (Bool.eq_false_iff.mpr (mt (flush4_2 t).mp h4))]
theorem pool_leaves_counts_idle (V : Entry F) (c : Dev nD) (t : Fin cfg4.N) (h4 : t.val % 5 ≠ 4) :
    (pool V c).leavesExact 3 t
      = iprop(∃ d, owns (c : Thread nD τ) (win4_3.stage (cfg4.slots t 3)) fullShare ((pool V c).before 3 t d)) := by
  rw [Dat.leavesExact_idle (pool V c) 3 t (pool_outs_idle t h4).2 (Bool.eq_false_iff.mpr (mt (flush4_3 t).mp h4))]
theorem pool_leaves_sums_live (V : Entry F) (c : Dev nD) (t : Fin cfg4.N) (h4 : t.val % 5 = 4) :
    (pool V c).leavesExact 2 t
      = owns (c : Thread nD τ) (win4_2.stage (cfg4.slots t 2)) fullShare (k4_pay6 (running V c t.val t.isLt).1) := by
  unfold Dat.leavesExact; rw [(pool_outs_live t h4).1]; rfl
theorem pool_leaves_counts_live (V : Entry F) (c : Dev nD) (t : Fin cfg4.N) (h4 : t.val % 5 = 4) :
    (pool V c).leavesExact 3 t
      = owns (c : Thread nD τ) (win4_3.stage (cfg4.slots t 3)) fullShare (k4_pay7 (running V c t.val t.isLt).2) := by
  unfold Dat.leavesExact; rw [(pool_outs_live t h4).2]; rfl

/-- What the body is handed at point `t`: the invariant, nothing owed, each window's current staging buffer. -/
def poolPre (V : Entry F) (c : Dev nD) (t : Fin cfg4.N) : sProp 𝕄 :=
  iprop((pool V c).Φ t.castSucc ∗ (pool V c).owesAt () t.castSucc
    ∗ (∃ d, owns (c : Thread nD τ) (win4_0.stage (cfg4.slots t 0)) fullShare ((pool V c).before 0 t d))
    ∗ (∃ d, owns (c : Thread nD τ) (win4_1.stage (cfg4.slots t 1)) fullShare ((pool V c).before 1 t d))
    ∗ (∃ d, owns (c : Thread nD τ) (win4_2.stage (cfg4.slots t 2)) fullShare ((pool V c).before 2 t d))
    ∗ (∃ d, owns (c : Thread nD τ) (win4_3.stage (cfg4.slots t 3)) fullShare ((pool V c).before 3 t d)))

/-- What it must hand back. -/
def poolPost (V : Entry F) (c : Dev nD) (t : Fin cfg4.N) : sProp 𝕄 :=
  iprop((pool V c).Φ t.succ ∗ (pool V c).owesAt () t.succ
    ∗ (pool V c).leavesExact 0 t ∗ (pool V c).leavesExact 1 t ∗ (pool V c).leavesExact 2 t ∗ (pool V c).leavesExact 3 t)

/-! ## The three kinds of point -/

/-- A first block of a half (`t % 5 = 0`): the scratch buffers may hold anything; the outputs are left as found. -/
theorem pool_sound_first (V : Entry F) (c : Dev nD) (t : Fin cfg4.N) (h0 : t.val % 5 = 0) :
    poolPre V c t ⊢ wp frame (wpE (defs₀ (F := F)) Variants.none (c : Thread nD τ) none) Set.univ (bodyAt4 (F := F) t)
      (fun _ => poolPost V c t) := by
  have h4 : t.val % 5 ≠ 4 := by omega
  unfold poolPre
  rw [pool_inv_before]
  simp only [pool_before_feats, pool_before_ids]
  iintro ⟨HΦ, HO, ⟨%d0, H0⟩, ⟨%d1, H1⟩, H2, H3⟩
  icases (carried_some V c t.val (Nat.le_of_lt t.isLt)) $$ HΦ with ⟨%s1, %s2, S0, S1, HB, HR⟩
  iapply (pool_sweep_first c (grid4.coords t) (win4_0.stage (cfg4.slots t 0)) (hstage4_0 ((cfg4.slots t 0).cast nbuf4_0)) (win4_1.stage (cfg4.slots t 1)) (hstage4_1 ((cfg4.slots t 1).cast nbuf4_1))
      (win4_2.stage (cfg4.slots t 2)) (hstage4_2 ((cfg4.slots t 2).cast nbuf4_2)) (win4_3.stage (cfg4.slots t 3)) (hstage4_3 ((cfg4.slots t 3).cast nbuf4_3))
      (Memref.whole cc4_scratch0) (Memref.isWhole_whole _) (Memref.whole cc4_scratch1) (Memref.isWhole_whole _)
      (pool_first_on t h0) (pool_last_off t h4) (featRows V c t) (graphIds V c t) s1 s2 (poolPost V c t))
  isplitl [H0]; · iexact H0
  isplitl [H1]; · iexact H1
  isplitl [S0]; · iexact S0
  isplitl [S1]; · iexact S1
  iintro H0 H1 S0 S1
  unfold poolPost
  rw [pool_inv_after, running_first V c t h0, pool_owes, pool_leaves_feats, pool_leaves_ids, pool_leaves_sums_idle V c t h4,
    pool_leaves_counts_idle V c t h4]
  isplitl [S0 S1 HB HR]
  · isplitl [S0]; · iexact S0
    isplitl [S1]; · iexact S1
    isplitl [HB]; · iexact HB
    iexact HR
  isplitl [HO]; · iexact HO
  isplitl [H0]; · iexact H0
  isplitl [H1]; · iexact H1
  isplitl [H2]; · iexact H2
  iexact H3

/-- A block strictly inside a half (`t % 5` one of 1, 2, 3): the scratch buffers hold the point before's sums and
    counts; the outputs are left as found. -/
theorem pool_sound_mid (V : Entry F) (c : Dev nD) (t : Fin cfg4.N) (h0 : t.val % 5 ≠ 0) (h4 : t.val % 5 ≠ 4) :
    poolPre V c t ⊢ wp frame (wpE (defs₀ (F := F)) Variants.none (c : Thread nD τ) none) Set.univ (bodyAt4 (F := F) t)
      (fun _ => poolPost V c t) := by
  obtain ⟨k, hk⟩ : ∃ k, t.val = k + 1 := ⟨t.val - 1, by omega⟩
  have hlt : k < cfg4.N := by have := t.isLt; omega
  unfold poolPre
  rw [pool_inv_before, carried_pos V c t.val k (Nat.le_of_lt t.isLt) hk]
  simp only [pool_before_feats, pool_before_ids]
  iintro ⟨⟨S0, S1, HB, HR⟩, HO, ⟨%d0, H0⟩, ⟨%d1, H1⟩, H2, H3⟩
  iapply (pool_sweep_mid c (grid4.coords t) (win4_0.stage (cfg4.slots t 0)) (hstage4_0 ((cfg4.slots t 0).cast nbuf4_0)) (win4_1.stage (cfg4.slots t 1)) (hstage4_1 ((cfg4.slots t 1).cast nbuf4_1))
      (win4_2.stage (cfg4.slots t 2)) (hstage4_2 ((cfg4.slots t 2).cast nbuf4_2)) (win4_3.stage (cfg4.slots t 3)) (hstage4_3 ((cfg4.slots t 3).cast nbuf4_3))
      (Memref.whole cc4_scratch0) (Memref.isWhole_whole _) (Memref.whole cc4_scratch1) (Memref.isWhole_whole _)
      (pool_first_off t h0) (pool_last_off t h4) (featRows V c t) (graphIds V c t) (running V c k hlt).1 (running V c k hlt).2
      (poolPost V c t))
  isplitl [H0]; · iexact H0
  isplitl [H1]; · iexact H1
  isplitl [S0]; · iexact S0
  isplitl [S1]; · iexact S1
  iintro H0 H1 S0 S1
  unfold poolPost
  rw [pool_inv_after, running_step V c t k hk h0, pool_owes, pool_leaves_feats, pool_leaves_ids, pool_leaves_sums_idle V c t h4,
    pool_leaves_counts_idle V c t h4]
  isplitl [S0 S1 HB HR]
  · isplitl [S0]; · iexact S0
    isplitl [S1]; · iexact S1
    isplitl [HB]; · iexact HB
    iexact HR
  isplitl [HO]; · iexact HO
  isplitl [H0]; · iexact H0
  isplitl [H1]; · iexact H1
  isplitl [H2]; · iexact H2
  iexact H3

/-- A last block of a half (`t % 5 = 4`): as inside a half, and the outputs' buffers, whatever they held, end at this
    point's sums and counts re-laid. -/
theorem pool_sound_last (V : Entry F) (c : Dev nD) (t : Fin cfg4.N) (h4 : t.val % 5 = 4) :
    poolPre V c t ⊢ wp frame (wpE (defs₀ (F := F)) Variants.none (c : Thread nD τ) none) Set.univ (bodyAt4 (F := F) t)
      (fun _ => poolPost V c t) := by
  have h0 : t.val % 5 ≠ 0 := by omega
  obtain ⟨k, hk⟩ : ∃ k, t.val = k + 1 := ⟨t.val - 1, by omega⟩
  have hlt : k < cfg4.N := by have := t.isLt; omega
  unfold poolPre
  rw [pool_inv_before, carried_pos V c t.val k (Nat.le_of_lt t.isLt) hk]
  simp only [pool_before_feats, pool_before_ids]
  iintro ⟨⟨S0, S1, HB, HR⟩, HO, ⟨%d0, H0⟩, ⟨%d1, H1⟩, ⟨%d2, H2⟩, ⟨%d3, H3⟩⟩
  iapply (pool_sweep_last c (grid4.coords t) (win4_0.stage (cfg4.slots t 0)) (hstage4_0 ((cfg4.slots t 0).cast nbuf4_0)) (win4_1.stage (cfg4.slots t 1)) (hstage4_1 ((cfg4.slots t 1).cast nbuf4_1))
      (win4_2.stage (cfg4.slots t 2)) (hstage4_2 ((cfg4.slots t 2).cast nbuf4_2)) (win4_3.stage (cfg4.slots t 3)) (hstage4_3 ((cfg4.slots t 3).cast nbuf4_3))
      (Memref.whole cc4_scratch0) (Memref.isWhole_whole _) (Memref.whole cc4_scratch1) (Memref.isWhole_whole _)
      (pool_first_off t h0) (pool_last_on t h4) (featRows V c t) (graphIds V c t) (running V c k hlt).1 (running V c k hlt).2
      ((pool V c).before 2 t d2) ((pool V c).before 3 t d3) (poolPost V c t))
  isplitl [H0]; · iexact H0
  isplitl [H1]; · iexact H1
  isplitl [S0]; · iexact S0
  isplitl [S1]; · iexact S1
  isplitl [H2]; · iexact H2
  isplitl [H3]; · iexact H3
  iintro H0 H1 S0 S1 H2 H3
  unfold poolPost
  rw [pool_inv_after, running_step V c t k hk h0, pool_owes, pool_leaves_feats, pool_leaves_ids, pool_leaves_sums_live V c t h4,
    pool_leaves_counts_live V c t h4, running_step V c t k hk h0]
  isplitl [S0 S1 HB HR]
  · isplitl [S0]; · iexact S0
    isplitl [S1]; · iexact S1
    isplitl [HB]; · iexact HB
    iexact HR
  isplitl [HO]; · iexact HO
  isplitl [H0]; · iexact H0
  isplitl [H1]; · iexact H1
  isplitl [H2]; · iexact H2
  iexact H3

/-- Every point is of one of the three kinds. -/
theorem pool_sound (V : Entry F) (c : Dev nD) (t : Fin cfg4.N) :
    poolPre V c t ⊢ wp frame (wpE (defs₀ (F := F)) Variants.none (c : Thread nD τ) none) Set.univ (bodyAt4 (F := F) t)
      (fun _ => poolPost V c t) := by
  by_cases h0 : t.val % 5 = 0
  · exact pool_sound_first V c t h0
  · by_cases h4 : t.val % 5 = 4
    · exact pool_sound_last V c t h4
    · exact pool_sound_mid V c t h0 h4

/-- At every grid point the kernel body takes the scratch buffers from what the point before left (anything, at the
    first point) to this point's running sums and counts, and at the last block of a half leaves them, re-laid, in the
    two outputs' buffers. -/
theorem pool_obl (V : Entry F) (c : Dev nD) :
    BodyObligation (pool V c) (defs₀ (F := F)) Variants.none () Set.univ := fun t => by
  rw [bigSep_W4, bigSep_W4]; exact pool_sound V c t

/-- What the launch hands the region is the invariant before the first point. -/
theorem pool_hin (V : Entry F) (c : Dev nD) : Pipeline.ΦA spec4 c ⊢ (pool V c).Φ 0 := .rfl

/-- After the last point the invariant gives back what the launch handed over: the scratch contents are forgotten. -/
theorem pool_hout (V : Entry F) (c : Dev nD) : (pool V c).Φ (Fin.last cfg4.N) ⊢ Pipeline.ΦA spec4 c :=
  carried_forget V c (Fin.last cfg4.N).val (Nat.le_of_lt_succ (Fin.last cfg4.N).isLt)

end Cert.Kernel.Own

end
-- ==== Proof.WordLevel.Chain.lean ====
/-
  The whole run of @main: five kernel regions among six stretches of host operations, composed in order. Every weakly
  fair execution terminates without a fault, and at the end every unscoped TensorCore buffer holds what the fold of
  Boundaries.lean computes (`at10`); no item writes an argument array.
-/
import proofs.«408992_j29411936043071_4_alg».proof.Proof.WordLevel.Boundaries
import proofs.«408992_j29411936043071_4_alg».proof.Proof.WordLevel.ProjectAObl
import proofs.«408992_j29411936043071_4_alg».proof.Proof.WordLevel.ProjectBObl
import proofs.«408992_j29411936043071_4_alg».proof.Proof.WordLevel.ActivateAObl
import proofs.«408992_j29411936043071_4_alg».proof.Proof.WordLevel.ActivateBObl
import proofs.«408992_j29411936043071_4_alg».proof.Proof.WordLevel.PoolObl
import proofs.«408992_j29411936043071_4_alg».proof.Proof.Gen.Kernel.Regions
import Idealize.ShloMosaic.Lib.Pipeline.Regions
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel Cert.Kernel.Gen

variable {F : FTy → Type} [FloatOps F]

local notation "𝕄" => MT nD τ sig Unit (Elt F) ℕ (UR sig nD τ) ℕ

/-! ## Owing nothing, inside a pipeline and outside it -/

/-- A core that owes nothing, whatever pairs it has recorded, owes nothing within a point's bound when the data record
    every pair there. -/
theorem owesAt_of_owes_zero {cfg : Cfg sig Λ₀} {c : Dev nD} (dat : Dat τ (Elt F) Unit ℕ (UR sig nD τ) ℕ cfg c)
    (t : Fin (cfg.N + 1)) (h0 : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [h0, hr]
  iintro ⟨%W, HO⟩
  iexists W
  isplitr
  · ipureintro; exact fun _ _ => Or.inl trivial
  · iexact HO

/-- Conversely the bound is forgotten. -/
theorem owes_zero_of_owesAt {cfg : Cfg sig Λ₀} {c : Dev nD} (dat : Dat τ (Elt F) Unit ℕ (UR sig nD τ) ℕ cfg c)
    (t : Fin (cfg.N + 1)) (h0 : dat.owed t = 0) :
    (dat.owesAt () t : sProp 𝕄) ⊢ iprop(∃ W, owes (c : Thread nD τ) (0 : CellTallies nD τ sig Unit) W) := by
  unfold Pipeline.Dat.owesAt Pipeline.owesWithin
  rw [h0]
  iintro ⟨%W, -, HO⟩
  iexists W
  iexact HO

/-- No pair of a cell and an index is given a level: no core of this program waits on another. -/
abbrev noPairs : GSem nD τ sig → Finset Unit := fun _ => ∅
abbrev noLevel : GSem nD τ sig → Unit → ℕ := fun _ _ => 0

/-- What a core holds between two items besides its unscoped buffers: the generator register at some state, and that it
    owes nothing. -/
abbrev beside (c : Dev nD) : sProp 𝕄 :=
  iprop((∃ r, prngReg c r) ∗ ∃ W, owes (c : Thread nD τ) (0 : CellTallies nD τ sig Unit) W)

/-- A pipeline with no prefetched table holds none. -/
theorem prefHeld_none (c : Dev nD) (q : Fin (Pipeline.Prefetch.none (sig := sig)).K → PosShare TreeShare)
    (V : (Pipeline.Prefetch.none (sig := sig)).Contents (Elt F)) :
    (Pipeline.prefHeld (Ix := Unit) (Name := ℕ) (U := UR sig nD τ) (Lvl := ℕ) Pipeline.Prefetch.none c q V : sProp 𝕄) = BI.emp := by
  unfold Pipeline.prefHeld
  rw [Finset.univ_eq_empty, BI.bigSep_empty]

/-! ## A region over buffers held at a valuation -/

section Region

variable (pdats : (p : Fin 5) → (c : Dev nD) → Dat τ (Elt F) Unit ℕ (UR sig nD τ) ℕ (Pipeline.pin (pcfgs (F := F)) adm p) c)

set_option backward.isDefEq.respectTransparency.types false in
/-- Pipeline `p` as an item of @main, for data of the plain kind (full shares, nothing owed, every pair recorded, an
    invariant that starts from and ends at the class invariant): entered with every unscoped buffer held at `Vin`, it
    leaves them held at `Vout`, provided `Vout` has each of the pipeline's arrays at what the write-backs leave and
    agrees with `Vin` elsewhere. The generator register and the empty debt ride beside the buffers. -/
def regionOf (p : Fin 5) (lay : Pipeline.LaunchFacts (nD := nD) (τ := τ) cfgs p)
    (Vin Vout : Dev nD → Valuation τ sig (Elt F))
    (hbody : ∀ c, BodyObligation (pdats p c) (defs₀ (F := F)) Variants.none () Set.univ)
    (hA : ∀ c w, (pdats p c).A w = Vin c (Pipeline.arrRef (Pipeline.pin (pcfgs (F := F)) adm p).spec w))
    (hq : ∀ c w, (pdats p c).share w = fullShare)
    (howed : ∀ c t, (pdats p c).owed t = 0)
    (hrec : ∀ c t, (pdats p c).recorded t = Set.univ)
    (hΦin : ∀ c, Pipeline.ΦA (Pipeline.pin (pcfgs (F := F)) adm p).spec c ⊢ (pdats p c).Φ 0)
    (hΦout : ∀ c, (pdats p c).Φ (Fin.last (Pipeline.pin (pcfgs (F := F)) adm p).N) ⊢ Pipeline.ΦA (Pipeline.pin (pcfgs (F := F)) adm p).spec c)
    (hF : ∀ c w, (pdats p c).arrAt w (Pipeline.pin (pcfgs (F := F)) adm p).N = Vout c (Pipeline.arrRef (Pipeline.pin (pcfgs (F := F)) adm p).spec w))
    (hrest : ∀ c (b : Ref sig .tc), b ∉ Finset.univ.image (Pipeline.arrRef (Pipeline.pin (pcfgs (F := F)) adm p).spec) → Vout c b = Vin c b) :
    Pipeline.RegionSeg (pcfgs (F := F)) adm pdats () defs₀ Variants.none noPairs noLevel p where
  win := lay.win.to₀
  block_pos := lay.block_pos
  stage_whole := lay.stage_whole
  K := PEmpty
  osem k := k.elim
  ho := Pipeline.OwnSemFacts.none _
  hbody c := (hbody c).loose
  hwaits := Pipeline.hwaits_of_owed_zero _ _ _ _ noPairs noLevel p howed
  pre c := iprop(StableHlo.held (c : Thread nD τ) (Pipeline.ucRefs τ sig) (Vin c) ∗ beside c)
  post c := iprop(StableHlo.held (c : Thread nD τ) (Pipeline.ucRefs τ sig) (Vout c) ∗ beside c)
  X c := iprop(∃ r, prngReg c r)
  Y c := iprop(∃ r, prngReg c r)
  Z c := Pipeline.unscopedRest (Pipeline.pin (pcfgs (F := F)) adm p).spec c (fun b => Vin c b)
  hentry c := by
    have hsplit := Pipeline.arrays_of_unscopedBufs (pcfgs (F := F)) adm pdats lay.win lay.arr_whole c (hq c) (fun b => Vin c b) (hA c)
    rw [Pipeline.unscopedBufs_held c (Vin c)] at hsplit
    have hnone : (BI.emp : sProp 𝕄) ⊢ Pipeline.prefHeld (pcfgs (F := F) p).pre c (fun _ => fullShare) (adm p).1 :=
      Entails.of_eq (prefHeld_none c _ _).symm
    iintro ⟨⟨Hh, Hr, HO⟩, -, -⟩
    imodintro
    ihave H := hsplit $$ Hh
    icases H with ⟨Ha, Hz⟩
    isplitl [Ha]; · iexact Ha
    isplitr
    · iapply hnone; iempintro
    isplitl [HO]
    · iapply (owesAt_of_owes_zero (pdats p c) 0 (howed c 0) (hrec c 0)); iexact HO
    isplitl [Hr]; · iexact Hr
    iexact Hz
  hin c := by
    refine BIBase.Entails.trans ?_ (hΦin c)
    unfold Pipeline.ΦA
    iintro ⟨HX, -, Hs⟩
    isplitl [Hs]; · iexact Hs
    iexact HX
  hout c := by
    refine (hΦout c).trans ?_
    unfold Pipeline.ΦA
    rw [Pipeline.ownSems0_none]
    iintro ⟨Hs, HX⟩
    isplitl [HX]; · iexact HX
    isplitr; · iempintro
    iexact Hs
  hexit c := by
    have hjoin := Pipeline.unscopedBufs_of_arrays (pcfgs (F := F)) adm lay.win lay.arr_whole c pdats (hq c)
      (fun b => Vin c b) (fun b => Vout c b) (fun w => (pdats p c).arrAt w (Pipeline.pin (pcfgs (F := F)) adm p).N) (hF c) (hrest c)
    rw [Pipeline.unscopedBufs_held c (Vout c)] at hjoin
    iintro ⟨Ha, HO, HY, HZ⟩
    imodintro
    isplitl [Ha HZ]
    · iapply hjoin
      isplitl [Ha]; · iexact Ha
      iexact HZ
    isplitl [HY]; · iexact HY
    iapply (owes_zero_of_owesAt (pdats p c) _ (howed c _)); iexact HO

end Region

/-! ## What the write-backs leave, read off an updated valuation -/

section Leaves

variable {cfg : Cfg sig Λ₀} {c : Dev nD} (dat : Dat τ (Elt F) Unit ℕ (UR sig nD τ) ℕ cfg c)

/-- Data whose inputs are held whole hold every array whole. -/
theorem share_full (h : ∀ w, dat.q w = fullShare) (w : Fin cfg.W) : dat.share w = fullShare := by
  unfold Pipeline.Dat.share
  rw [h w]
  exact ite_self _

/-- A buffer that is none of the pipeline's arrays is not the array of window `o`. -/
theorem ne_arr_of_not_mem (o : Fin cfg.W) (b : Ref sig .tc) (hb : b ∉ Finset.univ.image (Pipeline.arrRef cfg.spec)) :
    (Proc.devRef .tc b : DevRef τ sig) ≠ Proc.devRef .tc (Pipeline.arrRef cfg.spec o) :=
  StableHlo.devRef_ne_of_ne fun e => hb (by rw [e]; exact Finset.mem_image_of_mem _ (Finset.mem_univ o))

/-- One result array `o`, every other window an input: the valuation `V` the region is entered at, updated at `o`'s
    buffer with what the write-backs leave there, holds every array of the pipeline at what the write-backs leave. -/
theorem leaves_one (V : Valuation τ sig (Elt F)) (hA : ∀ w, dat.A w = V (Pipeline.arrRef cfg.spec w))
    (hinj : Function.Injective (Pipeline.arrRef cfg.spec)) (o : Fin cfg.W)
    (hin : ∀ w, w ≠ o → (cfg.win w).isOut = false) (w : Fin cfg.W) :
    dat.arrAt w cfg.N
      = Function.update V (Proc.devRef .tc (Pipeline.arrRef cfg.spec o)) (dat.arrAt o cfg.N) (Proc.devRef .tc (Pipeline.arrRef cfg.spec w)) := by
  by_cases h : w = o
  · subst h; rw [Function.update_self]
  · have hne : (Proc.devRef .tc (Pipeline.arrRef cfg.spec w) : DevRef τ sig) ≠ Proc.devRef .tc (Pipeline.arrRef cfg.spec o) :=
      StableHlo.devRef_ne_of_ne fun e => h (hinj e)
    rw [Function.update_of_ne hne, dat.arrAt_in w (hin w h), hA w]

/-- and agrees with `V` off the pipeline's arrays. -/
theorem rest_one (V : Valuation τ sig (Elt F)) (o : Fin cfg.W) (X : Buf (Elt F) ((c : Thread nD τ).loc (Pipeline.arrRef cfg.spec o)))
    (b : Ref sig .tc) (hb : b ∉ Finset.univ.image (Pipeline.arrRef cfg.spec)) :
    Function.update V (Proc.devRef .tc (Pipeline.arrRef cfg.spec o)) X (Proc.devRef .tc b) = V (Proc.devRef .tc b) := by
  rw [Function.update_of_ne (ne_arr_of_not_mem o b hb)]

/-- Two result arrays `o₁ ≠ o₂`, every other window an input: likewise, the valuation updated at both. -/
theorem leaves_two (V : Valuation τ sig (Elt F)) (hA : ∀ w, dat.A w = V (Pipeline.arrRef cfg.spec w))
    (hinj : Function.Injective (Pipeline.arrRef cfg.spec)) (o₁ o₂ : Fin cfg.W)
    (hin : ∀ w, w ≠ o₁ → w ≠ o₂ → (cfg.win w).isOut = false) (w : Fin cfg.W) :
    dat.arrAt w cfg.N
      = Function.update (Function.update V (Proc.devRef .tc (Pipeline.arrRef cfg.spec o₁)) (dat.arrAt o₁ cfg.N))
          (Proc.devRef .tc (Pipeline.arrRef cfg.spec o₂)) (dat.arrAt o₂ cfg.N) (Proc.devRef .tc (Pipeline.arrRef cfg.spec w)) := by
  by_cases h₂ : w = o₂
  · subst h₂; rw [Function.update_self]
  · have hne₂ : (Proc.devRef .tc (Pipeline.arrRef cfg.spec w) : DevRef τ sig) ≠ Proc.devRef .tc (Pipeline.arrRef cfg.spec o₂) :=
      StableHlo.devRef_ne_of_ne fun e => h₂ (hinj e)
    rw [Function.update_of_ne hne₂]
    by_cases h₁ : w = o₁
    · subst h₁; rw [Function.update_self]
    · have hne₁ : (Proc.devRef .tc (Pipeline.arrRef cfg.spec w) : DevRef τ sig) ≠ Proc.devRef .tc (Pipeline.arrRef cfg.spec o₁) :=
        StableHlo.devRef_ne_of_ne fun e => h₁ (hinj e)
      rw [Function.update_of_ne hne₁, dat.arrAt_in w (hin w h₁ h₂), hA w]

theorem rest_two (V : Valuation τ sig (Elt F)) (o₁ o₂ : Fin cfg.W)
    (X₁ : Buf (Elt F) ((c : Thread nD τ).loc (Pipeline.arrRef cfg.spec o₁))) (X₂ : Buf (Elt F) ((c : Thread nD τ).loc (Pipeline.arrRef cfg.spec o₂)))
    (b : Ref sig .tc) (hb : b ∉ Finset.univ.image (Pipeline.arrRef cfg.spec)) :
    Function.update (Function.update V (Proc.devRef .tc (Pipeline.arrRef cfg.spec o₁)) X₁) (Proc.devRef .tc (Pipeline.arrRef cfg.spec o₂)) X₂ (Proc.devRef .tc b)
      = V (Proc.devRef .tc b) := by
  rw [Function.update_of_ne (ne_arr_of_not_mem o₂ b hb), Function.update_of_ne (ne_arr_of_not_mem o₁ b hb)]

end Leaves

/-! ## This program's five pipelines and six host stretches as items -/

variable (m : (ℓ : Loc nD τ sig) → Buf (Elt F) ℓ) (ρ : Dev nD → PrngReg)

/-- The five pipelines' data, each over the buffers its region is entered with. -/
def pdats : (p : Fin 5) → (c : Dev nD) → Dat τ (Elt F) Unit ℕ (UR sig nD τ) ℕ (Pipeline.pin (pcfgs (F := F)) adm p) c
  | ⟨0, _⟩ => fun c => projA (asEntry (at1 m)) c
  | ⟨1, _⟩ => fun c => actA (asEntry (at3 m)) c
  | ⟨2, _⟩ => fun c => projB (asEntry (at4 m)) c
  | ⟨3, _⟩ => fun c => actB (asEntry (at6 m)) c
  | ⟨4, _⟩ => fun c => pool (asEntry (at8 m)) c

set_option backward.isDefEq.respectTransparency.types false in
/-- The first projection: entered at `at1`, left at `at2`. -/
def region0 : Pipeline.RegionSeg (pcfgs (F := F)) adm (pdats m) () defs₀ Variants.none noPairs noLevel 0 :=
  regionOf (pdats m) 0 launch0 (at1 m) (at2 m)
    (fun c => projA_obl (asEntry (at1 m)) c)
    (fun c w => projA_A (asEntry (at1 m)) c w)
    (fun c => share_full _ fun _ => rfl)
    (fun _ _ => rfl) (fun _ _ => rfl)
    (fun _ => .rfl) (fun _ => .rfl)
    (fun c w => leaves_one (projA (asEntry (at1 m)) c) (at1 m c) (projA_A (asEntry (at1 m)) c) winFacts0.arr_inj 2 (by decide) w)
    (fun c b hb => rest_one (cfg := cfg0) (c := c) (at1 m c) 2 _ b hb)

set_option backward.isDefEq.respectTransparency.types false in
/-- The first bias-and-rectifier: entered at `at3`, left at `at4`. -/
def region1 : Pipeline.RegionSeg (pcfgs (F := F)) adm (pdats m) () defs₀ Variants.none noPairs noLevel 1 :=
  regionOf (pdats m) 1 launch1 (at3 m) (at4 m)
    (fun c => actA_obl (asEntry (at3 m)) c)
    (fun c w => actA_A (asEntry (at3 m)) c w)
    (fun c => share_full _ fun _ => rfl)
    (fun _ _ => rfl) (fun _ _ => rfl)
    (fun _ => .rfl) (fun _ => .rfl)
    (fun c w => leaves_one (actA (asEntry (at3 m)) c) (at3 m c) (actA_A (asEntry (at3 m)) c) winFacts1.arr_inj 2 (by decide) w)
    (fun c b hb => rest_one (cfg := cfg1) (c := c) (at3 m c) 2 _ b hb)

set_option backward.isDefEq.respectTransparency.types false in
/-- The second projection: entered at `at4`, left at `at5`. -/
def region2 : Pipeline.RegionSeg (pcfgs (F := F)) adm (pdats m) () defs₀ Variants.none noPairs noLevel 2 :=
  regionOf (pdats m) 2 launch2 (at4 m) (at5 m)
    (fun c => projB_obl (asEntry (at4 m)) c)
    (fun c w => projB_A (asEntry (at4 m)) c w)
    (fun c => share_full _ fun _ => rfl)
    (fun _ _ => rfl) (fun _ _ => rfl)
    (fun _ => .rfl) (fun _ => .rfl)
    (fun c w => leaves_one (projB (asEntry (at4 m)) c) (at4 m c) (projB_A (asEntry (at4 m)) c) winFacts2.arr_inj 2 (by decide) w)
    (fun c b hb => rest_one (cfg := cfg2) (c := c) (at4 m c) 2 _ b hb)

set_option backward.isDefEq.respectTransparency.types false in
/-- The second bias-and-rectifier: entered at `at6`, left at `at7`. -/
def region3 : Pipeline.RegionSeg (pcfgs (F := F)) adm (pdats m) () defs₀ Variants.none noPairs noLevel 3 :=
  regionOf (pdats m) 3 launch3 (at6 m) (at7 m)
    (fun c => actB_obl (asEntry (at6 m)) c)
    (fun c w => actB_A (asEntry (at6 m)) c w)
    (fun c => share_full _ fun _ => rfl)
    (fun _ _ => rfl) (fun _ _ => rfl)
    (fun _ => .rfl) (fun _ => .rfl)
    (fun c w => leaves_one (actB (asEntry (at6 m)) c) (at6 m c) (actB_A (asEntry (at6 m)) c) winFacts3.arr_inj 2 (by decide) w)
    (fun c b hb => rest_one (cfg := cfg3) (c := c) (at6 m c) 2 _ b hb)

set_option backward.isDefEq.respectTransparency.types false in
/-- The pooling kernel: entered at `at8`, left at `at9`; its invariant starts from and ends at the class invariant. -/
def region4 : Pipeline.RegionSeg (pcfgs (F := F)) adm (pdats m) () defs₀ Variants.none noPairs noLevel 4 :=
  regionOf (pdats m) 4 launch4 (at8 m) (at9 m)
    (fun c => pool_obl (asEntry (at8 m)) c)
    (fun c w => pool_A (asEntry (at8 m)) c w)
    (fun c => share_full _ fun _ => rfl)
    (fun _ _ => rfl) (fun _ _ => rfl)
    (fun c => pool_hin (asEntry (at8 m)) c) (fun c => pool_hout (asEntry (at8 m)) c)
    (fun c w => leaves_two (pool (asEntry (at8 m)) c) (at8 m c) (pool_A (asEntry (at8 m)) c) winFacts4.arr_inj 2 3 (by decide) w)
    (fun c b hb => rest_two (cfg := cfg4) (c := c) (at8 m c) 2 3 _ _ b hb)

/-- A stretch of host operations over the unscoped buffers held at `V`: it leaves them at `StableHlo.after ops (V c)`. -/
def hostItem (ops : List (HloOp τ sig (Elt F))) (hsub : ops.Forall fun op => op.bufs ⊆ StableHlo.tcRefs τ sig)
    (hfresh : ops.Forall fun op => op.fresh = ∅) (V : Dev nD → Valuation τ sig (Elt F)) :
    Pipeline.HostSeg (Ix := Unit) (Name := ℕ) (U := UR sig nD τ) (Lvl := ℕ) (pcfgs (F := F)) defs₀ Variants.none noPairs noLevel :=
  Pipeline.HostSeg.ofOps _ _ _ _ _ (Pipeline.ucRefs τ sig) ops
    (fun op h => Pipeline.sub_ucRefs op (List.forall_iff_forall_mem.mp hsub op h))
    (fun op h => List.forall_iff_forall_mem.mp hfresh op h) V beside

/-- @main, item by item. -/
def items : List (Pipeline.Seg (pcfgs (F := F)) adm (pdats m) () defs₀ Variants.none noPairs noLevel) :=
  [ .host (hostItem hostOps0 hostOps0_sub hostOps0_fresh (at0 m)),
    .region (region0 m),
    .host (hostItem hostOps1 hostOps1_sub hostOps1_fresh (at2 m)),
    .region (region1 m),
    .region (region2 m),
    .host (hostItem hostOps3 hostOps3_sub hostOps3_fresh (at5 m)),
    .region (region3 m),
    .host (hostItem hostOps4 hostOps4_sub hostOps4_fresh (at7 m)),
    .region (region4 m),
    .host (hostItem hostOps5 hostOps5_sub hostOps5_fresh (at9 m)) ]

/-! ## The run -/

set_option backward.isDefEq.respectTransparency.types false in
/-- Every weakly fair execution of @main from memory `m` with zero counters terminates, nothing faulting, and every
    final memory holds, in each unscoped buffer of each core, the last boundary's contents. -/
theorem run_all : θ_run (defs (F := F)) (onTc (τ := τ) (main (F := F))) ⟨m, fun _ => 0, ρ⟩
    (fun r => ∀ c : Dev nD, ∀ b ∈ Pipeline.ucRefs τ sig, r.2.mem ((c : Thread nD τ).1, b) = at10 m c b) := by
  refine Pipeline.θ_run_regions_kit (pcfgs (F := F)) adm (pdats m) () cellOf_inj emb₁ defs₀ Variants.none noPairs noLevel
    m ρ main (items m) (fun c Q => ?hmain) ?hnd (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj)) (hu₀ := ?hu₀)
    (T₀ := fun c => iprop(StableHlo.held (c : Thread nD τ) (Pipeline.ucRefs τ sig) (at0 m c) ∗ beside c))
    (Tₙ := fun c => StableHlo.held (c : Thread nD τ) (Pipeline.ucRefs τ sig) (at10 m c))
    (hch := ?hch) (hinit := ?hinit)
    (QY := fun c s => ∀ b ∈ Pipeline.ucRefs τ sig, s.mem ((c : Thread nD τ).1, b) = at10 m c b)
    (hfin := fun c s' => ?hfin) (hQ := fun _ h => h)
  case hmain =>
    -- @main is the chain of the items' programs
    rewrite [main_chain c, Pipeline.Seg.run_eq_chain,
      show (items m).map Pipeline.Seg.prog = [
        StableHlo.seq hostOps0,
        Prog.lift (.customCall (Pipeline.entry 0) ()),
        StableHlo.seq hostOps1,
        Prog.lift (.customCall (Pipeline.entry 1) ()),
        Prog.lift (.customCall (Pipeline.entry 2) ()),
        StableHlo.seq hostOps3,
        Prog.lift (.customCall (Pipeline.entry 3) ()),
        StableHlo.seq hostOps4,
        Prog.lift (.customCall (Pipeline.entry 4) ()),
        StableHlo.seq hostOps5 ] from rfl]
    exact .rfl
  case hnd =>
    -- each pipeline is entered once
    simp only [items, Pipeline.Seg.pipes_host, Pipeline.Seg.pipes_region, Pipeline.Seg.pipes_nil]; decide
  case hu₀ =>
    -- the launch element is the rounds algebra's initial element at the staging cells; no other ghost resource is dealt
    rw [ownU_emb₁]
    iintro Hu
    imodintro
    isplitl [Hu]; · iexact Hu
    iapply (show (BI.emp : sProp 𝕄) ⊢ bigSep Finset.univ (fun _ : Dev nD => (BI.emp : sProp 𝕄)) from by
      rw [BI.bigSep_emp_const])
    iempintro
  case hch =>
    -- each item is entered with exactly what the one before it left; at the end the register is let go
    refine ⟨fun _ => .rfl, fun _ => .rfl, fun _ => .rfl, fun _ => .rfl, fun _ => .rfl, fun _ => .rfl, fun _ => .rfl,
      fun _ => .rfl, fun _ => .rfl, fun _ => .rfl, fun c => ?_⟩
    show iprop(StableHlo.held (c : Thread nD τ) (Pipeline.ucRefs τ sig) (at10 m c) ∗ beside c)
      ⊢ iprop(StableHlo.held (c : Thread nD τ) (Pipeline.ucRefs τ sig) (at10 m c) ∗ ∃ W, owes (c : Thread nD τ) (0 : CellTallies nD τ sig Unit) W)
    iintro ⟨Hh, -, HO⟩
    isplitl [Hh]; · iexact Hh
    iexact HO
  case hinit =>
    -- each core's launch holdings are its unscoped buffers at the launch contents, its register, and no debt
    refine Pipeline.initEach noPairs noLevel fun c => ?_
    rw [show unscopedBufs c (fun b => m ((c : Thread nD τ).loc b)) = StableHlo.held (c : Thread nD τ) (Pipeline.ucRefs τ sig) (at0 m c)
      from Pipeline.unscopedBufs_held c (at0 m c)]
    iintro ⟨⟨Hh, -, HO, -, Hp, -⟩, -⟩
    imodintro
    isplitl [Hh]; · iexact Hh
    isplitl [Hp]; · iexists _; iexact Hp
    iexists ∅; iexact HO
  case hfin =>
    -- every held buffer is what the final memory has there
    unfold StableHlo.held
    iintro ⟨Hh, HSI⟩
    ihave Hr := (pointsTo_read_all (Pipeline.ucRefs τ sig) (fun b => ((c : Thread nD τ).1, b)) (at10 m c) s') $$ [Hh HSI]
    · isplitl [Hh] <;> iassumption
    icases Hr with ⟨%h, HSI⟩
    imodintro
    isplitr
    · ipureintro; exact h
    · iexact HSI

/-! ## The arguments are never written -/

/-- An unscoped TensorCore reference is one of those the run reads back. -/
theorem mem_ucRefs (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- A buffer that no host operation writes and that is no region's result holds at the last boundary what it held at launch. -/
theorem at10_of_unwritten (c : Dev nD) (r : Ref sig .tc)
    (h0 : r ∉ hostOps0_W) (h1 : r ∉ hostOps1_W) (h3 : r ∉ hostOps3_W) (h4 : r ∉ hostOps4_W) (h5 : r ∉ hostOps5_W)
    (hr : r ∉ ([main_v29, main_v44, main_v45, main_v60, main_v62_0, main_v62_1] : List (Ref sig .tc))) :
    at10 m c r = m ((c : Thread nD τ).loc r) := by
  have ne : ∀ x ∈ ([main_v29, main_v44, main_v45, main_v60, main_v62_0, main_v62_1] : List (Ref sig .tc)),
      (Proc.devRef .tc r : DevRef τ sig) ≠ Proc.devRef .tc x :=
    fun x hx => StableHlo.devRef_ne_of_ne fun e => hr (e ▸ hx)
  have e10 : at10 m c r = at9 m c r := StableHlo.after_of_writes_sub hostOps5 _ hostOps5_writes h5
  have e9 : at9 m c r = at8 m c r :=
    (Function.update_of_ne (ne main_v62_1 (by simp)) _ _).trans (Function.update_of_ne (ne main_v62_0 (by simp)) _ _)
  have e8 : at8 m c r = at7 m c r := StableHlo.after_of_writes_sub hostOps4 _ hostOps4_writes h4
  have e7 : at7 m c r = at6 m c r := Function.update_of_ne (ne main_v60 (by simp)) _ _
  have e6 : at6 m c r = at5 m c r := StableHlo.after_of_writes_sub hostOps3 _ hostOps3_writes h3
  have e5 : at5 m c r = at4 m c r := Function.update_of_ne (ne main_v45 (by simp)) _ _
  have e4 : at4 m c r = at3 m c r := Function.update_of_ne (ne main_v44 (by simp)) _ _
  have e3 : at3 m c r = at2 m c r := StableHlo.after_of_writes_sub hostOps1 _ hostOps1_writes h1
  have e2 : at2 m c r = at1 m c r := Function.update_of_ne (ne main_v29 (by simp)) _ _
  have e1 : at1 m c r = at0 m c r := StableHlo.after_of_writes_sub hostOps0 _ hostOps0_writes h0
  exact e10.trans (e9.trans (e8.trans (e7.trans (e6.trans (e5.trans (e4.trans (e3.trans (e2.trans e1))))))))

/-- No host operation and no region writes an argument: the last boundary holds each as launched. -/
theorem at10_args (c : Dev nD) :
    at10 m c main_arg0 = m ((c : Thread nD τ).loc main_arg0)
    ∧ at10 m c main_arg1 = m ((c : Thread nD τ).loc main_arg1)
    ∧ at10 m c main_arg2 = m ((c : Thread nD τ).loc main_arg2)
    ∧ at10 m c main_arg3 = m ((c : Thread nD τ).loc main_arg3)
    ∧ at10 m c main_arg4 = m ((c : Thread nD τ).loc main_arg4)
    ∧ at10 m c main_arg5 = m ((c : Thread nD τ).loc main_arg5)
    ∧ at10 m c main_arg6 = m ((c : Thread nD τ).loc main_arg6)
    ∧ at10 m c main_arg7 = m ((c : Thread nD τ).loc main_arg7)
    ∧ at10 m c main_arg8 = m ((c : Thread nD τ).loc main_arg8) :=
  ⟨at10_of_unwritten m c main_arg0 (by decide) (by decide) (by decide) (by decide) (by decide) (by decide),
   at10_of_unwritten m c main_arg1 (by decide) (by decide) (by decide) (by decide) (by decide) (by decide),
   at10_of_unwritten m c main_arg2 (by decide) (by decide) (by decide) (by decide) (by decide) (by decide),
   at10_of_unwritten m c main_arg3 (by decide) (by decide) (by decide) (by decide) (by decide) (by decide),
   at10_of_unwritten m c main_arg4 (by decide) (by decide) (by decide) (by decide) (by decide) (by decide),
   at10_of_unwritten m c main_arg5 (by decide) (by decide) (by decide) (by decide) (by decide) (by decide),
   at10_of_unwritten m c main_arg6 (by decide) (by decide) (by decide) (by decide) (by decide) (by decide),
   at10_of_unwritten m c main_arg7 (by decide) (by decide) (by decide) (by decide) (by decide) (by decide),
   at10_of_unwritten m c main_arg8 (by decide) (by decide) (by decide) (by decide) (by decide) (by decide)⟩

end Cert.Kernel.Own

end
-- ==== Proof.ProjectFinal.lean ====
import proofs.«408992_j29411936043071_4_alg».proof.Proof.ProjectA
import proofs.«408992_j29411936043071_4_alg».proof.Proof.ProjectB
import proofs.«408992_j29411936043071_4_alg».proof.ReferenceIdeal
import proofs.«408992_j29411936043071_4_alg».proof.Proof.Gen.ReferenceIdeal
import proofs.«408992_j29411936043071_4_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Own

open Idealize.ShloMosaic Idealize.ShloMosaic.TcCoe Idealize.SL.Sem
open Idealize.ShloMosaic.Pipeline (Dat)
open Idealize.ShloMosaic.ValueIdx
open Cert.KernelIdeal Cert.KernelIdeal.Gen

/-! # What the two projections leave: the ten row blocks together are the whole matrix product

Each projection runs over ten grid points. At point `t` the body multiplies rows 10000·t … 10000·t + 9999 of the array
being projected by the whole 128 × 128 weight matrix, accumulating from zero, and the result block is written back at
block (t, 0) of the 100000 × 128 result. Entry (r, q) of the result is therefore Σ_k x(r, k) · W(k, q), written by point
r / 10000 at its row r % 10000 — the same sum of 128 terms the whole product has there. -/

/-! ## One row block times the weights, entry by entry -/

/-- Left operand of the block product, row axis: the output's row. -/
theorem blockProd_lhs_0 (i : S10000x128.Idx) (κ : dot_S10000x128_S128x128_S10000x128_1_0_0_1_n_n.contr.Idx) :
    (dot_S10000x128_S128x128_S10000x128_1_0_0_1_n_n.lhsIdx i κ 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- Left operand, column axis: the summation position. -/
theorem blockProd_lhs_1 (i : S10000x128.Idx) (κ : dot_S10000x128_S128x128_S10000x128_1_0_0_1_n_n.contr.Idx) :
    (dot_S10000x128_S128x128_S10000x128_1_0_0_1_n_n.lhsIdx i κ 1).val = (κ ⟨0, by decide⟩).val :=
  dot_S10000x128_S128x128_S10000x128_1_0_0_1_n_n.lhsIdx_val_of_single rfl i κ
/-- Right operand, row axis: the summation position. -/
theorem blockProd_rhs_0 (i : S10000x128.Idx) (κ : dot_S10000x128_S128x128_S10000x128_1_0_0_1_n_n.contr.Idx) :
    (dot_S10000x128_S128x128_S10000x128_1_0_0_1_n_n.rhsIdx i κ 0).val = (κ ⟨0, by decide⟩).val :=
  dot_S10000x128_S128x128_S10000x128_1_0_0_1_n_n.rhsIdx_val_of_single rfl i κ
/-- Right operand, column axis: the output's column. -/
theorem blockProd_rhs_1 (i : S10000x128.Idx) (κ : dot_S10000x128_S128x128_S10000x128_1_0_0_1_n_n.contr.Idx) :
    (dot_S10000x128_S128x128_S10000x128_1_0_0_1_n_n.rhsIdx i κ 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Entry (p, q) of a 10000 × 128 block times a 128 × 128 matrix, accumulated from zero, is Σ_k x(p, k) · w(k, q). -/
theorem blockProd_apply (x : FVec Ideal S10000x128 .f32) (w : FVec Ideal S128x128 .f32) (p : Fin 10000) (q : Fin 128) :
    k0_pay1 (F := Ideal) x w (ix2 p q) = ∑ k : Fin 128, x (ix2 p k) * w (ix2 k q) := by
  unfold k0_pay1
  refine (Ideal.matmul_constant_zero_apply dot_S10000x128_S128x128_S10000x128_1_0_0_1_n_n none x w (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact blockProd_lhs_0 _ _
    | ⟨1, _⟩ => exact (blockProd_lhs_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (blockProd_rhs_0 _ _).trans hk
    | ⟨1, _⟩ => exact blockProd_rhs_1 _ _)
  rw [el, er]

/-- The second projection's body casts its row block to its own shape first: the same product. -/
theorem blockProdB_eq {F : FTy → Type} [FloatOps F] (x : Vec F S10000x128 .f32) (w : Vec F S128x128 .f32) :
    k2_pay1 x w = k0_pay1 x w := by
  unfold k2_pay1 k0_pay1
  rw [shapeCast_self]

/-! ## A row block of a product is the row block's product -/

/-- Let `xb` hold rows 10000·b … 10000·b + 9999 of `x` and let `wb` be all of `w`. Then entry (p, q) of `xb · wb` is entry
    (10000·b + p, q) of `x · w`: both are Σ_k x(10000·b + p, k) · w(k, q), a sum over the same 128 terms. -/
theorem rowBlock_of_product (x : FVec Ideal S100000x128 .f32) (w : FVec Ideal S128x128 .f32)
    (xb : FVec Ideal S10000x128 .f32) (wb : FVec Ideal S128x128 .f32) (b : ℕ)
    (hx : ∀ (y : S10000x128.Idx) (z : S100000x128.Idx), (z 0).val = b * 10000 + (y 0).val → (z 1).val = (y 1).val → xb y = x z)
    (hw : wb = w)
    (j : S10000x128.Idx) (i : S100000x128.Idx) (hi0 : (i 0).val = b * 10000 + (j 0).val) (hi1 : (i 1).val = (j 1).val) :
    k0_pay1 (F := Ideal) xb wb j
      = Host.dotGeneral (F := Ideal) (φ₁ := .f32) (φ₂ := .f32) Cert.ReferenceIdeal.dot_S100000x128_S128x128_S100000x128_1_0_0_1_n_n none x w i := by
  obtain ⟨p, q, rfl⟩ : ∃ (p : Fin 10000) (q : Fin 128), j = ix2 p q := ⟨j 0, j 1, eq_ix2 j⟩
  subst hw
  rw [blockProd_apply]
  refine Eq.trans ?_ (Cert.ReferenceIdeal.Read.val_main_v7_apply x wb i).symm
  refine Finset.sum_congr rfl fun k _ => ?_
  have e1 : xb (ix2 p k) = x (Cert.ReferenceIdeal.Read.lidx_main_v7 i k) := hx _ _ hi0 rfl
  have e2 : wb (ix2 k q) = wb (Cert.ReferenceIdeal.Read.ridx_main_v7 i k) :=
    congrArg wb (funext fun a => Fin.ext (by
      match a with
      | ⟨0, _⟩ => rfl
      | ⟨1, _⟩ => exact hi1.symm))
  rw [e1, e2]

/-! ## The first projection: what each grid point writes back, and the whole array -/

/-- What the first projection is to leave: the product of the two arrays as the region finds them. -/
def productA (V : Entry Ideal) (c : Dev nD) : (⟨S100000x128, .f32⟩ : BufTy).Contents (Elt Ideal) :=
  Host.dotGeneral (F := Ideal) (φ₁ := .f32) (φ₂ := .f32) Cert.ReferenceIdeal.dot_S100000x128_S128x128_S100000x128_1_0_0_1_n_n none
    (V c main_arg0 : (⟨S100000x128, .f32⟩ : BufTy).Contents (Elt Ideal))
    (V c main_arg3 : (⟨S128x128, .f32⟩ : BufTy).Contents (Elt Ideal))

/-- Where the three windows sit at grid point `t`: the row window and the result window at block (t, 0), the weights'
    one block at (0, 0); and there are ten points. -/
theorem projA_blocks : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- Grid point `t` writes back rows 10000·t … of the product. -/
theorem projA_flushed (V : Entry Ideal) (c : Dev nD) (t : Fin cfg0.N) :
    (projA V c).flushed 2 t = ((cfg0.win 2).blk t).view.read (Elt Ideal) (productA V c) := by
  obtain ⟨e00, e01, e10, e11, e20, e21, ht⟩ := projA_blocks t
  funext j
  show k0_pay1 (F := Ideal) (rowsA V c t) (weightsA V c t) j = productA V c (((cfg0.win 2).blk t).view.emb j)
  refine rowBlock_of_product (V c main_arg0) (V c main_arg3) (rowsA V c t) (weightsA V c t) t.val ?_ ?_ j
    (((cfg0.win 2).blk t).view.emb j) ?_ ?_
  · intro y z h0 h1
    show V c main_arg0 (((cfg0.win 0).blk t).view.emb y) = V c main_arg0 z
    refine congrArg (V c main_arg0) (funext fun a => Fin.ext ?_)
    match a with
    | ⟨0, _⟩ => show win0_0.index t (0 : Fin 2) * 10000 + 1 * (y 0).val = (z 0).val; omega
    | ⟨1, _⟩ => show win0_0.index t (1 : Fin 2) * 128 + 1 * (y 1).val = (z 1).val; omega
  · funext y
    show V c main_arg3 (((cfg0.win 1).blk t).view.emb y) = V c main_arg3 y
    refine congrArg (V c main_arg3) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · show win0_2.index t (0 : Fin 2) * 10000 + 1 * (j 0).val = t.val * 10000 + (j 0).val; omega
  · show win0_2.index t (1 : Fin 2) * 128 + 1 * (j 1).val = (j 1).val; omega

/-- An index of the result array lies in point `t`'s block iff each coordinate lies in the block's range on its axis. -/
theorem projA_mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v29).slice (win0_2.rect t)).set ↔ _
  rw [View.set_slice_whole, Rect.mem_set_unit]
  exact Iff.rfl

/-- The ten row blocks tile the result: row `r` lies in the block of point `r / 10000`. -/
theorem projA_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hlt : (i 0).val / 10000 < grid0.N := lt_of_lt_of_eq (by omega : (i 0).val / 10000 < 10) N_0.symm
  refine ⟨⟨(i 0).val / 10000, hlt⟩, flush0_2 _, ?_⟩
  obtain ⟨-, -, -, -, e20, e21, -⟩ := projA_blocks ⟨(i 0).val / 10000, hlt⟩
  have e20' : win0_2.index ⟨(i 0).val / 10000, hlt⟩ (0 : Fin 2) = (i 0).val / 10000 := e20
  rw [projA_mem_blk]
  intro a
  match a with
  | ⟨0, _⟩ =>
    show win0_2.index ⟨(i 0).val / 10000, hlt⟩ (0 : Fin 2) * 10000 ≤ (i 0).val ∧ (i 0).val < win0_2.index ⟨(i 0).val / 10000, hlt⟩ (0 : Fin 2) * 10000 + 10000
    omega
  | ⟨1, _⟩ =>
    show win0_2.index ⟨(i 0).val / 10000, hlt⟩ (1 : Fin 2) * 128 ≤ (i 1).val ∧ (i 1).val < win0_2.index ⟨(i 0).val / 10000, hlt⟩ (1 : Fin 2) * 128 + 128
    omega

/-- After pallas_call 0 its result array is the product of the two arrays it was given: block `t` holds rows
    10000·t … of it, the blocks tile the array, and at the exact reals a blocked product is the product. -/
theorem projA_final (V : Entry Ideal) (c : Dev nD) :
    ((projA V c).arrAt 2 cfg0.N : (⟨S100000x128, .f32⟩ : BufTy).Contents (Elt Ideal))
      = Host.dotGeneral (F := Ideal) (φ₁ := .f32) (φ₂ := .f32) Cert.ReferenceIdeal.dot_S100000x128_S128x128_S100000x128_1_0_0_1_n_n none
          (V c main_arg0 : (⟨S100000x128, .f32⟩ : BufTy).Contents (Elt Ideal))
          (V c main_arg3 : (⟨S128x128, .f32⟩ : BufTy).Contents (Elt Ideal)) :=
  (projA V c).arrAt_eq_of_cover 2 (productA V c) (fun t _ => projA_flushed V c t) projA_cover

/-! ## The second projection: the same, on the first layer's activations and the second weight matrix -/

/-- What the second projection is to leave: the product of the two arrays as the region finds them. -/
def productB (V : Entry Ideal) (c : Dev nD) : (⟨S100000x128, .f32⟩ : BufTy).Contents (Elt Ideal) :=
  Host.dotGeneral (F := Ideal) (φ₁ := .f32) (φ₂ := .f32) Cert.ReferenceIdeal.dot_S100000x128_S128x128_S100000x128_1_0_0_1_n_n none
    (V c main_v44 : (⟨S100000x128, .f32⟩ : BufTy).Contents (Elt Ideal))
    (V c main_arg5 : (⟨S128x128, .f32⟩ : BufTy).Contents (Elt Ideal))

/-- Where the three windows sit at grid point `t`: the row window and the result window at block (t, 0), the weights'
    one block at (0, 0); and there are ten points. -/
theorem projB_blocks : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 10 :=
  (by decide +kernel : ∀ t : Fin grid2.N, _)

/-- Grid point `t` writes back rows 10000·t … of the product. -/
theorem projB_flushed (V : Entry Ideal) (c : Dev nD) (t : Fin cfg2.N) :
    (projB V c).flushed 2 t = ((cfg2.win 2).blk t).view.read (Elt Ideal) (productB V c) := by
  obtain ⟨e00, e01, e10, e11, e20, e21, ht⟩ := projB_blocks t
  funext j
  show k2_pay1 (F := Ideal) (rowsB V c t) (weightsB V c t) j = productB V c (((cfg2.win 2).blk t).view.emb j)
  refine (congrFun (blockProdB_eq (rowsB V c t) (weightsB V c t)) j).trans ?_
  refine rowBlock_of_product (V c main_v44) (V c main_arg5) (rowsB V c t) (weightsB V c t) t.val ?_ ?_ j
    (((cfg2.win 2).blk t).view.emb j) ?_ ?_
  · intro y z h0 h1
    show V c main_v44 (((cfg2.win 0).blk t).view.emb y) = V c main_v44 z
    refine congrArg (V c main_v44) (funext fun a => Fin.ext ?_)
    match a with
    | ⟨0, _⟩ => show win2_0.index t (0 : Fin 2) * 10000 + 1 * (y 0).val = (z 0).val; omega
    | ⟨1, _⟩ => show win2_0.index t (1 : Fin 2) * 128 + 1 * (y 1).val = (z 1).val; omega
  · funext y
    show V c main_arg5 (((cfg2.win 1).blk t).view.emb y) = V c main_arg5 y
    refine congrArg (V c main_arg5) (funext fun a => Fin.ext ?_)
    match a with
    | ⟨0, _⟩ => show win2_1.index t (0 : Fin 2) * 128 + 1 * (y 0).val = (y 0).val; omega
    | ⟨1, _⟩ => show win2_1.index t (1 : Fin 2) * 128 + 1 * (y 1).val = (y 1).val; omega
  · show win2_2.index t (0 : Fin 2) * 10000 + 1 * (j 0).val = t.val * 10000 + (j 0).val; omega
  · show win2_2.index t (1 : Fin 2) * 128 + 1 * (j 1).val = (j 1).val; omega

/-- An index of the result array lies in point `t`'s block iff each coordinate lies in the block's range on its axis. -/
theorem projB_mem_blk (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v45).slice (win2_2.rect t)).set ↔ _
  rw [View.set_slice_whole, Rect.mem_set_unit]
  exact Iff.rfl

/-- The ten row blocks tile the result: row `r` lies in the block of point `r / 10000`. -/
theorem projB_cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hlt : (i 0).val / 10000 < grid2.N := lt_of_lt_of_eq (by omega : (i 0).val / 10000 < 10) N_2.symm
  refine ⟨⟨(i 0).val / 10000, hlt⟩, flush2_2 _, ?_⟩
  obtain ⟨-, -, -, -, e20, e21, -⟩ := projB_blocks ⟨(i 0).val / 10000, hlt⟩
  have e20' : win2_2.index ⟨(i 0).val / 10000, hlt⟩ (0 : Fin 2) = (i 0).val / 10000 := e20
  rw [projB_mem_blk]
  intro a
  match a with
  | ⟨0, _⟩ =>
    show win2_2.index ⟨(i 0).val / 10000, hlt⟩ (0 : Fin 2) * 10000 ≤ (i 0).val ∧ (i 0).val < win2_2.index ⟨(i 0).val / 10000, hlt⟩ (0 : Fin 2) * 10000 + 10000
    omega
  | ⟨1, _⟩ =>
    show win2_2.index ⟨(i 0).val / 10000, hlt⟩ (1 : Fin 2) * 128 ≤ (i 1).val ∧ (i 1).val < win2_2.index ⟨(i 0).val / 10000, hlt⟩ (1 : Fin 2) * 128 + 128
    omega

/-- The same for pallas_call 2, on the first layer's activations and the second weight matrix. -/
theorem projB_final (V : Entry Ideal) (c : Dev nD) :
    ((projB V c).arrAt 2 cfg2.N : (⟨S100000x128, .f32⟩ : BufTy).Contents (Elt Ideal))
      = Host.dotGeneral (F := Ideal) (φ₁ := .f32) (φ₂ := .f32) Cert.ReferenceIdeal.dot_S100000x128_S128x128_S100000x128_1_0_0_1_n_n none
          (V c main_v44 : (⟨S100000x128, .f32⟩ : BufTy).Contents (Elt Ideal))
          (V c main_arg5 : (⟨S128x128, .f32⟩ : BufTy).Contents (Elt Ideal)) :=
  (projB V c).arrAt_eq_of_cover 2 (productB V c) (fun t _ => projB_flushed V c t) projB_cover

end Cert.KernelIdeal.Own

end
-- ==== Proof.ActivateFinal.lean ====
import proofs.«408992_j29411936043071_4_alg».proof.Proof.ActivateA
import proofs.«408992_j29411936043071_4_alg».proof.Proof.ActivateB
import proofs.«408992_j29411936043071_4_alg».proof.ReferenceIdeal
import proofs.«408992_j29411936043071_4_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Own

open Idealize.ShloMosaic Idealize.ShloMosaic.TcCoe Idealize.SL.Sem
open Idealize.ShloMosaic.Pipeline (Dat)
open Idealize.ShloMosaic.ValueIdx
open Cert.KernelIdeal Cert.KernelIdeal.Gen

/-! # What the two bias-and-rectifier kernels leave: max(array + bias row, 0) over the whole array -/

/-- The whole array plus the bias row repeated down the rows, clamped below at 0, as the host writes it. -/
def rectified (a : (⟨S100000x128, .f32⟩ : BufTy).Contents (Elt Ideal)) (b : (⟨S1x128, .f32⟩ : BufTy).Contents (Elt Ideal)) :
    (⟨S100000x128, .f32⟩ : BufTy).Contents (Elt Ideal) :=
  maximumf
    (addf a
      (broadcastInDim Cert.ReferenceIdeal.S100000x128 ![0, 1] Cert.ReferenceIdeal.Facts₀.bcast_S1x128_S100000x128_0_1 b))
    (broadcastInDim Cert.ReferenceIdeal.S100000x128 ![] Cert.ReferenceIdeal.Facts₀.bcast_S_S100000x128
      (constant (F := Ideal) S_ .f32 0x00000000#32))

/-- Read at row `r`, column `q`: the entry plus the bias row's entry of that column, clamped below at 0. -/
theorem rectified_apply (a : (⟨S100000x128, .f32⟩ : BufTy).Contents (Elt Ideal)) (b : (⟨S1x128, .f32⟩ : BufTy).Contents (Elt Ideal))
    (r : Fin 100000) (q : Fin 128) :
    rectified a b (ix2 r q) = max (a (ix2 r q) + b (ix2 0 q)) (Ideal.ofBits .f32 0x00000000#32) := by
  unfold rectified
  rw [maximumf_apply, addf_apply,
    broadcastInDim_apply ![0, 1] Cert.ReferenceIdeal.Facts₀.bcast_S1x128_S100000x128_0_1 b (ix2 r q) (ix2 0 q)
      (fun a => match a with | ⟨0, _⟩ => rfl | ⟨1, _⟩ => rfl)]
  rfl

/-! ## Pallas_call 1 -/

/-- The body's payload at row `p`, column `q` of its block: two identity shape casts, the bias row repeated down the
    rows, the sum, and the maximum with the splat of 0. -/
theorem biasReluA_apply (x : Vec Ideal S10000x128 .f32) (b : Vec Ideal S1x128 .f32) (p : Fin 10000) (q : Fin 128) :
    k1_pay1 x b (ix2 p q) = max (x (ix2 p q) + b (ix2 0 q)) (Ideal.ofBits .f32 0x00000000#32) := by
  unfold k1_pay1
  simp only [maximumf_apply, addf_apply, broadcast_apply, shapeCast_self]
  rw [broadcastTo_apply b broadcasts_S1x128_S10000x128 (ix2 p q) (ix2 0 q)
      (fun a => match a with | ⟨0, _⟩ => rfl | ⟨1, _⟩ => rfl)]
  rfl

/-- The block indices, decided over the ten points: the row blocks of the input and of the result move with the
    point, on the one column block; the bias row's one block stays. -/
theorem blockIndexA : ∀ t : Fin cfg1.N, win1_2.index t (0 : Fin 2) = t.val ∧ win1_2.index t (1 : Fin 2) = 0
    ∧ win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)

/-- The grid has ten points. -/
theorem pointsA : cfg1.N = 10 := N_1

/-- What point `t` writes back is its 10000 rows of the rectified whole array. -/
theorem actA_flushed (V : Entry Ideal) (c : Dev nD) (t : Fin cfg1.N) :
    (actA V c).flushed 2 t
      = ((cfg1.win 2).blk t).view.read (Elt Ideal) (rectified (V c main_v42) (V c main_v43)) := by
  obtain ⟨e20, e21, e00, e01, e10, e11⟩ := blockIndexA t
  have ht : t.val < 10 := pointsA ▸ t.isLt
  funext j
  obtain ⟨p, q, rfl⟩ : ∃ (p : Fin 10000) (q : Fin 128), j = ix2 p q := ⟨j 0, j 1, eq_ix2 j⟩
  have hr : t.val * 10000 + p.val < 100000 := by have := p.isLt; omega
  show k1_pay1 (aggRowsA V c t) (biasRowA V c t) (ix2 p q)
    = rectified (V c main_v42) (V c main_v43) (((cfg1.win 2).blk t).view.emb (ix2 p q))
  have h2 : ((cfg1.win 2).blk t).view.emb (ix2 p q) = ix2 (⟨t.val * 10000 + p.val, hr⟩ : Fin 100000) q := by
    funext a; apply Fin.ext
    match a with
    | ⟨0, _⟩ => show win1_2.index t (0 : Fin 2) * 10000 + 1 * p.val = t.val * 10000 + p.val; omega
    | ⟨1, _⟩ => show win1_2.index t (1 : Fin 2) * 128 + 1 * q.val = q.val; omega
  have h0 : aggRowsA V c t (ix2 p q) = V c main_v42 (ix2 (⟨t.val * 10000 + p.val, hr⟩ : Fin 100000) q) := by
    show V c main_v42 (((cfg1.win 0).blk t).view.emb (ix2 p q)) = _
    refine congrArg (V c main_v42) ?_
    funext a; apply Fin.ext
    match a with
    | ⟨0, _⟩ => show win1_0.index t (0 : Fin 2) * 10000 + 1 * p.val = t.val * 10000 + p.val; omega
    | ⟨1, _⟩ => show win1_0.index t (1 : Fin 2) * 128 + 1 * q.val = q.val; omega
  have h1 : biasRowA V c t (ix2 0 q) = V c main_v43 (ix2 0 q) := by
    show V c main_v43 (((cfg1.win 1).blk t).view.emb (ix2 0 q)) = _
    refine congrArg (V c main_v43) ?_
    funext a; apply Fin.ext
    match a with
    | ⟨0, _⟩ => show win1_1.index t (0 : Fin 2) * 1 + 1 * 0 = 0; omega
    | ⟨1, _⟩ => show win1_1.index t (1 : Fin 2) * 128 + 1 * q.val = q.val; omega
  rw [biasReluA_apply, h2, rectified_apply, h0, h1]

/-- An index of the array is in point `t`'s block iff each coordinate is in the block's range on its axis. -/
theorem mem_rowsA (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v44).slice (win1_2.rect t)).set ↔ _
  rw [View.set_slice_whole, Rect.mem_set_unit]
  exact Iff.rfl

/-- Row `r` lies in the block of point `r / 10000`: the ten row blocks tile the array. -/
theorem coverA (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  let t : Fin cfg1.N := ⟨(i 0).val / 10000, by rw [pointsA]; omega⟩
  obtain ⟨e20, e21, -, -, -, -⟩ := blockIndexA t
  have et : t.val = (i 0).val / 10000 := rfl
  refine ⟨t, flush1_2 t, ?_⟩
  rw [mem_rowsA]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- After pallas_call 1 its result array is the aggregated array plus the 1×128 bias row repeated down the rows,
    clamped below at 0 — block by block what the host computes on the whole array. -/
theorem actA_final (V : Entry Ideal) (c : Dev nD) :
    ((actA V c).arrAt 2 cfg1.N : (⟨S100000x128, .f32⟩ : BufTy).Contents (Elt Ideal))
      = maximumf
          (addf (V c main_v42 : (⟨S100000x128, .f32⟩ : BufTy).Contents (Elt Ideal))
            (broadcastInDim Cert.ReferenceIdeal.S100000x128 ![0, 1] Cert.ReferenceIdeal.Facts₀.bcast_S1x128_S100000x128_0_1
              (V c main_v43 : (⟨S1x128, .f32⟩ : BufTy).Contents (Elt Ideal))))
          (broadcastInDim Cert.ReferenceIdeal.S100000x128 ![] Cert.ReferenceIdeal.Facts₀.bcast_S_S100000x128
            (constant (F := Ideal) S_ .f32 0x00000000#32)) :=
  (actA V c).arrAt_eq_of_cover 2 (rectified (V c main_v42) (V c main_v43)) (fun t _ => actA_flushed V c t) coverA

/-! ## Pallas_call 3: the same kernel on the second layer's arrays -/

/-- The body's payload at row `p`, column `q` of its block: two identity shape casts, the bias row repeated down the
    rows, the sum, and the maximum with the splat of 0. -/
theorem biasReluB_apply (x : Vec Ideal S10000x128 .f32) (b : Vec Ideal S1x128 .f32) (p : Fin 10000) (q : Fin 128) :
    k3_pay1 x b (ix2 p q) = max (x (ix2 p q) + b (ix2 0 q)) (Ideal.ofBits .f32 0x00000000#32) := by
  unfold k3_pay1
  simp only [maximumf_apply, addf_apply, broadcast_apply, shapeCast_self]
  rw [broadcastTo_apply b broadcasts_S1x128_S10000x128 (ix2 p q) (ix2 0 q)
      (fun a => match a with | ⟨0, _⟩ => rfl | ⟨1, _⟩ => rfl)]
  rfl

/-- The block indices, decided over the ten points: the row blocks of the input and of the result move with the
    point, on the one column block; the bias row's one block stays. -/
theorem blockIndexB : ∀ t : Fin cfg3.N, win3_2.index t (0 : Fin 2) = t.val ∧ win3_2.index t (1 : Fin 2) = 0
    ∧ win3_0.index t (0 : Fin 2) = t.val ∧ win3_0.index t (1 : Fin 2) = 0
    ∧ win3_1.index t (0 : Fin 2) = 0 ∧ win3_1.index t (1 : Fin 2) = 0 :=
  (by decide +kernel : ∀ t : Fin grid3.N, _)

/-- The grid has ten points. -/
theorem pointsB : cfg3.N = 10 := N_3

/-- What point `t` writes back is its 10000 rows of the rectified whole array. -/
theorem actB_flushed (V : Entry Ideal) (c : Dev nD) (t : Fin cfg3.N) :
    (actB V c).flushed 2 t
      = ((cfg3.win 2).blk t).view.read (Elt Ideal) (rectified (V c main_v58) (V c main_v59)) := by
  obtain ⟨e20, e21, e00, e01, e10, e11⟩ := blockIndexB t
  have ht : t.val < 10 := pointsB ▸ t.isLt
  funext j
  obtain ⟨p, q, rfl⟩ : ∃ (p : Fin 10000) (q : Fin 128), j = ix2 p q := ⟨j 0, j 1, eq_ix2 j⟩
  have hr : t.val * 10000 + p.val < 100000 := by have := p.isLt; omega
  show k3_pay1 (aggRowsB V c t) (biasRowB V c t) (ix2 p q)
    = rectified (V c main_v58) (V c main_v59) (((cfg3.win 2).blk t).view.emb (ix2 p q))
  have h2 : ((cfg3.win 2).blk t).view.emb (ix2 p q) = ix2 (⟨t.val * 10000 + p.val, hr⟩ : Fin 100000) q := by
    funext a; apply Fin.ext
    match a with
    | ⟨0, _⟩ => show win3_2.index t (0 : Fin 2) * 10000 + 1 * p.val = t.val * 10000 + p.val; omega
    | ⟨1, _⟩ => show win3_2.index t (1 : Fin 2) * 128 + 1 * q.val = q.val; omega
  have h0 : aggRowsB V c t (ix2 p q) = V c main_v58 (ix2 (⟨t.val * 10000 + p.val, hr⟩ : Fin 100000) q) := by
    show V c main_v58 (((cfg3.win 0).blk t).view.emb (ix2 p q)) = _
    refine congrArg (V c main_v58) ?_
    funext a; apply Fin.ext
    match a with
    | ⟨0, _⟩ => show win3_0.index t (0 : Fin 2) * 10000 + 1 * p.val = t.val * 10000 + p.val; omega
    | ⟨1, _⟩ => show win3_0.index t (1 : Fin 2) * 128 + 1 * q.val = q.val; omega
  have h1 : biasRowB V c t (ix2 0 q) = V c main_v59 (ix2 0 q) := by
    show V c main_v59 (((cfg3.win 1).blk t).view.emb (ix2 0 q)) = _
    refine congrArg (V c main_v59) ?_
    funext a; apply Fin.ext
    match a with
    | ⟨0, _⟩ => show win3_1.index t (0 : Fin 2) * 1 + 1 * 0 = 0; omega
    | ⟨1, _⟩ => show win3_1.index t (1 : Fin 2) * 128 + 1 * q.val = q.val; omega
  rw [biasReluB_apply, h2, rectified_apply, h0, h1]

/-- An index of the array is in point `t`'s block iff each coordinate is in the block's range on its axis. -/
theorem mem_rowsB (t : Fin cfg3.N) (i : S100000x128.Idx) :
    i ∈ ((cfg3.win 2).blk t).view.set ↔ ∀ a : Fin 2, win3_2.index t a * S10000x128.size a ≤ (i a).val
      ∧ (i a).val < win3_2.index t a * S10000x128.size a + S10000x128.size a := by
  show i ∈ ((View.whole main_v60).slice (win3_2.rect t)).set ↔ _
  rw [View.set_slice_whole, Rect.mem_set_unit]
  exact Iff.rfl

/-- Row `r` lies in the block of point `r / 10000`: the ten row blocks tile the array. -/
theorem coverB (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  let t : Fin cfg3.N := ⟨(i 0).val / 10000, by rw [pointsB]; omega⟩
  obtain ⟨e20, e21, -, -, -, -⟩ := blockIndexB t
  have et : t.val = (i 0).val / 10000 := rfl
  refine ⟨t, flush3_2 t, ?_⟩
  rw [mem_rowsB]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- After pallas_call 3 its result array is the aggregated array plus the 1×128 bias row repeated down the rows,
    clamped below at 0 — block by block what the host computes on the whole array. -/
theorem actB_final (V : Entry Ideal) (c : Dev nD) :
    ((actB V c).arrAt 2 cfg3.N : (⟨S100000x128, .f32⟩ : BufTy).Contents (Elt Ideal))
      = maximumf
          (addf (V c main_v58 : (⟨S100000x128, .f32⟩ : BufTy).Contents (Elt Ideal))
            (broadcastInDim Cert.ReferenceIdeal.S100000x128 ![0, 1] Cert.ReferenceIdeal.Facts₀.bcast_S1x128_S100000x128_0_1
              (V c main_v59 : (⟨S1x128, .f32⟩ : BufTy).Contents (Elt Ideal))))
          (broadcastInDim Cert.ReferenceIdeal.S100000x128 ![] Cert.ReferenceIdeal.Facts₀.bcast_S_S100000x128
            (constant (F := Ideal) S_ .f32 0x00000000#32)) :=
  (actB V c).arrAt_eq_of_cover 2 (rectified (V c main_v58) (V c main_v59)) (fun t _ => actB_flushed V c t) coverB

end Cert.KernelIdeal.Own

end
-- ==== Proof.Stretches.lean ====
import proofs.«408992_j29411936043071_4_alg».proof.Proof.Gen.KernelIdeal.Launch
import Idealize.ShloMosaic.Lib.StableHlo.Run
import proofs.«408992_j29411936043071_4_alg».proof.Proof.Gen.ReferenceIdeal.Read
set_option maxRecDepth 16384

noncomputable section

namespace Cert.KernelIdeal.Own

open Idealize.ShloMosaic Idealize.ShloMosaic.TcCoe Idealize.SL.Sem Idealize.ShloMosaic.StableHlo
open Cert.KernelIdeal Cert.KernelIdeal.Gen

variable {F : FTy → Type} [FloatOps F]

/-! # The host stretches between the regions, as functions of the few arrays they read

The graph arrives as an edge index `e` of two rows (sources, destinations) over 1 600 000 edges. The host program
appends one self-loop per node to each row, counts every node's incoming edges, and weighs edge `s → d` by
`1 / √(deg s · deg d)` (degrees at least one). Each layer then sends every node the weighted sum of its in-neighbours'
rows. These are the same operations, on the same operands, in the program with the kernels and in the reference. -/

/-- One self-loop per node: node `n` stands at place `n`. -/
def selfLoops : (⟨S100000, .i32⟩ : BufTy).Contents (Elt F) :=
  iotaInDim S100000 32 0

/-- The edges' source ends: row 0 of the edge index, then the self-loops. -/
def edgeSrc (e : (⟨S2x1600000, .i32⟩ : BufTy).Contents (Elt F)) : (⟨S1700000, .i32⟩ : BufTy).Contents (Elt F) :=
  concatenate S1700000 0
    [⟨S1600000, shapeCast S1600000 (extractStridedSlice S1x1600000 ![0, 0] e slices_S2x1600000_S1x1600000_0_0) shapeCasts_S1x1600000_S1600000⟩,
     ⟨S100000, selfLoops (F := F)⟩] concatenates_S1600000_S100000_S1700000_d0

/-- The edges' destination ends: row 1 of the edge index, then the self-loops. -/
def edgeDst (e : (⟨S2x1600000, .i32⟩ : BufTy).Contents (Elt F)) : (⟨S1700000, .i32⟩ : BufTy).Contents (Elt F) :=
  concatenate S1700000 0
    [⟨S1600000, shapeCast S1600000 (extractStridedSlice S1x1600000 ![1, 0] e slices_S2x1600000_S1x1600000_1_0) shapeCasts_S1x1600000_S1600000⟩,
     ⟨S100000, selfLoops (F := F)⟩] concatenates_S1600000_S100000_S1700000_d0

/-- A node index as the gathers read it: a negative one counts back from the number of nodes. -/
def wrapIndex (ix : (⟨S1700000, .i32⟩ : BufTy).Contents (Elt F)) : (⟨S1700000, .i32⟩ : BufTy).Contents (Elt F) :=
  select (cmpi .slt ix (broadcastInDim S1700000 ![] bcast_S_S1700000 (constantI S_ 32 0#32)))
    (addi ix (broadcastInDim S1700000 ![] bcast_S_S1700000 (constantI S_ 32 100000#32))) ix

/-- Every node's number of incoming edges (its self-loop among them): a one added at each edge's destination. -/
def inDegree (dst : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 dst)
    (broadcastInDim S1700000 ![] bcast_S_S1700000 (constant S_ .f32 0x3F800000#32))

/-- `1 / √deg` per node, the degree taken at least one. -/
def invSqrtDegree (dst : (⟨S1700000, .i32⟩ : BufTy).Contents (Elt F)) : (⟨S100000, .f32⟩ : BufTy).Contents (Elt F) :=
  Host.rsqrt (maximumf (inDegree dst) (broadcastInDim S100000 ![] bcast_S_S100000 (constant S_ .f32 0x3F800000#32)))

/-- A per-node quantity read at each edge's end `ix`. -/
def atEnds (x : (⟨S100000, .f32⟩ : BufTy).Contents (Elt F)) (ix : (⟨S1700000, .i32⟩ : BufTy).Contents (Elt F)) :
    (⟨S1700000, .f32⟩ : BufTy).Contents (Elt F) :=
  Host.gather gather_S100000_S1700000x1_S1700000_n_0_n_n_0_1_1 x
    (broadcastInDim S1700000x1 ![0] bcast_S1700000_S1700000x1_0 (wrapIndex ix))

/-- The weight of each edge: `1 / √deg` at its source times `1 / √deg` at its destination. -/
def edgeNorm (e : (⟨S2x1600000, .i32⟩ : BufTy).Contents (Elt F)) : (⟨S1700000, .f32⟩ : BufTy).Contents (Elt F) :=
  mulf (atEnds (invSqrtDegree (edgeDst e)) (edgeSrc e)) (atEnds (invSqrtDegree (edgeDst e)) (edgeDst e))

/-- One round of message passing: row `src` of `h` times the edge's weight, added into row `dst` of a zero array. -/
def aggregate (h : (⟨S100000x128, .f32⟩ : BufTy).Contents (Elt F)) (src dst : (⟨S1700000, .i32⟩ : BufTy).Contents (Elt F))
    (norm : (⟨S1700000, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 dst)
    (mulf
      (Host.gather gather_S100000x128_S1700000x1_S1700000x128_1_0_n_n_0_1_1128 h
        (broadcastInDim S1700000x1 ![0] bcast_S1700000_S1700000x1_0 (wrapIndex src)))
      (broadcastInDim S1700000x128 ![0, 1] bcast_S1700000x1_S1700000x128_0_1
        (broadcastInDim S1700000x1 ![0] bcast_S1700000_S1700000x1_0 norm)))

/-! ## The program with the kernels: each stretch over any contents `W` of the buffers -/

set_option maxHeartbeats 2000000 in
/-- The first stretch leaves the source ends in `main_v3`, -/
theorem edgeSrc_of_hostOps0 (W : Valuation τ sig (Elt F)) :
    StableHlo.after (hostOps0 (F := F)) W (Proc.devRef .tc main_v3) = edgeSrc (W (Proc.devRef .tc main_arg1)) := by
  after_results_simp
  unfold edgeSrc selfLoops
  rfl

set_option maxHeartbeats 2000000 in
/-- the destination ends in `main_v6`, -/
theorem edgeDst_of_hostOps0 (W : Valuation τ sig (Elt F)) :
    StableHlo.after (hostOps0 (F := F)) W (Proc.devRef .tc main_v6) = edgeDst (W (Proc.devRef .tc main_arg1)) := by
  after_results_simp
  unfold edgeDst selfLoops
  rfl

set_option maxHeartbeats 2000000 in
/-- and the edge weights in `main_v28`. -/
theorem edgeNorm_of_hostOps0 (W : Valuation τ sig (Elt F)) :
    StableHlo.after (hostOps0 (F := F)) W (Proc.devRef .tc main_v28) = edgeNorm (W (Proc.devRef .tc main_arg1)) := by
  after_results_simp
  unfold edgeNorm atEnds invSqrtDegree inDegree wrapIndex edgeSrc edgeDst selfLoops
  rfl

set_option maxHeartbeats 2000000 in
/-- The stretch after the first projection aggregates its result `main_v29` over the edges into `main_v42`, -/
theorem aggregate_of_hostOps1 (W : Valuation τ sig (Elt F)) :
    StableHlo.after (hostOps1 (F := F)) W (Proc.devRef .tc main_v42)
      = aggregate (W (Proc.devRef .tc main_v29)) (W (Proc.devRef .tc main_v3)) (W (Proc.devRef .tc main_v6)) (W (Proc.devRef .tc main_v28)) := by
  after_results
  unfold aggregate wrapIndex
  rfl

/-- and lays the first bias out as one row. -/
theorem biasRow_of_hostOps1 (W : Valuation τ sig (Elt F)) :
    StableHlo.after (hostOps1 (F := F)) W (Proc.devRef .tc main_v43) = shapeCast S1x128 (W (Proc.devRef .tc main_arg4)) shapeCasts_S128_S1x128 := by
  after_results
  rfl

set_option maxHeartbeats 2000000 in
/-- The stretch after the second projection does the same with `main_v45`, into `main_v58`, -/
theorem aggregate_of_hostOps3 (W : Valuation τ sig (Elt F)) :
    StableHlo.after (hostOps3 (F := F)) W (Proc.devRef .tc main_v58)
      = aggregate (W (Proc.devRef .tc main_v45)) (W (Proc.devRef .tc main_v3)) (W (Proc.devRef .tc main_v6)) (W (Proc.devRef .tc main_v28)) := by
  after_results
  unfold aggregate wrapIndex
  rfl

/-- and with the second bias. -/
theorem biasRow_of_hostOps3 (W : Valuation τ sig (Elt F)) :
    StableHlo.after (hostOps3 (F := F)) W (Proc.devRef .tc main_v59) = shapeCast S1x128 (W (Proc.devRef .tc main_arg6)) shapeCasts_S128_S1x128 := by
  after_results
  rfl

/-- The stretch before the pooling lays the nodes' graph numbers out as one column. -/
theorem batchColumn_of_hostOps4 (W : Valuation τ sig (Elt F)) :
    StableHlo.after (hostOps4 (F := F)) W (Proc.devRef .tc main_v61) = shapeCast S100000x1 (W (Proc.devRef .tc main_arg2)) shapeCasts_S100000_S100000x1 := by
  after_results
  rfl

/-! ## The reference: the same functions of its arguments -/

/-- The reference's source ends, -/
theorem ref_edgeSrc (x1 : (⟨S2x1600000, .i32⟩ : BufTy).Contents (Elt F)) :
    Cert.ReferenceIdeal.Read.val_main_v3 (F := F) x1 = edgeSrc x1 := by
  unfold Cert.ReferenceIdeal.Read.val_main_v3 Cert.ReferenceIdeal.Read.val_main_v2 Cert.ReferenceIdeal.Read.val_main_v1 Cert.ReferenceIdeal.Read.val_main_v0
  unfold edgeSrc selfLoops
  rfl

/-- destination ends, -/
theorem ref_edgeDst (x1 : (⟨S2x1600000, .i32⟩ : BufTy).Contents (Elt F)) :
    Cert.ReferenceIdeal.Read.val_main_v6 (F := F) x1 = edgeDst x1 := by
  unfold Cert.ReferenceIdeal.Read.val_main_v6 Cert.ReferenceIdeal.Read.val_main_v5 Cert.ReferenceIdeal.Read.val_main_v4 Cert.ReferenceIdeal.Read.val_main_v0
  unfold edgeDst selfLoops
  rfl

/-- and edge weights — computed once before the first layer -/
theorem ref_edgeNorm (x1 : (⟨S2x1600000, .i32⟩ : BufTy).Contents (Elt F)) :
    Cert.ReferenceIdeal.Read.val_main_v29 (F := F) x1 = edgeNorm x1 := by
  unfold Cert.ReferenceIdeal.Read.val_main_v29 Cert.ReferenceIdeal.Read.val_main_v21 Cert.ReferenceIdeal.Read.val_main_v28 Cert.ReferenceIdeal.Read.val_main_v14 Cert.ReferenceIdeal.Read.val_main_v13 Cert.ReferenceIdeal.Read.val_main_v12 Cert.ReferenceIdeal.Read.val_main_v11 Cert.ReferenceIdeal.Read.val_main_v10 Cert.ReferenceIdeal.Read.val_main_v9 Cert.ReferenceIdeal.Read.val_main_v8 Cert.ReferenceIdeal.Read.val_main_cst Cert.ReferenceIdeal.Read.val_main_cst_0 Cert.ReferenceIdeal.Read.val_main_cst_1 Cert.ReferenceIdeal.Read.val_main_v20 Cert.ReferenceIdeal.Read.val_main_v19 Cert.ReferenceIdeal.Read.val_main_v18 Cert.ReferenceIdeal.Read.val_main_v17 Cert.ReferenceIdeal.Read.val_main_v16 Cert.ReferenceIdeal.Read.val_main_v15 Cert.ReferenceIdeal.Read.val_main_c Cert.ReferenceIdeal.Read.val_main_c_2 Cert.ReferenceIdeal.Read.val_main_v27 Cert.ReferenceIdeal.Read.val_main_v26 Cert.ReferenceIdeal.Read.val_main_v25 Cert.ReferenceIdeal.Read.val_main_v24 Cert.ReferenceIdeal.Read.val_main_v23 Cert.ReferenceIdeal.Read.val_main_v22 Cert.ReferenceIdeal.Read.val_main_c_3 Cert.ReferenceIdeal.Read.val_main_c_4
  rw [ref_edgeSrc, ref_edgeDst]
  unfold edgeNorm atEnds invSqrtDegree inDegree wrapIndex
  generalize edgeSrc x1 = s
  generalize edgeDst x1 = d
  rfl

/-- and once more, to the same value, before the second. -/
theorem ref_edgeNorm_again (x1 : (⟨S2x1600000, .i32⟩ : BufTy).Contents (Elt F)) :
    Cert.ReferenceIdeal.Read.val_main_v69 (F := F) x1 = edgeNorm x1 := by
  unfold Cert.ReferenceIdeal.Read.val_main_v69 Cert.ReferenceIdeal.Read.val_main_v61 Cert.ReferenceIdeal.Read.val_main_v68 Cert.ReferenceIdeal.Read.val_main_v54 Cert.ReferenceIdeal.Read.val_main_v53 Cert.ReferenceIdeal.Read.val_main_v52 Cert.ReferenceIdeal.Read.val_main_v51 Cert.ReferenceIdeal.Read.val_main_v50 Cert.ReferenceIdeal.Read.val_main_v49 Cert.ReferenceIdeal.Read.val_main_v48 Cert.ReferenceIdeal.Read.val_main_cst_8 Cert.ReferenceIdeal.Read.val_main_cst_9 Cert.ReferenceIdeal.Read.val_main_cst_10 Cert.ReferenceIdeal.Read.val_main_v60 Cert.ReferenceIdeal.Read.val_main_v59 Cert.ReferenceIdeal.Read.val_main_v58 Cert.ReferenceIdeal.Read.val_main_v57 Cert.ReferenceIdeal.Read.val_main_v56 Cert.ReferenceIdeal.Read.val_main_v55 Cert.ReferenceIdeal.Read.val_main_c_11 Cert.ReferenceIdeal.Read.val_main_c_12 Cert.ReferenceIdeal.Read.val_main_v67 Cert.ReferenceIdeal.Read.val_main_v66 Cert.ReferenceIdeal.Read.val_main_v65 Cert.ReferenceIdeal.Read.val_main_v64 Cert.ReferenceIdeal.Read.val_main_v63 Cert.ReferenceIdeal.Read.val_main_v62 Cert.ReferenceIdeal.Read.val_main_c_13 Cert.ReferenceIdeal.Read.val_main_c_14
  rw [ref_edgeSrc, ref_edgeDst]
  unfold edgeNorm atEnds invSqrtDegree inDegree wrapIndex
  generalize edgeSrc x1 = s
  generalize edgeDst x1 = d
  rfl

/-- The reference's first aggregation is `aggregate` of its first projection. -/
theorem ref_aggregate_first (x0 : (⟨S100000x128, .f32⟩ : BufTy).Contents (Elt F)) (x1 : (⟨S2x1600000, .i32⟩ : BufTy).Contents (Elt F))
    (x3 : (⟨S128x128, .f32⟩ : BufTy).Contents (Elt F)) :
    Cert.ReferenceIdeal.Read.val_main_v42 (F := F) x0 x1 x3
      = aggregate (Cert.ReferenceIdeal.Read.val_main_v7 (F := F) x0 x3) (edgeSrc x1) (edgeDst x1) (edgeNorm x1) := by
  unfold Cert.ReferenceIdeal.Read.val_main_v42 Cert.ReferenceIdeal.Read.val_main_v41 Cert.ReferenceIdeal.Read.val_main_v40 Cert.ReferenceIdeal.Read.val_main_cst_7 Cert.ReferenceIdeal.Read.val_main_v39 Cert.ReferenceIdeal.Read.val_main_v38 Cert.ReferenceIdeal.Read.val_main_v37 Cert.ReferenceIdeal.Read.val_main_v36 Cert.ReferenceIdeal.Read.val_main_v35 Cert.ReferenceIdeal.Read.val_main_v34 Cert.ReferenceIdeal.Read.val_main_v33 Cert.ReferenceIdeal.Read.val_main_v32 Cert.ReferenceIdeal.Read.val_main_v31 Cert.ReferenceIdeal.Read.val_main_v30 Cert.ReferenceIdeal.Read.val_main_c_5 Cert.ReferenceIdeal.Read.val_main_c_6
  rw [ref_edgeSrc, ref_edgeDst, ref_edgeNorm]
  unfold aggregate wrapIndex
  generalize edgeSrc x1 = s
  generalize edgeDst x1 = d
  generalize edgeNorm x1 = w
  generalize Cert.ReferenceIdeal.Read.val_main_v7 x0 x3 = h
  rfl

/-- Its second is `aggregate` of its second projection. -/
theorem ref_aggregate_second (x0 : (⟨S100000x128, .f32⟩ : BufTy).Contents (Elt F)) (x1 : (⟨S2x1600000, .i32⟩ : BufTy).Contents (Elt F))
    (x3 : (⟨S128x128, .f32⟩ : BufTy).Contents (Elt F)) (x4 : (⟨S128, .f32⟩ : BufTy).Contents (Elt F))
    (x5 : (⟨S128x128, .f32⟩ : BufTy).Contents (Elt F)) :
    Cert.ReferenceIdeal.Read.val_main_v82 (F := F) x0 x1 x3 x4 x5
      = aggregate (Cert.ReferenceIdeal.Read.val_main_v47 (F := F) x0 x1 x3 x4 x5) (edgeSrc x1) (edgeDst x1) (edgeNorm x1) := by
  unfold Cert.ReferenceIdeal.Read.val_main_v82 Cert.ReferenceIdeal.Read.val_main_v81 Cert.ReferenceIdeal.Read.val_main_v80 Cert.ReferenceIdeal.Read.val_main_cst_17 Cert.ReferenceIdeal.Read.val_main_v79 Cert.ReferenceIdeal.Read.val_main_v78 Cert.ReferenceIdeal.Read.val_main_v77 Cert.ReferenceIdeal.Read.val_main_v76 Cert.ReferenceIdeal.Read.val_main_v75 Cert.ReferenceIdeal.Read.val_main_v74 Cert.ReferenceIdeal.Read.val_main_v73 Cert.ReferenceIdeal.Read.val_main_v72 Cert.ReferenceIdeal.Read.val_main_v71 Cert.ReferenceIdeal.Read.val_main_v70 Cert.ReferenceIdeal.Read.val_main_c_15 Cert.ReferenceIdeal.Read.val_main_c_16
  rw [ref_edgeSrc, ref_edgeDst, ref_edgeNorm_again]
  unfold aggregate wrapIndex
  generalize edgeSrc x1 = s
  generalize edgeDst x1 = d
  generalize edgeNorm x1 = w
  generalize Cert.ReferenceIdeal.Read.val_main_v47 x0 x1 x3 x4 x5 = h
  rfl

end Cert.KernelIdeal.Own

end
-- ==== Proof.Trace.lean ====
import proofs.«408992_j29411936043071_4_alg».proof.Proof.Boundaries
import proofs.«408992_j29411936043071_4_alg».proof.Proof.ProjectFinal
import proofs.«408992_j29411936043071_4_alg».proof.Proof.ActivateFinal
import proofs.«408992_j29411936043071_4_alg».proof.Proof.Stretches
import proofs.«408992_j29411936043071_4_alg».proof.Proof.Gen.KernelIdeal.Regions
import proofs.«408992_j29411936043071_4_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Own

open Idealize.ShloMosaic Idealize.ShloMosaic.TcCoe Idealize.SL.Sem
open Idealize.ShloMosaic.Pipeline (Dat)
open Idealize.ShloMosaic.ValueIdx
open Cert.KernelIdeal Cert.KernelIdeal.Gen

variable {F : FTy → Type} [FloatOps F]

/-! ## What an item leaves alone

A host stretch changes only the references its operations write; a kernel region only its result array. -/
section Kept
variable (m : (ℓ : Loc nD τ sig) → Buf (Elt F) ℓ) (c : Dev nD) (r : Ref sig .tc)

theorem at1_kept (h : r ∉ hostOps0_W) : at1 m c r = at0 m c r :=
  StableHlo.after_of_writes_sub hostOps0 _ hostOps0_writes h
theorem at2_kept (h : r ≠ main_v29) : at2 m c r = at1 m c r :=
  Function.update_of_ne (StableHlo.devRef_ne_of_ne h) _ _
theorem at3_kept (h : r ∉ hostOps1_W) : at3 m c r = at2 m c r :=
  StableHlo.after_of_writes_sub hostOps1 _ hostOps1_writes h
theorem at4_kept (h : r ≠ main_v44) : at4 m c r = at3 m c r :=
  Function.update_of_ne (StableHlo.devRef_ne_of_ne h) _ _
theorem at5_kept (h : r ≠ main_v45) : at5 m c r = at4 m c r :=
  Function.update_of_ne (StableHlo.devRef_ne_of_ne h) _ _
theorem at6_kept (h : r ∉ hostOps3_W) : at6 m c r = at5 m c r :=
  StableHlo.after_of_writes_sub hostOps3 _ hostOps3_writes h
theorem at7_kept (h : r ≠ main_v60) : at7 m c r = at6 m c r :=
  Function.update_of_ne (StableHlo.devRef_ne_of_ne h) _ _
theorem at8_kept (h : r ∉ hostOps4_W) : at8 m c r = at7 m c r :=
  StableHlo.after_of_writes_sub hostOps4 _ hostOps4_writes h

/-- A reference nothing before the second aggregation writes still holds its launch contents there. -/
theorem at5_launch (h0 : r ∉ hostOps0_W) (h1 : r ∉ hostOps1_W) (hk : r ∉ [main_v29, main_v44, main_v45]) :
    at5 m c r = at0 m c r :=
  (at5_kept m c r fun e => hk (by subst e; decide)).trans <| (at4_kept m c r fun e => hk (by subst e; decide)).trans <|
    (at3_kept m c r h1).trans <| (at2_kept m c r fun e => hk (by subst e; decide)).trans (at1_kept m c r h0)

/-- An array the first host stretch made and nothing later writes is, before the second aggregation, what that stretch made. -/
theorem at5_first (h1 : r ∉ hostOps1_W) (hk : r ∉ [main_v29, main_v44, main_v45]) : at5 m c r = at1 m c r :=
  (at5_kept m c r fun e => hk (by subst e; decide)).trans <| (at4_kept m c r fun e => hk (by subst e; decide)).trans <|
    (at3_kept m c r h1).trans (at2_kept m c r fun e => hk (by subst e; decide))

end Kept

/-! ## A vector laid as one row

The kernel's program re-lays the 128 biases as a 1 × 128 array by a reshape; the reference broadcasts them along a new
leading axis. Both read, at `(0, j)`, entry `j`. -/

theorem row_of_vector {α : Type} (x : S128.Idx → α) :
    broadcastInDim Cert.ReferenceIdeal.S1x128 ![1] Cert.ReferenceIdeal.Facts₀.bcast_S128_S1x128_1 x
      = shapeCast S1x128 x Cert.KernelIdeal.Facts₀.shapeCasts_S128_S1x128 := by
  funext j
  obtain ⟨u, i, rfl⟩ : ∃ (u : Fin 1) (i : Fin 128), j = ix2 u i := ⟨j 0, j 1, eq_ix2 j⟩
  rw [shapeCast_a_1a_apply]
  exact broadcastInDim_apply _ _ x _ (ix1 i) (fun a => match a with
    | ⟨0, _⟩ => by show i.val = if (128 : Nat) = 1 then 0 else i.val; rw [if_neg (by decide)])

/-! ## Boundary by boundary

At each boundary the arrays the next item reads are named as the reference names them, as functions of the arguments. -/
section Walk
variable (m : (ℓ : Loc nD τ sig) → Buf (Elt Ideal) ℓ) (c : Dev nD)
set_option quotPrecheck false

open Cert.ReferenceIdeal.Read (val_main_v7 val_main_v42 val_main_v43 val_main_v44 val_main_v45 val_main_v46 val_main_v47
  val_main_v82 val_main_v83 val_main_v84 val_main_v85 val_main_v86 val_main_call0_v0 val_main_call0_cst val_main_call1_v0 val_main_call1_cst)

local notation "X0" => (m ((c : Thread nD τ).loc main_arg0) : (⟨S100000x128, .f32⟩ : BufTy).Contents (Elt Ideal))
local notation "X1" => (m ((c : Thread nD τ).loc main_arg1) : (⟨S2x1600000, .i32⟩ : BufTy).Contents (Elt Ideal))
local notation "X3" => (m ((c : Thread nD τ).loc main_arg3) : (⟨S128x128, .f32⟩ : BufTy).Contents (Elt Ideal))
local notation "X4" => (m ((c : Thread nD τ).loc main_arg4) : (⟨S128, .f32⟩ : BufTy).Contents (Elt Ideal))
local notation "X5" => (m ((c : Thread nD τ).loc main_arg5) : (⟨S128x128, .f32⟩ : BufTy).Contents (Elt Ideal))
local notation "X6" => (m ((c : Thread nD τ).loc main_arg6) : (⟨S128, .f32⟩ : BufTy).Contents (Elt Ideal))
local notation "Feat" => (⟨S100000x128, .f32⟩ : BufTy).Contents (Elt Ideal)
local notation "Row" => (⟨S1x128, .f32⟩ : BufTy).Contents (Elt Ideal)

/-- After the first host stretch: the edge sources, the edge targets and the edge weights, from the edge index. -/
theorem src_at1 : (at1 m c main_v3 : (⟨S1700000, .i32⟩ : BufTy).Contents (Elt Ideal)) = edgeSrc (F := Ideal) X1 :=
  edgeSrc_of_hostOps0 (F := Ideal) (at0 m c)
theorem dst_at1 : (at1 m c main_v6 : (⟨S1700000, .i32⟩ : BufTy).Contents (Elt Ideal)) = edgeDst (F := Ideal) X1 :=
  edgeDst_of_hostOps0 (F := Ideal) (at0 m c)
theorem norm_at1 : (at1 m c main_v28 : (⟨S1700000, .f32⟩ : BufTy).Contents (Elt Ideal)) = edgeNorm (F := Ideal) X1 :=
  edgeNorm_of_hostOps0 (F := Ideal) (at0 m c)

/-- After the first projection: the features times the first weight matrix. -/
theorem projected_at2 : (at2 m c main_v29 : Feat) = val_main_v7 (F := Ideal) X0 X3 := by
  have h : ((projA (asEntry (at1 m)) c).arrAt 2 cfg0.N : Feat)
      = Host.dotGeneral (F := Ideal) (φ₁ := .f32) (φ₂ := .f32) Cert.ReferenceIdeal.dot_S100000x128_S128x128_S100000x128_1_0_0_1_n_n none
          (at1 m c main_arg0 : Feat) (at1 m c main_arg3 : (⟨S128x128, .f32⟩ : BufTy).Contents (Elt Ideal)) :=
    projA_final (asEntry (at1 m)) c
  rw [at1_kept m c main_arg0 (by decide), at1_kept m c main_arg3 (by decide)] at h
  exact (Function.update_self _ _ _).trans h

/-- After the first aggregation: the reference's first scatter-add. -/
theorem summed_at3 : (at3 m c main_v42 : Feat) = val_main_v42 (F := Ideal) X0 X1 X3 := by
  have h := aggregate_of_hostOps1 (F := Ideal) (at2 m c)
  rw [projected_at2 m c, at2_kept m c main_v3 (by decide), at2_kept m c main_v6 (by decide), at2_kept m c main_v28 (by decide),
    src_at1 m c, dst_at1 m c, norm_at1 m c] at h
  rw [ref_aggregate_first]
  exact h

/-- The first bias, laid as a row. -/
theorem row_at3 : (at3 m c main_v43 : Row) = val_main_v43 (F := Ideal) X4 := by
  have h := biasRow_of_hostOps1 (F := Ideal) (at2 m c)
  rw [at2_kept m c main_arg4 (by decide), at1_kept m c main_arg4 (by decide)] at h
  exact h.trans (row_of_vector _).symm

/-- After the first bias-and-rectifier: the reference's first rectified layer. -/
theorem activated_at4 : (at4 m c main_v44 : Feat) = val_main_v46 (F := Ideal) X0 X1 X3 X4 := by
  have h : ((actA (asEntry (at3 m)) c).arrAt 2 cfg1.N : Feat)
      = maximumf
          (addf (at3 m c main_v42 : Feat)
            (broadcastInDim Cert.ReferenceIdeal.S100000x128 ![0, 1] Cert.ReferenceIdeal.Facts₀.bcast_S1x128_S100000x128_0_1 (at3 m c main_v43 : Row)))
          (broadcastInDim Cert.ReferenceIdeal.S100000x128 ![] Cert.ReferenceIdeal.Facts₀.bcast_S_S100000x128
            (constant (F := Ideal) S_ .f32 0x00000000#32)) :=
    actA_final (asEntry (at3 m)) c
  rw [summed_at3 m c, row_at3 m c] at h
  exact (Function.update_self _ _ _).trans h

/-- After the second projection: the first layer times the second weight matrix. -/
theorem projected_at5 : (at5 m c main_v45 : Feat) = val_main_v47 (F := Ideal) X0 X1 X3 X4 X5 := by
  have h : ((projB (asEntry (at4 m)) c).arrAt 2 cfg2.N : Feat)
      = Host.dotGeneral (F := Ideal) (φ₁ := .f32) (φ₂ := .f32) Cert.ReferenceIdeal.dot_S100000x128_S128x128_S100000x128_1_0_0_1_n_n none
          (at4 m c main_v44 : Feat) (at4 m c main_arg5 : (⟨S128x128, .f32⟩ : BufTy).Contents (Elt Ideal)) :=
    projB_final (asEntry (at4 m)) c
  rw [activated_at4 m c, at4_kept m c main_arg5 (by decide), at3_kept m c main_arg5 (by decide), at2_kept m c main_arg5 (by decide),
    at1_kept m c main_arg5 (by decide)] at h
  exact (Function.update_self _ _ _).trans h

/-- After the second aggregation: the reference's second scatter-add (its second copy of the normalisation is the first). -/
theorem summed_at6 : (at6 m c main_v58 : Feat) = val_main_v82 (F := Ideal) X0 X1 X3 X4 X5 := by
  have h := aggregate_of_hostOps3 (F := Ideal) (at5 m c)
  rw [projected_at5 m c, at5_first m c main_v3 (by decide) (by decide), at5_first m c main_v6 (by decide) (by decide),
    at5_first m c main_v28 (by decide) (by decide),
    src_at1 m c, dst_at1 m c, norm_at1 m c] at h
  rw [ref_aggregate_second]
  exact h

/-- The second bias, laid as a row. -/
theorem row_at6 : (at6 m c main_v59 : Row) = val_main_v83 (F := Ideal) X6 := by
  have h := biasRow_of_hostOps3 (F := Ideal) (at5 m c)
  rw [at5_launch m c main_arg6 (by decide) (by decide) (by decide)] at h
  exact h.trans (row_of_vector _).symm

/-- After the second bias-and-rectifier: the reference's second rectified layer. -/
theorem activated_at7 : (at7 m c main_v60 : Feat) = val_main_v86 (F := Ideal) X0 X1 X3 X4 X5 X6 := by
  have h : ((actB (asEntry (at6 m)) c).arrAt 2 cfg3.N : Feat)
      = maximumf
          (addf (at6 m c main_v58 : Feat)
            (broadcastInDim Cert.ReferenceIdeal.S100000x128 ![0, 1] Cert.ReferenceIdeal.Facts₀.bcast_S1x128_S100000x128_0_1 (at6 m c main_v59 : Row)))
          (broadcastInDim Cert.ReferenceIdeal.S100000x128 ![] Cert.ReferenceIdeal.Facts₀.bcast_S_S100000x128
            (constant (F := Ideal) S_ .f32 0x00000000#32)) :=
    actB_final (asEntry (at6 m)) c
  rw [summed_at6 m c, row_at6 m c] at h
  exact (Function.update_self _ _ _).trans h

end Walk

variable (m : (ℓ : Loc nD τ sig) → Buf (Elt Ideal) ℓ)

/-! # Up to the pooling kernel the two programs compute the same arrays

Both build the same edge lists, degrees and normalisation from the edge index by the same host operations; the kernel's
blocked projections are the reference's matrix products, its fused bias-and-rectifier the reference's add and maximum; the
gather / scale / scatter between them is the same host chain on equal operands. So the array the pooling kernel is entered
with is the reference's second-layer activation, as a function of the arguments. -/

/-- The features the pooling kernel reads are the reference's second rectified layer. -/
theorem activations_meet (c : Dev nD) :
    (at8 m c main_v60 : (⟨S100000x128, .f32⟩ : BufTy).Contents (Elt Ideal))
      = Cert.ReferenceIdeal.Read.val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (at8_kept m c main_v60 (by decide)).trans (activated_at7 m c)

/-- The id column the pooling kernel reads is the graph-id argument re-laid as a column. -/
theorem ids_column (c : Dev nD) :
    (at8 m c main_v61 : (⟨S100000x1, .i32⟩ : BufTy).Contents (Elt Ideal))
      = shapeCast S100000x1 (m ((c : Thread nD τ).loc main_arg2) : (⟨S100000, .i32⟩ : BufTy).Contents (Elt Ideal))
          Cert.KernelIdeal.Facts₀.shapeCasts_S100000_S100000x1 := by
  have h := batchColumn_of_hostOps4 (F := Ideal) (at7 m c)
  rw [at7_kept m c main_arg2 (by decide), at6_kept m c main_arg2 (by decide),
    at5_launch m c main_arg2 (by decide) (by decide) (by decide)] at h
  exact h

end Cert.KernelIdeal.Own

end
-- ==== Proof.Hot.lean ====
/-
  The one-hot entry the pooling compares produce: 1 where a node's graph id is the graph's number, 0 elsewhere.
-/
import Mathlib.Data.EReal.Basic

noncomputable section

namespace Cert.KernelIdeal.Own

/-- 1 if the id word `w` is the number `g` (as a 32-bit word), else 0. An id outside 0 … 127 matches no graph. -/
def hot (w : BitVec 32) (g : Fin 128) : EReal := if w = BitVec.ofNat 32 g.val then 1 else 0

end Cert.KernelIdeal.Own

end
-- ==== Proof.PoolFinal.lean ====
import proofs.«408992_j29411936043071_4_alg».proof.Proof.PoolData
import proofs.«408992_j29411936043071_4_alg».proof.Proof.Hot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Own

open Idealize.ShloMosaic Idealize.ShloMosaic.TcCoe Idealize.SL.Sem
open Idealize.ShloMosaic.Pipeline (Dat)
open Idealize.ShloMosaic.ValueIdx
open Cert.KernelIdeal Cert.KernelIdeal.Gen

/-! # What the pooling kernel leaves: for each half of the node rows, the per-graph sums of the feature rows and the
    per-graph counts, over that half's 50000 rows (five blocks of 10000 accumulated in the scratch buffers and written
    out at the half's last block) -/

variable {F : FTy → Type} [FloatOps F]

/-! ## The one-hot matrix of a block: entry (p, g) is 1 where row p's id is the number g, else 0 -/

/-- At the extended reals an integer converts to itself, read signed. -/
theorem sitofp_ideal {w : Nat} (b : BitVec w) : (FloatOps.sitofp (F := Ideal) .f32 b) = ((b.toInt : ℝ) : EReal) := rfl

/-- An integer comparison at an index compares the elements. -/
theorem cmpi_at {s : Shape} {w : Nat} (pr : CmpIPredicate) (x y : IVec s w) (i : s.Idx) :
    cmpi pr x y i = IntOp.cmpi pr (x i) (y i) := rfl

/-- The equality bit of two words, widened to a word and converted, is 1 or 0. -/
theorem eqbit_value (a b : BitVec 32) :
    (FloatOps.sitofp (F := Ideal) .f32 ((IntOp.cmpi .eq a b).setWidth 32)) = if a = b then (1 : EReal) else 0 := by
  rw [sitofp_ideal]
  by_cases h : a = b
  · subst h; simp [IntOp.cmpi]
  · have hb : (a == b) = false := by simpa using h
    simp [IntOp.cmpi, hb, h]

/-- The id column is spread along the 128 lanes and compared with the lane number: entry (p, g) is `hot` of row p's id at g. -/
theorem onehot_entry (ids : Vec Ideal S10000x1 .i32) (p : Fin 10000) (g : Fin 128) :
    (k4_pay3 (F := Ideal) ids) (ix2 p g) = hot (ids (ix2 p (0 : Fin 1))) g := by
  unfold k4_pay3 hot
  dsimp only
  rw [sitofp_apply, extui_apply, cmpi_at, shapeCast_shapeCast, shapeCast_self, iota_single_apply,
    broadcastTo_apply ids _ (ix2 p g) (ix2 p (0 : Fin 1)) (fun a => match a with | ⟨0, _⟩ => rfl | ⟨1, _⟩ => rfl)]
  exact eqbit_value _ _

/-! ## One block's step on the two scratch buffers, entry by entry -/

/-- The cleared sums are zero. -/
theorem cleared_sums_apply (g d : Fin 128) : (k4_pay1 (F := Ideal)) (ix2 g d) = 0 := by
  unfold k4_pay1
  rw [shapeCast_self, broadcast_apply]
  exact Ideal.ofBits_zero_f32

/-- The cleared counts are zero. -/
theorem cleared_counts_apply (g : Fin 128) : (k4_pay2 (F := Ideal)) (ix2 g (0 : Fin 1)) = 0 := by
  unfold k4_pay2
  rw [shapeCast_self, broadcast_apply]
  exact Ideal.ofBits_zero_f32

local notation "𝔻" => dot_S10000x128_S10000x128_S128x128_0_0_1_1_n_n

/-- The product contracts one axis, the block's 10000 rows. -/
def rowsEquiv : (𝔻).contr.Idx ≃ Fin 10000 := contrEquiv1 𝔻 10000 rfl rfl

/-- The one-hot factor of entry (g, d) at row p is its entry (p, g): the product is of the transpose. -/
theorem lhs_at (g d : Fin 128) (p : Fin 10000) : (𝔻).lhsIdx (ix2 g d) (rowsEquiv.symm p) = ix2 p g := by
  funext a; apply Fin.ext
  match a with
  | ⟨0, _⟩ =>
    exact (DotDims.lhsIdx_val_of_single 𝔻 (cl := (0 : Fin 2)) rfl _ _).trans (contrEquiv1_symm_val 𝔻 10000 rfl rfl p)
  | ⟨1, _⟩ => simp [DotDims.lhsIdx, dot_S10000x128_S10000x128_S128x128_0_0_1_1_n_n]; rfl

/-- The feature factor of entry (g, d) at row p is the block's entry (p, d). -/
theorem rhs_at (g d : Fin 128) (p : Fin 10000) : (𝔻).rhsIdx (ix2 g d) (rowsEquiv.symm p) = ix2 p d := by
  funext a; apply Fin.ext
  match a with
  | ⟨0, _⟩ =>
    exact (DotDims.rhsIdx_val_of_single 𝔻 (cr := (0 : Fin 2)) rfl _ _).trans (contrEquiv1_symm_val 𝔻 10000 rfl rfl p)
  | ⟨1, _⟩ => simp [DotDims.rhsIdx, dot_S10000x128_S10000x128_S128x128_0_0_1_1_n_n]; rfl

/-- One block's step on the sums: entry (g, d) gains column d of the block's rows whose id is g. -/
theorem sums_step_apply (ids : Vec Ideal S10000x1 .i32) (acc : Vec Ideal S128x128 .f32) (feats : Vec Ideal S10000x128 .f32)
    (g d : Fin 128) :
    k4_pay4 (F := Ideal) ids acc feats (ix2 g d)
      = acc (ix2 g d) + ∑ p : Fin 10000, hot (ids (ix2 p (0 : Fin 1))) g * feats (ix2 p d) := by
  unfold k4_pay4
  rw [shapeCast_self, shapeCast_self, addf_apply]
  simp only [matmul]
  rw [Ideal.matmul_constant_zero_apply, ← Equiv.sum_comp rowsEquiv.symm]
  congr 1
  refine Finset.sum_congr rfl fun p _ => ?_
  rw [lhs_at, rhs_at, onehot_entry]

/-- A column sum of a 10000 × 128 block, read at its column. -/
theorem colsum_apply (src : FVec Ideal S10000x128 .f32) (hφ : FKind.Formats .f32)
    (hacc : (0x00000000#32 : BitVec 32) = 0x00000000#32) (g : Fin 128) :
    multiReduction (F := Ideal) .add [0] S128 src 0x00000000#32 Facts₀.reduces_S10000x128_S128 hφ hacc (ix1 g)
      = ∑ p : Fin 10000, src (ix2 p g) := by
  refine (Ideal.multiReduction_add_single src 0x00000000#32 Facts₀.reduces_S10000x128_S128 hφ hacc (ix1 g)).trans ?_
  show ∑ p : Fin 10000, src (Facts₀.reduces_S10000x128_S128.lift (ix1 g) p) = _
  refine Finset.sum_congr rfl fun p _ => ?_
  congr 1
  funext a
  match a with
  | ⟨0, _⟩ => rfl
  | ⟨1, _⟩ => rfl

/-- One block's step on the counts: entry g gains the number of the block's rows whose id is g. -/
theorem counts_step_apply (ids : Vec Ideal S10000x1 .i32) (acc : Vec Ideal S128x1 .f32) (g : Fin 128) :
    k4_pay5 (F := Ideal) ids acc (ix2 g (0 : Fin 1))
      = acc (ix2 g (0 : Fin 1)) + ∑ p : Fin 10000, hot (ids (ix2 p (0 : Fin 1))) g := by
  unfold k4_pay5
  rw [shapeCast_self, addf_apply]
  congr 1
  rw [shapeCast_apply _ _ (ix2 g (0 : Fin 1)) (ix1 g) (by
        rw [Shape.rowMajor_val_two, Shape.rowMajor_val_one]; show g.val = g.val * 1 + 0; omega)]
  refine (colsum_apply (k4_pay3 (F := Ideal) ids) _ _ g).trans ?_
  exact Finset.sum_congr rfl fun p _ => onehot_entry ids p g

/-! ## Where the blocks sit: the inputs' block at point t is rows 10000·t …, the results' block is slice t / 5 -/

theorem block_places : ∀ t : Fin cfg4.N,
    (win4_0.index t 0 = t.val ∧ win4_0.index t 1 = 0) ∧ (win4_1.index t 0 = t.val ∧ win4_1.index t 1 = 0)
    ∧ (win4_2.index t 0 = t.val / 5 ∧ win4_2.index t 1 = 0 ∧ win4_2.index t 2 = 0)
    ∧ (win4_3.index t 0 = t.val / 5 ∧ win4_3.index t 1 = 0 ∧ win4_3.index t 2 = 0) :=
  (by decide +kernel : ∀ t : Fin grid4.N,
    (win4_0.index t 0 = t.val ∧ win4_0.index t 1 = 0) ∧ (win4_1.index t 0 = t.val ∧ win4_1.index t 1 = 0)
    ∧ (win4_2.index t 0 = t.val / 5 ∧ win4_2.index t 1 = 0 ∧ win4_2.index t 2 = 0)
    ∧ (win4_3.index t 0 = t.val / 5 ∧ win4_3.index t 1 = 0 ∧ win4_3.index t 2 = 0))

/-- The grid has ten points. -/
theorem tlt (t : Fin cfg4.N) : t.val < 10 := by have h := t.isLt; have e : cfg4.N = 10 := N_4; omega

/-- Row p of the feature block at point t is row 10000·t + p of the features. -/
theorem featRows_apply (V : Entry F) (c : Dev nD) (t : Fin cfg4.N) (p : Fin 10000) (d : Fin 128) :
    featRows V c t (ix2 p d)
      = (V c main_v60 : (⟨S100000x128, .f32⟩ : BufTy).Contents (Elt F))
          (ix2 (⟨10000 * t.val + p.val, by have := tlt t; have := p.isLt; omega⟩ : Fin 100000) d) := by
  have he : (win4_0.rect t).emb (ix2 p d)
      = ix2 (⟨10000 * t.val + p.val, by have := tlt t; have := p.isLt; omega⟩ : Fin 100000) d := by
    funext a; apply Fin.ext
    rw [Pipeline.Window.rect_emb_val]
    match a with
    | ⟨0, _⟩ => show win4_0.index t 0 * 10000 + p.val = 10000 * t.val + p.val; rw [(block_places t).1.1]; omega
    | ⟨1, _⟩ => show win4_0.index t 1 * 128 + d.val = d.val; rw [(block_places t).1.2]; omega
  unfold featRows
  rw [View.read_apply]
  show (V c main_v60 : (⟨S100000x128, .f32⟩ : BufTy).Contents (Elt F)) ((win4_0.rect t).emb (ix2 p d)) = _
  rw [he]

/-- Row p of the id block at point t is row 10000·t + p of the id column. -/
theorem graphIds_apply (V : Entry F) (c : Dev nD) (t : Fin cfg4.N) (p : Fin 10000) :
    graphIds V c t (ix2 p (0 : Fin 1))
      = (V c main_v61 : (⟨S100000x1, .i32⟩ : BufTy).Contents (Elt F))
          (ix2 (⟨10000 * t.val + p.val, by have := tlt t; have := p.isLt; omega⟩ : Fin 100000) (0 : Fin 1)) := by
  have he : (win4_1.rect t).emb (ix2 p (0 : Fin 1))
      = ix2 (⟨10000 * t.val + p.val, by have := tlt t; have := p.isLt; omega⟩ : Fin 100000) (0 : Fin 1) := by
    funext a; apply Fin.ext
    rw [Pipeline.Window.rect_emb_val]
    match a with
    | ⟨0, _⟩ => show win4_1.index t 0 * 10000 + p.val = 10000 * t.val + p.val; rw [(block_places t).2.1.1]; omega
    | ⟨1, _⟩ => show win4_1.index t 1 * 1 + 0 = 0; rw [(block_places t).2.1.2]
  unfold graphIds
  rw [View.read_apply]
  show (V c main_v61 : (⟨S100000x1, .i32⟩ : BufTy).Contents (Elt F)) ((win4_1.rect t).emb (ix2 p (0 : Fin 1))) = _
  rw [he]

/-! ## The running values: after the j-th block of a half, the sums and counts over the half's blocks so far -/

/-- At the first block of a half the scratch restarts from the cleared values. -/
theorem running_restart (V : Entry F) (c : Dev nD) (n : ℕ) (hn : n < cfg4.N) (h0 : n % 5 = 0) :
    running V c n hn = (k4_pay4 (graphIds V c ⟨n, hn⟩) (k4_pay1 (F := F)) (featRows V c ⟨n, hn⟩),
      k4_pay5 (graphIds V c ⟨n, hn⟩) (k4_pay2 (F := F))) := by
  cases n with
  | zero => rfl
  | succ m => rw [running, if_pos h0]

/-- At every other block it goes on from what the block before left. -/
theorem running_carry (V : Entry F) (c : Dev nD) (m : ℕ) (hn : m + 1 < cfg4.N) (h0 : ¬(m + 1) % 5 = 0) :
    running V c (m + 1) hn
      = (k4_pay4 (graphIds V c ⟨m + 1, hn⟩) (running V c m (Nat.lt_of_succ_lt hn)).1 (featRows V c ⟨m + 1, hn⟩),
        k4_pay5 (graphIds V c ⟨m + 1, hn⟩) (running V c m (Nat.lt_of_succ_lt hn)).2) := by
  rw [running, if_neg h0]

/-- The running values depend on the point's number only. -/
theorem running_congr (V : Entry F) (c : Dev nD) {n m : ℕ} (e : n = m) (hn : n < cfg4.N) (hm : m < cfg4.N) :
    running V c n hn = running V c m hm := by
  subst e; rfl

/-- What block `n` adds to entry (g, d) of the sums: column d of its rows whose id is g (nothing past the grid). -/
def blockSum (V : Entry Ideal) (c : Dev nD) (g d : Fin 128) (n : ℕ) : EReal :=
  if hn : n < cfg4.N then
    ∑ p : Fin 10000, hot (graphIds V c ⟨n, hn⟩ (ix2 p (0 : Fin 1))) g * featRows V c ⟨n, hn⟩ (ix2 p d)
  else 0

/-- What block `n` adds to entry g of the counts: the number of its rows whose id is g. -/
def blockCount (V : Entry Ideal) (c : Dev nD) (g : Fin 128) (n : ℕ) : EReal :=
  if hn : n < cfg4.N then ∑ p : Fin 10000, hot (graphIds V c ⟨n, hn⟩ (ix2 p (0 : Fin 1))) g else 0

/-- After the j-th block of half q the sums hold the blocks 5q … 5q + j. -/
theorem running_sums (V : Entry Ideal) (c : Dev nD) (g d : Fin 128) (q : ℕ) :
    ∀ (j : ℕ) (hj : j < 5) (hn : 5 * q + j < cfg4.N),
      (running V c (5 * q + j) hn).1 (ix2 g d) = ∑ s ∈ Finset.range (j + 1), blockSum V c g d (5 * q + s)
  | 0, _, hn => by
    rw [running_restart V c (5 * q + 0) hn (by omega)]
    show k4_pay4 (F := Ideal) _ _ _ (ix2 g d) = _
    rw [sums_step_apply, cleared_sums_apply, zero_add, Finset.sum_range_one, blockSum, dif_pos hn]
  | j + 1, hj, hn => by
    have e := running_carry V c (5 * q + j) hn (by omega)
    rw [show running V c (5 * q + (j + 1)) hn = _ from e]
    show k4_pay4 (F := Ideal) _ _ _ (ix2 g d) = _
    rw [sums_step_apply, running_sums V c g d q j (by omega) (Nat.lt_of_succ_lt hn), Finset.sum_range_succ _ (j + 1)]
    congr 1
    rw [blockSum, dif_pos hn]
    rfl

/-- After the j-th block of half q the counts hold the blocks 5q … 5q + j. -/
theorem running_counts (V : Entry Ideal) (c : Dev nD) (g : Fin 128) (q : ℕ) :
    ∀ (j : ℕ) (hj : j < 5) (hn : 5 * q + j < cfg4.N),
      (running V c (5 * q + j) hn).2 (ix2 g (0 : Fin 1)) = ∑ s ∈ Finset.range (j + 1), blockCount V c g (5 * q + s)
  | 0, _, hn => by
    rw [running_restart V c (5 * q + 0) hn (by omega)]
    show k4_pay5 (F := Ideal) _ _ (ix2 g (0 : Fin 1)) = _
    rw [counts_step_apply, cleared_counts_apply, zero_add, Finset.sum_range_one, blockCount, dif_pos hn]
  | j + 1, hj, hn => by
    have e := running_carry V c (5 * q + j) hn (by omega)
    rw [show running V c (5 * q + (j + 1)) hn = _ from e]
    show k4_pay5 (F := Ideal) _ _ (ix2 g (0 : Fin 1)) = _
    rw [counts_step_apply, running_counts V c g q j (by omega) (Nat.lt_of_succ_lt hn), Finset.sum_range_succ _ (j + 1)]
    congr 1
    rw [blockCount, dif_pos hn]
    rfl

/-! ## From the write-backs to the result arrays: slice h is what half h's last point wrote -/

/-- The last block of half h is inside the grid. -/
theorem last_lt (h : ℕ) (hh : h < 2) : 5 * h + 4 < cfg4.N := by have e : cfg4.N = 10 := N_4; omega

/-- The first result as one function of the node arrays: slice h holds the sums after half h's last block. -/
def sumsArr (V : Entry Ideal) (c : Dev nD) : (⟨S2x128x128, .f32⟩ : BufTy).Contents (Elt Ideal) :=
  fun i => (running V c (5 * (i 0).val + 4) (last_lt _ (i 0).isLt)).1 (ix2 (n0 := 128) (n1 := 128) (i 1) (i 2))

theorem sumsArr_apply (V : Entry Ideal) (c : Dev nD) (h : Fin 2) (g d : Fin 128) :
    sumsArr V c (ix3 h g d) = (running V c (5 * h.val + 4) (last_lt _ h.isLt)).1 (ix2 g d) := rfl

/-- The second result likewise: slice h holds the counts after half h's last block. -/
def countsArr (V : Entry Ideal) (c : Dev nD) : (⟨S2x128x1, .f32⟩ : BufTy).Contents (Elt Ideal) :=
  fun i => (running V c (5 * (i 0).val + 4) (last_lt _ (i 0).isLt)).2 (ix2 (n0 := 128) (n1 := 1) (i 1) (i 2))

theorem countsArr_apply (V : Entry Ideal) (c : Dev nD) (h : Fin 2) (g : Fin 128) (z : Fin 1) :
    countsArr V c (ix3 h g z) = (running V c (5 * h.val + 4) (last_lt _ h.isLt)).2 (ix2 g z) := rfl

/-- Where an element of the sums' block at point t sits in the first result. -/
theorem sums_block_emb (t : Fin cfg4.N) (u : Fin 1) (a b : Fin 128) :
    (win4_2.rect t).emb (ix3 u a b) = ix3 (⟨t.val / 5, by have := tlt t; omega⟩ : Fin 2) a b := by
  funext x; apply Fin.ext
  rw [Pipeline.Window.rect_emb_val]
  match x with
  | ⟨0, _⟩ => show win4_2.index t 0 * 1 + u.val = t.val / 5; rw [(block_places t).2.2.1.1]; omega
  | ⟨1, _⟩ => show win4_2.index t 1 * 128 + a.val = a.val; rw [(block_places t).2.2.1.2.1]; omega
  | ⟨2, _⟩ => show win4_2.index t 2 * 128 + b.val = b.val; rw [(block_places t).2.2.1.2.2]; omega

/-- Where an element of the counts' block at point t sits in the second result. -/
theorem counts_block_emb (t : Fin cfg4.N) (u : Fin 1) (a : Fin 128) (z : Fin 1) :
    (win4_3.rect t).emb (ix3 u a z) = ix3 (⟨t.val / 5, by have := tlt t; omega⟩ : Fin 2) a z := by
  funext x; apply Fin.ext
  rw [Pipeline.Window.rect_emb_val]
  match x with
  | ⟨0, _⟩ => show win4_3.index t 0 * 1 + u.val = t.val / 5; rw [(block_places t).2.2.2.1]; omega
  | ⟨1, _⟩ => show win4_3.index t 1 * 128 + a.val = a.val; rw [(block_places t).2.2.2.2.1]; omega
  | ⟨2, _⟩ => show win4_3.index t 2 * 1 + z.val = z.val; rw [(block_places t).2.2.2.2.2]; omega

/-- What a half's last point writes back of the sums is its slice of that one function, entry by entry. -/
theorem sums_flushed_apply (V : Entry Ideal) (c : Dev nD) (t : Fin cfg4.N) (h4 : t.val % 5 = 4) (u : Fin 1) (a b : Fin 128) :
    (pool V c).flushed 2 t (ix3 u a b) = ((cfg4.win 2).blk t).view.read (Elt Ideal) (sumsArr V c) (ix3 u a b) := by
  rw [View.read_apply]
  show k4_pay6 (F := Ideal) (running V c t.val t.isLt).1 (ix3 u a b) = sumsArr V c ((win4_2.rect t).emb (ix3 u a b))
  rw [sums_block_emb, sumsArr_apply]
  unfold k4_pay6
  rw [shapeCast_ab_1ab_apply]
  rw [running_congr V c (show t.val = 5 * (t.val / 5) + 4 by omega) t.isLt (last_lt _ (by have := tlt t; omega))]

theorem sums_flushed (V : Entry Ideal) (c : Dev nD) (t : Fin cfg4.N) (hf : (cfg4.win 2).flush t = true) :
    (pool V c).flushed 2 t = ((cfg4.win 2).blk t).view.read (Elt Ideal) (sumsArr V c) := by
  have h4 : t.val % 5 = 4 := (flush4_2 t).mp hf
  funext y
  have hy : y = ix3 (n0 := 1) (n1 := 128) (n2 := 128) (y 0) (y 1) (y 2) := eq_ix3 y
  rw [hy]
  exact sums_flushed_apply V c t h4 _ _ _

/-- The same of the counts. -/
theorem counts_flushed_apply (V : Entry Ideal) (c : Dev nD) (t : Fin cfg4.N) (h4 : t.val % 5 = 4) (u : Fin 1) (a : Fin 128) (z : Fin 1) :
    (pool V c).flushed 3 t (ix3 u a z) = ((cfg4.win 3).blk t).view.read (Elt Ideal) (countsArr V c) (ix3 u a z) := by
  rw [View.read_apply]
  show k4_pay7 (F := Ideal) (running V c t.val t.isLt).2 (ix3 u a z) = countsArr V c ((win4_3.rect t).emb (ix3 u a z))
  rw [counts_block_emb, countsArr_apply]
  unfold k4_pay7
  rw [shapeCast_ab_1ab_apply]
  rw [running_congr V c (show t.val = 5 * (t.val / 5) + 4 by omega) t.isLt (last_lt _ (by have := tlt t; omega))]

theorem counts_flushed (V : Entry Ideal) (c : Dev nD) (t : Fin cfg4.N) (hf : (cfg4.win 3).flush t = true) :
    (pool V c).flushed 3 t = ((cfg4.win 3).blk t).view.read (Elt Ideal) (countsArr V c) := by
  have h4 : t.val % 5 = 4 := (flush4_3 t).mp hf
  funext y
  have hy : y = ix3 (n0 := 1) (n1 := 128) (n2 := 1) (y 0) (y 1) (y 2) := eq_ix3 y
  rw [hy]
  exact counts_flushed_apply V c t h4 _ _ _

/-- Slice h of the first result after the run: the sums after half h's last block. -/
theorem sums_slice (V : Entry Ideal) (c : Dev nD) (h : Fin 2) (g d : Fin 128) :
    ((pool V c).arrAt 2 cfg4.N : (⟨S2x128x128, .f32⟩ : BufTy).Contents (Elt Ideal)) (ix3 h g d)
      = (running V c (5 * h.val + 4) (last_lt _ h.isLt)).1 (ix2 g d) := by
  have hh := h.isLt
  have hmem : (ix3 h g d : (⟨3, ![2, 128, 128]⟩ : Shape).Idx) ∈ ((cfg4.win 2).blk ⟨5 * h.val + 4, last_lt _ h.isLt⟩).view.set := by
    show ix3 h g d ∈ ((View.whole main_v62_0).slice (win4_2.rect ⟨5 * h.val + 4, last_lt _ h.isLt⟩)).set
    rw [View.set_slice_whole, Rect.mem_set_unit]
    intro x
    match x with
    | ⟨0, _⟩ =>
      show win4_2.index ⟨5 * h.val + 4, last_lt _ h.isLt⟩ 0 * 1 ≤ h.val ∧ h.val < win4_2.index ⟨5 * h.val + 4, last_lt _ h.isLt⟩ 0 * 1 + 1
      rw [(block_places ⟨5 * h.val + 4, last_lt _ h.isLt⟩).2.2.1.1]
      show (5 * h.val + 4) / 5 * 1 ≤ h.val ∧ h.val < (5 * h.val + 4) / 5 * 1 + 1
      omega
    | ⟨1, _⟩ =>
      show win4_2.index ⟨5 * h.val + 4, last_lt _ h.isLt⟩ 1 * 128 ≤ g.val ∧ g.val < win4_2.index ⟨5 * h.val + 4, last_lt _ h.isLt⟩ 1 * 128 + 128
      rw [(block_places ⟨5 * h.val + 4, last_lt _ h.isLt⟩).2.2.1.2.1]
      have := g.isLt; omega
    | ⟨2, _⟩ =>
      show win4_2.index ⟨5 * h.val + 4, last_lt _ h.isLt⟩ 2 * 128 ≤ d.val ∧ d.val < win4_2.index ⟨5 * h.val + 4, last_lt _ h.isLt⟩ 2 * 128 + 128
      rw [(block_places ⟨5 * h.val + 4, last_lt _ h.isLt⟩).2.2.1.2.2]
      have := d.isLt; omega
  have hft : (cfg4.win 2).flush ⟨5 * h.val + 4, last_lt _ h.isLt⟩ = true :=
    (flush4_2 _).mpr (by show (5 * h.val + 4) % 5 = 4; omega)
  exact ((pool V c).arrAt_apply_of_mem 2 (sumsArr V c) (sums_flushed V c) cfg4.N ⟨5 * h.val + 4, last_lt _ h.isLt⟩
    (ix3 h g d) (last_lt _ h.isLt) hft hmem).trans (sumsArr_apply V c h g d)

/-- Slice h of the second result after the run: the counts after half h's last block. -/
theorem counts_slice (V : Entry Ideal) (c : Dev nD) (h : Fin 2) (g : Fin 128) :
    ((pool V c).arrAt 3 cfg4.N : (⟨S2x128x1, .f32⟩ : BufTy).Contents (Elt Ideal)) (ix3 h g (0 : Fin 1))
      = (running V c (5 * h.val + 4) (last_lt _ h.isLt)).2 (ix2 g (0 : Fin 1)) := by
  have hh := h.isLt
  have hmem : (ix3 h g (0 : Fin 1) : (⟨3, ![2, 128, 1]⟩ : Shape).Idx) ∈ ((cfg4.win 3).blk ⟨5 * h.val + 4, last_lt _ h.isLt⟩).view.set := by
    show ix3 h g (0 : Fin 1) ∈ ((View.whole main_v62_1).slice (win4_3.rect ⟨5 * h.val + 4, last_lt _ h.isLt⟩)).set
    rw [View.set_slice_whole, Rect.mem_set_unit]
    intro x
    match x with
    | ⟨0, _⟩ =>
      show win4_3.index ⟨5 * h.val + 4, last_lt _ h.isLt⟩ 0 * 1 ≤ h.val ∧ h.val < win4_3.index ⟨5 * h.val + 4, last_lt _ h.isLt⟩ 0 * 1 + 1
      rw [(block_places ⟨5 * h.val + 4, last_lt _ h.isLt⟩).2.2.2.1]
      show (5 * h.val + 4) / 5 * 1 ≤ h.val ∧ h.val < (5 * h.val + 4) / 5 * 1 + 1
      omega
    | ⟨1, _⟩ =>
      show win4_3.index ⟨5 * h.val + 4, last_lt _ h.isLt⟩ 1 * 128 ≤ g.val ∧ g.val < win4_3.index ⟨5 * h.val + 4, last_lt _ h.isLt⟩ 1 * 128 + 128
      rw [(block_places ⟨5 * h.val + 4, last_lt _ h.isLt⟩).2.2.2.2.1]
      have := g.isLt; omega
    | ⟨2, _⟩ =>
      show win4_3.index ⟨5 * h.val + 4, last_lt _ h.isLt⟩ 2 * 1 ≤ 0 ∧ 0 < win4_3.index ⟨5 * h.val + 4, last_lt _ h.isLt⟩ 2 * 1 + 1
      rw [(block_places ⟨5 * h.val + 4, last_lt _ h.isLt⟩).2.2.2.2.2]
      omega
  have hft : (cfg4.win 3).flush ⟨5 * h.val + 4, last_lt _ h.isLt⟩ = true :=
    (flush4_3 _).mpr (by show (5 * h.val + 4) % 5 = 4; omega)
  exact ((pool V c).arrAt_apply_of_mem 3 (countsArr V c) (counts_flushed V c) cfg4.N ⟨5 * h.val + 4, last_lt _ h.isLt⟩
    (ix3 h g (0 : Fin 1)) (last_lt _ h.isLt) hft hmem).trans (countsArr_apply V c h g 0)

/-! ## The five blocks of a half as one sum over its 50000 rows -/

/-- A sum over 50000 rows is the sum over five blocks of 10000. -/
theorem sum_by_blocks {M : Type*} [AddCommMonoid M] (f : Fin 50000 → M) :
    ∑ i : Fin 50000, f i
      = ∑ s : Fin 5, ∑ p : Fin 10000, f ⟨10000 * s.val + p.val, by have := s.isLt; have := p.isLt; omega⟩ := by
  refine ((finProdFinEquiv (m := 5) (n := 10000)).sum_comp f).symm.trans ?_
  rw [Fintype.sum_prod_type]
  refine Finset.sum_congr rfl fun s _ => Finset.sum_congr rfl fun p _ => ?_
  congr 1
  apply Fin.ext
  show p.val + 10000 * s.val = 10000 * s.val + p.val
  omega

/-- A row's term depends on the row's number only. -/
theorem row_term_congr (V : Entry Ideal) (c : Dev nD) (g d : Fin 128) {n m : ℕ} (e : n = m) (hn : n < 100000) (hm : m < 100000) :
    hot ((V c main_v61 : (⟨S100000x1, .i32⟩ : BufTy).Contents (Elt Ideal)) (ix2 (⟨n, hn⟩ : Fin 100000) (0 : Fin 1))) g
        * (V c main_v60 : (⟨S100000x128, .f32⟩ : BufTy).Contents (Elt Ideal)) (ix2 (⟨n, hn⟩ : Fin 100000) d)
      = hot ((V c main_v61 : (⟨S100000x1, .i32⟩ : BufTy).Contents (Elt Ideal)) (ix2 (⟨m, hm⟩ : Fin 100000) (0 : Fin 1))) g
        * (V c main_v60 : (⟨S100000x128, .f32⟩ : BufTy).Contents (Elt Ideal)) (ix2 (⟨m, hm⟩ : Fin 100000) d) := by
  subst e; rfl

theorem row_count_congr (V : Entry Ideal) (c : Dev nD) (g : Fin 128) {n m : ℕ} (e : n = m) (hn : n < 100000) (hm : m < 100000) :
    hot ((V c main_v61 : (⟨S100000x1, .i32⟩ : BufTy).Contents (Elt Ideal)) (ix2 (⟨n, hn⟩ : Fin 100000) (0 : Fin 1))) g
      = hot ((V c main_v61 : (⟨S100000x1, .i32⟩ : BufTy).Contents (Elt Ideal)) (ix2 (⟨m, hm⟩ : Fin 100000) (0 : Fin 1))) g := by
  subst e; rfl

/-- The sums after a half's last block: every row of the half whose id is g, column d. -/
theorem half_sums (V : Entry Ideal) (c : Dev nD) (h : Fin 2) (g d : Fin 128) :
    (running V c (5 * h.val + 4) (last_lt _ h.isLt)).1 (ix2 g d)
      = ∑ i : Fin 50000,
          hot ((V c main_v61 : (⟨S100000x1, .i32⟩ : BufTy).Contents (Elt Ideal))
                (ix2 (⟨50000 * h.val + i.val, by have := h.isLt; have := i.isLt; omega⟩ : Fin 100000) (0 : Fin 1))) g
          * (V c main_v60 : (⟨S100000x128, .f32⟩ : BufTy).Contents (Elt Ideal))
                (ix2 (⟨50000 * h.val + i.val, by have := h.isLt; have := i.isLt; omega⟩ : Fin 100000) d) := by
  have hh := h.isLt
  rw [running_sums V c g d h.val 4 (by omega) (last_lt _ hh), Finset.sum_range, sum_by_blocks]
  refine Finset.sum_congr rfl fun s _ => ?_
  have hs := s.isLt
  have hn : 5 * h.val + s.val < cfg4.N := by have e : cfg4.N = 10 := N_4; omega
  rw [blockSum, dif_pos hn]
  refine Finset.sum_congr rfl fun p _ => ?_
  rw [graphIds_apply, featRows_apply]
  exact row_term_congr V c g d (by show 10000 * (5 * h.val + s.val) + p.val = 50000 * h.val + (10000 * s.val + p.val); omega) _ _

/-- The counts after a half's last block: the number of the half's rows whose id is g. -/
theorem half_counts (V : Entry Ideal) (c : Dev nD) (h : Fin 2) (g : Fin 128) :
    (running V c (5 * h.val + 4) (last_lt _ h.isLt)).2 (ix2 g (0 : Fin 1))
      = ∑ i : Fin 50000,
          hot ((V c main_v61 : (⟨S100000x1, .i32⟩ : BufTy).Contents (Elt Ideal))
                (ix2 (⟨50000 * h.val + i.val, by have := h.isLt; have := i.isLt; omega⟩ : Fin 100000) (0 : Fin 1))) g := by
  have hh := h.isLt
  rw [running_counts V c g h.val 4 (by omega) (last_lt _ hh), Finset.sum_range, sum_by_blocks]
  refine Finset.sum_congr rfl fun s _ => ?_
  have hs := s.isLt
  have hn : 5 * h.val + s.val < cfg4.N := by have e : cfg4.N = 10 := N_4; omega
  rw [blockCount, dif_pos hn]
  refine Finset.sum_congr rfl fun p _ => ?_
  rw [graphIds_apply]
  exact row_count_congr V c g (by show 10000 * (5 * h.val + s.val) + p.val = 50000 * h.val + (10000 * s.val + p.val); omega) _ _

/-- Half `h`'s slice of the first result: entry (g, d) is the sum, over the half's rows whose id is `g`, of column `d`. -/
theorem pool_sums (V : Entry Ideal) (c : Dev nD) (h : Fin 2) (g d : Fin 128) :
    ((pool V c).arrAt 2 cfg4.N : (⟨S2x128x128, .f32⟩ : BufTy).Contents (Elt Ideal)) (ix3 h g d)
      = ∑ i : Fin 50000,
          hot ((V c main_v61 : (⟨S100000x1, .i32⟩ : BufTy).Contents (Elt Ideal))
                (ix2 (⟨50000 * h.val + i.val, by have := h.isLt; have := i.isLt; omega⟩ : Fin 100000) (0 : Fin 1))) g
          * (V c main_v60 : (⟨S100000x128, .f32⟩ : BufTy).Contents (Elt Ideal))
                (ix2 (⟨50000 * h.val + i.val, by have := h.isLt; have := i.isLt; omega⟩ : Fin 100000) d) :=
  (sums_slice V c h g d).trans (half_sums V c h g d)

/-- Half `h`'s slice of the second result: entry (g, 0) is the number of the half's rows whose id is `g`. -/
theorem pool_counts (V : Entry Ideal) (c : Dev nD) (h : Fin 2) (g : Fin 128) :
    ((pool V c).arrAt 3 cfg4.N : (⟨S2x128x1, .f32⟩ : BufTy).Contents (Elt Ideal)) (ix3 h g (0 : Fin 1))
      = ∑ i : Fin 50000,
          hot ((V c main_v61 : (⟨S100000x1, .i32⟩ : BufTy).Contents (Elt Ideal))
                (ix2 (⟨50000 * h.val + i.val, by have := h.isLt; have := i.isLt; omega⟩ : Fin 100000) (0 : Fin 1))) g :=
  (counts_slice V c h g).trans (half_counts V c h g)

end Cert.KernelIdeal.Own

end
-- ==== Proof.SegmentSum.lean ====
import proofs.«408992_j29411936043071_4_alg».proof.Proof.Hot
import proofs.«408992_j29411936043071_4_alg».proof.ReferenceIdeal
import proofs.«408992_j29411936043071_4_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Own

open Idealize.ShloMosaic Idealize.ShloMosaic.TcCoe Idealize.SL.Sem
open Idealize.ShloMosaic.Pipeline (Dat)
open Idealize.ShloMosaic.ValueIdx

/-! # The host's accumulating scatter over graph ids is a sum weighted by one-hot entries

At the exact reals the scatter adds, into entry `g`, every update whose id is `g`; an id outside the operand's range
lands nowhere. That is the sum over ALL rows of the row's value times the one-hot entry of its id at `g`. -/

/-- An update lands on operand element `t` exactly when, on every axis, its start plus its window coordinate is
    `t`'s coordinate: being inside the operand is then automatic. -/
theorem scatter_lands_iff {s si u : Shape} (D : ScatterDims s si u) {w : Nat} (j : u.Idx) (idx : IVec si w) (t : s.Idx) :
    D.resultIdx? j idx = some t ↔ ∀ a, D.start j idx a + (D.window j a : Int) = ((t a).val : Int) := by
  unfold ScatterDims.resultIdx?
  constructor
  · intro h
    split at h
    · rename_i hin
      intro a
      have ht := congrFun (Option.some.inj h) a
      have hv := congrArg Fin.val ht
      have := (hin a).1
      simp only at hv
      omega
    · exact absurd h (by simp)
  · intro h
    have hin : ∀ a, 0 ≤ D.start j idx a + (D.window j a : Int) ∧ D.start j idx a + (D.window j a : Int) < s.size a := by
      intro a
      have := h a
      have := (t a).isLt
      omega
    rw [dif_pos hin]
    congr 1
    funext a
    refine Fin.ext ?_
    have := h a
    simp only
    omega

/-- The word of a natural number below 128, read as a signed number, is that number. -/
theorem toInt_ofNat_lt_128 (g : Nat) (hg : g < 128) : (BitVec.ofNat 32 g).toInt = (g : Int) := by
  have hn : (BitVec.ofNat 32 g).toNat = g := by
    rw [BitVec.toNat_ofNat]; exact Nat.mod_eq_of_lt (by omega)
  rw [BitVec.toInt_eq_toNat_of_lt (by rw [hn]; omega), hn]

/-- A 32-bit word read as a signed number is the natural number `g` below 128 exactly when it is the word of `g`. -/
theorem toInt_eq_iff_word_lt_128 (w : BitVec 32) (g : Nat) (hg : g < 128) : w.toInt = (g : Int) ↔ w = BitVec.ofNat 32 g := by
  constructor
  · intro h
    exact BitVec.eq_of_toInt_eq (h.trans (toInt_ofNat_lt_128 g hg).symm)
  · rintro rfl
    exact toInt_ofNat_lt_128 g hg

/-! ## The row scatter's dimension numbers, read at an update index `(i, c)` -/

/-- The id the row scatter reads for update `(i, c)` is the id of row `i`. -/
theorem rowScatter_siIdx (i : Fin 100000) (c : Fin 128) (k) :
    Cert.ReferenceIdeal.scatter_S128x128_S100000x1_S100000x128_1_0_0_1.siIdx (ix2 i c) k = ix2 i (0 : Fin 1) := by
  funext b
  refine Fin.ext ?_
  match b with
  | ⟨0, _⟩ => rfl
  | ⟨1, _⟩ =>
    have := k.isLt
    show k.val = 0
    have hl : Cert.ReferenceIdeal.scatter_S128x128_S100000x1_S100000x128_1_0_0_1.scatterDimsToOperandDims.length = 1 := rfl
    omega

/-- On the row axis the window of update `(i, c)` starts at row `i`'s id, read signed. -/
theorem rowScatter_start_row (ids : IVec Cert.ReferenceIdeal.S100000x1 32) (i : Fin 100000) (c : Fin 128) :
    Cert.ReferenceIdeal.scatter_S128x128_S100000x1_S100000x128_1_0_0_1.start (ix2 i c) ids 0
      = (ids (ix2 i (0 : Fin 1))).toInt := by
  unfold ScatterDims.start
  rw [dif_pos (show (0 : Fin 2) ∈ Cert.ReferenceIdeal.scatter_S128x128_S100000x1_S100000x128_1_0_0_1.scatterDimsToOperandDims
    from List.mem_singleton.mpr rfl), rowScatter_siIdx]

/-- On the column axis the window starts at 0. -/
theorem rowScatter_start_col (ids : IVec Cert.ReferenceIdeal.S100000x1 32) (i : Fin 100000) (c : Fin 128) :
    Cert.ReferenceIdeal.scatter_S128x128_S100000x1_S100000x128_1_0_0_1.start (ix2 i c) ids 1 = 0 := by
  unfold ScatterDims.start
  rw [dif_neg (show ¬ (1 : Fin 2) ∈ Cert.ReferenceIdeal.scatter_S128x128_S100000x1_S100000x128_1_0_0_1.scatterDimsToOperandDims
    from by decide)]

/-- The row axis is inserted: its window coordinate is 0. -/
theorem rowScatter_window_row (i : Fin 100000) (c : Fin 128) :
    Cert.ReferenceIdeal.scatter_S128x128_S100000x1_S100000x128_1_0_0_1.window (ix2 i c) 0 = 0 := by
  unfold ScatterDims.window
  rw [dif_neg (show ¬ (0 : Fin 2) ∈ Cert.ReferenceIdeal.scatter_S128x128_S100000x1_S100000x128_1_0_0_1.sKept from by decide)]

/-- On the column axis the window coordinate of update `(i, c)` is `c`. -/
theorem rowScatter_window_col (i : Fin 100000) (c : Fin 128) :
    Cert.ReferenceIdeal.scatter_S128x128_S100000x1_S100000x128_1_0_0_1.window (ix2 i c) 1 = c.val := by
  unfold ScatterDims.window
  rw [dif_pos (show (1 : Fin 2) ∈ Cert.ReferenceIdeal.scatter_S128x128_S100000x1_S100000x128_1_0_0_1.sKept from by decide)]
  rfl

/-- Update `(i, c)` of the row scatter lands on `(g, d)` exactly when row `i`'s id is the word of `g` and `c = d`. -/
theorem rowScatter_lands_iff (ids : IVec Cert.ReferenceIdeal.S100000x1 32) (i : Fin 100000) (c g d : Fin 128) :
    Cert.ReferenceIdeal.scatter_S128x128_S100000x1_S100000x128_1_0_0_1.resultIdx? (ix2 i c) ids = some (ix2 g d)
      ↔ ids (ix2 i (0 : Fin 1)) = BitVec.ofNat 32 g.val ∧ c = d := by
  rw [scatter_lands_iff]
  constructor
  · intro h
    have h0 := h 0
    have h1 := h 1
    rw [rowScatter_start_row, rowScatter_window_row] at h0
    rw [rowScatter_start_col, rowScatter_window_col] at h1
    refine ⟨(toInt_eq_iff_word_lt_128 _ g.val g.isLt).1 ?_, Fin.ext ?_⟩
    · have e : ((ix2 g d (0 : Fin 2)).val : Int) = (g.val : Int) := rfl
      rw [e] at h0
      omega
    · have e : ((ix2 g d (1 : Fin 2)).val : Int) = (d.val : Int) := rfl
      rw [e] at h1
      omega
  · rintro ⟨hw, rfl⟩ a
    match a with
    | ⟨0, _⟩ =>
      show Cert.ReferenceIdeal.scatter_S128x128_S100000x1_S100000x128_1_0_0_1.start (ix2 i c) ids 0
        + ((Cert.ReferenceIdeal.scatter_S128x128_S100000x1_S100000x128_1_0_0_1.window (ix2 i c) 0 : Nat) : Int) = (g.val : Int)
      rw [rowScatter_start_row, rowScatter_window_row, (toInt_eq_iff_word_lt_128 _ g.val g.isLt).2 hw]
      omega
    | ⟨1, _⟩ =>
      show Cert.ReferenceIdeal.scatter_S128x128_S100000x1_S100000x128_1_0_0_1.start (ix2 i c) ids 1
        + ((Cert.ReferenceIdeal.scatter_S128x128_S100000x1_S100000x128_1_0_0_1.window (ix2 i c) 1 : Nat) : Int) = (c.val : Int)
      rw [rowScatter_start_col, rowScatter_window_col]
      omega

/-! ## The row scatter as a weighted sum -/

/-- Rows scattered by id into a 128 × 128 array of zeros: entry (g, d) is the one-hot-weighted sum of column `d`. -/
theorem scatter_rows (ids : (⟨Cert.ReferenceIdeal.S100000x1, .i32⟩ : BufTy).Contents (Elt Ideal))
    (R : (⟨Cert.ReferenceIdeal.S100000x128, .f32⟩ : BufTy).Contents (Elt Ideal)) (g d : Fin 128) :
    Host.scatterAdd (F := Ideal) Cert.ReferenceIdeal.scatter_S128x128_S100000x1_S100000x128_1_0_0_1
        (broadcastInDim Cert.ReferenceIdeal.S128x128 ![] Cert.ReferenceIdeal.Facts₀.bcast_S_S128x128 (constant (F := Ideal) Cert.ReferenceIdeal.S_ .f32 0x00000000#32))
        ids R (ix2 g d)
      = ∑ i : Fin 100000, hot (ids (ix2 i (0 : Fin 1))) g * R (ix2 i d) := by
  unfold Host.scatterAdd
  rw [Ideal.hostScatterAdd_def]
  unfold Ideal.hostScatterAdd
  rw [show (broadcastInDim Cert.ReferenceIdeal.S128x128 ![] Cert.ReferenceIdeal.Facts₀.bcast_S_S128x128
        (constant (F := Ideal) Cert.ReferenceIdeal.S_ .f32 0x00000000#32)) (ix2 g d) = (0 : EReal) from Ideal.ofBits_zero_f32,
    zero_add, Finset.sum_filter, sum_idx2]
  refine Finset.sum_congr rfl fun i _ => ?_
  simp only [rowScatter_lands_iff]
  unfold hot
  by_cases hw : ids (ix2 i (0 : Fin 1)) = BitVec.ofNat 32 g.val
  · rw [if_pos hw, one_mul]
    simp only [hw, true_and]
    rw [Finset.sum_ite_eq']
    simp
  · rw [if_neg hw, zero_mul]
    simp only [hw, false_and, if_false, Finset.sum_const_zero]

/-! ## The count scatter's dimension numbers, read at an update index `i` -/

/-- A sum over a rank-1 index set is the sum over its one coordinate. -/
theorem sum_rank_one_idx {M : Type*} [AddCommMonoid M] {n : Nat} (f : (⟨1, ![n]⟩ : Shape).Idx → M) :
    ∑ j, f j = ∑ a : Fin n, f (ix1 a) := by
  let e : (⟨1, ![n]⟩ : Shape).Idx ≃ Fin n :=
    { toFun := fun j => j 0, invFun := fun a => ix1 a, left_inv := fun j => (eq_ix1 j).symm, right_inv := fun _ => rfl }
  rw [← Equiv.sum_comp e.symm f]
  rfl

/-- The id the count scatter reads for update `i` is the id of row `i`. -/
theorem countScatter_siIdx (i : Fin 100000) (k) :
    Cert.ReferenceIdeal.scatter_S128_S100000x1_S100000_n_0_0_1.siIdx (ix1 i) k = ix2 i (0 : Fin 1) := by
  funext b
  refine Fin.ext ?_
  match b with
  | ⟨0, _⟩ => rfl
  | ⟨1, _⟩ =>
    have := k.isLt
    show k.val = 0
    have hl : Cert.ReferenceIdeal.scatter_S128_S100000x1_S100000_n_0_0_1.scatterDimsToOperandDims.length = 1 := rfl
    omega

/-- The window of update `i` starts at row `i`'s id, read signed. -/
theorem countScatter_start (ids : IVec Cert.ReferenceIdeal.S100000x1 32) (i : Fin 100000) :
    Cert.ReferenceIdeal.scatter_S128_S100000x1_S100000_n_0_0_1.start (ix1 i) ids 0
      = (ids (ix2 i (0 : Fin 1))).toInt := by
  unfold ScatterDims.start
  rw [dif_pos (show (0 : Fin 1) ∈ Cert.ReferenceIdeal.scatter_S128_S100000x1_S100000_n_0_0_1.scatterDimsToOperandDims
    from List.mem_singleton.mpr rfl), countScatter_siIdx]

/-- The one operand axis is inserted: its window coordinate is 0. -/
theorem countScatter_window (i : Fin 100000) :
    Cert.ReferenceIdeal.scatter_S128_S100000x1_S100000_n_0_0_1.window (ix1 i) 0 = 0 := by
  unfold ScatterDims.window
  rw [dif_neg (show ¬ (0 : Fin 1) ∈ Cert.ReferenceIdeal.scatter_S128_S100000x1_S100000_n_0_0_1.sKept from by decide)]

/-- Update `i` of the count scatter lands on `g` exactly when row `i`'s id is the word of `g`. -/
theorem countScatter_lands_iff (ids : IVec Cert.ReferenceIdeal.S100000x1 32) (i : Fin 100000) (g : Fin 128) :
    Cert.ReferenceIdeal.scatter_S128_S100000x1_S100000_n_0_0_1.resultIdx? (ix1 i) ids = some (ix1 g)
      ↔ ids (ix2 i (0 : Fin 1)) = BitVec.ofNat 32 g.val := by
  rw [scatter_lands_iff]
  constructor
  · intro h
    have h0 := h 0
    rw [countScatter_start, countScatter_window] at h0
    refine (toInt_eq_iff_word_lt_128 _ g.val g.isLt).1 ?_
    have e : ((ix1 g (0 : Fin 1)).val : Int) = (g.val : Int) := rfl
    rw [e] at h0
    omega
  · intro hw a
    match a with
    | ⟨0, _⟩ =>
      show Cert.ReferenceIdeal.scatter_S128_S100000x1_S100000_n_0_0_1.start (ix1 i) ids 0
        + ((Cert.ReferenceIdeal.scatter_S128_S100000x1_S100000_n_0_0_1.window (ix1 i) 0 : Nat) : Int) = (g.val : Int)
      rw [countScatter_start, countScatter_window, (toInt_eq_iff_word_lt_128 _ g.val g.isLt).2 hw]
      omega

/-- The word 0x3F800000 is the number one. -/
theorem ofBits_f32_word_one : Ideal.ofBits .f32 0x3F800000#32 = (1 : EReal) := by
  simp [Ideal.ofBits, Ideal.ieee, -EReal.coe_mul]; norm_num

/-- Ones scattered by id into 128 zeros: entry `g` is the number of rows whose id is `g`. -/
theorem scatter_ones (ids : (⟨Cert.ReferenceIdeal.S100000x1, .i32⟩ : BufTy).Contents (Elt Ideal)) (g : Fin 128) :
    Host.scatterAdd (F := Ideal) Cert.ReferenceIdeal.scatter_S128_S100000x1_S100000_n_0_0_1
        (broadcastInDim Cert.ReferenceIdeal.S128 ![] Cert.ReferenceIdeal.Facts₀.bcast_S_S128 (constant (F := Ideal) Cert.ReferenceIdeal.S_ .f32 0x00000000#32))
        ids
        (broadcastInDim Cert.ReferenceIdeal.S100000 ![] Cert.ReferenceIdeal.Facts₀.bcast_S_S100000 (constant (F := Ideal) Cert.ReferenceIdeal.S_ .f32 0x3F800000#32))
        (ix1 g)
      = ∑ i : Fin 100000, hot (ids (ix2 i (0 : Fin 1))) g := by
  unfold Host.scatterAdd
  rw [Ideal.hostScatterAdd_def]
  unfold Ideal.hostScatterAdd
  rw [show (broadcastInDim Cert.ReferenceIdeal.S128 ![] Cert.ReferenceIdeal.Facts₀.bcast_S_S128
        (constant (F := Ideal) Cert.ReferenceIdeal.S_ .f32 0x00000000#32)) (ix1 g) = (0 : EReal) from Ideal.ofBits_zero_f32,
    zero_add, Finset.sum_filter, sum_rank_one_idx]
  refine Finset.sum_congr rfl fun i _ => ?_
  rw [show (broadcastInDim Cert.ReferenceIdeal.S100000 ![] Cert.ReferenceIdeal.Facts₀.bcast_S_S100000
        (constant (F := Ideal) Cert.ReferenceIdeal.S_ .f32 0x3F800000#32)) (ix1 i) = (1 : EReal) from ofBits_f32_word_one]
  simp only [countScatter_lands_iff]
  rfl

/-- A sum over 100000 rows is the sum over the first 50000 plus the sum over the last 50000. -/
theorem sum_halves (f : Fin 100000 → EReal) :
    ∑ i : Fin 100000, f i
      = (∑ i : Fin 50000, f ⟨50000 * 0 + i.val, by have := i.isLt; omega⟩)
        + ∑ i : Fin 50000, f ⟨50000 * 1 + i.val, by have := i.isLt; omega⟩ := by
  have e : ∑ i : Fin 100000, f i = ∑ i : Fin (50000 + 50000), f (Fin.cast (by norm_num) i) :=
    (Equiv.sum_comp (finCongr (by norm_num : 50000 + 50000 = 100000)) f).symm
  rw [e, Fin.sum_univ_add]
  refine congrArg₂ (· + ·) ?_ ?_
  · refine Finset.sum_congr rfl fun i _ => congrArg f (Fin.ext ?_)
    show i.val = 50000 * 0 + i.val
    omega
  · refine Finset.sum_congr rfl fun i _ => congrArg f (Fin.ext ?_)
    show 50000 + i.val = 50000 * 1 + i.val
    omega

end Cert.KernelIdeal.Own

end
-- ==== Proof.MeetTail.lean ====
import proofs.«408992_j29411936043071_4_alg».proof.Proof.Boundaries
import proofs.«408992_j29411936043071_4_alg».proof.Proof.Gen.KernelIdeal.Regions
import Idealize.ShloMosaic.Lib.StableHlo.Run

set_option maxRecDepth 16384

noncomputable section

namespace Cert.KernelIdeal.Own

open Idealize.ShloMosaic Idealize.ShloMosaic.TcCoe Idealize.SL.Sem
open Cert.KernelIdeal Cert.KernelIdeal.Gen

variable {F : FTy → Type} [FloatOps F]

/-! # The last host stretch as one function of four arrays

After the pooling kernel the program adds the two halves of each result, clamps the counts below by one, divides, applies
the final linear layer and its bias and re-lays the column as a vector. Of everything the boundary before it holds, that
reads the two pooled arrays, the weight column and the bias. -/

/-- The two 128 × 128 halves of a 2 × 128 × 128 array, added. -/
def halvesAdded (X : (⟨S2x128x128, .f32⟩ : BufTy).Contents (Elt F)) : (⟨S128x128, .f32⟩ : BufTy).Contents (Elt F) :=
  addf (shapeCast S128x128 (extractStridedSlice S1x128x128 ![0, 0, 0] X slices_S2x128x128_S1x128x128_0_0_0) shapeCasts_S1x128x128_S128x128)
    (shapeCast S128x128 (extractStridedSlice S1x128x128 ![1, 0, 0] X slices_S2x128x128_S1x128x128_1_0_0) shapeCasts_S1x128x128_S128x128)

/-- The two 128 × 1 halves of a 2 × 128 × 1 array, added. -/
def halvesCounted (Y : (⟨S2x128x1, .f32⟩ : BufTy).Contents (Elt F)) : (⟨S128x1, .f32⟩ : BufTy).Contents (Elt F) :=
  addf (shapeCast S128x1 (extractStridedSlice S1x128x1 ![0, 0, 0] Y slices_S2x128x1_S1x128x1_0_0_0) shapeCasts_S1x128x1_S128x1)
    (shapeCast S128x1 (extractStridedSlice S1x128x1 ![1, 0, 0] Y slices_S2x128x1_S1x128x1_1_0_0) shapeCasts_S1x128x1_S128x1)

/-- A column of counts clamped below by one and repeated along the feature axis: the divisor of the means. -/
def divisorOf (C : (⟨S128x1, .f32⟩ : BufTy).Contents (Elt F)) : (⟨S128x128, .f32⟩ : BufTy).Contents (Elt F) :=
  broadcastInDim S128x128 ![0, 1] bcast_S128x1_S128x128_0_1
    (maximumf C (broadcastInDim S128x1 ![] bcast_S_S128x1 (constant (F := F) S_ .f32 0x3F800000#32)))

/-- Sums `A` divided entrywise by `B`, times the weight column `w`, plus the bias `b` on every row, as a vector of 128. -/
def readout (A B : (⟨S128x128, .f32⟩ : BufTy).Contents (Elt F)) (w : (⟨S128x1, .f32⟩ : BufTy).Contents (Elt F))
    (b : (⟨S1, .f32⟩ : BufTy).Contents (Elt F)) : (⟨S128, .f32⟩ : BufTy).Contents (Elt F) :=
  shapeCast S128
    (addf (Host.dotGeneral (F := F) dot_S128x128_S128x1_S128x1_1_0_0_1_n_n none (Host.divf (F := F) A B) w)
      (broadcastInDim S128x1 ![0, 1] bcast_S1x1_S128x1_0_1 (broadcastInDim S1x1 ![1] bcast_S1_S1x1_1 b)))
    shapeCasts_S128x1_S128

set_option maxHeartbeats 2000000 in
/-- What the last host stretch leaves in the result buffer, from ANY contents `W` before it. -/
theorem after_readout (W : Valuation τ sig (Elt F)) :
    (StableHlo.after hostOps5 W main_v81 : (⟨S128, .f32⟩ : BufTy).Contents (Elt F))
      = readout (halvesAdded (W main_v62_0)) (divisorOf (halvesCounted (W main_v62_1))) (W main_arg7) (W main_arg8) := by
  after_results
  rfl

end Cert.KernelIdeal.Own

end
-- ==== Proof.Meet.lean ====
import proofs.«408992_j29411936043071_4_alg».proof.Proof.Trace
import proofs.«408992_j29411936043071_4_alg».proof.Proof.PoolFinal
import proofs.«408992_j29411936043071_4_alg».proof.Proof.SegmentSum
import proofs.«408992_j29411936043071_4_alg».proof.Proof.MeetTail
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Own

open Idealize.ShloMosaic Idealize.ShloMosaic.TcCoe Idealize.SL.Sem
open Idealize.ShloMosaic.Pipeline (Dat)
open Idealize.ShloMosaic.ValueIdx
open Cert.KernelIdeal Cert.KernelIdeal.Gen

/-! # Reading the boundary before the last host stretch -/

section Leaves
variable {F : FTy → Type} [FloatOps F]
variable (m : (ℓ : Loc nD τ sig) → Buf (Elt F) ℓ)

/-- Before the last host stretch the first pooled buffer holds what the pooling kernel's write-backs left there. -/
theorem at9_sums (c : Dev nD) : at9 m c main_v62_0 = (pool (asEntry (at8 m)) c).arrAt 2 cfg4.N := by
  simp only [at9, Function.update_of_ne (StableHlo.devRef_ne_of_ne (by decide) : (Proc.devRef .tc main_v62_0 : DevRef τ sig) ≠ Proc.devRef .tc main_v62_1), Function.update_self]

/-- And the second pooled buffer the counts. -/
theorem at9_counts (c : Dev nD) : at9 m c main_v62_1 = (pool (asEntry (at8 m)) c).arrAt 3 cfg4.N := by
  simp only [at9, Function.update_self]

/-- A buffer that no host stretch writes and no kernel region returns still holds its launch contents there. -/
theorem at9_kept (c : Dev nD) (r : Ref sig .tc)
    (h0 : r ∉ hostOps0_W) (h1 : r ∉ hostOps1_W) (h3 : r ∉ hostOps3_W) (h4 : r ∉ hostOps4_W)
    (n29 : r ≠ main_v29) (n44 : r ≠ main_v44) (n45 : r ≠ main_v45) (n60 : r ≠ main_v60)
    (n620 : r ≠ main_v62_0) (n621 : r ≠ main_v62_1) :
    at9 m c r = m ((c : Thread nD τ).loc r) := by
  have e9 : at9 m c r = at8 m c r := by
    simp only [at9, Function.update_of_ne (StableHlo.devRef_ne_of_ne n621 : (Proc.devRef .tc r : DevRef τ sig) ≠ Proc.devRef .tc main_v62_1),
      Function.update_of_ne (StableHlo.devRef_ne_of_ne n620 : (Proc.devRef .tc r : DevRef τ sig) ≠ Proc.devRef .tc main_v62_0)]
  have e8 : at8 m c r = at7 m c r := StableHlo.after_of_writes_sub hostOps4 _ hostOps4_writes h4
  have e7 : at7 m c r = at6 m c r := by
    simp only [at7, Function.update_of_ne (StableHlo.devRef_ne_of_ne n60 : (Proc.devRef .tc r : DevRef τ sig) ≠ Proc.devRef .tc main_v60)]
  have e6 : at6 m c r = at5 m c r := StableHlo.after_of_writes_sub hostOps3 _ hostOps3_writes h3
  have e5 : at5 m c r = at4 m c r := by
    simp only [at5, Function.update_of_ne (StableHlo.devRef_ne_of_ne n45 : (Proc.devRef .tc r : DevRef τ sig) ≠ Proc.devRef .tc main_v45)]
  have e4 : at4 m c r = at3 m c r := by
    simp only [at4, Function.update_of_ne (StableHlo.devRef_ne_of_ne n44 : (Proc.devRef .tc r : DevRef τ sig) ≠ Proc.devRef .tc main_v44)]
  have e3 : at3 m c r = at2 m c r := StableHlo.after_of_writes_sub hostOps1 _ hostOps1_writes h1
  have e2 : at2 m c r = at1 m c r := by
    simp only [at2, Function.update_of_ne (StableHlo.devRef_ne_of_ne n29 : (Proc.devRef .tc r : DevRef τ sig) ≠ Proc.devRef .tc main_v29)]
  have e1 : at1 m c r = at0 m c r := StableHlo.after_of_writes_sub hostOps0 _ hostOps0_writes h0
  exact e9.trans (e8.trans (e7.trans (e6.trans (e5.trans (e4.trans (e3.trans (e2.trans e1)))))))

/-- The final layer's weight column is the argument. -/
theorem at9_weight (c : Dev nD) : at9 m c main_arg7 = m ((c : Thread nD τ).loc main_arg7) :=
  at9_kept m c main_arg7 (by decide) (by decide) (by decide) (by decide) (by decide) (by decide) (by decide) (by decide) (by decide) (by decide)

/-- The final layer's bias is the argument. -/
theorem at9_bias (c : Dev nD) : at9 m c main_arg8 = m ((c : Thread nD τ).loc main_arg8) :=
  at9_kept m c main_arg8 (by decide) (by decide) (by decide) (by decide) (by decide) (by decide) (by decide) (by decide) (by decide) (by decide)

end Leaves

/-! # Reading the halves at an index -/

section Slabs
variable {α : Type}

/-- Half `o` of a 2 × 128 × n array, cut out and viewed 128 × n, reads at (g, d) the array at (o, g, d). -/
theorem slab_apply {n : ℕ} (X : (⟨3, ![2, 128, n]⟩ : Shape).Idx → α) (o : ℕ) (ho : o < 2)
    (hs : (⟨3, ![2, 128, n]⟩ : Shape).Slices ![o, 0, 0] ⟨3, ![1, 128, n]⟩)
    (hc : (⟨3, ![1, 128, n]⟩ : Shape).ShapeCasts ⟨2, ![128, n]⟩) (g : Fin 128) (d : Fin n) :
    shapeCast ⟨2, ![128, n]⟩ (extractStridedSlice ⟨3, ![1, 128, n]⟩ ![o, 0, 0] X hs) hc (ix2 g d)
      = X (ix3 (⟨o, ho⟩ : Fin 2) g d) :=
  (shapeCast_1ab_ab_apply _ hc g d).trans
    (extractStridedSlice_apply _ X hs _ (ix3 (⟨o, ho⟩ : Fin 2) g d) fun a => by
      match a with
      | ⟨0, _⟩ => rfl
      | ⟨1, _⟩ => exact (Nat.zero_add _).symm
      | ⟨2, _⟩ => exact (Nat.zero_add _).symm)

end Slabs

/-- The two halves of the pooled sums, added, at (g, d). -/
theorem halvesAdded_apply (X : (⟨S2x128x128, .f32⟩ : BufTy).Contents (Elt Ideal)) (g d : Fin 128) :
    halvesAdded (F := Ideal) X (ix2 g d) = X (ix3 (⟨0, by decide⟩ : Fin 2) g d) + X (ix3 (⟨1, by decide⟩ : Fin 2) g d) := by
  unfold halvesAdded
  rw [addf_apply, slab_apply X 0 (by decide), slab_apply X 1 (by decide)]

/-- The two halves of the pooled counts, added, at (g, 0). -/
theorem halvesCounted_apply (Y : (⟨S2x128x1, .f32⟩ : BufTy).Contents (Elt Ideal)) (g : Fin 128) (u : Fin 1) :
    halvesCounted (F := Ideal) Y (ix2 g u) = Y (ix3 (⟨0, by decide⟩ : Fin 2) g u) + Y (ix3 (⟨1, by decide⟩ : Fin 2) g u) := by
  unfold halvesCounted
  rw [addf_apply, slab_apply Y 0 (by decide), slab_apply Y 1 (by decide)]

/-! # The pooled sums and counts are the reference's scatters -/

section Meeting

/-- The kernel's id column, the argument re-laid by a shape cast, reads at row `i` the argument at `i` … -/
theorem cast_column_apply (x : (⟨S100000, .i32⟩ : BufTy).Contents (Elt Ideal)) (i : Fin 100000) :
    shapeCast S100000x1 x Cert.KernelIdeal.Facts₀.shapeCasts_S100000_S100000x1 (ix2 i (0 : Fin 1)) = x (ix1 i) :=
  shapeCast_apply x _ _ _ (by
    rw [Shape.rowMajor_val_one, Shape.rowMajor_val_two]
    show i.val = i.val * 1 + 0
    omega)

/-- … and so does the reference's, the argument broadcast along a new unit axis (before the scatter of the rows) … -/
theorem bcast_column_apply (x : (⟨S100000, .i32⟩ : BufTy).Contents (Elt Ideal)) (i : Fin 100000) :
    Cert.ReferenceIdeal.Read.val_main_v88 (F := Ideal) x (ix2 i (0 : Fin 1)) = x (ix1 i) := by
  rw [Cert.ReferenceIdeal.Read.val_main_v88_apply]
  exact congrArg x (funext fun a => match a with | ⟨0, _⟩ => rfl)

/-- … and again before the scatter of the ones. -/
theorem bcast_column_apply' (x : (⟨S100000, .i32⟩ : BufTy).Contents (Elt Ideal)) (i : Fin 100000) :
    Cert.ReferenceIdeal.Read.val_main_v92 (F := Ideal) x (ix2 i (0 : Fin 1)) = x (ix1 i) := by
  rw [Cert.ReferenceIdeal.Read.val_main_v92_apply]
  exact congrArg x (funext fun a => match a with | ⟨0, _⟩ => rfl)

/-- The pooled sums with the halves added: entry (g, d) is the one-hot-weighted sum of column `d` over all 100000 rows. -/
theorem pooled_sums (V : Entry Ideal) (c : Dev nD) (g d : Fin 128) :
    halvesAdded (F := Ideal) ((pool V c).arrAt 2 cfg4.N) (ix2 g d)
      = ∑ i : Fin 100000, hot ((V c main_v61 : (⟨S100000x1, .i32⟩ : BufTy).Contents (Elt Ideal)) (ix2 i (0 : Fin 1))) g
          * (V c main_v60 : (⟨S100000x128, .f32⟩ : BufTy).Contents (Elt Ideal)) (ix2 i d) := by
  rw [halvesAdded_apply, pool_sums, pool_sums]
  exact (sum_halves fun r => hot ((V c main_v61 : (⟨S100000x1, .i32⟩ : BufTy).Contents (Elt Ideal)) (ix2 r (0 : Fin 1))) g
          * (V c main_v60 : (⟨S100000x128, .f32⟩ : BufTy).Contents (Elt Ideal)) (ix2 r d)).symm

/-- The pooled counts with the halves added: entry (g, 0) is the number of rows, of all 100000, whose id is `g`. -/
theorem pooled_counts (V : Entry Ideal) (c : Dev nD) (g : Fin 128) :
    halvesCounted (F := Ideal) ((pool V c).arrAt 3 cfg4.N) (ix2 g (0 : Fin 1))
      = ∑ i : Fin 100000, hot ((V c main_v61 : (⟨S100000x1, .i32⟩ : BufTy).Contents (Elt Ideal)) (ix2 i (0 : Fin 1))) g := by
  rw [halvesCounted_apply, pool_counts, pool_counts]
  exact (sum_halves fun r => hot ((V c main_v61 : (⟨S100000x1, .i32⟩ : BufTy).Contents (Elt Ideal)) (ix2 r (0 : Fin 1))) g).symm

variable (m : (ℓ : Loc nD τ sig) → Buf (Elt Ideal) ℓ)

/-- The kernel's per-graph sums are the reference's scatter of its second-layer activations over the graph ids. -/
theorem sums_meet (c : Dev nD) :
    halvesAdded (F := Ideal) (at9 m c main_v62_0)
      = Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext j
  obtain ⟨g, d, rfl⟩ : ∃ g d : Fin 128, j = ix2 g d := ⟨j 0, j 1, eq_ix2 j⟩
  rw [at9_sums, pooled_sums]
  have hids : (asEntry (at8 m) c main_v61 : (⟨S100000x1, .i32⟩ : BufTy).Contents (Elt Ideal)) = _ := ids_column m c
  have hact : (asEntry (at8 m) c main_v60 : (⟨S100000x128, .f32⟩ : BufTy).Contents (Elt Ideal)) = _ := activations_meet m c
  rw [hids, hact]
  unfold Cert.ReferenceIdeal.Read.val_main_v89 Cert.ReferenceIdeal.Read.val_main_v87 Cert.ReferenceIdeal.Read.val_main_cst_18
  refine Eq.symm ((scatter_rows _ _ g d).trans ?_)
  refine Finset.sum_congr rfl fun i _ => ?_
  rw [bcast_column_apply, cast_column_apply]

end Meeting

section Divisor
variable (m : (ℓ : Loc nD τ sig) → Buf (Elt Ideal) ℓ)

/-- The kernel's clamped per-graph counts, as a column, are the reference's: the scatter of ones over the graph ids, clamped below by one. -/
theorem counts_meet (c : Dev nD) :
    maximumf (halvesCounted (F := Ideal) (at9 m c main_v62_1))
        (broadcastInDim S128x1 ![] bcast_S_S128x1 (constant (F := Ideal) S_ .f32 0x3F800000#32))
      = Cert.ReferenceIdeal.Read.val_main_v96 (F := Ideal) (m ((c : Thread nD τ).loc main_arg2)) := by
  funext j
  obtain ⟨g, u, rfl⟩ : ∃ (g : Fin 128) (u : Fin 1), j = ix2 g u := ⟨j 0, j 1, eq_ix2 j⟩
  obtain rfl : u = 0 := Subsingleton.elim _ _
  have hi : Cert.ReferenceIdeal.Read.idx_main_v96 (ix2 g (0 : Fin 1)) = ix1 g := funext fun a => match a with | ⟨0, _⟩ => rfl
  have hids : (asEntry (at8 m) c main_v61 : (⟨S100000x1, .i32⟩ : BufTy).Contents (Elt Ideal)) = _ := ids_column m c
  rw [maximumf_apply, at9_counts, pooled_counts, hids,
    broadcastInDim_apply (![] : Fin 0 → Fin 2) bcast_S_S128x1 _ (ix2 g (0 : Fin 1)) ix0 (fun a => a.elim0), constant_apply,
    Cert.ReferenceIdeal.Read.val_main_v96_apply, Cert.ReferenceIdeal.Read.val_main_v95_apply, hi,
    Cert.ReferenceIdeal.Read.val_main_v94_apply, Cert.ReferenceIdeal.Read.val_main_cst_21_apply]
  unfold Cert.ReferenceIdeal.Read.val_main_v93 Cert.ReferenceIdeal.Read.val_main_v91 Cert.ReferenceIdeal.Read.val_main_cst_20
    Cert.ReferenceIdeal.Read.val_main_v90 Cert.ReferenceIdeal.Read.val_main_cst_19
  rw [scatter_ones]
  refine congrArg (fun s => max s (Ideal.ofBits .f32 0x3F800000#32)) ?_
  refine Finset.sum_congr rfl fun i _ => ?_
  rw [bcast_column_apply', cast_column_apply]

/-- So the two programs divide by the same 128 × 128 array. -/
theorem divisor_meets (c : Dev nD) :
    divisorOf (F := Ideal) (halvesCounted (at9 m c main_v62_1))
      = Cert.ReferenceIdeal.Read.val_main_v97 (F := Ideal) (m ((c : Thread nD τ).loc main_arg2)) := by
  unfold divisorOf Cert.ReferenceIdeal.Read.val_main_v97
  rw [counts_meet m c]

end Divisor

/-! # The reference's result is the same readout of its own sums and divisor -/

section Reference
variable {F : FTy → Type} [FloatOps F]

/-- The reference's last six operations (divide, multiply by the weight column, add the bias, re-lay) are that readout. -/
theorem reference_readout
    (x0 : (⟨S100000x128, .f32⟩ : BufTy).Contents (Elt F)) (x1 : (⟨Cert.ReferenceIdeal.S2x1600000, .i32⟩ : BufTy).Contents (Elt F))
    (x2 : (⟨S100000, .i32⟩ : BufTy).Contents (Elt F)) (x3 : (⟨S128x128, .f32⟩ : BufTy).Contents (Elt F))
    (x4 : (⟨S128, .f32⟩ : BufTy).Contents (Elt F)) (x5 : (⟨S128x128, .f32⟩ : BufTy).Contents (Elt F))
    (x6 : (⟨S128, .f32⟩ : BufTy).Contents (Elt F)) (x7 : (⟨S128x1, .f32⟩ : BufTy).Contents (Elt F))
    (x8 : (⟨S1, .f32⟩ : BufTy).Contents (Elt F)) :
    Cert.ReferenceIdeal.Read.val_main_v103 (F := F) x0 x1 x2 x3 x4 x5 x6 x7 x8
      = readout (F := F) (Cert.ReferenceIdeal.Read.val_main_v89 (F := F) x0 x1 x2 x3 x4 x5 x6)
          (Cert.ReferenceIdeal.Read.val_main_v97 (F := F) x2) x7 x8 := by
  unfold Cert.ReferenceIdeal.Read.val_main_v103 Cert.ReferenceIdeal.Read.val_main_v102 Cert.ReferenceIdeal.Read.val_main_v101
    Cert.ReferenceIdeal.Read.val_main_v100 Cert.ReferenceIdeal.Read.val_main_v99 Cert.ReferenceIdeal.Read.val_main_v98
  generalize Cert.ReferenceIdeal.Read.val_main_v89 (F := F) x0 x1 x2 x3 x4 x5 x6 = A
  generalize Cert.ReferenceIdeal.Read.val_main_v97 (F := F) x2 = B
  rfl

end Reference

/-! # The two programs' results are one function of the arguments

The kernel adds the two halves' per-graph sums and counts; a sum over all rows weighted by one-hot entries is the
reference's scatter over graph ids, so after the addition both programs hold the same per-graph sums and counts, and from
there apply the same division, the same final matrix product, bias and re-laying. -/

section Result
variable (m : (ℓ : Loc nD τ sig) → Buf (Elt Ideal) ℓ)

/-- The kernel's result buffer at the return is the reference's result, as a function of the arguments. -/
theorem result_meets (c : Dev nD) :
    (at10 m c main_v81 : (⟨S128, .f32⟩ : BufTy).Contents (Elt Ideal))
      = Cert.ReferenceIdeal.Read.val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (after_readout (at9 m c)).trans ?_
  rw [sums_meet m c, divisor_meets m c, at9_weight m c, at9_bias m c]
  exact (reference_readout _ _ _ _ _ _ _ _ _).symm

end Result

end Cert.KernelIdeal.Own

end
-- ==== Proof.Assemble.lean ====
/-
  The claims, from the run of the kernel's program (Chain.lean: every unscoped buffer at the last boundary's contents), the
  reference's run, and the identity of the two results as functions of the arguments (Meet.lean).
-/
import proofs.«408992_j29411936043071_4_alg».proof.Defs
import proofs.«408992_j29411936043071_4_alg».proof.Proof.Chain
import proofs.«408992_j29411936043071_4_alg».proof.Proof.WordLevel.Chain
import proofs.«408992_j29411936043071_4_alg».proof.Proof.Meet
import proofs.«408992_j29411936043071_4_alg».proof.Proof.Gen.ReferenceIdeal.Run
import proofs.«408992_j29411936043071_4_alg».proof.Proof.Gen.ReferenceIdeal.Read
import proofs.«408992_j29411936043071_4_alg».proof.Proof.Gen.Pre_finite_inputs

set_option maxRecDepth 16384

noncomputable section

namespace Cert.Proof.Parts

open Idealize.ShloMosaic Idealize.ShloMosaic.TcCoe Idealize.SL.Sem

/-- The kernel's program as printed (at the word level) runs and leaves its argument arrays as launched: the same run,
    read at that instance. -/
theorem frame_k : Cert.frame_Kernel := fun m ρ _ =>
  (θ_run (Cert.Kernel.defs (F := Bits)) _ _).mono
    (fun r h c =>
      have a := Cert.Kernel.Own.at10_args m c
      ⟨(h c _ (Cert.Kernel.Own.mem_ucRefs Cert.Kernel.main_arg0 (by decide))).trans a.1,
       (h c _ (Cert.Kernel.Own.mem_ucRefs Cert.Kernel.main_arg1 (by decide))).trans a.2.1,
       (h c _ (Cert.Kernel.Own.mem_ucRefs Cert.Kernel.main_arg2 (by decide))).trans a.2.2.1,
       (h c _ (Cert.Kernel.Own.mem_ucRefs Cert.Kernel.main_arg3 (by decide))).trans a.2.2.2.1,
       (h c _ (Cert.Kernel.Own.mem_ucRefs Cert.Kernel.main_arg4 (by decide))).trans a.2.2.2.2.1,
       (h c _ (Cert.Kernel.Own.mem_ucRefs Cert.Kernel.main_arg5 (by decide))).trans a.2.2.2.2.2.1,
       (h c _ (Cert.Kernel.Own.mem_ucRefs Cert.Kernel.main_arg6 (by decide))).trans a.2.2.2.2.2.2.1,
       (h c _ (Cert.Kernel.Own.mem_ucRefs Cert.Kernel.main_arg7 (by decide))).trans a.2.2.2.2.2.2.2.1,
       (h c _ (Cert.Kernel.Own.mem_ucRefs Cert.Kernel.main_arg8 (by decide))).trans a.2.2.2.2.2.2.2.2⟩)
    (Cert.Kernel.Own.run_all (F := Bits) m ρ)

/-- The idealized kernel's program runs and leaves its argument arrays as launched. -/
theorem frame_ki : Cert.frame_KernelIdeal := fun m ρ _ =>
  (θ_run (Cert.KernelIdeal.defs (F := Ideal)) _ _).mono
    (fun r h c =>
      have a := Cert.KernelIdeal.Own.at10_args m c
      ⟨(h c _ (Cert.KernelIdeal.Own.mem_ucRefs Cert.KernelIdeal.main_arg0 (by decide))).trans a.1,
       (h c _ (Cert.KernelIdeal.Own.mem_ucRefs Cert.KernelIdeal.main_arg1 (by decide))).trans a.2.1,
       (h c _ (Cert.KernelIdeal.Own.mem_ucRefs Cert.KernelIdeal.main_arg2 (by decide))).trans a.2.2.1,
       (h c _ (Cert.KernelIdeal.Own.mem_ucRefs Cert.KernelIdeal.main_arg3 (by decide))).trans a.2.2.2.1,
       (h c _ (Cert.KernelIdeal.Own.mem_ucRefs Cert.KernelIdeal.main_arg4 (by decide))).trans a.2.2.2.2.1,
       (h c _ (Cert.KernelIdeal.Own.mem_ucRefs Cert.KernelIdeal.main_arg5 (by decide))).trans a.2.2.2.2.2.1,
       (h c _ (Cert.KernelIdeal.Own.mem_ucRefs Cert.KernelIdeal.main_arg6 (by decide))).trans a.2.2.2.2.2.2.1,
       (h c _ (Cert.KernelIdeal.Own.mem_ucRefs Cert.KernelIdeal.main_arg7 (by decide))).trans a.2.2.2.2.2.2.2.1,
       (h c _ (Cert.KernelIdeal.Own.mem_ucRefs Cert.KernelIdeal.main_arg8 (by decide))).trans a.2.2.2.2.2.2.2.2⟩)
    (Cert.KernelIdeal.Own.run_all (F := Ideal) m ρ)

/-- The reference's program runs and leaves its argument arrays as launched: its generated run with the result dropped. -/
theorem frame_ri : Cert.frame_ReferenceIdeal := fun m ρ _ =>
  (θ_run (Cert.ReferenceIdeal.defs (F := Ideal)) _ _).mono (fun _ h c => (h c).2)
    (Cert.ReferenceIdeal.Value.run (F := Ideal) m ρ)

/-- Run from memories that agree on the arguments, both idealized programs end with the same result: the kernel's result
    buffer holds the last boundary's contents, which is the reference's result function of the arguments; the reference's
    run ends at that function of its own, equal, arguments. -/
theorem algebraic : Cert.algebraic_KernelIdeal_ReferenceIdeal := by
  intro m ρ m' ρ' _ hagree
  refine ⟨fun c => Cert.KernelIdeal.Own.at10 m c Cert.KernelIdeal.main_v81, ?_, ?_⟩
  · refine (θ_run (Cert.KernelIdeal.defs (F := Ideal)) _ _).mono (fun r h c => ?_) (Cert.KernelIdeal.Own.run_all (F := Ideal) m ρ)
    have a := Cert.KernelIdeal.Own.at10_args m c
    exact ⟨h c _ (Cert.KernelIdeal.Own.mem_ucRefs Cert.KernelIdeal.main_v81 (by decide)),
       (h c _ (Cert.KernelIdeal.Own.mem_ucRefs Cert.KernelIdeal.main_arg0 (by decide))).trans a.1,
       (h c _ (Cert.KernelIdeal.Own.mem_ucRefs Cert.KernelIdeal.main_arg1 (by decide))).trans a.2.1,
       (h c _ (Cert.KernelIdeal.Own.mem_ucRefs Cert.KernelIdeal.main_arg2 (by decide))).trans a.2.2.1,
       (h c _ (Cert.KernelIdeal.Own.mem_ucRefs Cert.KernelIdeal.main_arg3 (by decide))).trans a.2.2.2.1,
       (h c _ (Cert.KernelIdeal.Own.mem_ucRefs Cert.KernelIdeal.main_arg4 (by decide))).trans a.2.2.2.2.1,
       (h c _ (Cert.KernelIdeal.Own.mem_ucRefs Cert.KernelIdeal.main_arg5 (by decide))).trans a.2.2.2.2.2.1,
       (h c _ (Cert.KernelIdeal.Own.mem_ucRefs Cert.KernelIdeal.main_arg6 (by decide))).trans a.2.2.2.2.2.2.1,
       (h c _ (Cert.KernelIdeal.Own.mem_ucRefs Cert.KernelIdeal.main_arg7 (by decide))).trans a.2.2.2.2.2.2.2.1,
       (h c _ (Cert.KernelIdeal.Own.mem_ucRefs Cert.KernelIdeal.main_arg8 (by decide))).trans a.2.2.2.2.2.2.2.2⟩
  · refine (θ_run (Cert.ReferenceIdeal.defs (F := Ideal)) _ _).mono (fun r h c => ⟨(h c).1.trans ?_, (h c).2⟩)
      (Cert.ReferenceIdeal.Value.run (F := Ideal) m' ρ')
    rw [Cert.ReferenceIdeal.Read.val_main_v103_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1, (hagree c).2.2.2.2.2.2.2.2]
    exact (Cert.KernelIdeal.Own.result_meets m c).symm

end Cert.Proof.Parts

end
-- ==== Proof.lean ====
/-
  Two layers of graph convolution (project the node features by a weight matrix; gather each edge's source row, scale it by
  the symmetric degree normalisation, add it into the edge's target row; add a bias; clamp below at 0), then the mean of the
  node rows per graph and a final linear layer.

  The kernel's program does the two projections and the two bias-and-clamp steps in blocked kernels (ten blocks of 10000
  rows each) and the per-graph sums and counts in a kernel that sweeps each half of the rows in five blocks, multiplying a
  one-hot matrix of the graph ids into the feature block and accumulating in scratch buffers; everything between — edge
  lists, degrees, normalisation, gather, scaling, scatter — it does with the same host operations as the reference, on the
  same index arrays.

  At the exact reals: a blocked matrix product is the matrix product; the fused add and maximum are the reference's add and
  maximum; a one-hot-weighted sum over all rows is the reference's scatter-add over graph ids (an id outside 0 … 127
  matches no graph on either side; 0 · x = 0 and 1 · x = x for every extended real x, so no finiteness is needed), and the
  sum over all rows is the sum over the first half plus the sum over the second. So both programs end at one function of
  the arguments (Proof/Meet.lean), the kernel's run being the composition of its five regions and six host stretches
  (Proof/Chain.lean) and the reference's its list of host operations. The idealization rewrote nothing, so the word-level
  program's run is the same composition read at that instance.
-/
import proofs.«408992_j29411936043071_4_alg».proof.Defs
import proofs.«408992_j29411936043071_4_alg».proof.Proof.Gen.Kernel
import proofs.«408992_j29411936043071_4_alg».proof.Proof.Gen.KernelIdeal
import proofs.«408992_j29411936043071_4_alg».proof.Proof.Gen.ReferenceIdeal
import proofs.«408992_j29411936043071_4_alg».proof.Proof.Gen.Pre_finite_inputs
import proofs.«408992_j29411936043071_4_alg».proof.Proof.Assemble
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Parts.frame_k, Parts.frame_ki, Parts.frame_ri, trivial, Parts.algebraic⟩

end Cert.Proof

end
